-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 4096]⟩ ⟨2, ![16384, 4096]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16384, 1024]⟩ ⟨2, ![16384, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S4096x4096 : Shape := ⟨2, ![4096, 4096]⟩
abbrev S16384x1024 : Shape := ⟨2, ![16384, 1024]⟩
abbrev S2x256x4096 : Shape := ⟨3, ![2, 256, 4096]⟩
abbrev S2 : Shape := ⟨1, ![2]⟩
abbrev S16 : Shape := ⟨1, ![16]⟩
abbrev S3x16 : Shape := ⟨2, ![3, 16]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256x1024 : Shape := ⟨2, ![256, 1024]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S16384x1024, .bf16⟩
  | .local _ .vmem, ⟨0, _⟩ => ⟨S2x256x4096, .f32⟩
  | .local _ .vmem, ⟨1, _⟩ => ⟨S4096x4096, .bf16⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  (ofTc nBuf bufTy 1 114 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v43 : BitVec 32 := Scalar.muli v2 c4096_i32
  let v44 : BitVec 32 := Scalar.addi v43 c0_i32_38
  let c0_i32_40 : BitVec 32 := 0#32
  ![v44.toNat, 0]
def k0_off2 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v42 : BitVec 32 := Scalar.muli v2 c1024_i32
  ![0, v42.toNat]
def k0_off3 (d0 : Dev nD) (c2_i32_43 : BitVec 32) : Fin 2 → Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c2_i32_43
  let c4_i32_44 : BitVec 32 := 4#32
  let v50 : BitVec 32 := Scalar.remsi v49 c4_i32_44
  let c1024_i32_45 : BitVec 32 := 1024#32
  let v51 : BitVec 32 := Scalar.muli v50 c1024_i32_45
  ![0, v51.toNat]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v49 : BitVec 32 := Scalar.addi v2 c2_i32_43
  let c4_i32_44 : BitVec 32 := 4#32
  let v50 : BitVec 32 := Scalar.remsi v49 c4_i32_44
  let c1_i32_52 : BitVec 32 := 1#32
  let v54 : BitVec 32 := Scalar.muli v50 c1_i32_52
  let v55 : BitVec 32 := Scalar.addi c0_i32_53 v54
  v55.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v62 : BitVec 32 := Scalar.addi v2 c1_i32_56
  let c4_i32_57 : BitVec 32 := 4#32
  let v63 : BitVec 32 := Scalar.remsi v62 c4_i32_57
  let c1_i32_65 : BitVec 32 := 1#32
  let v67 : BitVec 32 := Scalar.muli v63 c1_i32_65
  let v68 : BitVec 32 := Scalar.addi c0_i32_66 v67
  v68.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v75 : BitVec 32 := Scalar.addi v2 c3_i32_69
  let c4_i32_70 : BitVec 32 := 4#32
  let v76 : BitVec 32 := Scalar.remsi v75 c4_i32_70
  let c1_i32_78 : BitVec 32 := 1#32
  let v80 : BitVec 32 := Scalar.muli v76 c1_i32_78
  let v81 : BitVec 32 := Scalar.addi c0_i32_79 v80
  v81.toNat
def k0_off4 (d0 : Dev nD) : Fin 2 → Nat :=
  let c256_i32_101 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_96 : BitVec 32 := 1024#32
  let v104 : BitVec 32 := Scalar.muli v2 c1024_i32_96
  ![256, v104.toNat]
def k0_off5 (d0 : Dev nD) (c2_i32_102 : BitVec 32) : Fin 2 → Nat :=
  let c256_i32_114 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.addi v2 c2_i32_102
  let c4_i32_103 : BitVec 32 := 4#32
  let v112 : BitVec 32 := Scalar.remsi v111 c4_i32_103
  let c1024_i32_104 : BitVec 32 := 1024#32
  let v113 : BitVec 32 := Scalar.muli v112 c1024_i32_104
  ![256, v113.toNat]
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_102 : BitVec 32 := 2#32
  let v111 : BitVec 32 := Scalar.addi v2 c2_i32_102
  let c4_i32_103 : BitVec 32 := 4#32
  let v112 : BitVec 32 := Scalar.remsi v111 c4_i32_103
  let c1_i32_111 : BitVec 32 := 1#32
  let v116 : BitVec 32 := Scalar.muli v112 c1_i32_111
  let v117 : BitVec 32 := Scalar.addi c0_i32_112 v116
  v117.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v124 : BitVec 32 := Scalar.addi v2 c1_i32_115
  let c4_i32_116 : BitVec 32 := 4#32
  let v125 : BitVec 32 := Scalar.remsi v124 c4_i32_116
  let c1_i32_124 : BitVec 32 := 1#32
  let v129 : BitVec 32 := Scalar.muli v125 c1_i32_124
  let v130 : BitVec 32 := Scalar.addi c0_i32_125 v129
  v130.toNat
def k0_dev9 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_128 : BitVec 32 := 3#32
  let v137 : BitVec 32 := Scalar.addi v2 c3_i32_128
  let c4_i32_129 : BitVec 32 := 4#32
  let v138 : BitVec 32 := Scalar.remsi v137 c4_i32_129
  let c1_i32_137 : BitVec 32 := 1#32
  let v142 : BitVec 32 := Scalar.muli v138 c1_i32_137
  let v143 : BitVec 32 := Scalar.addi c0_i32_138 v142
  v143.toNat
def k0_off6 (d0 : Dev nD) : Fin 2 → Nat :=
  let c512_i32_162 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_157 : BitVec 32 := 1024#32
  let v166 : BitVec 32 := Scalar.muli v2 c1024_i32_157
  ![512, v166.toNat]
def k0_off7 (d0 : Dev nD) (c2_i32_163 : BitVec 32) : Fin 2 → Nat :=
  let c512_i32_175 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v173 : BitVec 32 := Scalar.addi v2 c2_i32_163
  let c4_i32_164 : BitVec 32 := 4#32
  let v174 : BitVec 32 := Scalar.remsi v173 c4_i32_164
  let c1024_i32_165 : BitVec 32 := 1024#32
  let v175 : BitVec 32 := Scalar.muli v174 c1024_i32_165
  ![512, v175.toNat]
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_163 : BitVec 32 := 2#32
  let v173 : BitVec 32 := Scalar.addi v2 c2_i32_163
  let c4_i32_164 : BitVec 32 := 4#32
  let v174 : BitVec 32 := Scalar.remsi v173 c4_i32_164
  let c1_i32_172 : BitVec 32 := 1#32
  let v178 : BitVec 32 := Scalar.muli v174 c1_i32_172
  let v179 : BitVec 32 := Scalar.addi c0_i32_173 v178
  v179.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_176 : BitVec 32 := 1#32
  let v186 : BitVec 32 := Scalar.addi v2 c1_i32_176
  let c4_i32_177 : BitVec 32 := 4#32
  let v187 : BitVec 32 := Scalar.remsi v186 c4_i32_177
  let c1_i32_185 : BitVec 32 := 1#32
  let v191 : BitVec 32 := Scalar.muli v187 c1_i32_185
  let v192 : BitVec 32 := Scalar.addi c0_i32_186 v191
  v192.toNat
def k0_dev12 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_189 : BitVec 32 := 3#32
  let v199 : BitVec 32 := Scalar.addi v2 c3_i32_189
  let c4_i32_190 : BitVec 32 := 4#32
  let v200 : BitVec 32 := Scalar.remsi v199 c4_i32_190
  let c1_i32_198 : BitVec 32 := 1#32
  let v204 : BitVec 32 := Scalar.muli v200 c1_i32_198
  let v205 : BitVec 32 := Scalar.addi c0_i32_199 v204
  v205.toNat
def k0_off8 (d0 : Dev nD) : Fin 2 → Nat :=
  let c768_i32_222 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_217 : BitVec 32 := 1024#32
  let v228 : BitVec 32 := Scalar.muli v2 c1024_i32_217
  ![768, v228.toNat]
def k0_off9 (d0 : Dev nD) (c2_i32_223 : BitVec 32) : Fin 2 → Nat :=
  let c768_i32_235 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v235 : BitVec 32 := Scalar.addi v2 c2_i32_223
  let c4_i32_224 : BitVec 32 := 4#32
  let v236 : BitVec 32 := Scalar.remsi v235 c4_i32_224
  let c1024_i32_225 : BitVec 32 := 1024#32
  let v237 : BitVec 32 := Scalar.muli v236 c1024_i32_225
  ![768, v237.toNat]
def k0_dev13 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_223 : BitVec 32 := 2#32
  let v235 : BitVec 32 := Scalar.addi v2 c2_i32_223
  let c4_i32_224 : BitVec 32 := 4#32
  let v236 : BitVec 32 := Scalar.remsi v235 c4_i32_224
  let c1_i32_232 : BitVec 32 := 1#32
  let v240 : BitVec 32 := Scalar.muli v236 c1_i32_232
  let v241 : BitVec 32 := Scalar.addi c0_i32_233 v240
  v241.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let v248 : BitVec 32 := Scalar.addi v2 c1_i32_236
  let c4_i32_237 : BitVec 32 := 4#32
  let v249 : BitVec 32 := Scalar.remsi v248 c4_i32_237
  let c1_i32_245 : BitVec 32 := 1#32
  let v253 : BitVec 32 := Scalar.muli v249 c1_i32_245
  let v254 : BitVec 32 := Scalar.addi c0_i32_246 v253
  v254.toNat
def k0_dev15 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_249 : BitVec 32 := 3#32
  let v261 : BitVec 32 := Scalar.addi v2 c3_i32_249
  let c4_i32_250 : BitVec 32 := 4#32
  let v262 : BitVec 32 := Scalar.remsi v261 c4_i32_250
  let c1_i32_258 : BitVec 32 := 1#32
  let v266 : BitVec 32 := Scalar.muli v262 c1_i32_258
  let v267 : BitVec 32 := Scalar.addi c0_i32_259 v266
  v267.toNat
def k0_off10 (d0 : Dev nD) : Fin 2 → Nat :=
  let c1024_i32_282 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_277 : BitVec 32 := 1024#32
  let v290 : BitVec 32 := Scalar.muli v2 c1024_i32_277
  ![1024, v290.toNat]
def k0_off11 (d0 : Dev nD) (c2_i32_283 : BitVec 32) : Fin 2 → Nat :=
  let c1024_i32_295 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v297 : BitVec 32 := Scalar.addi v2 c2_i32_283
  let c4_i32_284 : BitVec 32 := 4#32
  let v298 : BitVec 32 := Scalar.remsi v297 c4_i32_284
  let c1024_i32_285 : BitVec 32 := 1024#32
  let v299 : BitVec 32 := Scalar.muli v298 c1024_i32_285
  ![1024, v299.toNat]
def k0_dev16 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_283 : BitVec 32 := 2#32
  let v297 : BitVec 32 := Scalar.addi v2 c2_i32_283
  let c4_i32_284 : BitVec 32 := 4#32
  let v298 : BitVec 32 := Scalar.remsi v297 c4_i32_284
  let c1_i32_292 : BitVec 32 := 1#32
  let v302 : BitVec 32 := Scalar.muli v298 c1_i32_292
  let v303 : BitVec 32 := Scalar.addi c0_i32_293 v302
  v303.toNat
def k0_dev17 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_296 : BitVec 32 := 1#32
  let v310 : BitVec 32 := Scalar.addi v2 c1_i32_296
  let c4_i32_297 : BitVec 32 := 4#32
  let v311 : BitVec 32 := Scalar.remsi v310 c4_i32_297
  let c1_i32_305 : BitVec 32 := 1#32
  let v315 : BitVec 32 := Scalar.muli v311 c1_i32_305
  let v316 : BitVec 32 := Scalar.addi c0_i32_306 v315
  v316.toNat
def k0_dev18 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_309 : BitVec 32 := 3#32
  let v323 : BitVec 32 := Scalar.addi v2 c3_i32_309
  let c4_i32_310 : BitVec 32 := 4#32
  let v324 : BitVec 32 := Scalar.remsi v323 c4_i32_310
  let c1_i32_318 : BitVec 32 := 1#32
  let v328 : BitVec 32 := Scalar.muli v324 c1_i32_318
  let v329 : BitVec 32 := Scalar.addi c0_i32_319 v328
  v329.toNat
def k0_off12 (d0 : Dev nD) : Fin 2 → Nat :=
  let c1280_i32_341 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_337 : BitVec 32 := 1024#32
  let v352 : BitVec 32 := Scalar.muli v2 c1024_i32_337
  ![1280, v352.toNat]
def k0_off13 (d0 : Dev nD) (c2_i32_342 : BitVec 32) : Fin 2 → Nat :=
  let c1280_i32_354 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c2_i32_342
  let c4_i32_343 : BitVec 32 := 4#32
  let v360 : BitVec 32 := Scalar.remsi v359 c4_i32_343
  let c1024_i32_344 : BitVec 32 := 1024#32
  let v361 : BitVec 32 := Scalar.muli v360 c1024_i32_344
  ![1280, v361.toNat]
def k0_dev19 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_342 : BitVec 32 := 2#32
  let v359 : BitVec 32 := Scalar.addi v2 c2_i32_342
  let c4_i32_343 : BitVec 32 := 4#32
  let v360 : BitVec 32 := Scalar.remsi v359 c4_i32_343
  let c1_i32_351 : BitVec 32 := 1#32
  let v364 : BitVec 32 := Scalar.muli v360 c1_i32_351
  let v365 : BitVec 32 := Scalar.addi c0_i32_352 v364
  v365.toNat
def k0_dev20 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_355 : BitVec 32 := 1#32
  let v372 : BitVec 32 := Scalar.addi v2 c1_i32_355
  let c4_i32_356 : BitVec 32 := 4#32
  let v373 : BitVec 32 := Scalar.remsi v372 c4_i32_356
  let c1_i32_364 : BitVec 32 := 1#32
  let v377 : BitVec 32 := Scalar.muli v373 c1_i32_364
  let v378 : BitVec 32 := Scalar.addi c0_i32_365 v377
  v378.toNat
def k0_dev21 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_368 : BitVec 32 := 3#32
  let v385 : BitVec 32 := Scalar.addi v2 c3_i32_368
  let c4_i32_369 : BitVec 32 := 4#32
  let v386 : BitVec 32 := Scalar.remsi v385 c4_i32_369
  let c1_i32_377 : BitVec 32 := 1#32
  let v390 : BitVec 32 := Scalar.muli v386 c1_i32_377
  let v391 : BitVec 32 := Scalar.addi c0_i32_378 v390
  v391.toNat
def k0_off14 (d0 : Dev nD) : Fin 2 → Nat :=
  let c1536_i32_400 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_396 : BitVec 32 := 1024#32
  let v414 : BitVec 32 := Scalar.muli v2 c1024_i32_396
  ![1536, v414.toNat]
def k0_off15 (d0 : Dev nD) (c2_i32_401 : BitVec 32) : Fin 2 → Nat :=
  let c1536_i32_413 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v421 : BitVec 32 := Scalar.addi v2 c2_i32_401
  let c4_i32_402 : BitVec 32 := 4#32
  let v422 : BitVec 32 := Scalar.remsi v421 c4_i32_402
  let c1024_i32_403 : BitVec 32 := 1024#32
  let v423 : BitVec 32 := Scalar.muli v422 c1024_i32_403
  ![1536, v423.toNat]
def k0_dev22 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_401 : BitVec 32 := 2#32
  let v421 : BitVec 32 := Scalar.addi v2 c2_i32_401
  let c4_i32_402 : BitVec 32 := 4#32
  let v422 : BitVec 32 := Scalar.remsi v421 c4_i32_402
  let c1_i32_410 : BitVec 32 := 1#32
  let v426 : BitVec 32 := Scalar.muli v422 c1_i32_410
  let v427 : BitVec 32 := Scalar.addi c0_i32_411 v426
  v427.toNat
def k0_dev23 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_414 : BitVec 32 := 1#32
  let v434 : BitVec 32 := Scalar.addi v2 c1_i32_414
  let c4_i32_415 : BitVec 32 := 4#32
  let v435 : BitVec 32 := Scalar.remsi v434 c4_i32_415
  let c1_i32_423 : BitVec 32 := 1#32
  let v439 : BitVec 32 := Scalar.muli v435 c1_i32_423
  let v440 : BitVec 32 := Scalar.addi c0_i32_424 v439
  v440.toNat
def k0_dev24 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_427 : BitVec 32 := 3#32
  let v447 : BitVec 32 := Scalar.addi v2 c3_i32_427
  let c4_i32_428 : BitVec 32 := 4#32
  let v448 : BitVec 32 := Scalar.remsi v447 c4_i32_428
  let c1_i32_436 : BitVec 32 := 1#32
  let v452 : BitVec 32 := Scalar.muli v448 c1_i32_436
  let v453 : BitVec 32 := Scalar.addi c0_i32_437 v452
  v453.toNat
def k0_off16 (d0 : Dev nD) : Fin 2 → Nat :=
  let c1792_i32_459 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_455 : BitVec 32 := 1024#32
  let v476 : BitVec 32 := Scalar.muli v2 c1024_i32_455
  ![1792, v476.toNat]
def k0_off17 (d0 : Dev nD) (c2_i32_460 : BitVec 32) : Fin 2 → Nat :=
  let c1792_i32_472 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v483 : BitVec 32 := Scalar.addi v2 c2_i32_460
  let c4_i32_461 : BitVec 32 := 4#32
  let v484 : BitVec 32 := Scalar.remsi v483 c4_i32_461
  let c1024_i32_462 : BitVec 32 := 1024#32
  let v485 : BitVec 32 := Scalar.muli v484 c1024_i32_462
  ![1792, v485.toNat]
def k0_dev25 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_460 : BitVec 32 := 2#32
  let v483 : BitVec 32 := Scalar.addi v2 c2_i32_460
  let c4_i32_461 : BitVec 32 := 4#32
  let v484 : BitVec 32 := Scalar.remsi v483 c4_i32_461
  let c1_i32_469 : BitVec 32 := 1#32
  let v488 : BitVec 32 := Scalar.muli v484 c1_i32_469
  let v489 : BitVec 32 := Scalar.addi c0_i32_470 v488
  v489.toNat
def k0_dev26 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_473 : BitVec 32 := 1#32
  let v496 : BitVec 32 := Scalar.addi v2 c1_i32_473
  let c4_i32_474 : BitVec 32 := 4#32
  let v497 : BitVec 32 := Scalar.remsi v496 c4_i32_474
  let c1_i32_482 : BitVec 32 := 1#32
  let v501 : BitVec 32 := Scalar.muli v497 c1_i32_482
  let v502 : BitVec 32 := Scalar.addi c0_i32_483 v501
  v502.toNat
def k0_dev27 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_486 : BitVec 32 := 3#32
  let v509 : BitVec 32 := Scalar.addi v2 c3_i32_486
  let c4_i32_487 : BitVec 32 := 4#32
  let v510 : BitVec 32 := Scalar.remsi v509 c4_i32_487
  let c1_i32_495 : BitVec 32 := 1#32
  let v514 : BitVec 32 := Scalar.muli v510 c1_i32_495
  let v515 : BitVec 32 := Scalar.addi c0_i32_496 v514
  v515.toNat
def k0_off18 (d0 : Dev nD) : Fin 2 → Nat :=
  let c2048_i32_518 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_514 : BitVec 32 := 1024#32
  let v538 : BitVec 32 := Scalar.muli v2 c1024_i32_514
  ![2048, v538.toNat]
def k0_off19 (d0 : Dev nD) (c2_i32_519 : BitVec 32) : Fin 2 → Nat :=
  let c2048_i32_531 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v545 : BitVec 32 := Scalar.addi v2 c2_i32_519
  let c4_i32_520 : BitVec 32 := 4#32
  let v546 : BitVec 32 := Scalar.remsi v545 c4_i32_520
  let c1024_i32_521 : BitVec 32 := 1024#32
  let v547 : BitVec 32 := Scalar.muli v546 c1024_i32_521
  ![2048, v547.toNat]
def k0_dev28 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_519 : BitVec 32 := 2#32
  let v545 : BitVec 32 := Scalar.addi v2 c2_i32_519
  let c4_i32_520 : BitVec 32 := 4#32
  let v546 : BitVec 32 := Scalar.remsi v545 c4_i32_520
  let c1_i32_528 : BitVec 32 := 1#32
  let v550 : BitVec 32 := Scalar.muli v546 c1_i32_528
  let v551 : BitVec 32 := Scalar.addi c0_i32_529 v550
  v551.toNat
def k0_dev29 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_532 : BitVec 32 := 1#32
  let v558 : BitVec 32 := Scalar.addi v2 c1_i32_532
  let c4_i32_533 : BitVec 32 := 4#32
  let v559 : BitVec 32 := Scalar.remsi v558 c4_i32_533
  let c1_i32_541 : BitVec 32 := 1#32
  let v563 : BitVec 32 := Scalar.muli v559 c1_i32_541
  let v564 : BitVec 32 := Scalar.addi c0_i32_542 v563
  v564.toNat
def k0_dev30 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_545 : BitVec 32 := 3#32
  let v571 : BitVec 32 := Scalar.addi v2 c3_i32_545
  let c4_i32_546 : BitVec 32 := 4#32
  let v572 : BitVec 32 := Scalar.remsi v571 c4_i32_546
  let c1_i32_554 : BitVec 32 := 1#32
  let v576 : BitVec 32 := Scalar.muli v572 c1_i32_554
  let v577 : BitVec 32 := Scalar.addi c0_i32_555 v576
  v577.toNat
def k0_off20 (d0 : Dev nD) : Fin 2 → Nat :=
  let c2304_i32_577 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_573 : BitVec 32 := 1024#32
  let v600 : BitVec 32 := Scalar.muli v2 c1024_i32_573
  ![2304, v600.toNat]
def k0_off21 (d0 : Dev nD) (c2_i32_578 : BitVec 32) : Fin 2 → Nat :=
  let c2304_i32_590 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v607 : BitVec 32 := Scalar.addi v2 c2_i32_578
  let c4_i32_579 : BitVec 32 := 4#32
  let v608 : BitVec 32 := Scalar.remsi v607 c4_i32_579
  let c1024_i32_580 : BitVec 32 := 1024#32
  let v609 : BitVec 32 := Scalar.muli v608 c1024_i32_580
  ![2304, v609.toNat]
def k0_dev31 (d0 : Dev nD) : Nat :=
  let c0_i32_588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_578 : BitVec 32 := 2#32
  let v607 : BitVec 32 := Scalar.addi v2 c2_i32_578
  let c4_i32_579 : BitVec 32 := 4#32
  let v608 : BitVec 32 := Scalar.remsi v607 c4_i32_579
  let c1_i32_587 : BitVec 32 := 1#32
  let v612 : BitVec 32 := Scalar.muli v608 c1_i32_587
  let v613 : BitVec 32 := Scalar.addi c0_i32_588 v612
  v613.toNat
def k0_dev32 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_591 : BitVec 32 := 1#32
  let v620 : BitVec 32 := Scalar.addi v2 c1_i32_591
  let c4_i32_592 : BitVec 32 := 4#32
  let v621 : BitVec 32 := Scalar.remsi v620 c4_i32_592
  let c1_i32_600 : BitVec 32 := 1#32
  let v625 : BitVec 32 := Scalar.muli v621 c1_i32_600
  let v626 : BitVec 32 := Scalar.addi c0_i32_601 v625
  v626.toNat
def k0_dev33 (d0 : Dev nD) : Nat :=
  let c0_i32_614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_604 : BitVec 32 := 3#32
  let v633 : BitVec 32 := Scalar.addi v2 c3_i32_604
  let c4_i32_605 : BitVec 32 := 4#32
  let v634 : BitVec 32 := Scalar.remsi v633 c4_i32_605
  let c1_i32_613 : BitVec 32 := 1#32
  let v638 : BitVec 32 := Scalar.muli v634 c1_i32_613
  let v639 : BitVec 32 := Scalar.addi c0_i32_614 v638
  v639.toNat
def k0_off22 (d0 : Dev nD) : Fin 2 → Nat :=
  let c2560_i32_636 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_632 : BitVec 32 := 1024#32
  let v662 : BitVec 32 := Scalar.muli v2 c1024_i32_632
  ![2560, v662.toNat]
def k0_off23 (d0 : Dev nD) (c2_i32_637 : BitVec 32) : Fin 2 → Nat :=
  let c2560_i32_649 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v669 : BitVec 32 := Scalar.addi v2 c2_i32_637
  let c4_i32_638 : BitVec 32 := 4#32
  let v670 : BitVec 32 := Scalar.remsi v669 c4_i32_638
  let c1024_i32_639 : BitVec 32 := 1024#32
  let v671 : BitVec 32 := Scalar.muli v670 c1024_i32_639
  ![2560, v671.toNat]
def k0_dev34 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_637 : BitVec 32 := 2#32
  let v669 : BitVec 32 := Scalar.addi v2 c2_i32_637
  let c4_i32_638 : BitVec 32 := 4#32
  let v670 : BitVec 32 := Scalar.remsi v669 c4_i32_638
  let c1_i32_646 : BitVec 32 := 1#32
  let v674 : BitVec 32 := Scalar.muli v670 c1_i32_646
  let v675 : BitVec 32 := Scalar.addi c0_i32_647 v674
  v675.toNat
def k0_dev35 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_650 : BitVec 32 := 1#32
  let v682 : BitVec 32 := Scalar.addi v2 c1_i32_650
  let c4_i32_651 : BitVec 32 := 4#32
  let v683 : BitVec 32 := Scalar.remsi v682 c4_i32_651
  let c1_i32_659 : BitVec 32 := 1#32
  let v687 : BitVec 32 := Scalar.muli v683 c1_i32_659
  let v688 : BitVec 32 := Scalar.addi c0_i32_660 v687
  v688.toNat
def k0_dev36 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_663 : BitVec 32 := 3#32
  let v695 : BitVec 32 := Scalar.addi v2 c3_i32_663
  let c4_i32_664 : BitVec 32 := 4#32
  let v696 : BitVec 32 := Scalar.remsi v695 c4_i32_664
  let c1_i32_672 : BitVec 32 := 1#32
  let v700 : BitVec 32 := Scalar.muli v696 c1_i32_672
  let v701 : BitVec 32 := Scalar.addi c0_i32_673 v700
  v701.toNat
def k0_off24 (d0 : Dev nD) : Fin 2 → Nat :=
  let c2816_i32_695 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_691 : BitVec 32 := 1024#32
  let v724 : BitVec 32 := Scalar.muli v2 c1024_i32_691
  ![2816, v724.toNat]
def k0_off25 (d0 : Dev nD) (c2_i32_696 : BitVec 32) : Fin 2 → Nat :=
  let c2816_i32_708 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v731 : BitVec 32 := Scalar.addi v2 c2_i32_696
  let c4_i32_697 : BitVec 32 := 4#32
  let v732 : BitVec 32 := Scalar.remsi v731 c4_i32_697
  let c1024_i32_698 : BitVec 32 := 1024#32
  let v733 : BitVec 32 := Scalar.muli v732 c1024_i32_698
  ![2816, v733.toNat]
def k0_dev37 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_696 : BitVec 32 := 2#32
  let v731 : BitVec 32 := Scalar.addi v2 c2_i32_696
  let c4_i32_697 : BitVec 32 := 4#32
  let v732 : BitVec 32 := Scalar.remsi v731 c4_i32_697
  let c1_i32_705 : BitVec 32 := 1#32
  let v736 : BitVec 32 := Scalar.muli v732 c1_i32_705
  let v737 : BitVec 32 := Scalar.addi c0_i32_706 v736
  v737.toNat
def k0_dev38 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_709 : BitVec 32 := 1#32
  let v744 : BitVec 32 := Scalar.addi v2 c1_i32_709
  let c4_i32_710 : BitVec 32 := 4#32
  let v745 : BitVec 32 := Scalar.remsi v744 c4_i32_710
  let c1_i32_718 : BitVec 32 := 1#32
  let v749 : BitVec 32 := Scalar.muli v745 c1_i32_718
  let v750 : BitVec 32 := Scalar.addi c0_i32_719 v749
  v750.toNat
def k0_dev39 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_722 : BitVec 32 := 3#32
  let v757 : BitVec 32 := Scalar.addi v2 c3_i32_722
  let c4_i32_723 : BitVec 32 := 4#32
  let v758 : BitVec 32 := Scalar.remsi v757 c4_i32_723
  let c1_i32_731 : BitVec 32 := 1#32
  let v762 : BitVec 32 := Scalar.muli v758 c1_i32_731
  let v763 : BitVec 32 := Scalar.addi c0_i32_732 v762
  v763.toNat
def k0_off26 (d0 : Dev nD) : Fin 2 → Nat :=
  let c3072_i32_754 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_750 : BitVec 32 := 1024#32
  let v786 : BitVec 32 := Scalar.muli v2 c1024_i32_750
  ![3072, v786.toNat]
def k0_off27 (d0 : Dev nD) (c2_i32_755 : BitVec 32) : Fin 2 → Nat :=
  let c3072_i32_767 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v793 : BitVec 32 := Scalar.addi v2 c2_i32_755
  let c4_i32_756 : BitVec 32 := 4#32
  let v794 : BitVec 32 := Scalar.remsi v793 c4_i32_756
  let c1024_i32_757 : BitVec 32 := 1024#32
  let v795 : BitVec 32 := Scalar.muli v794 c1024_i32_757
  ![3072, v795.toNat]
def k0_dev40 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_755 : BitVec 32 := 2#32
  let v793 : BitVec 32 := Scalar.addi v2 c2_i32_755
  let c4_i32_756 : BitVec 32 := 4#32
  let v794 : BitVec 32 := Scalar.remsi v793 c4_i32_756
  let c1_i32_764 : BitVec 32 := 1#32
  let v798 : BitVec 32 := Scalar.muli v794 c1_i32_764
  let v799 : BitVec 32 := Scalar.addi c0_i32_765 v798
  v799.toNat
def k0_dev41 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_768 : BitVec 32 := 1#32
  let v806 : BitVec 32 := Scalar.addi v2 c1_i32_768
  let c4_i32_769 : BitVec 32 := 4#32
  let v807 : BitVec 32 := Scalar.remsi v806 c4_i32_769
  let c1_i32_777 : BitVec 32 := 1#32
  let v811 : BitVec 32 := Scalar.muli v807 c1_i32_777
  let v812 : BitVec 32 := Scalar.addi c0_i32_778 v811
  v812.toNat
def k0_dev42 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_781 : BitVec 32 := 3#32
  let v819 : BitVec 32 := Scalar.addi v2 c3_i32_781
  let c4_i32_782 : BitVec 32 := 4#32
  let v820 : BitVec 32 := Scalar.remsi v819 c4_i32_782
  let c1_i32_790 : BitVec 32 := 1#32
  let v824 : BitVec 32 := Scalar.muli v820 c1_i32_790
  let v825 : BitVec 32 := Scalar.addi c0_i32_791 v824
  v825.toNat
def k0_off28 (d0 : Dev nD) : Fin 2 → Nat :=
  let c3328_i32_813 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_809 : BitVec 32 := 1024#32
  let v848 : BitVec 32 := Scalar.muli v2 c1024_i32_809
  ![3328, v848.toNat]
def k0_off29 (d0 : Dev nD) (c2_i32_814 : BitVec 32) : Fin 2 → Nat :=
  let c3328_i32_826 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v855 : BitVec 32 := Scalar.addi v2 c2_i32_814
  let c4_i32_815 : BitVec 32 := 4#32
  let v856 : BitVec 32 := Scalar.remsi v855 c4_i32_815
  let c1024_i32_816 : BitVec 32 := 1024#32
  let v857 : BitVec 32 := Scalar.muli v856 c1024_i32_816
  ![3328, v857.toNat]
def k0_dev43 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_814 : BitVec 32 := 2#32
  let v855 : BitVec 32 := Scalar.addi v2 c2_i32_814
  let c4_i32_815 : BitVec 32 := 4#32
  let v856 : BitVec 32 := Scalar.remsi v855 c4_i32_815
  let c1_i32_823 : BitVec 32 := 1#32
  let v860 : BitVec 32 := Scalar.muli v856 c1_i32_823
  let v861 : BitVec 32 := Scalar.addi c0_i32_824 v860
  v861.toNat
def k0_dev44 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_827 : BitVec 32 := 1#32
  let v868 : BitVec 32 := Scalar.addi v2 c1_i32_827
  let c4_i32_828 : BitVec 32 := 4#32
  let v869 : BitVec 32 := Scalar.remsi v868 c4_i32_828
  let c1_i32_836 : BitVec 32 := 1#32
  let v873 : BitVec 32 := Scalar.muli v869 c1_i32_836
  let v874 : BitVec 32 := Scalar.addi c0_i32_837 v873
  v874.toNat
def k0_dev45 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_840 : BitVec 32 := 3#32
  let v881 : BitVec 32 := Scalar.addi v2 c3_i32_840
  let c4_i32_841 : BitVec 32 := 4#32
  let v882 : BitVec 32 := Scalar.remsi v881 c4_i32_841
  let c1_i32_849 : BitVec 32 := 1#32
  let v886 : BitVec 32 := Scalar.muli v882 c1_i32_849
  let v887 : BitVec 32 := Scalar.addi c0_i32_850 v886
  v887.toNat
def k0_off30 (d0 : Dev nD) : Fin 2 → Nat :=
  let c3584_i32_867 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_863 : BitVec 32 := 1024#32
  let v905 : BitVec 32 := Scalar.muli v2 c1024_i32_863
  ![3584, v905.toNat]
def k0_off31 (d0 : Dev nD) (c2_i32_868 : BitVec 32) : Fin 2 → Nat :=
  let c3584_i32_880 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v912 : BitVec 32 := Scalar.addi v2 c2_i32_868
  let c4_i32_869 : BitVec 32 := 4#32
  let v913 : BitVec 32 := Scalar.remsi v912 c4_i32_869
  let c1024_i32_870 : BitVec 32 := 1024#32
  let v914 : BitVec 32 := Scalar.muli v913 c1024_i32_870
  ![3584, v914.toNat]
def k0_dev46 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_868 : BitVec 32 := 2#32
  let v912 : BitVec 32 := Scalar.addi v2 c2_i32_868
  let c4_i32_869 : BitVec 32 := 4#32
  let v913 : BitVec 32 := Scalar.remsi v912 c4_i32_869
  let c1_i32_877 : BitVec 32 := 1#32
  let v917 : BitVec 32 := Scalar.muli v913 c1_i32_877
  let v918 : BitVec 32 := Scalar.addi c0_i32_878 v917
  v918.toNat
def k0_dev47 (d0 : Dev nD) : Nat :=
  let c0_i32_891 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_881 : BitVec 32 := 1#32
  let v925 : BitVec 32 := Scalar.addi v2 c1_i32_881
  let c4_i32_882 : BitVec 32 := 4#32
  let v926 : BitVec 32 := Scalar.remsi v925 c4_i32_882
  let c1_i32_890 : BitVec 32 := 1#32
  let v930 : BitVec 32 := Scalar.muli v926 c1_i32_890
  let v931 : BitVec 32 := Scalar.addi c0_i32_891 v930
  v931.toNat
def k0_dev48 (d0 : Dev nD) : Nat :=
  let c0_i32_904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_894 : BitVec 32 := 3#32
  let v938 : BitVec 32 := Scalar.addi v2 c3_i32_894
  let c4_i32_895 : BitVec 32 := 4#32
  let v939 : BitVec 32 := Scalar.remsi v938 c4_i32_895
  let c1_i32_903 : BitVec 32 := 1#32
  let v943 : BitVec 32 := Scalar.muli v939 c1_i32_903
  let v944 : BitVec 32 := Scalar.addi c0_i32_904 v943
  v944.toNat
def k0_off32 (d0 : Dev nD) : Fin 2 → Nat :=
  let c3840_i32_921 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_917 : BitVec 32 := 1024#32
  let v962 : BitVec 32 := Scalar.muli v2 c1024_i32_917
  ![3840, v962.toNat]
def k0_off33 (d0 : Dev nD) (c2_i32_922 : BitVec 32) : Fin 2 → Nat :=
  let c3840_i32_934 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v969 : BitVec 32 := Scalar.addi v2 c2_i32_922
  let c4_i32_923 : BitVec 32 := 4#32
  let v970 : BitVec 32 := Scalar.remsi v969 c4_i32_923
  let c1024_i32_924 : BitVec 32 := 1024#32
  let v971 : BitVec 32 := Scalar.muli v970 c1024_i32_924
  ![3840, v971.toNat]
def k0_dev49 (d0 : Dev nD) : Nat :=
  let c0_i32_932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_922 : BitVec 32 := 2#32
  let v969 : BitVec 32 := Scalar.addi v2 c2_i32_922
  let c4_i32_923 : BitVec 32 := 4#32
  let v970 : BitVec 32 := Scalar.remsi v969 c4_i32_923
  let c1_i32_931 : BitVec 32 := 1#32
  let v974 : BitVec 32 := Scalar.muli v970 c1_i32_931
  let v975 : BitVec 32 := Scalar.addi c0_i32_932 v974
  v975.toNat
def k0_dev50 (d0 : Dev nD) : Nat :=
  let c0_i32_945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_935 : BitVec 32 := 1#32
  let v982 : BitVec 32 := Scalar.addi v2 c1_i32_935
  let c4_i32_936 : BitVec 32 := 4#32
  let v983 : BitVec 32 := Scalar.remsi v982 c4_i32_936
  let c1_i32_944 : BitVec 32 := 1#32
  let v987 : BitVec 32 := Scalar.muli v983 c1_i32_944
  let v988 : BitVec 32 := Scalar.addi c0_i32_945 v987
  v988.toNat
def k0_dev51 (d0 : Dev nD) : Nat :=
  let c0_i32_958 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_948 : BitVec 32 := 3#32
  let v995 : BitVec 32 := Scalar.addi v2 c3_i32_948
  let c4_i32_949 : BitVec 32 := 4#32
  let v996 : BitVec 32 := Scalar.remsi v995 c4_i32_949
  let c1_i32_957 : BitVec 32 := 1#32
  let v1000 : BitVec 32 := Scalar.muli v996 c1_i32_957
  let v1001 : BitVec 32 := Scalar.addi c0_i32_958 v1000
  v1001.toNat
def k0_off34 (d0 : Dev nD) (c1_i32_1345 : BitVec 32) (c0_i32_1350 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c4096_i32_1349 : BitVec 32 := 4096#32
  let v1268 : BitVec 32 := Scalar.muli v1266 c4096_i32_1349
  let v1269 : BitVec 32 := Scalar.addi v1268 c0_i32_1350
  let c0_i32_1357 : BitVec 32 := 0#32
  ![v1269.toNat, 0]
def k0_off35 (d0 : Dev nD) (c1_i32_1345 : BitVec 32) : Fin 2 → Nat :=
  let c0_i32_1358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1348 : BitVec 32 := 1024#32
  let v1267 : BitVec 32 := Scalar.muli v1266 c1024_i32_1348
  ![0, v1267.toNat]
def k0_off36 (d0 : Dev nD) (c1_i32_1345 : BitVec 32) : Fin 2 → Nat :=
  let c256_i32_1369 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1359 : BitVec 32 := 1024#32
  let v1276 : BitVec 32 := Scalar.muli v1266 c1024_i32_1359
  ![256, v1276.toNat]
def k0_off37 (d0 : Dev nD) (c1_i32_1345 : BitVec 32) : Fin 2 → Nat :=
  let c512_i32_1380 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1370 : BitVec 32 := 1024#32
  let v1285 : BitVec 32 := Scalar.muli v1266 c1024_i32_1370
  ![512, v1285.toNat]
def k0_off38 (d0 : Dev nD) (c1_i32_1345 : BitVec 32) : Fin 2 → Nat :=
  let c768_i32_1391 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1381 : BitVec 32 := 1024#32
  let v1294 : BitVec 32 := Scalar.muli v1266 c1024_i32_1381
  ![768, v1294.toNat]
def k0_off39 (d0 : Dev nD) (c1_i32_1345 : BitVec 32) : Fin 2 → Nat :=
  let c1024_i32_1402 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1392 : BitVec 32 := 1024#32
  let v1303 : BitVec 32 := Scalar.muli v1266 c1024_i32_1392
  ![1024, v1303.toNat]
def k0_off40 (d0 : Dev nD) (c1_i32_1345 : BitVec 32) : Fin 2 → Nat :=
  let c1280_i32_1413 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1403 : BitVec 32 := 1024#32
  let v1312 : BitVec 32 := Scalar.muli v1266 c1024_i32_1403
  ![1280, v1312.toNat]
def k0_off41 (d0 : Dev nD) (c1_i32_1345 : BitVec 32) : Fin 2 → Nat :=
  let c1536_i32_1424 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1414 : BitVec 32 := 1024#32
  let v1321 : BitVec 32 := Scalar.muli v1266 c1024_i32_1414
  ![1536, v1321.toNat]
def k0_off42 (d0 : Dev nD) (c1_i32_1345 : BitVec 32) : Fin 2 → Nat :=
  let c1792_i32_1435 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1425 : BitVec 32 := 1024#32
  let v1330 : BitVec 32 := Scalar.muli v1266 c1024_i32_1425
  ![1792, v1330.toNat]
def k0_off43 (d0 : Dev nD) (c1_i32_1345 : BitVec 32) : Fin 2 → Nat :=
  let c2048_i32_1446 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1436 : BitVec 32 := 1024#32
  let v1339 : BitVec 32 := Scalar.muli v1266 c1024_i32_1436
  ![2048, v1339.toNat]
def k0_off44 (d0 : Dev nD) (c1_i32_1345 : BitVec 32) : Fin 2 → Nat :=
  let c2304_i32_1457 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1447 : BitVec 32 := 1024#32
  let v1348 : BitVec 32 := Scalar.muli v1266 c1024_i32_1447
  ![2304, v1348.toNat]
def k0_off45 (d0 : Dev nD) (c1_i32_1345 : BitVec 32) : Fin 2 → Nat :=
  let c2560_i32_1468 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1458 : BitVec 32 := 1024#32
  let v1357 : BitVec 32 := Scalar.muli v1266 c1024_i32_1458
  ![2560, v1357.toNat]
def k0_off46 (d0 : Dev nD) (c1_i32_1345 : BitVec 32) : Fin 2 → Nat :=
  let c2816_i32_1479 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1469 : BitVec 32 := 1024#32
  let v1366 : BitVec 32 := Scalar.muli v1266 c1024_i32_1469
  ![2816, v1366.toNat]
def k0_off47 (d0 : Dev nD) (c1_i32_1345 : BitVec 32) : Fin 2 → Nat :=
  let c3072_i32_1490 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1480 : BitVec 32 := 1024#32
  let v1375 : BitVec 32 := Scalar.muli v1266 c1024_i32_1480
  ![3072, v1375.toNat]
def k0_off48 (d0 : Dev nD) (c1_i32_1345 : BitVec 32) : Fin 2 → Nat :=
  let c3328_i32_1501 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1491 : BitVec 32 := 1024#32
  let v1384 : BitVec 32 := Scalar.muli v1266 c1024_i32_1491
  ![3328, v1384.toNat]
def k0_off49 (d0 : Dev nD) (c1_i32_1345 : BitVec 32) : Fin 2 → Nat :=
  let c3584_i32_1512 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1502 : BitVec 32 := 1024#32
  let v1393 : BitVec 32 := Scalar.muli v1266 c1024_i32_1502
  ![3584, v1393.toNat]
def k0_off50 (d0 : Dev nD) (c1_i32_1345 : BitVec 32) : Fin 2 → Nat :=
  let c3840_i32_1523 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1264 : BitVec 32 := Scalar.subi v2 c1_i32_1345
  let c4_i32_1346 : BitVec 32 := 4#32
  let v1265 : BitVec 32 := Scalar.addi v1264 c4_i32_1346
  let c4_i32_1347 : BitVec 32 := 4#32
  let v1266 : BitVec 32 := Scalar.remsi v1265 c4_i32_1347
  let c1024_i32_1513 : BitVec 32 := 1024#32
  let v1402 : BitVec 32 := Scalar.muli v1266 c1024_i32_1513
  ![3840, v1402.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x256x4096_S1x256x4096_0_0_0 : ∀ a, (![0, 0, 0] : Fin 3 → Nat) a + S1x256x4096.size a ≤ S2x256x4096.size a
  squeezes_S1x256x4096_S256x4096 : S1x256x4096.Squeezes S256x4096
  inb_S4096x4096_S256x4096_0_0 : ∀ a, (![0, 0] : Fin 2 → Nat) a + S256x4096.size a ≤ S4096x4096.size a
  inb_S2_S1_1 : ∀ a, (![1] : Fin 1 → Nat) a + S1.size a ≤ S2.size a
  inb_S2x256x4096_S1x256x4096_1_0_0 : ∀ a, (![1, 0, 0] : Fin 3 → Nat) a + S1x256x4096.size a ≤ S2x256x4096.size a
  inb_S4096x4096_S256x4096_256_0 : ∀ a, (![256, 0] : Fin 2 → Nat) a + S256x4096.size a ≤ S4096x4096.size a
  h_S1x256x4096 : 0 < S1x256x4096.numel
  shapeCasts_S1x256x4096_S256x4096 : S1x256x4096.ShapeCasts S256x4096
  bitsLt_bf16_f32 : FTy.bits .bf16 < FTy.bits .f32
  h_S256x4096 : 0 < S256x4096.numel
  shapeCasts_S256x4096_S256x4096 : S256x4096.ShapeCasts S256x4096
  packedbf16_S4096x4096_S256x4096_0_0 : (Rect.unit (s := S4096x4096) ![0, 0] S256x4096.size inb_S4096x4096_S256x4096_0_0).PackedRows (EltTy.packing .bf16)
  inb_S4096x4096_S256x4096_512_0 : ∀ a, (![512, 0] : Fin 2 → Nat) a + S256x4096.size a ≤ S4096x4096.size a
  inb_S16_S1_0 : ∀ a, (![0] : Fin 1 → Nat) a + S1.size a ≤ S16.size a
  hamt_3 : (3#32 : BitVec 32).msb = false
  inb_S3x16_S1x1_1_0 : ∀ a, (![1, 0] : Fin 2 → Nat) a + S1x1.size a ≤ S3x16.size a
  squeezes_S1x1_S_ : S1x1.Squeezes S_
  inb_S3x16_S1x1_0_0 : ∀ a, (![0, 0] : Fin 2 → Nat) a + S1x1.size a ≤ S3x16.size a
  inb_S3x16_S1x1_2_0 : ∀ a, (![2, 0] : Fin 2 → Nat) a + S1x1.size a ≤ S3x16.size a
  packedbf16_S4096x4096_S256x4096_256_0 : (Rect.unit (s := S4096x4096) ![256, 0] S256x4096.size inb_S4096x4096_S256x4096_256_0).PackedRows (EltTy.packing .bf16)
  inb_S4096x4096_S256x4096_768_0 : ∀ a, (![768, 0] : Fin 2 → Nat) a + S256x4096.size a ≤ S4096x4096.size a
  inb_S16_S1_1 : ∀ a, (![1] : Fin 1 → Nat) a + S1.size a ≤ S16.size a
  inb_S3x16_S1x1_1_1 : ∀ a, (![1, 1] : Fin 2 → Nat) a + S1x1.size a ≤ S3x16.size a
  inb_S3x16_S1x1_0_1 : ∀ a, (![0, 1] : Fin 2 → Nat) a + S1x1.size a ≤ S3x16.size a
  inb_S3x16_S1x1_2_1 : ∀ a, (![2, 1] : Fin 2 → Nat) a + S1x1.size a ≤ S3x16.size a
  packedbf16_S4096x4096_S256x4096_512_0 : (Rect.unit (s := S4096x4096) ![512, 0] S256x4096.size inb_S4096x4096_S256x4096_512_0).PackedRows (EltTy.packing .bf16)
  inb_S4096x4096_S256x4096_1024_0 : ∀ a, (![1024, 0] : Fin 2 → Nat) a + S256x4096.size a ≤ S4096x4096.size a
  inb_S16_S1_2 : ∀ a, (![2] : Fin 1 → Nat) a + S1.size a ≤ S16.size a
  inb_S3x16_S1x1_1_2 : ∀ a, (![1, 2] : Fin 2 → Nat) a + S1x1.size a ≤ S3x16.size a
  inb_S3x16_S1x1_0_2 : ∀ a, (![0, 2] : Fin 2 → Nat) a + S1x1.size a ≤ S3x16.size a
  inb_S3x16_S1x1_2_2 : ∀ a, (![2, 2] : Fin 2 → Nat) a + S1x1.size a ≤ S3x16.size a
  packedbf16_S4096x4096_S256x4096_768_0 : (Rect.unit (s := S4096x4096) ![768, 0] S256x4096.size inb_S4096x4096_S256x4096_768_0).PackedRows (EltTy.packing .bf16)
  inb_S4096x4096_S256x4096_1280_0 : ∀ a, (![1280, 0] : Fin 2 → Nat) a + S256x4096.size a ≤ S4096x4096.size a
  inb_S16_S1_3 : ∀ a, (![3] : Fin 1 → Nat) a + S1.size a ≤ S16.size a
  inb_S3x16_S1x1_1_3 : ∀ a, (![1, 3] : Fin 2 → Nat) a + S1x1.size a ≤ S3x16.size a
  inb_S3x16_S1x1_0_3 : ∀ a, (![0, 3] : Fin 2 → Nat) a + S1x1.size a ≤ S3x16.size a
  inb_S3x16_S1x1_2_3 : ∀ a, (![2, 3] : Fin 2 → Nat) a + S1x1.size a ≤ S3x16.size a
  packedbf16_S4096x4096_S256x4096_1024_0 : (Rect.unit (s := S4096x4096) ![1024, 0] S256x4096.size inb_S4096x4096_S256x4096_1024_0).PackedRows (EltTy.packing .bf16)
  inb_S4096x4096_S256x4096_1536_0 : ∀ a, (![1536, 0] : Fin 2 → Nat) a + S256x4096.size a ≤ S4096x4096.size a
  inb_S16_S1_4 : ∀ a, (![4] : Fin 1 → Nat) a + S1.size a ≤ S16.size a
  inb_S3x16_S1x1_1_4 : ∀ a, (![1, 4] : Fin 2 → Nat) a + S1x1.size a ≤ S3x16.size a
  inb_S3x16_S1x1_0_4 : ∀ a, (![0, 4] : Fin 2 → Nat) a + S1x1.size a ≤ S3x16.size a
  inb_S3x16_S1x1_2_4 : ∀ a, (![2, 4] : Fin 2 → Nat) a + S1x1.size a ≤ S3x16.size a
  packedbf16_S4096x4096_S256x4096_1280_0 : (Rect.unit (s := S4096x4096) ![1280, 0] S256x4096.size inb_S4096x4096_S256x4096_1280_0).PackedRows (EltTy.packing .bf16)
  inb_S4096x4096_S256x4096_1792_0 : ∀ a, (![1792, 0] : Fin 2 → Nat) a + S256x4096.size a ≤ S4096x4096.size a
  inb_S16_S1_5 : ∀ a, (![5] : Fin 1 → Nat) a + S1.size a ≤ S16.size a
  inb_S3x16_S1x1_1_5 : ∀ a, (![1, 5] : Fin 2 → Nat) a + S1x1.size a ≤ S3x16.size a
  inb_S3x16_S1x1_0_5 : ∀ a, (![0, 5] : Fin 2 → Nat) a + S1x1.size a ≤ S3x16.size a
  inb_S3x16_S1x1_2_5 : ∀ a, (![2, 5] : Fin 2 → Nat) a + S1x1.size a ≤ S3x16.size a
  packedbf16_S4096x4096_S256x4096_1536_0 : (Rect.unit (s := S4096x4096) ![1536, 0] S256x4096.size inb_S4096x4096_S256x4096_1536_0).PackedRows (EltTy.packing .bf16)
  inb_S4096x4096_S256x4096_2048_0 : ∀ a, (![2048, 0] : Fin 2 → Nat) a + S256x4096.size a ≤ S4096x4096.size a
  inb_S16_S1_6 : ∀ a, (![6] : Fin 1 → Nat) a + S1.size a ≤ S16.size a
  inb_S3x16_S1x1_1_6 : ∀ a, (![1, 6] : Fin 2 → Nat) a + S1x1.size a ≤ S3x16.size a
  inb_S3x16_S1x1_0_6 : ∀ a, (![0, 6] : Fin 2 → Nat) a + S1x1.size a ≤ S3x16.size a
  inb_S3x16_S1x1_2_6 : ∀ a, (![2, 6] : Fin 2 → Nat) a + S1x1.size a ≤ S3x16.size a
  packedbf16_S4096x4096_S256x4096_1792_0 : (Rect.unit (s := S4096x4096) ![1792, 0] S256x4096.size inb_S4096x4096_S256x4096_1792_0).PackedRows (EltTy.packing .bf16)
  inb_S4096x4096_S256x4096_2304_0 : ∀ a, (![2304, 0] : Fin 2 → Nat) a + S256x4096.size a ≤ S4096x4096.size a
  inb_S16_S1_7 : ∀ a, (![7] : Fin 1 → Nat) a + S1.size a ≤ S16.size a
  inb_S3x16_S1x1_1_7 : ∀ a, (![1, 7] : Fin 2 → Nat) a + S1x1.size a ≤ S3x16.size a
  inb_S3x16_S1x1_0_7 : ∀ a, (![0, 7] : Fin 2 → Nat) a + S1x1.size a ≤ S3x16.size a
  inb_S3x16_S1x1_2_7 : ∀ a, (![2, 7] : Fin 2 → Nat) a + S1x1.size a ≤ S3x16.size a
  packedbf16_S4096x4096_S256x4096_2048_0 : (Rect.unit (s := S4096x4096) ![2048, 0] S256x4096.size inb_S4096x4096_S256x4096_2048_0).PackedRows (EltTy.packing .bf16)
  inb_S4096x4096_S256x4096_2560_0 : ∀ a, (![2560, 0] : Fin 2 → Nat) a + S256x4096.size a ≤ S4096x4096.size a
  inb_S16_S1_8 : ∀ a, (![8] : Fin 1 → Nat) a + S1.size a ≤ S16.size a
  inb_S3x16_S1x1_1_8 : ∀ a, (![1, 8] : Fin 2 → Nat) a + S1x1.size a ≤ S3x16.size a
  inb_S3x16_S1x1_0_8 : ∀ a, (![0, 8] : Fin 2 → Nat) a + S1x1.size a ≤ S3x16.size a
  inb_S3x16_S1x1_2_8 : ∀ a, (![2, 8] : Fin 2 → Nat) a + S1x1.size a ≤ S3x16.size a
  packedbf16_S4096x4096_S256x4096_2304_0 : (Rect.unit (s := S4096x4096) ![2304, 0] S256x4096.size inb_S4096x4096_S256x4096_2304_0).PackedRows (EltTy.packing .bf16)
  inb_S4096x4096_S256x4096_2816_0 : ∀ a, (![2816, 0] : Fin 2 → Nat) a + S256x4096.size a ≤ S4096x4096.size a
  inb_S16_S1_9 : ∀ a, (![9] : Fin 1 → Nat) a + S1.size a ≤ S16.size a
  inb_S3x16_S1x1_1_9 : ∀ a, (![1, 9] : Fin 2 → Nat) a + S1x1.size a ≤ S3x16.size a
  inb_S3x16_S1x1_0_9 : ∀ a, (![0, 9] : Fin 2 → Nat) a + S1x1.size a ≤ S3x16.size a
  inb_S3x16_S1x1_2_9 : ∀ a, (![2, 9] : Fin 2 → Nat) a + S1x1.size a ≤ S3x16.size a
  packedbf16_S4096x4096_S256x4096_2560_0 : (Rect.unit (s := S4096x4096) ![2560, 0] S256x4096.size inb_S4096x4096_S256x4096_2560_0).PackedRows (EltTy.packing .bf16)
  inb_S4096x4096_S256x4096_3072_0 : ∀ a, (![3072, 0] : Fin 2 → Nat) a + S256x4096.size a ≤ S4096x4096.size a
  inb_S16_S1_10 : ∀ a, (![10] : Fin 1 → Nat) a + S1.size a ≤ S16.size a
  inb_S3x16_S1x1_1_10 : ∀ a, (![1, 10] : Fin 2 → Nat) a + S1x1.size a ≤ S3x16.size a
  inb_S3x16_S1x1_0_10 : ∀ a, (![0, 10] : Fin 2 → Nat) a + S1x1.size a ≤ S3x16.size a
  inb_S3x16_S1x1_2_10 : ∀ a, (![2, 10] : Fin 2 → Nat) a + S1x1.size a ≤ S3x16.size a
  packedbf16_S4096x4096_S256x4096_2816_0 : (Rect.unit (s := S4096x4096) ![2816, 0] S256x4096.size inb_S4096x4096_S256x4096_2816_0).PackedRows (EltTy.packing .bf16)
  inb_S4096x4096_S256x4096_3328_0 : ∀ a, (![3328, 0] : Fin 2 → Nat) a + S256x4096.size a ≤ S4096x4096.size a
  inb_S16_S1_11 : ∀ a, (![11] : Fin 1 → Nat) a + S1.size a ≤ S16.size a
  inb_S3x16_S1x1_1_11 : ∀ a, (![1, 11] : Fin 2 → Nat) a + S1x1.size a ≤ S3x16.size a
  inb_S3x16_S1x1_0_11 : ∀ a, (![0, 11] : Fin 2 → Nat) a + S1x1.size a ≤ S3x16.size a
  inb_S3x16_S1x1_2_11 : ∀ a, (![2, 11] : Fin 2 → Nat) a + S1x1.size a ≤ S3x16.size a
  packedbf16_S4096x4096_S256x4096_3072_0 : (Rect.unit (s := S4096x4096) ![3072, 0] S256x4096.size inb_S4096x4096_S256x4096_3072_0).PackedRows (EltTy.packing .bf16)
  inb_S4096x4096_S256x4096_3584_0 : ∀ a, (![3584, 0] : Fin 2 → Nat) a + S256x4096.size a ≤ S4096x4096.size a
  inb_S16_S1_12 : ∀ a, (![12] : Fin 1 → Nat) a + S1.size a ≤ S16.size a
  inb_S3x16_S1x1_1_12 : ∀ a, (![1, 12] : Fin 2 → Nat) a + S1x1.size a ≤ S3x16.size a
  inb_S3x16_S1x1_0_12 : ∀ a, (![0, 12] : Fin 2 → Nat) a + S1x1.size a ≤ S3x16.size a
  inb_S3x16_S1x1_2_12 : ∀ a, (![2, 12] : Fin 2 → Nat) a + S1x1.size a ≤ S3x16.size a
  packedbf16_S4096x4096_S256x4096_3328_0 : (Rect.unit (s := S4096x4096) ![3328, 0] S256x4096.size inb_S4096x4096_S256x4096_3328_0).PackedRows (EltTy.packing .bf16)
  inb_S4096x4096_S256x4096_3840_0 : ∀ a, (![3840, 0] : Fin 2 → Nat) a + S256x4096.size a ≤ S4096x4096.size a
  inb_S16_S1_13 : ∀ a, (![13] : Fin 1 → Nat) a + S1.size a ≤ S16.size a
  inb_S3x16_S1x1_1_13 : ∀ a, (![1, 13] : Fin 2 → Nat) a + S1x1.size a ≤ S3x16.size a
  inb_S3x16_S1x1_0_13 : ∀ a, (![0, 13] : Fin 2 → Nat) a + S1x1.size a ≤ S3x16.size a
  inb_S3x16_S1x1_2_13 : ∀ a, (![2, 13] : Fin 2 → Nat) a + S1x1.size a ≤ S3x16.size a
  packedbf16_S4096x4096_S256x4096_3584_0 : (Rect.unit (s := S4096x4096) ![3584, 0] S256x4096.size inb_S4096x4096_S256x4096_3584_0).PackedRows (EltTy.packing .bf16)
  inb_S16_S1_14 : ∀ a, (![14] : Fin 1 → Nat) a + S1.size a ≤ S16.size a
  inb_S3x16_S1x1_1_14 : ∀ a, (![1, 14] : Fin 2 → Nat) a + S1x1.size a ≤ S3x16.size a
  inb_S3x16_S1x1_0_14 : ∀ a, (![0, 14] : Fin 2 → Nat) a + S1x1.size a ≤ S3x16.size a
  inb_S3x16_S1x1_2_14 : ∀ a, (![2, 14] : Fin 2 → Nat) a + S1x1.size a ≤ S3x16.size a
  packedbf16_S4096x4096_S256x4096_3840_0 : (Rect.unit (s := S4096x4096) ![3840, 0] S256x4096.size inb_S4096x4096_S256x4096_3840_0).PackedRows (EltTy.packing .bf16)
  inb_S16_S1_15 : ∀ a, (![15] : Fin 1 → Nat) a + S1.size a ≤ S16.size a
  inb_S3x16_S1x1_1_15 : ∀ a, (![1, 15] : Fin 2 → Nat) a + S1x1.size a ≤ S3x16.size a
  inb_S3x16_S1x1_0_15 : ∀ a, (![0, 15] : Fin 2 → Nat) a + S1x1.size a ≤ S3x16.size a
  inb_S3x16_S1x1_2_15 : ∀ a, (![2, 15] : Fin 2 → Nat) a + S1x1.size a ≤ S3x16.size a
  hcc0_scratch2 : 0 + S2.numel ≤ 114
  hcc0_scratch3 : 2 + S16.numel ≤ 114
  hcc0_scratch4 : 18 + S3x16.numel ≤ 114
  hcc0_scratch5 : 66 + S3x16.numel ≤ 114
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 16), ∀ a, (k0_off1 d0 (BitVec.ofNat 32 (256 * r.val))) a + S256x1024.size a ≤ S16384x1024.size a
  k0_off2_inb : ∀ d0 : Dev nD, ∀ a, (k0_off2 d0) a + S256x1024.size a ≤ S4096x4096.size a
  k0_off2_wordsbf16 : ∀ d0 : Dev nD, (Rect.unit (s := S4096x4096) (k0_off2 d0) S256x1024.size (k0_off2_inb d0)).WholeWords (EltTy.packing .bf16)
  k0_off1_wordsbf16 : ∀ d0 : Dev nD, ∀ (r : Fin 16), (Rect.unit (s := S16384x1024) (k0_off1 d0 (BitVec.ofNat 32 (256 * r.val))) S256x1024.size (k0_off1_inb d0 r)).WholeWords (EltTy.packing .bf16)
  k0_off3_inb : ∀ d0 : Dev nD, ∀ (r : Fin 3), ∀ a, (k0_off3 d0 (BitVec.ofNat 32 (1 + r.val))) a + S256x1024.size a ≤ S4096x4096.size a
  k0_off3_wordsbf16 : ∀ d0 : Dev nD, ∀ (r : Fin 3), (Rect.unit (s := S4096x4096) (k0_off3 d0 (BitVec.ofNat 32 (1 + r.val))) S256x1024.size (k0_off3_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ a, (k0_off4 d0) a + S256x1024.size a ≤ S4096x4096.size a
  k0_off4_wordsbf16 : ∀ d0 : Dev nD, (Rect.unit (s := S4096x4096) (k0_off4 d0) S256x1024.size (k0_off4_inb d0)).WholeWords (EltTy.packing .bf16)
  k0_off5_inb : ∀ d0 : Dev nD, ∀ (r : Fin 3), ∀ a, (k0_off5 d0 (BitVec.ofNat 32 (1 + r.val))) a + S256x1024.size a ≤ S4096x4096.size a
  k0_off5_wordsbf16 : ∀ d0 : Dev nD, ∀ (r : Fin 3), (Rect.unit (s := S4096x4096) (k0_off5 d0 (BitVec.ofNat 32 (1 + r.val))) S256x1024.size (k0_off5_inb d0 r)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off6_inb : ∀ d0 : Dev nD, ∀ a, (k0_off6 d0) a + S256x1024.size a ≤ S4096x4096.size a
  k0_off6_wordsbf16 : ∀ d0 : Dev nD, (Rect.unit (s := S4096x4096) (k0_off6 d0) S256x1024.size (k0_off6_inb d0)).WholeWords (EltTy.packing .bf16)
  k0_off7_inb : ∀ d0 : Dev nD, ∀ (r : Fin 3), ∀ a, (k0_off7 d0 (BitVec.ofNat 32 (1 + r.val))) a + S256x1024.size a ≤ S4096x4096.size a
  k0_off7_wordsbf16 : ∀ d0 : Dev nD, ∀ (r : Fin 3), (Rect.unit (s := S4096x4096) (k0_off7 d0 (BitVec.ofNat 32 (1 + r.val))) S256x1024.size (k0_off7_inb d0 r)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off8_inb : ∀ d0 : Dev nD, ∀ a, (k0_off8 d0) a + S256x1024.size a ≤ S4096x4096.size a
  k0_off8_wordsbf16 : ∀ d0 : Dev nD, (Rect.unit (s := S4096x4096) (k0_off8 d0) S256x1024.size (k0_off8_inb d0)).WholeWords (EltTy.packing .bf16)
  k0_off9_inb : ∀ d0 : Dev nD, ∀ (r : Fin 3), ∀ a, (k0_off9 d0 (BitVec.ofNat 32 (1 + r.val))) a + S256x1024.size a ≤ S4096x4096.size a
  k0_off9_wordsbf16 : ∀ d0 : Dev nD, ∀ (r : Fin 3), (Rect.unit (s := S4096x4096) (k0_off9 d0 (BitVec.ofNat 32 (1 + r.val))) S256x1024.size (k0_off9_inb d0 r)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off10_inb : ∀ d0 : Dev nD, ∀ a, (k0_off10 d0) a + S256x1024.size a ≤ S4096x4096.size a
  k0_off10_wordsbf16 : ∀ d0 : Dev nD, (Rect.unit (s := S4096x4096) (k0_off10 d0) S256x1024.size (k0_off10_inb d0)).WholeWords (EltTy.packing .bf16)
  k0_off11_inb : ∀ d0 : Dev nD, ∀ (r : Fin 3), ∀ a, (k0_off11 d0 (BitVec.ofNat 32 (1 + r.val))) a + S256x1024.size a ≤ S4096x4096.size a
  k0_off11_wordsbf16 : ∀ d0 : Dev nD, ∀ (r : Fin 3), (Rect.unit (s := S4096x4096) (k0_off11 d0 (BitVec.ofNat 32 (1 + r.val))) S256x1024.size (k0_off11_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off12_inb : ∀ d0 : Dev nD, ∀ a, (k0_off12 d0) a + S256x1024.size a ≤ S4096x4096.size a
  k0_off12_wordsbf16 : ∀ d0 : Dev nD, (Rect.unit (s := S4096x4096) (k0_off12 d0) S256x1024.size (k0_off12_inb d0)).WholeWords (EltTy.packing .bf16)
  k0_off13_inb : ∀ d0 : Dev nD, ∀ (r : Fin 3), ∀ a, (k0_off13 d0 (BitVec.ofNat 32 (1 + r.val))) a + S256x1024.size a ≤ S4096x4096.size a
  k0_off13_wordsbf16 : ∀ d0 : Dev nD, ∀ (r : Fin 3), (Rect.unit (s := S4096x4096) (k0_off13 d0 (BitVec.ofNat 32 (1 + r.val))) S256x1024.size (k0_off13_inb d0 r)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off14_inb : ∀ d0 : Dev nD, ∀ a, (k0_off14 d0) a + S256x1024.size a ≤ S4096x4096.size a
  k0_off14_wordsbf16 : ∀ d0 : Dev nD, (Rect.unit (s := S4096x4096) (k0_off14 d0) S256x1024.size (k0_off14_inb d0)).WholeWords (EltTy.packing .bf16)
  k0_off15_inb : ∀ d0 : Dev nD, ∀ (r : Fin 3), ∀ a, (k0_off15 d0 (BitVec.ofNat 32 (1 + r.val))) a + S256x1024.size a ≤ S4096x4096.size a
  k0_off15_wordsbf16 : ∀ d0 : Dev nD, ∀ (r : Fin 3), (Rect.unit (s := S4096x4096) (k0_off15 d0 (BitVec.ofNat 32 (1 + r.val))) S256x1024.size (k0_off15_inb d0 r)).WholeWords (EltTy.packing .bf16)
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off16_inb : ∀ d0 : Dev nD, ∀ a, (k0_off16 d0) a + S256x1024.size a ≤ S4096x4096.size a
  k0_off16_wordsbf16 : ∀ d0 : Dev nD, (Rect.unit (s := S4096x4096) (k0_off16 d0) S256x1024.size (k0_off16_inb d0)).WholeWords (EltTy.packing .bf16)
  k0_off17_inb : ∀ d0 : Dev nD, ∀ (r : Fin 3), ∀ a, (k0_off17 d0 (BitVec.ofNat 32 (1 + r.val))) a + S256x1024.size a ≤ S4096x4096.size a
  k0_off17_wordsbf16 : ∀ d0 : Dev nD, ∀ (r : Fin 3), (Rect.unit (s := S4096x4096) (k0_off17 d0 (BitVec.ofNat 32 (1 + r.val))) S256x1024.size (k0_off17_inb d0 r)).WholeWords (EltTy.packing .bf16)
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off18_inb : ∀ d0 : Dev nD, ∀ a, (k0_off18 d0) a + S256x1024.size a ≤ S4096x4096.size a
  k0_off18_wordsbf16 : ∀ d0 : Dev nD, (Rect.unit (s := S4096x4096) (k0_off18 d0) S256x1024.size (k0_off18_inb d0)).WholeWords (EltTy.packing .bf16)
  k0_off19_inb : ∀ d0 : Dev nD, ∀ (r : Fin 3), ∀ a, (k0_off19 d0 (BitVec.ofNat 32 (1 + r.val))) a + S256x1024.size a ≤ S4096x4096.size a
  k0_off19_wordsbf16 : ∀ d0 : Dev nD, ∀ (r : Fin 3), (Rect.unit (s := S4096x4096) (k0_off19 d0 (BitVec.ofNat 32 (1 + r.val))) S256x1024.size (k0_off19_inb d0 r)).WholeWords (EltTy.packing .bf16)
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off20_inb : ∀ d0 : Dev nD, ∀ a, (k0_off20 d0) a + S256x1024.size a ≤ S4096x4096.size a
  k0_off20_wordsbf16 : ∀ d0 : Dev nD, (Rect.unit (s := S4096x4096) (k0_off20 d0) S256x1024.size (k0_off20_inb d0)).WholeWords (EltTy.packing .bf16)
  k0_off21_inb : ∀ d0 : Dev nD, ∀ (r : Fin 3), ∀ a, (k0_off21 d0 (BitVec.ofNat 32 (1 + r.val))) a + S256x1024.size a ≤ S4096x4096.size a
  k0_off21_wordsbf16 : ∀ d0 : Dev nD, ∀ (r : Fin 3), (Rect.unit (s := S4096x4096) (k0_off21 d0 (BitVec.ofNat 32 (1 + r.val))) S256x1024.size (k0_off21_inb d0 r)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_off22_inb : ∀ d0 : Dev nD, ∀ a, (k0_off22 d0) a + S256x1024.size a ≤ S4096x4096.size a
  k0_off22_wordsbf16 : ∀ d0 : Dev nD, (Rect.unit (s := S4096x4096) (k0_off22 d0) S256x1024.size (k0_off22_inb d0)).WholeWords (EltTy.packing .bf16)
  k0_off23_inb : ∀ d0 : Dev nD, ∀ (r : Fin 3), ∀ a, (k0_off23 d0 (BitVec.ofNat 32 (1 + r.val))) a + S256x1024.size a ≤ S4096x4096.size a
  k0_off23_wordsbf16 : ∀ d0 : Dev nD, ∀ (r : Fin 3), (Rect.unit (s := S4096x4096) (k0_off23 d0 (BitVec.ofNat 32 (1 + r.val))) S256x1024.size (k0_off23_inb d0 r)).WholeWords (EltTy.packing .bf16)
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_off24_inb : ∀ d0 : Dev nD, ∀ a, (k0_off24 d0) a + S256x1024.size a ≤ S4096x4096.size a
  k0_off24_wordsbf16 : ∀ d0 : Dev nD, (Rect.unit (s := S4096x4096) (k0_off24 d0) S256x1024.size (k0_off24_inb d0)).WholeWords (EltTy.packing .bf16)
  k0_off25_inb : ∀ d0 : Dev nD, ∀ (r : Fin 3), ∀ a, (k0_off25 d0 (BitVec.ofNat 32 (1 + r.val))) a + S256x1024.size a ≤ S4096x4096.size a
  k0_off25_wordsbf16 : ∀ d0 : Dev nD, ∀ (r : Fin 3), (Rect.unit (s := S4096x4096) (k0_off25 d0 (BitVec.ofNat 32 (1 + r.val))) S256x1024.size (k0_off25_inb d0 r)).WholeWords (EltTy.packing .bf16)
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_off26_inb : ∀ d0 : Dev nD, ∀ a, (k0_off26 d0) a + S256x1024.size a ≤ S4096x4096.size a
  k0_off26_wordsbf16 : ∀ d0 : Dev nD, (Rect.unit (s := S4096x4096) (k0_off26 d0) S256x1024.size (k0_off26_inb d0)).WholeWords (EltTy.packing .bf16)
  k0_off27_inb : ∀ d0 : Dev nD, ∀ (r : Fin 3), ∀ a, (k0_off27 d0 (BitVec.ofNat 32 (1 + r.val))) a + S256x1024.size a ≤ S4096x4096.size a
  k0_off27_wordsbf16 : ∀ d0 : Dev nD, ∀ (r : Fin 3), (Rect.unit (s := S4096x4096) (k0_off27 d0 (BitVec.ofNat 32 (1 + r.val))) S256x1024.size (k0_off27_inb d0 r)).WholeWords (EltTy.packing .bf16)
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off28_inb : ∀ d0 : Dev nD, ∀ a, (k0_off28 d0) a + S256x1024.size a ≤ S4096x4096.size a
  k0_off28_wordsbf16 : ∀ d0 : Dev nD, (Rect.unit (s := S4096x4096) (k0_off28 d0) S256x1024.size (k0_off28_inb d0)).WholeWords (EltTy.packing .bf16)
  k0_off29_inb : ∀ d0 : Dev nD, ∀ (r : Fin 3), ∀ a, (k0_off29 d0 (BitVec.ofNat 32 (1 + r.val))) a + S256x1024.size a ≤ S4096x4096.size a
  k0_off29_wordsbf16 : ∀ d0 : Dev nD, ∀ (r : Fin 3), (Rect.unit (s := S4096x4096) (k0_off29 d0 (BitVec.ofNat 32 (1 + r.val))) S256x1024.size (k0_off29_inb d0 r)).WholeWords (EltTy.packing .bf16)
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_off30_inb : ∀ d0 : Dev nD, ∀ a, (k0_off30 d0) a + S256x1024.size a ≤ S4096x4096.size a
  k0_off30_wordsbf16 : ∀ d0 : Dev nD, (Rect.unit (s := S4096x4096) (k0_off30 d0) S256x1024.size (k0_off30_inb d0)).WholeWords (EltTy.packing .bf16)
  k0_off31_inb : ∀ d0 : Dev nD, ∀ (r : Fin 3), ∀ a, (k0_off31 d0 (BitVec.ofNat 32 (1 + r.val))) a + S256x1024.size a ≤ S4096x4096.size a
  k0_off31_wordsbf16 : ∀ d0 : Dev nD, ∀ (r : Fin 3), (Rect.unit (s := S4096x4096) (k0_off31 d0 (BitVec.ofNat 32 (1 + r.val))) S256x1024.size (k0_off31_inb d0 r)).WholeWords (EltTy.packing .bf16)
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_off32_inb : ∀ d0 : Dev nD, ∀ a, (k0_off32 d0) a + S256x1024.size a ≤ S4096x4096.size a
  k0_off32_wordsbf16 : ∀ d0 : Dev nD, (Rect.unit (s := S4096x4096) (k0_off32 d0) S256x1024.size (k0_off32_inb d0)).WholeWords (EltTy.packing .bf16)
  k0_off33_inb : ∀ d0 : Dev nD, ∀ (r : Fin 3), ∀ a, (k0_off33 d0 (BitVec.ofNat 32 (1 + r.val))) a + S256x1024.size a ≤ S4096x4096.size a
  k0_off33_wordsbf16 : ∀ d0 : Dev nD, ∀ (r : Fin 3), (Rect.unit (s := S4096x4096) (k0_off33 d0 (BitVec.ofNat 32 (1 + r.val))) S256x1024.size (k0_off33_inb d0 r)).WholeWords (EltTy.packing .bf16)
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off34_inb : ∀ d0 : Dev nD, ∀ (r₁ : Fin 3) (r₂ : Fin 16), ∀ a, (k0_off34 d0 (BitVec.ofNat 32 (1 + r₁.val)) (BitVec.ofNat 32 (256 * r₂.val))) a + S256x1024.size a ≤ S16384x1024.size a
  k0_off35_inb : ∀ d0 : Dev nD, ∀ (r : Fin 3), ∀ a, (k0_off35 d0 (BitVec.ofNat 32 (1 + r.val))) a + S256x1024.size a ≤ S4096x4096.size a
  k0_off35_wordsbf16 : ∀ d0 : Dev nD, ∀ (r : Fin 3), (Rect.unit (s := S4096x4096) (k0_off35 d0 (BitVec.ofNat 32 (1 + r.val))) S256x1024.size (k0_off35_inb d0 r)).WholeWords (EltTy.packing .bf16)
  k0_off34_wordsbf16 : ∀ d0 : Dev nD, ∀ (r₁ : Fin 3) (r₂ : Fin 16), (Rect.unit (s := S16384x1024) (k0_off34 d0 (BitVec.ofNat 32 (1 + r₁.val)) (BitVec.ofNat 32 (256 * r₂.val))) S256x1024.size (k0_off34_inb d0 r₁ r₂)).WholeWords (EltTy.packing .bf16)
  k0_off36_inb : ∀ d0 : Dev nD, ∀ (r : Fin 3), ∀ a, (k0_off36 d0 (BitVec.ofNat 32 (1 + r.val))) a + S256x1024.size a ≤ S4096x4096.size a
  k0_off36_wordsbf16 : ∀ d0 : Dev nD, ∀ (r : Fin 3), (Rect.unit (s := S4096x4096) (k0_off36 d0 (BitVec.ofNat 32 (1 + r.val))) S256x1024.size (k0_off36_inb d0 r)).WholeWords (EltTy.packing .bf16)
  k0_off37_inb : ∀ d0 : Dev nD, ∀ (r : Fin 3), ∀ a, (k0_off37 d0 (BitVec.ofNat 32 (1 + r.val))) a + S256x1024.size a ≤ S4096x4096.size a
  k0_off37_wordsbf16 : ∀ d0 : Dev nD, ∀ (r : Fin 3), (Rect.unit (s := S4096x4096) (k0_off37 d0 (BitVec.ofNat 32 (1 + r.val))) S256x1024.size (k0_off37_inb d0 r)).WholeWords (EltTy.packing .bf16)
  k0_off38_inb : ∀ d0 : Dev nD, ∀ (r : Fin 3), ∀ a, (k0_off38 d0 (BitVec.ofNat 32 (1 + r.val))) a + S256x1024.size a ≤ S4096x4096.size a
  k0_off38_wordsbf16 : ∀ d0 : Dev nD, ∀ (r : Fin 3), (Rect.unit (s := S4096x4096) (k0_off38 d0 (BitVec.ofNat 32 (1 + r.val))) S256x1024.size (k0_off38_inb d0 r)).WholeWords (EltTy.packing .bf16)
  k0_off39_inb : ∀ d0 : Dev nD, ∀ (r : Fin 3), ∀ a, (k0_off39 d0 (BitVec.ofNat 32 (1 + r.val))) a + S256x1024.size a ≤ S4096x4096.size a
  k0_off39_wordsbf16 : ∀ d0 : Dev nD, ∀ (r : Fin 3), (Rect.unit (s := S4096x4096) (k0_off39 d0 (BitVec.ofNat 32 (1 + r.val))) S256x1024.size (k0_off39_inb d0 r)).WholeWords (EltTy.packing .bf16)
  k0_off40_inb : ∀ d0 : Dev nD, ∀ (r : Fin 3), ∀ a, (k0_off40 d0 (BitVec.ofNat 32 (1 + r.val))) a + S256x1024.size a ≤ S4096x4096.size a
  k0_off40_wordsbf16 : ∀ d0 : Dev nD, ∀ (r : Fin 3), (Rect.unit (s := S4096x4096) (k0_off40 d0 (BitVec.ofNat 32 (1 + r.val))) S256x1024.size (k0_off40_inb d0 r)).WholeWords (EltTy.packing .bf16)
  k0_off41_inb : ∀ d0 : Dev nD, ∀ (r : Fin 3), ∀ a, (k0_off41 d0 (BitVec.ofNat 32 (1 + r.val))) a + S256x1024.size a ≤ S4096x4096.size a
  k0_off41_wordsbf16 : ∀ d0 : Dev nD, ∀ (r : Fin 3), (Rect.unit (s := S4096x4096) (k0_off41 d0 (BitVec.ofNat 32 (1 + r.val))) S256x1024.size (k0_off41_inb d0 r)).WholeWords (EltTy.packing .bf16)
  k0_off42_inb : ∀ d0 : Dev nD, ∀ (r : Fin 3), ∀ a, (k0_off42 d0 (BitVec.ofNat 32 (1 + r.val))) a + S256x1024.size a ≤ S4096x4096.size a
  k0_off42_wordsbf16 : ∀ d0 : Dev nD, ∀ (r : Fin 3), (Rect.unit (s := S4096x4096) (k0_off42 d0 (BitVec.ofNat 32 (1 + r.val))) S256x1024.size (k0_off42_inb d0 r)).WholeWords (EltTy.packing .bf16)
  k0_off43_inb : ∀ d0 : Dev nD, ∀ (r : Fin 3), ∀ a, (k0_off43 d0 (BitVec.ofNat 32 (1 + r.val))) a + S256x1024.size a ≤ S4096x4096.size a
  k0_off43_wordsbf16 : ∀ d0 : Dev nD, ∀ (r : Fin 3), (Rect.unit (s := S4096x4096) (k0_off43 d0 (BitVec.ofNat 32 (1 + r.val))) S256x1024.size (k0_off43_inb d0 r)).WholeWords (EltTy.packing .bf16)
  k0_off44_inb : ∀ d0 : Dev nD, ∀ (r : Fin 3), ∀ a, (k0_off44 d0 (BitVec.ofNat 32 (1 + r.val))) a + S256x1024.size a ≤ S4096x4096.size a
  k0_off44_wordsbf16 : ∀ d0 : Dev nD, ∀ (r : Fin 3), (Rect.unit (s := S4096x4096) (k0_off44 d0 (BitVec.ofNat 32 (1 + r.val))) S256x1024.size (k0_off44_inb d0 r)).WholeWords (EltTy.packing .bf16)
  k0_off45_inb : ∀ d0 : Dev nD, ∀ (r : Fin 3), ∀ a, (k0_off45 d0 (BitVec.ofNat 32 (1 + r.val))) a + S256x1024.size a ≤ S4096x4096.size a
  k0_off45_wordsbf16 : ∀ d0 : Dev nD, ∀ (r : Fin 3), (Rect.unit (s := S4096x4096) (k0_off45 d0 (BitVec.ofNat 32 (1 + r.val))) S256x1024.size (k0_off45_inb d0 r)).WholeWords (EltTy.packing .bf16)
  k0_off46_inb : ∀ d0 : Dev nD, ∀ (r : Fin 3), ∀ a, (k0_off46 d0 (BitVec.ofNat 32 (1 + r.val))) a + S256x1024.size a ≤ S4096x4096.size a
  k0_off46_wordsbf16 : ∀ d0 : Dev nD, ∀ (r : Fin 3), (Rect.unit (s := S4096x4096) (k0_off46 d0 (BitVec.ofNat 32 (1 + r.val))) S256x1024.size (k0_off46_inb d0 r)).WholeWords (EltTy.packing .bf16)
  k0_off47_inb : ∀ d0 : Dev nD, ∀ (r : Fin 3), ∀ a, (k0_off47 d0 (BitVec.ofNat 32 (1 + r.val))) a + S256x1024.size a ≤ S4096x4096.size a
  k0_off47_wordsbf16 : ∀ d0 : Dev nD, ∀ (r : Fin 3), (Rect.unit (s := S4096x4096) (k0_off47 d0 (BitVec.ofNat 32 (1 + r.val))) S256x1024.size (k0_off47_inb d0 r)).WholeWords (EltTy.packing .bf16)
  k0_off48_inb : ∀ d0 : Dev nD, ∀ (r : Fin 3), ∀ a, (k0_off48 d0 (BitVec.ofNat 32 (1 + r.val))) a + S256x1024.size a ≤ S4096x4096.size a
  k0_off48_wordsbf16 : ∀ d0 : Dev nD, ∀ (r : Fin 3), (Rect.unit (s := S4096x4096) (k0_off48 d0 (BitVec.ofNat 32 (1 + r.val))) S256x1024.size (k0_off48_inb d0 r)).WholeWords (EltTy.packing .bf16)
  k0_off49_inb : ∀ d0 : Dev nD, ∀ (r : Fin 3), ∀ a, (k0_off49 d0 (BitVec.ofNat 32 (1 + r.val))) a + S256x1024.size a ≤ S4096x4096.size a
  k0_off49_wordsbf16 : ∀ d0 : Dev nD, ∀ (r : Fin 3), (Rect.unit (s := S4096x4096) (k0_off49 d0 (BitVec.ofNat 32 (1 + r.val))) S256x1024.size (k0_off49_inb d0 r)).WholeWords (EltTy.packing .bf16)
  k0_off50_inb : ∀ d0 : Dev nD, ∀ (r : Fin 3), ∀ a, (k0_off50 d0 (BitVec.ofNat 32 (1 + r.val))) a + S256x1024.size a ≤ S4096x4096.size a
  k0_off50_wordsbf16 : ∀ d0 : Dev nD, ∀ (r : Fin 3), (Rect.unit (s := S4096x4096) (k0_off50 d0 (BitVec.ofNat 32 (1 + r.val))) S256x1024.size (k0_off50_inb d0 r)).WholeWords (EltTy.packing .bf16)

variable [Facts₀]

abbrev cc0_scratch2 : DmaSems sig S2 := SemArray.consecutive 0 S2 hcc0_scratch2
abbrev cc0_scratch3 : DmaSems sig S16 := SemArray.consecutive 2 S16 hcc0_scratch3
abbrev cc0_scratch4 : DmaSems sig S3x16 := SemArray.consecutive 18 S3x16 hcc0_scratch4
abbrev cc0_scratch5 : DmaSems sig S3x16 := SemArray.consecutive 66 S3x16 hcc0_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Pieces.lean ====
/-
  The all-to-all's protocol, per device: which semaphore cells there are, what each unit landing on a cell
  hands its owner, what each device owes at launch, and the levels that order the waits.

  Device `c` holds rows `4096·c … 4096·c + 4095` of `x`. It rounds them to bf16 chunk by chunk (sixteen chunks of
  256 rows) into a scratch array, and sends column block `t` of every chunk to device `t`, where it lands in rows
  `4096·c + 256·k …` of `t`'s result; column block `c` it copies into its own result. Before its first send a
  device waits until all three peers have signalled its barrier semaphore: a peer's signal hands over the rows of
  the peer's result that this device will write.
-/
import proofs.«900006_g7700000000000007_dist_a2a_v7x_i4_i_m4096_n1024_bf16_1_alg».proof.Proof.Gen.KernelIdeal
import proofs.«900006_g7700000000000007_dist_a2a_v7x_i4_i_m4096_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The device `j + 1` places after `c` on the ring of four. -/
def pr (c : Dev nD) (j : Fin 3) : Dev nD := ⟨(c.val + j.val + 1) % 4, Nat.mod_lt _ (by decide)⟩
/-- The device `j + 1` places before `c`: the one whose `pr · j` is `c`. -/
def qr (c : Dev nD) (j : Fin 3) : Dev nD := ⟨(c.val + 3 - j.val) % 4, Nat.mod_lt _ (by decide)⟩
/-- Seen from `pr c j`, device `c` is `3 - j` places after it. -/
def opp (j : Fin 3) : Fin 3 := ⟨2 - j.val, by omega⟩

theorem pr_qr (c : Dev nD) (j : Fin 3) : pr (qr c j) j = c := by revert c j; decide
theorem qr_pr (c : Dev nD) (j : Fin 3) : qr (pr c j) j = c := by revert c j; decide
theorem pr_opp (c : Dev nD) (j : Fin 3) : pr (pr c j) (opp j) = c := by revert c j; decide
theorem qr_eq_pr_opp (c : Dev nD) (j : Fin 3) : qr c j = pr c (opp j) := by revert c j; decide
theorem pr_ne (c : Dev nD) (j : Fin 3) : pr c j ≠ c := by revert c j; decide
theorem pr_inj (c : Dev nD) : Function.Injective (pr c) := by revert c; decide

/-! ## The semaphores -/

/-- The runtime's barrier semaphore of collective id 0. -/
abbrev barS : Sem sig := (SemArray.scalar (sig.barrier 0 rfl) : Sems sig S_).sem

theorem inb2 (i : Fin 2) : ∀ a, (![i.val] : Fin 1 → Nat) a + S1.size a ≤ S2.size a := by revert i; decide
theorem inb16 (k : Fin 16) : ∀ a, (![k.val] : Fin 1 → Nat) a + S1.size a ≤ S16.size a := by revert k; decide
theorem inb3x16 (j : Fin 3) (k : Fin 16) : ∀ a, (![j.val, k.val] : Fin 2 → Nat) a + S1x1.size a ≤ S3x16.size a := by
  revert j k; decide

/-- The semaphore of staging slot `i` (the chunk copies `x → staging` of chunks `i, i + 2, …`). -/
def cpS (i : Fin 2) : DmaSem sig := ((cc0_scratch2.slice (Rect.unit (s := S2) ![i.val] S1.size (inb2 i))).squeeze S_ squeezes_S1_S_).sem
/-- The semaphore of chunk `k`'s copy into the device's own result. -/
def lcS (k : Fin 16) : DmaSem sig := ((cc0_scratch3.slice (Rect.unit (s := S16) ![k.val] S1.size (inb16 k))).squeeze S_ squeezes_S1_S_).sem
/-- The send semaphore of chunk `k`'s transfer to the peer `j + 1` places on. -/
def sdS (j : Fin 3) (k : Fin 16) : DmaSem sig := ((cc0_scratch4.slice (Rect.unit (s := S3x16) ![j.val, k.val] S1x1.size (inb3x16 j k))).squeeze S_ squeezes_S1x1_S_).sem
/-- The receive semaphore of chunk `k` arriving from the peer `j + 1` places back. -/
def rvS (j : Fin 3) (k : Fin 16) : DmaSem sig := ((cc0_scratch5.slice (Rect.unit (s := S3x16) ![j.val, k.val] S1x1.size (inb3x16 j k))).squeeze S_ squeezes_S1x1_S_).sem

theorem cpS_val (i : Fin 2) : (cpS i).val = i.val := by revert i; decide
theorem lcS_val (k : Fin 16) : (lcS k).val = 2 + k.val := by revert k; decide
theorem sdS_val (j : Fin 3) (k : Fin 16) : (sdS j k).val = 18 + 16 * j.val + k.val := by revert j k; decide
theorem rvS_val (j : Fin 3) (k : Fin 16) : (rvS j k).val = 66 + 16 * j.val + k.val := by revert j k; decide

/-! ## The arrays and their pieces -/

abbrev xM : Memref sig .tc .hbm S4096x4096 .f32 := Memref.whole main_arg0
abbrev oM : Memref sig .tc .hbm S16384x1024 .bf16 := Memref.whole main_v1
abbrev fM : Memref sig .tc .vmem S2x256x4096 .f32 := Memref.whole cc0_scratch0
abbrev bM : Memref sig .tc .vmem S4096x4096 .bf16 := Memref.whole cc0_scratch1

/-- A block of 256 rows of the device's part of `x`, at row and column offsets `off`. -/
abbrev xSl (off : Fin 2 → Nat) (h : ∀ a, off a + S256x4096.size a ≤ S4096x4096.size a) : Memref sig .tc .hbm S256x4096 .f32 :=
  xM.slice (Rect.unit (s := S4096x4096) off S256x4096.size h) (fun _ => rfl)
/-- One of the two staging slots. -/
abbrev fSl (off : Fin 3 → Nat) (h : ∀ a, off a + S1x256x4096.size a ≤ S2x256x4096.size a) : Memref sig .tc .vmem S256x4096 .f32 :=
  (fM.slice (Rect.unit (s := S2x256x4096) off S1x256x4096.size h) (fun _ => rfl)).squeeze S256x4096 squeezes_S1x256x4096_S256x4096
/-- A 256 × 1024 piece of the rounded array. -/
abbrev bSl (off : Fin 2 → Nat) (h : ∀ a, off a + S256x1024.size a ≤ S4096x4096.size a) : Memref sig .tc .vmem S256x1024 .bf16 :=
  bM.slice (Rect.unit (s := S4096x4096) off S256x1024.size h) (fun _ => rfl)
/-- 256 rows of the result. -/
abbrev oSl (off : Fin 2 → Nat) (h : ∀ a, off a + S256x1024.size a ≤ S16384x1024.size a) : Memref sig .tc .hbm S256x1024 .bf16 :=
  oM.slice (Rect.unit (s := S16384x1024) off S256x1024.size h) (fun _ => rfl)

def xOff (k : Fin 16) : Fin 2 → Nat := ![256 * k.val, 0]
def fOff (i : Fin 2) : Fin 3 → Nat := ![i.val, 0, 0]
def bOff (k : Fin 16) (t : Dev nD) : Fin 2 → Nat := ![256 * k.val, 1024 * t.val]
def oOff (s : Dev nD) (k : Fin 16) : Fin 2 → Nat := ![4096 * s.val + 256 * k.val, 0]

theorem xOff_inb (k : Fin 16) : ∀ a, xOff k a + S256x4096.size a ≤ S4096x4096.size a := by revert k; decide
theorem fOff_inb (i : Fin 2) : ∀ a, fOff i a + S1x256x4096.size a ≤ S2x256x4096.size a := by revert i; decide
theorem bOff_inb (k : Fin 16) (t : Dev nD) : ∀ a, bOff k t a + S256x1024.size a ≤ S4096x4096.size a := by revert k t; decide
theorem oOff_inb (s : Dev nD) (k : Fin 16) : ∀ a, oOff s k a + S256x1024.size a ≤ S16384x1024.size a := by revert s k; decide
theorem rOff_inb (k : Fin 16) : ∀ a, xOff k a + S256x4096.size a ≤ S4096x4096.size a := xOff_inb k

/-- Chunk `k` of the device's part of `x`: rows `256 k …`. -/
abbrev xCk (k : Fin 16) : Memref sig .tc .hbm S256x4096 .f32 := xSl (xOff k) (xOff_inb k)
/-- Staging slot `i`. -/
abbrev fSt (i : Fin 2) : Memref sig .tc .vmem S256x4096 .f32 := fSl (fOff i) (fOff_inb i)
/-- Rows `256 k …`, columns `1024 t …` of the rounded array: what goes to device `t` of chunk `k`. -/
abbrev bPc (k : Fin 16) (t : Dev nD) : Memref sig .tc .vmem S256x1024 .bf16 := bSl (bOff k t) (bOff_inb k t)
/-- Rows `4096 s + 256 k …` of the result: where chunk `k` of device `s` lands. -/
abbrev oCk (s : Dev nD) (k : Fin 16) : Memref sig .tc .hbm S256x1024 .bf16 := oSl (oOff s k) (oOff_inb s k)

/-- The rectangle of chunk `k`'s rows in the rounded array (all 4096 columns): what the store of chunk `k` writes. -/
abbrev bRows (k : Fin 16) : Rect S4096x4096 := Rect.unit (s := S4096x4096) (xOff k) S256x4096.size (xOff_inb k)
/-- The rectangle of staging slot `i`, as the load reads it. -/
abbrev fRect (i : Fin 2) : Rect S2x256x4096 := Rect.unit (s := S2x256x4096) (fOff i) S1x256x4096.size (fOff_inb i)

/-- The slot chunk `k` is staged in. -/
def slot (k : Fin 16) : Fin 2 := ⟨k.val % 2, Nat.mod_lt _ (by decide)⟩

/-! ## What the buffers hold -/

variable (m : (ℓ : Loc nD τ sig) → Buf (Elt F) ℓ)

/-- Device `c`'s part of `x`. -/
def Xc (c : Dev nD) : Buf (Elt F) ((c : Thread nD τ).loc main_arg0) := m ((c : Thread nD τ).loc main_arg0)

/-- The staging buffer once chunk `k` has landed in its slot (elsewhere as it was at launch). -/
def FB (c : Dev nD) (k : Fin 16) : Buf (Elt F) ((c : Thread nD τ).loc cc0_scratch0) :=
  (fSt (slot k)).view.write (Elt F) (m ((c : Thread nD τ).loc cc0_scratch0)) ((xCk k).view.read (Elt F) (Xc m c)) Finset.univ

/-- What the load of chunk `k`'s slot reads. -/
def ld (c : Dev nD) (k : Fin 16) : Vec F S1x256x4096 .f32 :=
  (fM : Memref sig .tc .vmem S2x256x4096 .f32).view.readAt (Elt F) (fRect (slot k)).toLoadRect (FB m c k)

/-- A staged chunk rounded to bf16, as the body computes it. -/
def pay (v : Vec F S1x256x4096 .f32) : FVec F S256x4096 .bf16 :=
  shapeCast S256x4096 (truncf .bf16 (shapeCast S256x4096 v shapeCasts_S1x256x4096_S256x4096) bitsLt_bf16_f32) shapeCasts_S256x4096_S256x4096

/-- The rounded array once chunk `k` is stored (other rows as at launch). -/
def BB (c : Dev nD) (k : Fin 16) : Buf (Elt F) ((c : Thread nD τ).loc cc0_scratch1) :=
  ((bM : Memref sig .tc .vmem S4096x4096 .bf16).access (bRows k)).write (Elt F) (m ((c : Thread nD τ).loc cc0_scratch1)) (pay (ld m c k)) Finset.univ

/-- Device `t`'s result once chunk `k` of device `s` has landed (other rows as at launch). -/
def OC (t s : Dev nD) (k : Fin 16) : Buf (Elt F) ((t : Thread nD τ).loc main_v1) :=
  (oCk s k).view.write (Elt F) (m ((t : Thread nD τ).loc main_v1)) ((bPc k t).view.read (Elt F) (BB m s k)) Finset.univ

/-- Device `t`'s result at the end: on the rows of chunk `k` of device `s`, what that chunk's transfer wrote. -/
def outF (t : Dev nD) : Buf (Elt F) ((t : Thread nD τ).loc main_v1) := fun i =>
  OC m t ⟨(i 0).val / 4096, by have h : (i 0).val < 16384 := (i 0).isLt; show _ < 4; omega⟩ ⟨((i 0).val % 4096) / 256, by omega⟩ i

/-! ## The cells -/

abbrev barCell (c : Dev nD) : GSem nD τ sig := ((c : Thread nD τ), .reg barS)
abbrev cpCell (c : Dev nD) (i : Fin 2) : GSem nD τ sig := ((c : Thread nD τ), .dma (cpS i))
abbrev lcCell (c : Dev nD) (k : Fin 16) : GSem nD τ sig := ((c : Thread nD τ), .dma (lcS k))
abbrev sdCell (c : Dev nD) (j : Fin 3) (k : Fin 16) : GSem nD τ sig := ((c : Thread nD τ), .dma (sdS j k))
abbrev rvCell (c : Dev nD) (j : Fin 3) (k : Fin 16) : GSem nD τ sig := ((c : Thread nD τ), .dma (rvS j k))

/-- The credit of a chunk landing in a staging slot, and of a 256 × 1024 piece landing in a result. -/
abbrev NF : ℕ := (fSt 0 : Memref sig .tc .vmem S256x4096 .f32).view.dmaCredit
abbrev NO : ℕ := (oCk 0 0 : Memref sig .tc .hbm S256x1024 .bf16).view.dmaCredit
theorem NF_pos : 0 < NF := View.dmaCredit_pos _ (by decide)
theorem NO_pos : 0 < NO := View.dmaCredit_pos _ (by decide)

/-! ## What each landing hands over -/

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev bL (c : Dev nD) : Loc nD τ sig := (c : Thread nD τ).loc cc0_scratch1

/-- Chunk `k` staged: its slot holding the chunk, and the chunk's rows of `x` back. -/
def cpPay (c : Dev nD) (k : Fin 16) : sProp 𝕄 :=
  iprop((fL c ↦[(fSt (slot k)).view.set]{fullShare} FB m c k) ∗ (xL c ↦[(xCk k).view.set]{fullShare} Xc m c))
/-- Chunk `k`'s own column block copied into the device's own result, and the piece back. -/
def lcPay (c : Dev nD) (k : Fin 16) : sProp 𝕄 :=
  iprop((oL c ↦[(oCk c k).view.set]{fullShare} OC m c c k) ∗ (bL c ↦[(bPc k c).view.set]{fullShare} BB m c k))
/-- A sent piece read out: the piece back. -/
def sdPay (c : Dev nD) (j : Fin 3) (k : Fin 16) : sProp 𝕄 :=
  (bL c ↦[(bPc k (pr c j)).view.set]{fullShare} BB m c k)
/-- Chunk `k` of the peer `j + 1` places back has landed in this device's result. -/
def rvPay (c : Dev nD) (j : Fin 3) (k : Fin 16) : sProp 𝕄 :=
  (oL c ↦[(oCk (qr c j) k).view.set]{fullShare} OC m c (qr c j) k)
/-- The peer `j + 1` places back is in the kernel: it hands over the rows of ITS result that this device writes. -/
def barPay (c : Dev nD) (j : Fin 3) : sProp 𝕄 :=
  bigSep (Finset.univ : Finset (Fin 16)) fun k => iprop(∃ f : Buf (Elt F) (oL (qr c j)), oL (qr c j) ↦[(oCk c k).view.set]{fullShare} f)

/-- The chunk staged by round `r` of slot `i`'s semaphore. -/
def ckOf (i : Fin 2) (r : ℕ) : Fin 16 := ⟨(2 * r + i.val) % 16, Nat.mod_lt _ (by decide)⟩

/-- The schedule. A staging semaphore has eight rounds of one duty (a chunk landing); every other DMA semaphore one
    round of one duty; the barrier semaphore one round of three duties of a unit, one per peer. -/
def sched : Rounds.Schedule (GSem nD τ sig) (Fin 3) 𝕄 where
  duties g r := match g.2 with
    | .reg s => if g.1.2 = .tc ∧ s = barS ∧ r = 0 then Finset.univ else ∅
    | .dma s => if g.1.2 = .tc ∧ ((s.val < 2 ∧ r < 8) ∨ (2 ≤ s.val ∧ r = 0)) then {0} else ∅
  unitless _ := False
  amount g _ _ := match g.2 with
    | .reg _ => 1
    | .dma s => if s.val < 2 then NF else NO
  payload g r d := match g.2 with
    | .reg _ => barPay g.1.1 d
    | .dma s =>
      if h : s.val < 2 then cpPay m g.1.1 (ckOf ⟨s.val, h⟩ r)
      else if h₁ : s.val < 18 then lcPay m g.1.1 ⟨s.val - 2, by omega⟩
      else if h₂ : s.val < 66 then sdPay m g.1.1 ⟨(s.val - 18) / 16, by omega⟩ ⟨(s.val - 18) % 16, Nat.mod_lt _ (by decide)⟩
      else rvPay m g.1.1 ⟨(s.val - 66) / 16, by have h114 : s.val < 114 := s.isLt; omega⟩ ⟨(s.val - 66) % 16, Nat.mod_lt _ (by decide)⟩
  amount_pos g _ _ _ := by
    rcases g with ⟨th, (s | s)⟩
    · exact Nat.one_pos
    · dsimp only; split
      · exact NF_pos
      · exact NO_pos

instance sched_payload_storable (g : GSem nD τ sig) (r : ℕ) (d : Fin 3) :
    BI.Storable (upEmb : UEmb _ 𝕄) ((sched (F := F) m).payload g r d) := by
  rcases g with ⟨th, (s | s)⟩
  · show BI.Storable upEmb (barPay th.1 d); unfold barPay; infer_instance
  · dsimp only [sched]; unfold cpPay lcPay sdPay rvPay
    (repeat' split) <;> infer_instance

end Cert.KernelIdeal.A2A

end
-- ==== Proof.Ghost.lean ====
/-
  The protocol's tables, what each device owes at launch in the order it pays, the levels that order the waits,
  and what a device's body starts from and ends with.
-/
import proofs.«900006_g7700000000000007_dist_a2a_v7x_i4_i_m4096_n1024_bf16_1_alg».proof.Proof.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Tables
variable (c : Dev nD)

theorem duties_bar : (sched (F := F) m).duties (barCell c) 0 = Finset.univ := by
  dsimp only [sched]; exact if_pos ⟨rfl, rfl, rfl⟩
theorem duties_cp (i : Fin 2) (r : ℕ) (hr : r < 8) : (sched (F := F) m).duties (cpCell c i) r = {0} := by
  dsimp only [sched]; exact if_pos ⟨rfl, Or.inl ⟨by rw [cpS_val]; exact i.isLt, hr⟩⟩
theorem duties_lc (k : Fin 16) : (sched (F := F) m).duties (lcCell c k) 0 = {0} := by
  dsimp only [sched]; exact if_pos ⟨rfl, Or.inr ⟨by rw [lcS_val]; omega, rfl⟩⟩
theorem duties_sd (j : Fin 3) (k : Fin 16) : (sched (F := F) m).duties (sdCell c j k) 0 = {0} := by
  dsimp only [sched]; exact if_pos ⟨rfl, Or.inr ⟨by rw [sdS_val]; omega, rfl⟩⟩
theorem duties_rv (j : Fin 3) (k : Fin 16) : (sched (F := F) m).duties (rvCell c j k) 0 = {0} := by
  dsimp only [sched]; exact if_pos ⟨rfl, Or.inr ⟨by rw [rvS_val]; omega, rfl⟩⟩

/-- Past its last round a cell has no duties: round 8 on for a staging semaphore, round 1 on for every other. -/
theorem duties_later_cp (i : Fin 2) : ∀ r, 8 ≤ r → (sched (F := F) m).duties (cpCell c i) r = ∅ := fun r hr => by
  dsimp only [sched]; exact if_neg fun h => by
    rcases h.2 with h' | h'
    · omega
    · have := cpS_val i; have := i.isLt; omega
theorem duties_later_dma (s : DmaSem sig) (hs : 2 ≤ s.val) : ∀ r, 1 ≤ r → (sched (F := F) m).duties ((c : Thread nD τ), .dma s) r = ∅ := fun r hr => by
  dsimp only [sched]; exact if_neg fun h => by
    rcases h.2 with h' | h' <;> omega

theorem amount_bar (d : Fin 3) : (sched (F := F) m).amount (barCell c) 0 d = 1 := rfl
theorem amount_cp (i : Fin 2) (r : ℕ) (d : Fin 3) : (sched (F := F) m).amount (cpCell c i) r d = NF := by
  dsimp only [sched]; exact if_pos (by rw [cpS_val]; exact i.isLt)
theorem amount_lc (k : Fin 16) (d : Fin 3) : (sched (F := F) m).amount (lcCell c k) 0 d = NO := by
  dsimp only [sched]; exact if_neg (by rw [lcS_val]; omega)
theorem amount_sd (j : Fin 3) (k : Fin 16) (d : Fin 3) : (sched (F := F) m).amount (sdCell c j k) 0 d = NO := by
  dsimp only [sched]; exact if_neg (by rw [sdS_val]; omega)
theorem amount_rv (j : Fin 3) (k : Fin 16) (d : Fin 3) : (sched (F := F) m).amount (rvCell c j k) 0 d = NO := by
  dsimp only [sched]; exact if_neg (by rw [rvS_val]; omega)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_cp (i : Fin 2) (r : ℕ) (hr : r < 8) : (sched (F := F) m).expect (cpCell c i) r = NF := by
  unfold Schedule.expect Schedule.amountOf; rw [duties_cp m c i r hr, Finset.sum_singleton, amount_cp]
theorem expect_lc (k : Fin 16) : (sched (F := F) m).expect (lcCell c k) 0 = NO := by
  unfold Schedule.expect Schedule.amountOf; rw [duties_lc, Finset.sum_singleton, amount_lc]
theorem expect_sd (j : Fin 3) (k : Fin 16) : (sched (F := F) m).expect (sdCell c j k) 0 = NO := by
  unfold Schedule.expect Schedule.amountOf; rw [duties_sd, Finset.sum_singleton, amount_sd]
theorem expect_rv (j : Fin 3) (k : Fin 16) : (sched (F := F) m).expect (rvCell c j k) 0 = NO := by
  unfold Schedule.expect Schedule.amountOf; rw [duties_rv, Finset.sum_singleton, amount_rv]

theorem payload_bar (d : Fin 3) : (sched (F := F) m).payload (barCell c) 0 d = barPay c d := rfl
theorem payload_cp (i : Fin 2) (r : ℕ) (d : Fin 3) : (sched (F := F) m).payload (cpCell c i) r d = cpPay m c (ckOf i r) := by
  have h : (cpS i).val < 2 := by rw [cpS_val]; exact i.isLt
  show (if h : (cpS i).val < 2 then cpPay m c (ckOf ⟨(cpS i).val, h⟩ r) else _) = _
  rw [dif_pos h]
  exact congrArg (fun x => cpPay m c (ckOf x r)) (Fin.ext (cpS_val i))
theorem payload_lc (k : Fin 16) (d : Fin 3) : (sched (F := F) m).payload (lcCell c k) 0 d = lcPay m c k := by
  have h0 : ¬ (lcS k).val < 2 := by rw [lcS_val]; omega
  have h1 : (lcS k).val < 18 := by rw [lcS_val]; omega
  show (if h : (lcS k).val < 2 then _ else if h₁ : (lcS k).val < 18 then lcPay m c ⟨(lcS k).val - 2, _⟩ else _) = _
  rw [dif_neg h0, dif_pos h1]
  exact congrArg (fun x => lcPay m c x) (Fin.ext (by show (lcS k).val - 2 = k.val; rw [lcS_val]; omega))
theorem payload_sd (j : Fin 3) (k : Fin 16) (d : Fin 3) : (sched (F := F) m).payload (sdCell c j k) 0 d = sdPay m c j k := by
  have h0 : ¬ (sdS j k).val < 2 := by rw [sdS_val]; omega
  have h1 : ¬ (sdS j k).val < 18 := by rw [sdS_val]; omega
  have h2 : (sdS j k).val < 66 := by rw [sdS_val]; omega
  show (if h : (sdS j k).val < 2 then _ else if h₁ : (sdS j k).val < 18 then _ else if h₂ : (sdS j k).val < 66 then
    sdPay m c ⟨((sdS j k).val - 18) / 16, _⟩ ⟨((sdS j k).val - 18) % 16, _⟩ else _) = _
  rw [dif_neg h0, dif_neg h1, dif_pos h2]
  have e1 : (⟨((sdS j k).val - 18) / 16, by omega⟩ : Fin 3) = j := Fin.ext (by show ((sdS j k).val - 18) / 16 = j.val; rw [sdS_val]; omega)
  have e2 : (⟨((sdS j k).val - 18) % 16, Nat.mod_lt _ (by decide)⟩ : Fin 16) = k := Fin.ext (by show ((sdS j k).val - 18) % 16 = k.val; rw [sdS_val]; omega)
  rw [e1, e2]
theorem payload_rv (j : Fin 3) (k : Fin 16) (d : Fin 3) : (sched (F := F) m).payload (rvCell c j k) 0 d = rvPay m c j k := by
  have h0 : ¬ (rvS j k).val < 2 := by rw [rvS_val]; omega
  have h1 : ¬ (rvS j k).val < 18 := by rw [rvS_val]; omega
  have h2 : ¬ (rvS j k).val < 66 := by rw [rvS_val]; omega
  show (if h : (rvS j k).val < 2 then _ else if h₁ : (rvS j k).val < 18 then _ else if h₂ : (rvS j k).val < 66 then _ else
    rvPay m c ⟨((rvS j k).val - 66) / 16, _⟩ ⟨((rvS j k).val - 66) % 16, _⟩) = _
  rw [dif_neg h0, dif_neg h1, dif_neg h2]
  have e1 : (⟨((rvS j k).val - 66) / 16, by have := (rvS j k).isLt; have : (rvS j k).val < 114 := this; omega⟩ : Fin 3) = j :=
    Fin.ext (by show ((rvS j k).val - 66) / 16 = j.val; rw [rvS_val]; omega)
  have e2 : (⟨((rvS j k).val - 66) % 16, Nat.mod_lt _ (by decide)⟩ : Fin 16) = k := Fin.ext (by show ((rvS j k).val - 66) % 16 = k.val; rw [rvS_val]; omega)
  rw [e1, e2]

end Tables

/-! ## What a device owes, in the order it pays -/

/-- The order of a chunk's three sends: to the peer two places on, then one, then three. -/
def ordJ (o : ℕ) : Fin 3 := if o % 3 = 0 then 1 else if o % 3 = 1 then 0 else 2

/-- Device `c`'s `n`-th payment: a unit to each peer's barrier cell (one, two, three places on), then, chunk by
    chunk, the three arrivals. -/
def payTally (c : Dev nD) (n : ℕ) : CellTallies nD τ sig Unit :=
  if n < 3 then tallyAt (barCell (pr c ⟨n % 3, Nat.mod_lt _ (by decide)⟩)) () 1
  else tallyAt (rvCell (pr c (ordJ (n - 3))) (ordJ (n - 3)) ⟨((n - 3) / 3) % 16, Nat.mod_lt _ (by decide)⟩) () NO

/-- What is still owed before payment `n`, `f` payments being left: summed so that payment `n` is the last summand. -/
def owedFrom (c : Dev nD) : ℕ → ℕ → CellTallies nD τ sig Unit
  | 0, _ => 0
  | f + 1, n => owedFrom c f (n + 1) + payTally c n

def O₀ (c : Dev nD) : CellTallies nD τ sig Unit := owedFrom c 51 0

theorem owedFrom_succ (c : Dev nD) (f n : ℕ) : owedFrom c (f + 1) n = owedFrom c f (n + 1) + payTally c n := rfl

theorem payTally_bar (c : Dev nD) (j : Fin 3) : payTally c j.val = tallyAt (barCell (pr c j)) () 1 := by
  unfold payTally; rw [if_pos j.isLt]
  exact congrArg (fun x => tallyAt (barCell (pr c x)) () 1) (Fin.ext (Nat.mod_eq_of_lt j.isLt))

theorem payTally_rv (c : Dev nD) (k : Fin 16) (o : Fin 3) :
    payTally c (3 + 3 * k.val + o.val) = tallyAt (rvCell (pr c (ordJ o.val)) (ordJ o.val) k) () NO := by
  unfold payTally; rw [if_neg (by omega)]
  have e1 : ordJ (3 + 3 * k.val + o.val - 3) = ordJ o.val := by
    unfold ordJ; have : (3 + 3 * k.val + o.val - 3) % 3 = o.val % 3 := by omega
    rw [this]
  have e2 : (⟨((3 + 3 * k.val + o.val - 3) / 3) % 16, Nat.mod_lt _ (by decide)⟩ : Fin 16) = k :=
    Fin.ext (by show ((3 + 3 * k.val + o.val - 3) / 3) % 16 = k.val; have := k.isLt; have := o.isLt; omega)
  rw [e1, e2]

/-! ## The levels: barrier cells above the local ones, receive cells above the barrier cells -/

def L (g : GSem nD τ sig) : Finset Unit := if g.1.2 = .tc then {()} else ∅
def lv (g : GSem nD τ sig) (_ : Unit) : ℕ := match g.2 with
  | .reg _ => 1
  | .dma s => if 66 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rv (t : Dev nD) (j : Fin 3) (k : Fin 16) : lv (rvCell t j k) () = 2 := by
  show (if 66 ≤ (rvS j k).val then 2 else 0) = 2; rw [if_pos (by rw [rvS_val]; omega)]

/-- From the fourth payment on a device owes receive cells only. -/
theorem owedFrom_pos (c : Dev nD) : ∀ (f n : ℕ), 3 ≤ n → ∀ {g : GSem nD τ sig} {u : Unit}, 0 < owedFrom c f n g u →
    ∃ t j k, g = rvCell t j k
  | 0, _, _, _, _, h => absurd h (Nat.lt_irrefl 0)
  | f + 1, n, hn, g, u, h => by
    rw [owedFrom_succ, Pi.add_apply, Finsupp.add_apply] at h
    rcases Nat.add_pos_iff_pos_or_pos.mp h with h' | h'
    · exact owedFrom_pos c f (n + 1) (by omega) h'
    · unfold payTally at h'
      rw [if_neg (by omega), tallyAt_apply] at h'
      by_cases hg : g = rvCell (pr c (ordJ (n - 3))) (ordJ (n - 3)) ⟨((n - 3) / 3) % 16, Nat.mod_lt _ (by decide)⟩ ∧ u = ()
      · exact ⟨_, _, _, hg.1⟩
      · rw [if_neg hg] at h'; exact absurd h' (Nat.lt_irrefl 0)

/-- A wait on one of its own cells that is no receive cell, while the device owes receive cells only. -/
theorem mayWait_low (c : Dev nD) (sm : SemLoc sig) (hsm : lv ((c : Thread nD τ), sm) () ≤ 1) (f n : ℕ) (hn : 3 ≤ n) :
    (levAts L lv : sProp 𝕄) ⊢ MayWait (c : Thread nD τ) sm () (owedFrom c f n) :=
  MayOwe.of_cut (L := L) (lev := lv) 1 (fun p hp => by rw [Finset.mem_singleton.mp hp, L_tc]; exact Finset.mem_singleton_self _)
    (fun g u hg => by obtain ⟨t, j, k, rfl⟩ := owedFrom_pos c f n hn hg; exact Finset.mem_singleton_self _)
    (fun p hp => by rw [Finset.mem_singleton.mp hp]; exact hsm)
    (fun g u hg => by obtain ⟨t, j, k, rfl⟩ := owedFrom_pos c f n hn hg; rw [lv_rv]; decide)

/-! ## The cells of a device, numbered: its 114 DMA semaphores, then the barrier semaphore -/

abbrev CI : Type := Fin 115
def kcell (ck : Dev nD × CI) : GSem nD τ sig :=
  if h : ck.2.val < 114 then ((ck.1 : Thread nD τ), .dma ⟨ck.2.val, h⟩) else ((ck.1 : Thread nD τ), .reg barS)

/-- The invariants of every cell of every device, and that round 0 of each is reached (persistent). -/
def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records (F := F) m K) := by unfold records; infer_instance

/-- What stays with device `c`: its position at the start of each of its cells, and the tokens of the duties IT pays —
    its own staging, copy and send duties, its arrivals at the peers, its unit at each peer's barrier cell. -/
def linear (c : Dev nD) : sProp 𝕄 :=
  iprop((bigSep Finset.univ fun i : CI => atPos ER (kcell (c, i)) 0 ∅ 0)
    ∗ (bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell (pr c jk.1) jk.1 jk.2) 0 (0 : Fin 3))
    ∗ (bigSep Finset.univ fun j : Fin 3 => dutyTok ER (barCell (pr c j)) 0 j))

def ghost (K : Dev nD × CI → ℕ) (c : Dev nD) : sProp 𝕄 := iprop(records m K ∗ linear c)

/-- What device `c`'s body starts from: the ghost state at some names, the credit for what its peers owe its cells
    (three barrier units, forty-eight arrivals), the level facts, and its two arrays: its part of `x`, and its result
    at whatever it held at launch. -/
def start (c : Dev nD) : sProp 𝕄 :=
  iprop((∃ K, ghost m K c) ∗ cred (tallyAt (barCell c) () 3)
    ∗ (bigSep Finset.univ fun jk : Fin 3 × Fin 16 => cred (tallyAt (rvCell c jk.1 jk.2) () NO))
    ∗ levAts L lv ∗ (xL c ↦{fullShare} Xc m c) ∗ (oL c ↦{fullShare} m (oL c)))

def Φ₀ (c : Dev nD) : sProp 𝕄 :=
  iprop(start m c ∗ (∃ f : Buf (Elt F) (fL c), fL c ↦{fullShare} f) ∗ (∃ f : Buf (Elt F) (bL c), bL c ↦{fullShare} f))

/-- After the body: `x` as it was, the result holding every device's chunks, the two scratch arrays at whatever they
    hold, every own DMA semaphore at zero again. -/
def Φ₁ (c : Dev nD) : sProp 𝕄 :=
  iprop((xL c ↦{fullShare} Xc m c) ∗ (oL c ↦{fullShare} outF m c)
    ∗ (∃ f : Buf (Elt F) (fL c), fL c ↦{fullShare} f) ∗ (∃ f : Buf (Elt F) (bL c), bL c ↦{fullShare} f)
    ∗ bigSep Finset.univ fun i : Fin 114 => semVal (((c : Thread nD τ), .dma i) : GSem nD τ sig) 0)

/-- The pipeline's proof data: no windows; before the one point the device owes everything, after it nothing. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

/-- The kernel's body as the launch calls it. -/
abbrev theBody : Prog (TpuEff nD τ sig (Elt F) Λ₀ .tc) PUnit :=
  cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5

end Cert.KernelIdeal.A2A

end
-- ==== Proof.Launch.lean ====
/-
  The launch: from one device's body to the run of the whole program on the four devices.
-/
import proofs.«900006_g7700000000000007_dist_a2a_v7x_i4_i_m4096_n1024_bf16_1_alg».proof.Proof.Ghost

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

namespace Lch

omit [FloatOps F] in
/-- There is no window: a product over the windows is empty. -/
theorem bigSep_W (Φ : Fin cfg0.W → sProp 𝕄) : bigSep Finset.univ Φ = iprop(emp) := by
  rw [Finset.univ_eq_empty]; rfl

end Lch

/-- The library's body obligation on device `c`, from the body's own statement. -/
theorem body_obligation
    (hsound : ∀ (c : Dev nD) (Kt : PUnit → sProp 𝕄), iprop(bodyPre m c ∗ (bodyPost m c -∗ Kt ⟨⟩))
      ⊢ wp frame (wpE (defs₀ (F := F)) 𝒱₀ c none) Set.univ (theBody (F := F)) Kt) (c : Dev nD) :
    BodyObligation (dats (F := F) m 0 c) (defs₀ (F := F)) 𝒱₀ () Set.univ := fun t => by
  rw [fin_N t, Lch.bigSep_W, Lch.bigSep_W]
  show iprop(Φ₀ m c ∗ (dats m 0 c).owesAt () t₀.castSucc ∗ emp)
    ⊢ wp frame (wpE (defs₀ (F := F)) 𝒱₀ c none) Set.univ (theBody (F := F))
        (fun _ => iprop(Φ₁ m c ∗ (dats m 0 c).owesAt () t₀.succ ∗ emp))
  iintro ⟨HΦ, Ho, -⟩
  iapply (hsound c _)
  isplitl [HΦ Ho]
  · unfold bodyPre; isplitl [HΦ] <;> iassumption
  · unfold bodyPost; iintro ⟨H1, H2⟩
    isplitl [H1]; · iexact H1
    isplitl [H2]; · iexact H2
    iempintro

namespace Lch

/-! ## The device's own semaphores -/

/-- The device's own (scoped) semaphores: its 114 DMA semaphores. -/
abbrev osem : Fin 114 → SemLoc sig := fun i => .dma i

theorem ownSemFacts : Pipeline.OwnSemFacts cfg0.spec osem :=
  ⟨by decide, fun i j h => SemLoc.dma.inj h, fun k w => w.elim0⟩

theorem share_eq (c : Dev nD) (w : Fin cfg0.W) : (dats (F := F) m 0 c).share w = fullShare := w.elim0

/-! ## The cells, numbered -/

theorem kcell_fst (ck : Dev nD × CI) : (kcell ck).1 = (ck.1 : Thread nD τ) := by
  unfold kcell; split <;> rfl
theorem kcell_snd (ck : Dev nD × CI) :
    (kcell ck).2 = if h : ck.2.val < 114 then SemLoc.dma (⟨ck.2.val, h⟩ : DmaSem sig) else SemLoc.reg barS := by
  unfold kcell; split <;> rfl

theorem kcell_dma (c : Dev nD) (s : DmaSem sig) (i : CI) (h : i.val = s.val) :
    kcell (c, i) = (((c : Thread nD τ), SemLoc.dma s) : GSem nD τ sig) := by
  have hi : i.val < 114 := h ▸ s.isLt
  refine Prod.ext (kcell_fst (c, i)) ?_
  rw [kcell_snd]
  show (if h : i.val < 114 then SemLoc.dma (⟨i.val, h⟩ : DmaSem sig) else SemLoc.reg barS) = SemLoc.dma s
  rw [dif_pos hi]
  exact congrArg SemLoc.dma (Fin.ext h)

theorem kcell_bar (c : Dev nD) : kcell (c, Fin.last 114) = barCell c := by
  refine Prod.ext (kcell_fst (c, Fin.last 114)) ?_
  rw [kcell_snd]
  exact dif_neg (show ¬ (Fin.last 114 : CI).val < 114 by decide)

theorem kcell_injective : Function.Injective (kcell : Dev nD × CI → GSem nD τ sig) := by
  rintro ⟨c, i⟩ ⟨c', i'⟩ h
  have h1 : c = c' := by
    have := congrArg Prod.fst h
    rw [kcell_fst, kcell_fst] at this
    exact congrArg Prod.fst this
  subst h1
  have h2 : i = i' := by
    have := congrArg Prod.snd h
    rw [kcell_snd, kcell_snd] at this
    dsimp only at this
    by_cases hi : i.val < 114 <;> by_cases hi' : i'.val < 114
    · rw [dif_pos hi, dif_pos hi'] at this; exact Fin.ext (Fin.mk.inj (SemLoc.dma.inj this))
    · rw [dif_pos hi, dif_neg hi'] at this; cases this
    · rw [dif_neg hi, dif_pos hi'] at this; cases this
    · exact Fin.ext (by have := i.isLt; have := i'.isLt; omega)
  subst h2; rfl

def allCells : Finset (GSem nD τ sig) := Finset.univ.map ⟨kcell, kcell_injective⟩

/-! ## The duty tokens, as minted: per device its staging, copy, send, receive and barrier duties -/

abbrev TI : Type := Fin 16 ⊕ (Fin 16 ⊕ ((Fin 3 × Fin 16) ⊕ ((Fin 3 × Fin 16) ⊕ Fin 3)))

def tokOf (cx : Dev nD × TI) : GSem nD τ sig × ℕ × Fin 3 := match cx.2 with
  | .inl k => (cpCell cx.1 (slot k), k.val / 2, 0)
  | .inr (.inl k) => (lcCell cx.1 k, 0, 0)
  | .inr (.inr (.inl jk)) => (sdCell cx.1 jk.1 jk.2, 0, 0)
  | .inr (.inr (.inr (.inl jk))) => (rvCell cx.1 jk.1 jk.2, 0, 0)
  | .inr (.inr (.inr (.inr j))) => (barCell cx.1, 0, j)

/-- A semaphore's number: a DMA semaphore its index, the barrier semaphore 114. -/
def semNo : SemLoc sig → ℕ
  | .dma s => s.val
  | .reg _ => 114

theorem tokOf_injective : Function.Injective tokOf := by
  rintro ⟨c, x⟩ ⟨c', x'⟩ h
  have hc : c = c' := by
    rcases x with k | k | ⟨j, k⟩ | ⟨j, k⟩ | j <;> rcases x' with k' | k' | ⟨j', k'⟩ | ⟨j', k'⟩ | j' <;>
      exact congrArg (fun y : GSem nD τ sig × ℕ × Fin 3 => y.1.1.1) h
  subst hc
  have hs := congrArg (fun y : GSem nD τ sig × ℕ × Fin 3 => semNo y.1.2) h
  have hr := congrArg (fun y : GSem nD τ sig × ℕ × Fin 3 => y.2.1) h
  have hd := congrArg (fun y : GSem nD τ sig × ℕ × Fin 3 => y.2.2.val) h
  rcases x with k | k | ⟨j, k⟩ | ⟨j, k⟩ | j <;> rcases x' with k' | k' | ⟨j', k'⟩ | ⟨j', k'⟩ | j' <;>
    simp only [tokOf, semNo, cpS_val, lcS_val, sdS_val, rvS_val, slot] at hs hr hd <;>
    first
    | (exfalso; omega)
    | (obtain rfl : j = j' := Fin.ext (by omega); obtain rfl : k = k' := Fin.ext (by omega); rfl)
    | (obtain rfl : k = k' := Fin.ext (by omega); rfl)
    | (obtain rfl : j = j' := Fin.ext (by omega); rfl)

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-! ## What the launch element deals each device, and what the global step makes of it -/

/-- The duty tokens of device `c`'s own cells. -/
def toks (c : Dev nD) : sProp 𝕄 :=
  bigSep Finset.univ fun x : TI => dutyTok ER (tokOf (c, x)).1 (tokOf (c, x)).2.1 (tokOf (c, x)).2.2

/-- The tokens of the duties device `c` pays. -/
def payToks (c : Dev nD) : sProp 𝕄 :=
  iprop((bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell (pr c jk.1) jk.1 jk.2) 0 (0 : Fin 3))
    ∗ (bigSep Finset.univ fun j : Fin 3 => dutyTok ER (barCell (pr c j)) 0 j))

def G (c : Dev nD) : sProp 𝕄 :=
  iprop((bigSep Finset.univ fun i : CI => roundState ER (sched m) (kcell (c, i)) 0)
    ∗ (bigSep Finset.univ fun i : CI => iprop(atPos ER (kcell (c, i)) 0 ∅ 0 ∗ reached ER (kcell (c, i)) 0)) ∗ toks c)

def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A product over a device's cells: the barrier cell, then the DMA cells. -/
theorem bigSep_CI (Φ : CI → sProp 𝕄) :
    bigSep Finset.univ Φ = iprop(Φ (Fin.last 114) ∗ bigSep Finset.univ fun i : Fin 114 => Φ i.castSucc) := by
  have hnm : Fin.last 114 ∉ (Finset.univ : Finset (Fin 114)).map Fin.castSuccEmb := fun h => by
    obtain ⟨x, -, hx⟩ := Finset.mem_map.mp h
    have hx' : x.val = 114 := congrArg Fin.val hx
    have := x.isLt; omega
  rw [Fin.univ_castSuccEmb, Finset.cons_eq_insert, bigSep_insert hnm, bigSep_map]; rfl

theorem unscopedSems0_bar (c : Dev nD) : (unscopedSems0 c : sProp 𝕄) ⊢ semVal (barCell c) 0 := by
  unfold unscopedSems0
  exact bigSep_elim (Finset.mem_filter.mpr ⟨Finset.mem_univ _, by decide⟩)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [bigSep_CI, kcell_bar,
    bigSep_congr (Ψ := fun i : Fin 114 => (semVal (((c : Thread nD τ), SemLoc.dma i) : GSem nD τ sig) 0 : sProp 𝕄))
      fun i _ => by rw [kcell_dma c i i.castSucc rfl]]
  iintro ⟨HS, HB⟩
  isplitl [HB]
  · iapply (unscopedSems0_bar (F := F) c); iexact HB
  · unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The devices' places `j + 1` on, as a permutation of the devices. -/
def prE (j : Fin 3) : Dev nD ≃ Dev nD := ⟨fun c => pr c j, fun c => qr c j, fun c => qr_pr c j, fun c => pr_qr c j⟩

/-- A product over devices and an index may be read, index by index, at the device `e x` places on. -/
theorem around {J : Type} [Fintype J] (e : J → Fin 3) (Φ : Dev nD → J → sProp 𝕄) :
    (bigSep Finset.univ fun c : Dev nD => bigSep Finset.univ fun x : J => Φ c x)
      = bigSep Finset.univ fun c : Dev nD => bigSep Finset.univ fun x : J => Φ (pr c (e x)) x :=
  (bigSep_univ_comm Φ).trans
    ((bigSep_congr fun x _ => bigSep_univ_equiv (prE (e x)) (fun c => Φ c x)).trans
      (bigSep_univ_comm fun c x => Φ (pr c (e x)) x).symm)

theorem toks_eq (c : Dev nD) : (toks c : sProp 𝕄) =
    iprop((bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell c jk.1 jk.2) 0 (0 : Fin 3))
    ∗ (bigSep Finset.univ fun j : Fin 3 => dutyTok ER (barCell c) 0 j)) := by
  unfold toks
  rw [bigSep_univ_sum, bigSep_univ_sum, bigSep_univ_sum, bigSep_univ_sum]
  rfl

/-- The tokens dealt around: a receive cell's token to the device that pays it, a barrier cell's three tokens to the
    three peers. -/
theorem toks_around : (bigSep Finset.univ fun c : Dev nD => (toks c : sProp 𝕄)) ⊢ bigSep Finset.univ fun c : Dev nD => payToks c := by
  rw [bigSep_congr fun c _ => toks_eq (F := F) c]
  unfold payToks
  rw [bigSep_sep', bigSep_sep', bigSep_sep', bigSep_sep', bigSep_sep', bigSep_sep', bigSep_sep', bigSep_sep',
    around (fun jk : Fin 3 × Fin 16 => jk.1) (fun c jk => (dutyTok ER (rvCell c jk.1 jk.2) 0 (0 : Fin 3) : sProp 𝕄)),
    around (fun j : Fin 3 => j) (fun c j => (dutyTok ER (barCell c) 0 j : sProp 𝕄))]

theorem ghost_intro (K : Dev nD × CI → ℕ) (c : Dev nD) : iprop(records m K ∗ linear c) ⊢ G' m c := by
  unfold G' ghost
  iintro H; iexists K; iexact H

theorem regroup :
    (bigSep Finset.univ fun c : Dev nD => iprop((bigSep Finset.univ fun i : CI => iprop(∃ κ : ℕ, cellInv ER (sched m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => show _ ⊢ linear c from Entails.of_eq (by unfold linear payToks; rfl)))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed is the sum of the payments still to come. -/
theorem owedFrom_eq_sum (c : Dev nD) : ∀ f n : ℕ, owedFrom c f n = ∑ i ∈ Finset.range f, payTally c (n + i)
  | 0, n => by rw [Finset.range_zero, Finset.sum_empty]; rfl
  | f + 1, n => by
    rw [owedFrom_succ, owedFrom_eq_sum c f (n + 1), Finset.sum_range_succ', Nat.add_zero]
    exact congrArg (· + payTally c n) (Finset.sum_congr rfl fun i _ => congrArg (payTally c) (by omega))

theorem O₀_eq : (O₀ : Dev nD → CellTallies nD τ sig Unit) = fun d => ∑ r ∈ Finset.range 51, payTally d r :=
  funext fun d => by
    unfold O₀; rw [owedFrom_eq_sum]
    exact Finset.sum_congr rfl fun i _ => congrArg (payTally d) (Nat.zero_add i)

theorem ordJ_ordJ (j : Fin 3) : ordJ (ordJ j.val).val = j := by revert j; decide

/-- The barrier payments' places in the order of payment, and the arrivals'. -/
def barIdx : Finset ℕ := Finset.univ.map ⟨fun j : Fin 3 => j.val, fun a b h => Fin.ext h⟩
def rvIdx : Finset ℕ := Finset.univ.map ⟨fun jk : Fin 3 × Fin 16 => 3 + 3 * jk.2.val + (ordJ jk.1.val).val, by
  rintro ⟨j, k⟩ ⟨j', k'⟩ h
  dsimp only at h
  have hk : k = k' := Fin.ext (by omega)
  have ho : ordJ j.val = ordJ j'.val := Fin.ext (by omega)
  have hj : j = j' := by rw [← ordJ_ordJ j, ← ordJ_ordJ j', ho]
  rw [hk, hj]⟩

theorem idx_sub : barIdx ∪ rvIdx ⊆ Finset.range 51 := fun n hn => by
  rw [Finset.mem_range]
  rcases Finset.mem_union.mp hn with h | h
  · obtain ⟨j, -, rfl⟩ := Finset.mem_map.mp h; exact Nat.lt_trans j.isLt (by decide)
  · obtain ⟨⟨j, k⟩, -, rfl⟩ := Finset.mem_map.mp h
    show 3 + 3 * k.val + (ordJ j.val).val < 51
    omega

theorem idx_disj : Disjoint barIdx rvIdx := Finset.disjoint_left.mpr fun n h h' => by
  obtain ⟨j, -, rfl⟩ := Finset.mem_map.mp h
  obtain ⟨⟨j', k⟩, -, e⟩ := Finset.mem_map.mp h'
  have e' : 3 + 3 * k.val + (ordJ j'.val).val = j.val := e
  omega

/-- The credit for a peer's unit at the barrier cell. -/
theorem cred_pay_bar (c : Dev nD) (j : Fin 3) :
    (Pipeline.launchCred (fun d : Dev nD => payTally d j.val) c : sProp 𝕄) ⊢ cred (tallyAt (barCell c) () 1) := by
  rw [show (fun d : Dev nD => payTally d j.val) = fun d => tallyAt ((((pr d j : Dev nD) : Thread nD τ), SemLoc.reg barS) : GSem nD τ sig) () 1 from
    funext fun d => payTally_bar d j]
  exact Pipeline.launchCred_tallyAt (.reg barS) (fun d => pr d j) (fun c => qr c j) (fun c => pr_qr c j) (fun d => qr_pr d j) () 1 c

/-- The credit for a peer's chunk arriving. -/
theorem cred_pay_rv (c : Dev nD) (k : Fin 16) (o : Fin 3) :
    (Pipeline.launchCred (fun d : Dev nD => payTally d (3 + 3 * k.val + o.val)) c : sProp 𝕄)
      ⊢ cred (tallyAt (rvCell c (ordJ o.val) k) () NO) := by
  rw [show (fun d : Dev nD => payTally d (3 + 3 * k.val + o.val))
      = fun d => tallyAt ((((pr d (ordJ o.val) : Dev nD) : Thread nD τ), SemLoc.dma (rvS (ordJ o.val) k)) : GSem nD τ sig) () NO from
    funext fun d => payTally_rv d k o]
  exact Pipeline.launchCred_tallyAt (.dma (rvS (ordJ o.val) k)) (fun d => pr d (ordJ o.val)) (fun c => qr c (ordJ o.val))
    (fun c => pr_qr c _) (fun d => qr_pr d _) () NO c

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem cred_bar3 (c : Dev nD) :
    (bigSep Finset.univ fun _ : Fin 3 => (cred (tallyAt (barCell c) () 1) : sProp 𝕄)) ⊢ cred (tallyAt (barCell c) () 3) := by
  rw [bigSep_fin3,
    show (tallyAt (barCell c) () 3 : CellTallies nD τ sig Unit)
      = tallyAt (barCell c) () 1 + (tallyAt (barCell c) () 1 + tallyAt (barCell c) () 1) from by rw [tallyAt_add, tallyAt_add]]
  iintro ⟨H0, H1, H2⟩
  iapply (cred_add _ _).2
  isplitl [H0]; · iexact H0
  iapply (cred_add _ _).2
  isplitl [H1] <;> iassumption

theorem creds (c : Dev nD) :
    (Pipeline.launchCred O₀ c : sProp 𝕄) ⊢ iprop(cred (tallyAt (barCell c) () 3)
      ∗ bigSep Finset.univ fun jk : Fin 3 × Fin 16 => cred (tallyAt (rvCell c jk.1 jk.2) () NO)) := by
  rw [O₀_eq, Pipeline.launchCred_sum]
  refine (bigSep_subset idx_sub).trans ?_
  rw [bigSep_union idx_disj]
  unfold barIdx rvIdx
  rw [bigSep_map, bigSep_map]
  refine sep_mono ?_ ?_
  · exact (bigSep_mono fun j _ => cred_pay_bar (F := F) c j).trans (cred_bar3 (F := F) c)
  · exact bigSep_mono fun jk _ =>
      (cred_pay_rv (F := F) c jk.2 (ordJ jk.1.val)).trans (Entails.of_eq (by rw [ordJ_ordJ]))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  imodintro
  unfold start G' Xc
  isplitl
  · isplitl [HG]; · iexact HG
    isplitl [H3]; · iexact H3
    isplitl [HN]; · iexact HN
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hf, Hb⟩
  isplitl [Hs]; · iexact Hs
  isplitl [Hf]; · iexact Hf
  iexact Hb

/-- What a device hands back at the end besides its own semaphores and scratch arrays: its two arrays. -/
def Yc (c : Dev nD) : sProp 𝕄 := iprop((xL c ↦{fullShare} Xc m c) ∗ (oL c ↦{fullShare} outF m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, Hf, Hb, Hs⟩
  isplitl [Hx Ho]
  · isplitl [Hx] <;> iassumption
  isplitl [Hs]; · iexact Hs
  isplitl [Hf] <;> iassumption

theorem waits (c : Dev nD) : (levAts L lv : sProp 𝕄) ⊢ Pipeline.cellsWaits cfgs (dats m) () 0 c :=
  Pipeline.cellsWaits_intro cfgs (dats m) () 0 c fun w s t => w.elim0

end Lch

/-! ## The run -/

open Lch in
set_option maxRecDepth 8000 in
/-- At the compiled mesh of four devices, for any float values, from any memory with zero counters: every weakly fair
    execution of the program terminates, and every final state has each device's result holding every device's chunks,
    rounded, and its part of `x` unchanged. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem (oL c) = outF m c ∧ r.2.mem (xL c) = Xc m c) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem (oL c) = outF m c ∧ s.mem (xL c) = Xc m c)
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.Values.lean ====
/-
  What the all-to-all's data movement computes, index by index.

  Device `s` stages chunk `k` of its part of `x` (rows `256 k …`, all 4096 columns) in a slot, reads the slot back,
  rounds it to bf16 element by element, stores it into rows `256 k …` of a 4096 × 4096 array, and the 256 × 1024
  piece at columns `1024 t …` of those rows is copied to rows `4096 s + 256 k …` of device `t`'s result. So the
  result of device `t` at row `r`, column `j` is the rounding of the element of device `r / 4096`'s part of `x`
  at row `r % 4096`, column `1024 t + j`.
-/
import proofs.«900006_g7700000000000007_dist_a2a_v7x_i4_i_m4096_n1024_bf16_1_alg».proof.Proof.Pieces
import Idealize.ShloMosaic.Lib.Pipeline.Value
import Idealize.ShloMosaic.Lib.ValueIdx
import Idealize.ShloMosaic.Lib.ValueLayout

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The three writes do not depend, where they write, on what was there before -/

theorem FB_congr (c : Dev nD) (k : Fin 16) (fd : Buf (Elt F) ((c : Thread nD τ).loc cc0_scratch0)) :
    ∀ i ∈ (fSt (slot k)).view.set,
      (fSt (slot k)).view.write (Elt F) fd ((xCk k).view.read (Elt F) (Xc m c)) Finset.univ i = FB m c k i := by
  intro i hi
  exact View.write_congr (fun _ _ _ => rfl) (fun h => absurd hi h)

theorem BB_congr (c : Dev nD) (k : Fin 16) (fd : Buf (Elt F) ((c : Thread nD τ).loc cc0_scratch1)) :
    ∀ i ∈ ((bM : Memref sig .tc .vmem S4096x4096 .bf16).access (bRows k)).setOn Finset.univ,
      ((bM : Memref sig .tc .vmem S4096x4096 .bf16).access (bRows k)).write (Elt F) fd (pay (ld m c k)) Finset.univ i
        = BB m c k i := by
  intro i hi
  exact View.write_congr (fun _ _ _ => rfl) (fun h => absurd hi h)

theorem OC_congr (t s : Dev nD) (k : Fin 16) (fd : Buf (Elt F) ((t : Thread nD τ).loc main_v1)) :
    ∀ i ∈ (oCk s k).view.set,
      (oCk s k).view.write (Elt F) fd ((bPc k t).view.read (Elt F) (BB m s k)) Finset.univ i = OC m t s k i := by
  intro i hi
  exact View.write_congr (fun _ _ _ => rfl) (fun h => absurd hi h)

open Idealize.ShloMosaic.ValueIdx

/-! ## Membership in the rows of a chunk of the result, by coordinates -/

private theorem mem_oCk' (t s : Dev nD) (k : Fin 16) (i : Idx ((t : Thread nD τ).loc main_v1)) :
    i ∈ (oCk s k).view.set ↔
      4096 * s.val + 256 * k.val ≤ (i 0).val ∧ (i 0).val < 4096 * s.val + 256 * k.val + 256 := by
  rw [show (oCk s k).view.set = (Rect.unit (s := S16384x1024) (oOff s k) S256x1024.size (oOff_inb s k)).set from
    View.set_slice_whole _ _]
  rw [Rect.mem_set_unit, Fin.forall_fin_two]
  have h1 : (i 1).val < 1024 := (i 1).isLt
  show (4096 * s.val + 256 * k.val ≤ (i 0).val ∧ (i 0).val < 4096 * s.val + 256 * k.val + 256)
      ∧ (0 ≤ (i 1).val ∧ (i 1).val < 0 + 1024) ↔ _
  omega

/-! ## One element of each buffer -/

/-- Column `j` of a piece for device `t` is column `1024 t + j` of the chunk. -/
def colIx (t : Dev nD) (y : S256x1024.Idx) : S256x4096.Idx :=
  ix2 (y 0) ⟨1024 * t.val + (y 1).val, by
    have h1 : (y 1).val < 1024 := (y 1).isLt
    have h2 : t.val < 4 := t.isLt
    show _ < 4096; omega⟩

/-- What the load of the staged chunk reads at row `y 0`, column `y 1`: that element of the chunk of `x`. -/
theorem ld_apply (c : Dev nD) (k : Fin 16) (y : S256x4096.Idx) :
    ld m c k (Fin.cons ⟨0, Nat.one_pos⟩ y) = Xc m c ((xCk k).view.emb y) := by
  unfold ld
  rw [View.readAt_apply, View.read_apply]
  have he : (fM : Memref sig .tc .vmem S2x256x4096 .f32).view.emb
      ((fRect (slot k)).toLoadRect.idx (Fin.cons ⟨0, Nat.one_pos⟩ y)) = (fSt (slot k)).view.emb y := by
    show (fRect (slot k)).emb (Fin.cons ⟨0, Nat.one_pos⟩ y) = (fRect (slot k)).emb (Shape.reshapeEquiv _ y)
    rw [Shape.reshapeEquiv_cons_one]
  rw [he]
  unfold FB
  rw [View.write_emb_of_mem _ _ (Finset.mem_univ y), View.read_apply]
  rfl

/-- An element of the rounded rows of chunk `k`: the rounding of that element of the chunk of `x`. -/
theorem BB_emb (c : Dev nD) (k : Fin 16) (y : S256x4096.Idx) :
    BB m c k (((bM : Memref sig .tc .vmem S4096x4096 .bf16).access (bRows k)).emb y)
      = FloatOps.truncf .bf16 bitsLt_bf16_f32 (Xc m c ((xCk k).view.emb y)) := by
  unfold BB
  rw [View.write_emb_of_mem _ _ (Finset.mem_univ y)]
  have hp : pay (ld m c k) y = FloatOps.truncf .bf16 bitsLt_bf16_f32 (ld m c k (Fin.cons ⟨0, Nat.one_pos⟩ y)) := by
    unfold pay
    rw [shapeCast_apply _ _ y y rfl]
    show FloatOps.truncf .bf16 bitsLt_bf16_f32 (shapeCast S256x4096 (ld m c k) _ y) = _
    rw [shapeCast_dropUnit_apply]
  rw [hp, ld_apply]
  rfl

/-- An element of the landed chunk `(s, k)` of device `t`'s result. -/
theorem OC_emb (t s : Dev nD) (k : Fin 16) (y : S256x1024.Idx) :
    OC m t s k ((oCk s k).view.emb y)
      = FloatOps.truncf .bf16 bitsLt_bf16_f32 (Xc m s ((xCk k).view.emb (colIx t y))) := by
  unfold OC
  rw [View.write_emb_of_mem _ _ (Finset.mem_univ y), View.read_apply]
  have he : (bPc k t).view.emb y
      = ((bM : Memref sig .tc .vmem S4096x4096 .bf16).access (bRows k)).emb (colIx t y) := by
    funext a; apply Fin.ext
    match a with
    | ⟨0, _⟩ => rfl
    | ⟨1, _⟩ => show 1024 * t.val + 1 * (y 1).val = 0 + 1 * (1024 * t.val + (y 1).val); omega
  rw [he, BB_emb]
  rfl

/-- The chunk's content does not depend on how its device and number are spelt. -/
theorem OC_idx_congr (t : Dev nD) {s s' : Dev nD} {k k' : Fin 16} (hs : s.val = s'.val) (hk : k.val = k'.val)
    (i : Idx ((t : Thread nD τ).loc main_v1)) : OC m t s k i = OC m t s' k' i := by
  obtain rfl := Fin.ext hs
  obtain rfl := Fin.ext hk
  rfl

/-- On the rows of chunk `(s, k)` the final result is what that chunk's transfer wrote. -/
theorem outF_eq_OC (t s : Dev nD) (k : Fin 16) : ∀ i ∈ (oCk s k).view.set, OC m t s k i = outF m t i := by
  intro i hi
  have h := (mem_oCk' t s k i).mp hi
  have hk : k.val < 16 := k.isLt
  exact OC_idx_congr m t (by show s.val = (i 0).val / 4096; omega) (by show k.val = (i 0).val % 4096 / 256; omega) i

/-- The landed chunk `(s, k)` of device `t`'s result at an index of its rows, by coordinates: row `a` of device
    `s`'s part of `x` where `a + 4096 s` is the index's row, column `1024 t +` the index's column. -/
theorem OC_apply (t s : Dev nD) (k : Fin 16) (i : Idx ((t : Thread nD τ).loc main_v1)) (hi : i ∈ (oCk s k).view.set)
    (a b : Fin 4096) (ha : a.val + 4096 * s.val = (i 0).val) (hb : b.val = 1024 * t.val + (i 1).val) :
    OC m t s k i = FloatOps.truncf .bf16 bitsLt_bf16_f32 (Xc m s (ix2 (n0 := 4096) (n1 := 4096) a b)) := by
  obtain ⟨y, rfl⟩ := View.exists_emb_of_mem_set _ hi
  rw [OC_emb]
  have ha' : a.val + 4096 * s.val = 4096 * s.val + 256 * k.val + 1 * (y 0).val := ha
  have hb' : b.val = 1024 * t.val + (0 + 1 * (y 1).val) := hb
  have he : (xCk k).view.emb (colIx t y) = ix2 (n0 := 4096) (n1 := 4096) a b := by
    funext d; apply Fin.ext
    match d with
    | ⟨0, _⟩ => show 256 * k.val + 1 * (y 0).val = a.val; omega
    | ⟨1, _⟩ => show 0 + 1 * (1024 * t.val + (y 1).val) = b.val; omega
  rw [he]

/-- The final result of device `t` at row `r`, column `j`: the rounding of the element of device `r / 4096`'s part
    of `x` at row `r % 4096`, column `1024 t + j`. -/
theorem outF_apply (t : Dev nD) (i : Idx ((t : Thread nD τ).loc main_v1)) :
    outF m t i = FloatOps.truncf .bf16 bitsLt_bf16_f32
      (Xc m ⟨(i 0).val / 4096, by have h : (i 0).val < 16384 := (i 0).isLt; show _ < 4; omega⟩
        (ix2 (n0 := 4096) (n1 := 4096) ⟨(i 0).val % 4096, Nat.mod_lt _ (by decide)⟩
          ⟨1024 * t.val + (i 1).val, by
            have h1 : (i 1).val < 1024 := (i 1).isLt
            have h2 : t.val < 4 := t.isLt
            omega⟩)) := by
  have h0 : (i 0).val < 16384 := (i 0).isLt
  unfold outF
  refine OC_apply m t _ _ i ((mem_oCk' t _ _ i).mpr ?_) _ _ ?_ rfl
  · show 4096 * ((i 0).val / 4096) + 256 * ((i 0).val % 4096 / 256) ≤ (i 0).val
      ∧ (i 0).val < 4096 * ((i 0).val / 4096) + 256 * ((i 0).val % 4096 / 256) + 256
    omega
  · show (i 0).val % 4096 + 4096 * ((i 0).val / 4096) = (i 0).val
    omega

/-- info: 'Cert.KernelIdeal.A2A.outF_apply' depends on axioms: [propext, Classical.choice, Quot.sound] -/
#guard_msgs in #print axioms outF_apply

/-- info: 'Cert.KernelIdeal.A2A.outF_eq_OC' depends on axioms: [propext, Classical.choice, Quot.sound] -/
#guard_msgs in #print axioms outF_eq_OC

/-- info: 'Cert.KernelIdeal.A2A.OC_congr' depends on axioms: [propext, Classical.choice, Quot.sound] -/
#guard_msgs in #print axioms OC_congr

/-- info: 'Cert.KernelIdeal.A2A.BB_congr' depends on axioms: [propext, Classical.choice, Quot.sound] -/
#guard_msgs in #print axioms BB_congr

/-- info: 'Cert.KernelIdeal.A2A.FB_congr' depends on axioms: [propext, Classical.choice, Quot.sound] -/
#guard_msgs in #print axioms FB_congr

end Cert.KernelIdeal.A2A

end
-- ==== Proof.RefBridge.lean ====
/-
  The bridge from the all-to-all's result to the reference's.

  The reference rounds the whole 16384 × 4096 array to bf16, element by element. Device `c` holds rows
  `4096 c …` of that array; its result is columns `1024 c …` of the rounded array. The element of device `c`'s
  result at row `r`, column `j` is the rounding of device `r / 4096`'s row `r % 4096`, column `1024 c + j`:
  row `r`, column `1024 c + j` of the whole array.
-/
import proofs.«900006_g7700000000000007_dist_a2a_v7x_i4_i_m4096_n1024_bf16_1_alg».proof.Proof.Values
import proofs.«900006_g7700000000000007_dist_a2a_v7x_i4_i_m4096_n1024_bf16_1_alg».proof.Defs
import proofs.«900006_g7700000000000007_dist_a2a_v7x_i4_i_m4096_n1024_bf16_1_alg».proof.Proof.Gen.ReferenceIdeal
import proofs.«900006_g7700000000000007_dist_a2a_v7x_i4_i_m4096_n1024_bf16_1_alg».proof.Proof.Gen.ReferenceIdeal.Run
import proofs.«900006_g7700000000000007_dist_a2a_v7x_i4_i_m4096_n1024_bf16_1_alg».proof.Proof.Gen.ReferenceIdeal.Read
import proofs.«900006_g7700000000000007_dist_a2a_v7x_i4_i_m4096_n1024_bf16_1_alg».proof.Proof.Gen.Pre_finite_inputs_ReferenceIdeal
import Idealize.ShloMosaic.PureOps.Ideal
import Idealize.ShloMosaic.Lib.Layout

noncomputable section

namespace Cert.KernelIdeal.A2A

open Cert.KernelIdeal Cert.KernelIdeal.Gen

open Idealize.ShloMosaic
open Idealize.ShloMosaic.TcCoe
open Idealize.SL.Sem
open Idealize.ShloMosaic.ValueIdx

/-- The reference's whole argument array, as its one device holds it. -/
abbrev RArg : Type := Buf (Elt Ideal)
  (((0 : Dev Cert.ReferenceIdeal.nD).tc : Thread Cert.ReferenceIdeal.nD Cert.ReferenceIdeal.τ).loc Cert.ReferenceIdeal.main_arg0)

/-- The reference's result: the argument rounded to bf16, element by element. -/
def refOut (X' : RArg) :
    Buf (Elt Ideal) (((0 : Dev Cert.ReferenceIdeal.nD).tc : Thread Cert.ReferenceIdeal.nD Cert.ReferenceIdeal.τ).loc Cert.ReferenceIdeal.main_v0) :=
  truncf (F := Ideal) (s := Cert.ReferenceIdeal.S16384x4096) (φ := .f32) .bf16 X' Cert.ReferenceIdeal.Gen.bitsLt_bf16_f32

/-- Each device's final result is its column block of the reference's result, when each device's argument is its
    row block of the reference's argument. -/
theorem outF_eq_block (m : (ℓ : Loc nD τ sig) → Buf (Elt Ideal) ℓ) (X' : RArg)
    (hagree : ∀ c : Dev nD,
      m ((c.tc : Thread nD τ).loc main_arg0) = Layout.block ⟨2, ![4096, 4096]⟩ ⟨2, ![16384, 4096]⟩ 0 4 c X') :
    ∀ c : Dev nD, outF m c = Layout.block ⟨2, ![16384, 1024]⟩ ⟨2, ![16384, 4096]⟩ 1 4 c (refOut X') := by
  intro c
  funext i
  rw [outF_apply]
  unfold Xc
  rw [hagree]
  have h0 : (i 0).val < 16384 := (i 0).isLt
  show FloatOps.truncf (F := Ideal) (φ := .f32) .bf16 _ (X' (Layout.Tiles.idx _ _ _))
    = FloatOps.truncf (F := Ideal) (φ := .f32) .bf16 _ (X' (Layout.Tiles.idx _ c i))
  refine congrArg (FloatOps.truncf (F := Ideal) (φ := .f32) .bf16 _) (congrArg X' ?_)
  funext d; apply Fin.ext
  match d with
  | ⟨0, _⟩ => show (i 0).val / 4096 * 4096 + (i 0).val % 4096 = (i 0).val; omega
  | ⟨1, _⟩ => show 1024 * c.val + (i 1).val = c.val * 1024 + (i 1).val; omega

/-- The reference runs and leaves its argument as it was. -/
theorem frame_ri : Cert.frame_ReferenceIdeal :=
  fun m ρ _ => (θ_run Cert.ReferenceIdeal.defs _ _).mono (fun _ h c => (h c).2) (Cert.ReferenceIdeal.Value.run (F := Ideal) m ρ)

/-- The reference's run, its result named: every weakly fair execution terminates with the result the rounded
    argument and the argument as it was; no precondition is needed. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v0)
            = refOut (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- info: 'Cert.KernelIdeal.A2A.outF_eq_block' depends on axioms: [propext, Classical.choice, Quot.sound] -/
#guard_msgs in #print axioms outF_eq_block

/-- info: 'Cert.KernelIdeal.A2A.frame_ri' depends on axioms: [propext, Classical.choice, Quot.sound] -/
#guard_msgs in #print axioms frame_ri

/-- info: 'Cert.KernelIdeal.A2A.ref_run' depends on axioms: [propext, Classical.choice, Quot.sound] -/
#guard_msgs in #print axioms ref_run

end Cert.KernelIdeal.A2A

end
-- ==== Proof.Claims.lean ====
/-
  The certificate's conjuncts about the idealized kernel, each from ONE hypothesis: that one device's body, started from
  its precondition, reaches its postcondition.
-/
import proofs.«900006_g7700000000000007_dist_a2a_v7x_i4_i_m4096_n1024_bf16_1_alg».proof.Proof.Launch
import proofs.«900006_g7700000000000007_dist_a2a_v7x_i4_i_m4096_n1024_bf16_1_alg».proof.Proof.RefBridge
import proofs.«900006_g7700000000000007_dist_a2a_v7x_i4_i_m4096_n1024_bf16_1_alg».proof.Defs
import proofs.«900006_g7700000000000007_dist_a2a_v7x_i4_i_m4096_n1024_bf16_1_alg».proof.Proof.Gen.Pre_finite_inputs_Kernel

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The idealized kernel runs and leaves each device's part of `x` as it was. -/
theorem frame_of_sound
    (hsound : ∀ (m : (ℓ : Loc nD τ sig) → Buf (Elt Ideal) ℓ) (c : Dev nD) (Kt : PUnit → sProp (MT nD τ sig Unit (Elt Ideal) ℕ UU ℕ)),
      iprop(bodyPre m c ∗ (bodyPost m c -∗ Kt ⟨⟩))
        ⊢ wp frame (wpE (defs₀ (F := Ideal)) 𝒱₀ c none) Set.univ (theBody (F := Ideal)) Kt) :
    Cert.frame_KernelIdeal :=
  fun m g _ => (θ_run defs _ _).mono (fun _ h c => (h c).2)
    (run_main (F := Ideal) m g fun c => body_obligation m (hsound m) c)

/-- The idealized kernel on the four devices and the reference on one: when each device's argument is its row block of
    the reference's argument, both run, each device's result ends as its column block of the reference's result (the
    argument rounded to bf16, element by element), and the arguments of both end as they were. -/
theorem algebraic_of_sound
    (hsound : ∀ (m : (ℓ : Loc nD τ sig) → Buf (Elt Ideal) ℓ) (c : Dev nD) (Kt : PUnit → sProp (MT nD τ sig Unit (Elt Ideal) ℕ UU ℕ)),
      iprop(bodyPre m c ∗ (bodyPost m c -∗ Kt ⟨⟩))
        ⊢ wp frame (wpE (defs₀ (F := Ideal)) 𝒱₀ c none) Set.univ (theBody (F := Ideal)) Kt) :
    Cert.algebraic_KernelIdeal_ReferenceIdeal :=
  fun m g m' g' _ hagree =>
    ⟨refOut (m' (((0 : Dev Cert.ReferenceIdeal.nD).tc : Thread Cert.ReferenceIdeal.nD Cert.ReferenceIdeal.τ).loc Cert.ReferenceIdeal.main_arg0)),
      (θ_run defs _ _).mono (fun _ h c => ⟨(h c).1.trans (outF_eq_block m _ hagree c), (h c).2⟩)
        (run_main (F := Ideal) m g fun c => body_obligation m (hsound m) c),
      ref_run m' g'⟩

/-- The idealized kernel is the word-level kernel's own text read over the extended reals: nothing was rewritten. -/
theorem preserves : Cert.preserves_Kernel_KernelIdeal := trivial

/-- info: 'Cert.KernelIdeal.A2A.frame_of_sound' depends on axioms: [propext, Classical.choice, Quot.sound] -/
#guard_msgs in #print axioms frame_of_sound

/-- info: 'Cert.KernelIdeal.A2A.algebraic_of_sound' depends on axioms: [propext, Classical.choice, Quot.sound] -/
#guard_msgs in #print axioms algebraic_of_sound

end Cert.KernelIdeal.A2A

end
-- ==== Proof.BodyState.lean ====
/-
  The state of one device's body between its steps: at the start every buffer cut into the pieces the steps hand
  around, at the end the pieces as the last waits returned them.
-/
import proofs.«900006_g7700000000000007_dist_a2a_v7x_i4_i_m4096_n1024_bf16_1_alg».proof.Proof.Ghost

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's resources opened piece by piece, and folded back -/

section Open
variable (c : Dev nD)

/-- What the body works with, each buffer cut into the pieces the steps hand around and the ghost state grouped by
    the step that uses it. -/
def Opened : sProp 𝕄 :=
  iprop(∃ K : Dev nD × CI → ℕ, records m K
    ∗ (dats m 0 c).owesAt () t₀.castSucc ∗ levAts L lv ∗ cred (tallyAt (barCell c) () 3)
    ∗ atPos ER (barCell c) 0 ∅ 0 ∗ atPos ER (cpCell c 0) 0 ∅ 0 ∗ atPos ER (cpCell c 1) 0 ∅ 0
    ∗ (bigSep Finset.univ fun j : Fin 3 => iprop(dutyTok ER (barCell (pr c j)) 0 j ∗ barPay (F := F) (pr c j) j))
    ∗ (bigSep Finset.univ fun k : Fin 16 => iprop(dutyTok ER (cpCell c (slot k)) (k.val / 2) (0 : Fin 3) ∗ (xL c ↦[(xCk k).view.set]{fullShare} Xc m c)))
    ∗ (bigSep Finset.univ fun i : Fin 2 => iprop(∃ fd : Buf (Elt F) (fL c), fL c ↦[(fSt i).view.set]{fullShare} fd))
    ∗ (bigSep Finset.univ fun k : Fin 16 => iprop((∃ fb : Buf (Elt F) (bL c), bL c ↦[((bM : Memref sig .tc .vmem S4096x4096 .bf16).access (bRows k)).setOn Finset.univ]{fullShare} fb)
        ∗ dutyTok ER (lcCell c k) 0 (0 : Fin 3) ∗ atPos ER (lcCell c k) 0 ∅ 0 ∗ (oL c ↦[(oCk c k).view.set]{fullShare} m (oL c))))
    ∗ (bigSep Finset.univ fun jk : Fin 3 × Fin 16 => iprop(dutyTok ER (sdCell c jk.1 jk.2) 0 (0 : Fin 3) ∗ dutyTok ER (rvCell (pr c jk.1) jk.1 jk.2) 0 (0 : Fin 3)
        ∗ atPos ER (sdCell c jk.1 jk.2) 0 ∅ 0 ∗ cred (tallyAt (rvCell c jk.1 jk.2) () NO) ∗ atPos ER (rvCell c jk.1 jk.2) 0 ∅ 0)))

/-- What is left when the last wait has returned. -/
def Closed : sProp 𝕄 :=
  iprop((bigSep Finset.univ fun k : Fin 16 => (xL c ↦[(xCk k).view.set]{fullShare} Xc m c))
    ∗ (bigSep Finset.univ fun i : Fin 2 => iprop(∃ fd : Buf (Elt F) (fL c), fL c ↦[(fSt i).view.set]{fullShare} fd))
    ∗ (bigSep Finset.univ fun k : Fin 16 => iprop((bL c ↦[(bPc k c).view.set]{fullShare} BB m c k) ∗ (oL c ↦[(oCk c k).view.set]{fullShare} OC m c c k) ∗ atPos ER (lcCell c k) 1 ∅ 0))
    ∗ (bigSep Finset.univ fun jk : Fin 3 × Fin 16 => iprop((bL c ↦[(bPc jk.2 (pr c jk.1)).view.set]{fullShare} BB m c jk.2)
        ∗ (oL c ↦[(oCk (qr c jk.1) jk.2).view.set]{fullShare} OC m c (qr c jk.1) jk.2) ∗ atPos ER (sdCell c jk.1 jk.2) 1 ∅ 0 ∗ atPos ER (rvCell c jk.1 jk.2) 1 ∅ 0))
    ∗ atPos ER (cpCell c 0) 8 ∅ 0 ∗ atPos ER (cpCell c 1) 8 ∅ 0 ∗ ∃ W, owes (c : Thread nD τ) 0 W)

end Open

end Cert.KernelIdeal.A2A

end
-- ==== Proof.Tiling.lean ====
/-
  How each array is cut by its pieces: the sixteen chunks of 256 rows of the device's part of `x`, the two staging
  slots, the 16 × 4 pieces (256 rows × 1024 columns) of the rounded array, and the 4 × 16 chunks of 256 rows of the
  result. Each family is pairwise disjoint and covers its array; membership is by coordinates.
-/
import proofs.«900006_g7700000000000007_dist_a2a_v7x_i4_i_m4096_n1024_bf16_1_alg».proof.Proof.Pieces
import proofs.«900006_g7700000000000007_dist_a2a_v7x_i4_i_m4096_n1024_bf16_1_alg».proof.Proof.Gen.KernelIdeal
import proofs.«900006_g7700000000000007_dist_a2a_v7x_i4_i_m4096_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces' element sets are rectangles of the arrays -/

theorem xCk_set (k : Fin 16) :
    (xCk k).view.set = (Rect.unit (s := S4096x4096) (xOff k) S256x4096.size (xOff_inb k)).set :=
  View.set_slice_whole main_arg0 _

theorem fSt_set (i : Fin 2) : (fSt i).view.set = (fRect i).set := by
  show (((View.whole cc0_scratch0).slice (fRect i)).reshape S256x4096 _).set = _
  rw [View.set_reshape]; exact View.set_slice_whole cc0_scratch0 _

theorem bPc_set (k : Fin 16) (t : Dev nD) :
    (bPc k t).view.set = (Rect.unit (s := S4096x4096) (bOff k t) S256x1024.size (bOff_inb k t)).set :=
  View.set_slice_whole cc0_scratch1 _

theorem oCk_set (s : Dev nD) (k : Fin 16) :
    (oCk s k).view.set = (Rect.unit (s := S16384x1024) (oOff s k) S256x1024.size (oOff_inb s k)).set :=
  View.set_slice_whole main_v1 _

/-- What the store of chunk `k` writes: the chunk's rows of the rounded array. -/
theorem bRows_set (k : Fin 16) :
    ((bM : Memref sig .tc .vmem S4096x4096 .bf16).access (bRows k)).setOn Finset.univ = (bRows k).set :=
  View.set_slice_whole cc0_scratch1 _

/-- The same rows, as a load of them sees them. -/
theorem bRows_loadSet (k : Fin 16) :
    (bM : Memref sig .tc .vmem S4096x4096 .bf16).view.setOn (bRows k).toLoadRect.set = (bRows k).set :=
  Finset.map_refl

/-- What the load of staging slot `i` reads is the slot. -/
theorem fRect_loadSet (i : Fin 2) :
    (fM : Memref sig .tc .vmem S2x256x4096 .f32).view.setOn (fRect i).toLoadRect.set = (fSt i).view.set := by
  rw [fSt_set]; exact Finset.map_refl

theorem bRows_loadSet_eq (k : Fin 16) :
    (bM : Memref sig .tc .vmem S4096x4096 .bf16).view.setOn (bRows k).toLoadRect.set
      = ((bM : Memref sig .tc .vmem S4096x4096 .bf16).access (bRows k)).setOn Finset.univ := by
  rw [bRows_loadSet, bRows_set]

/-! ## Membership by coordinates -/

theorem mem_xCk (k : Fin 16) (i : (xM : Memref sig .tc .hbm S4096x4096 .f32).view.ty.Idx) :
    i ∈ (xCk k).view.set ↔ 256 * k.val ≤ (i 0).val ∧ (i 0).val < 256 * k.val + 256 := by
  rw [xCk_set, Rect.mem_set_unit]
  refine Fin.forall_fin_two.trans ?_
  show (256 * k.val ≤ (i 0).val ∧ (i 0).val < 256 * k.val + 256) ∧ (0 ≤ (i 1).val ∧ (i 1).val < 0 + 4096) ↔ _
  have h1 : (i 1).val < 4096 := (i 1).isLt
  constructor
  · rintro ⟨h0, _⟩; exact h0
  · intro h0; exact ⟨h0, Nat.zero_le _, by omega⟩

theorem mem_fSt (i : Fin 2) (x : (fM : Memref sig .tc .vmem S2x256x4096 .f32).view.ty.Idx) :
    x ∈ (fSt i).view.set ↔ (x 0).val = i.val := by
  rw [fSt_set, Rect.mem_set_unit]
  refine (Fin.forall_fin_succ.trans (and_congr Iff.rfl Fin.forall_fin_two)).trans ?_
  show (i.val ≤ (x 0).val ∧ (x 0).val < i.val + 1) ∧ (0 ≤ (x 1).val ∧ (x 1).val < 0 + 256)
    ∧ (0 ≤ (x 2).val ∧ (x 2).val < 0 + 4096) ↔ _
  have h1 : (x 1).val < 256 := (x 1).isLt
  have h2 : (x 2).val < 4096 := (x 2).isLt
  constructor
  · rintro ⟨h0, _⟩; omega
  · intro h0; exact ⟨by omega, ⟨Nat.zero_le _, by omega⟩, Nat.zero_le _, by omega⟩

theorem mem_bPc (k : Fin 16) (t : Dev nD) (i : (bM : Memref sig .tc .vmem S4096x4096 .bf16).view.ty.Idx) :
    i ∈ (bPc k t).view.set ↔ 256 * k.val ≤ (i 0).val ∧ (i 0).val < 256 * k.val + 256
      ∧ 1024 * t.val ≤ (i 1).val ∧ (i 1).val < 1024 * t.val + 1024 := by
  rw [bPc_set, Rect.mem_set_unit]
  refine Fin.forall_fin_two.trans ?_
  show (256 * k.val ≤ (i 0).val ∧ (i 0).val < 256 * k.val + 256)
    ∧ (1024 * t.val ≤ (i 1).val ∧ (i 1).val < 1024 * t.val + 1024) ↔ _
  constructor
  · rintro ⟨⟨a, b⟩, c, d⟩; exact ⟨a, b, c, d⟩
  · rintro ⟨a, b, c, d⟩; exact ⟨⟨a, b⟩, c, d⟩

theorem mem_oCk (s : Dev nD) (k : Fin 16) (i : (oM : Memref sig .tc .hbm S16384x1024 .bf16).view.ty.Idx) :
    i ∈ (oCk s k).view.set ↔ 4096 * s.val + 256 * k.val ≤ (i 0).val ∧ (i 0).val < 4096 * s.val + 256 * k.val + 256 := by
  rw [oCk_set, Rect.mem_set_unit]
  refine Fin.forall_fin_two.trans ?_
  show (4096 * s.val + 256 * k.val ≤ (i 0).val ∧ (i 0).val < 4096 * s.val + 256 * k.val + 256)
    ∧ (0 ≤ (i 1).val ∧ (i 1).val < 0 + 1024) ↔ _
  have h1 : (i 1).val < 1024 := (i 1).isLt
  constructor
  · rintro ⟨h0, _⟩; exact h0
  · intro h0; exact ⟨h0, Nat.zero_le _, by omega⟩

theorem mem_bRows_rect (k : Fin 16) (i : S4096x4096.Idx) :
    i ∈ (bRows k).set ↔ 256 * k.val ≤ (i 0).val ∧ (i 0).val < 256 * k.val + 256 := by
  rw [Rect.mem_set_unit]
  refine Fin.forall_fin_two.trans ?_
  show (256 * k.val ≤ (i 0).val ∧ (i 0).val < 256 * k.val + 256) ∧ (0 ≤ (i 1).val ∧ (i 1).val < 0 + 4096) ↔ _
  have h1 : (i 1).val < 4096 := (i 1).isLt
  constructor
  · rintro ⟨h0, _⟩; exact h0
  · intro h0; exact ⟨h0, Nat.zero_le _, by omega⟩

theorem mem_bRows (k : Fin 16) (i : (bM : Memref sig .tc .vmem S4096x4096 .bf16).view.ty.Idx) :
    i ∈ ((bM : Memref sig .tc .vmem S4096x4096 .bf16).access (bRows k)).setOn Finset.univ
      ↔ 256 * k.val ≤ (i 0).val ∧ (i 0).val < 256 * k.val + 256 := by
  rw [bRows_set]; exact mem_bRows_rect k i

theorem mem_bRows_load (k : Fin 16) (i : (bM : Memref sig .tc .vmem S4096x4096 .bf16).view.ty.Idx) :
    i ∈ (bM : Memref sig .tc .vmem S4096x4096 .bf16).view.setOn (bRows k).toLoadRect.set
      ↔ 256 * k.val ≤ (i 0).val ∧ (i 0).val < 256 * k.val + 256 := by
  rw [bRows_loadSet]; exact mem_bRows_rect k i

theorem mem_fRect_load (i : Fin 2) (x : (fM : Memref sig .tc .vmem S2x256x4096 .f32).view.ty.Idx) :
    x ∈ (fM : Memref sig .tc .vmem S2x256x4096 .f32).view.setOn (fRect i).toLoadRect.set ↔ (x 0).val = i.val := by
  rw [fRect_loadSet]; exact mem_fSt i x

/-! ## Each family is pairwise disjoint and covers its array -/

theorem xCk_cover : (Finset.univ : Finset (xM : Memref sig .tc .hbm S4096x4096 .f32).view.ty.Idx)
    = Finset.univ.biUnion (fun k : Fin 16 => (xCk k).view.set) := by
  symm; rw [Finset.eq_univ_iff_forall]; intro i; rw [Finset.mem_biUnion]
  have h0 : (i 0).val < 4096 := (i 0).isLt
  have hk : (i 0).val / 256 < 16 := by omega
  refine ⟨⟨(i 0).val / 256, hk⟩, Finset.mem_univ _, ?_⟩
  rw [mem_xCk]
  show 256 * ((i 0).val / 256) ≤ (i 0).val ∧ (i 0).val < 256 * ((i 0).val / 256) + 256
  omega

theorem xCk_disj : ∀ k k' : Fin 16, k ≠ k' → Disjoint (xCk k).view.set (xCk k').view.set := by
  intro k k' h
  rw [Finset.disjoint_left]
  intro i hi hi'
  rw [mem_xCk] at hi hi'
  exact h (Fin.ext (by omega))

theorem fSt_cover : (Finset.univ : Finset (fM : Memref sig .tc .vmem S2x256x4096 .f32).view.ty.Idx)
    = Finset.univ.biUnion (fun i : Fin 2 => (fSt i).view.set) := by
  symm; rw [Finset.eq_univ_iff_forall]; intro x; rw [Finset.mem_biUnion]
  have h0 : (x 0).val < 2 := (x 0).isLt
  refine ⟨⟨(x 0).val, h0⟩, Finset.mem_univ _, ?_⟩
  rw [mem_fSt]

theorem fSt_disj : ∀ i i' : Fin 2, i ≠ i' → Disjoint (fSt i).view.set (fSt i').view.set := by
  intro i i' h
  rw [Finset.disjoint_left]
  intro x hx hx'
  rw [mem_fSt] at hx hx'
  exact h (Fin.ext (by omega))

theorem oCk_cover : (Finset.univ : Finset (oM : Memref sig .tc .hbm S16384x1024 .bf16).view.ty.Idx)
    = Finset.univ.biUnion (fun p : Dev nD × Fin 16 => (oCk p.1 p.2).view.set) := by
  symm; rw [Finset.eq_univ_iff_forall]; intro i; rw [Finset.mem_biUnion]
  have h0 : (i 0).val < 16384 := (i 0).isLt
  have hs : (i 0).val / 4096 < 4 := by omega
  have hk : (i 0).val % 4096 / 256 < 16 := by omega
  refine ⟨((⟨(i 0).val / 4096, hs⟩ : Dev nD), (⟨(i 0).val % 4096 / 256, hk⟩ : Fin 16)), Finset.mem_univ _, ?_⟩
  show i ∈ (oCk (⟨(i 0).val / 4096, hs⟩ : Dev nD) (⟨(i 0).val % 4096 / 256, hk⟩ : Fin 16)).view.set
  rw [mem_oCk]
  show 4096 * ((i 0).val / 4096) + 256 * ((i 0).val % 4096 / 256) ≤ (i 0).val
    ∧ (i 0).val < 4096 * ((i 0).val / 4096) + 256 * ((i 0).val % 4096 / 256) + 256
  omega

theorem oCk_disj' (s s' : Dev nD) (k k' : Fin 16) (h : s ≠ s' ∨ k ≠ k') :
    Disjoint (oCk s k).view.set (oCk s' k').view.set := by
  rw [Finset.disjoint_left]
  intro i hi hi'
  rw [mem_oCk] at hi hi'
  have hk := k.isLt
  have hk' := k'.isLt
  rcases h with h | h
  · exact h (Fin.ext (by omega))
  · exact h (Fin.ext (by omega))

theorem oCk_disj : ∀ p p' : Dev nD × Fin 16, p ≠ p' → Disjoint (oCk p.1 p.2).view.set (oCk p'.1 p'.2).view.set := by
  rintro ⟨s, k⟩ ⟨s', k'⟩ h
  refine oCk_disj' s s' k k' ?_
  by_cases e : s = s'
  · exact .inr fun e' => h (by rw [e, e'])
  · exact .inl e

theorem bPc_cover : (Finset.univ : Finset (bM : Memref sig .tc .vmem S4096x4096 .bf16).view.ty.Idx)
    = Finset.univ.biUnion (fun p : Fin 16 × Dev nD => (bPc p.1 p.2).view.set) := by
  symm; rw [Finset.eq_univ_iff_forall]; intro i; rw [Finset.mem_biUnion]
  have h0 : (i 0).val < 4096 := (i 0).isLt
  have h1 : (i 1).val < 4096 := (i 1).isLt
  have hk : (i 0).val / 256 < 16 := by omega
  have ht : (i 1).val / 1024 < 4 := by omega
  refine ⟨((⟨(i 0).val / 256, hk⟩ : Fin 16), (⟨(i 1).val / 1024, ht⟩ : Dev nD)), Finset.mem_univ _, ?_⟩
  show i ∈ (bPc (⟨(i 0).val / 256, hk⟩ : Fin 16) (⟨(i 1).val / 1024, ht⟩ : Dev nD)).view.set
  rw [mem_bPc]
  show 256 * ((i 0).val / 256) ≤ (i 0).val ∧ (i 0).val < 256 * ((i 0).val / 256) + 256
    ∧ 1024 * ((i 1).val / 1024) ≤ (i 1).val ∧ (i 1).val < 1024 * ((i 1).val / 1024) + 1024
  omega

theorem bPc_disj' (k k' : Fin 16) (t t' : Dev nD) (h : k ≠ k' ∨ t ≠ t') :
    Disjoint (bPc k t).view.set (bPc k' t').view.set := by
  rw [Finset.disjoint_left]
  intro i hi hi'
  rw [mem_bPc] at hi hi'
  rcases h with h | h
  · exact h (Fin.ext (by omega))
  · exact h (Fin.ext (by omega))

theorem bPc_disj : ∀ p p' : Fin 16 × Dev nD, p ≠ p' → Disjoint (bPc p.1 p.2).view.set (bPc p'.1 p'.2).view.set := by
  rintro ⟨k, t⟩ ⟨k', t'⟩ h
  refine bPc_disj' k k' t t' ?_
  by_cases e : k = k'
  · exact .inr fun e' => h (by rw [e, e'])
  · exact .inl e

/-- Within one chunk, the pieces to different devices are disjoint. -/
theorem bPc_disj_dev (k : Fin 16) : ∀ t t' : Dev nD, t ≠ t' → Disjoint (bPc k t).view.set (bPc k t').view.set :=
  fun t t' h => bPc_disj' k k t t' (.inr h)

/-- The rows of chunk `k` of the rounded array are its four pieces. -/
theorem bRows_eq (k : Fin 16) :
    ((bM : Memref sig .tc .vmem S4096x4096 .bf16).access (bRows k)).setOn Finset.univ
      = Finset.univ.biUnion (fun t : Dev nD => (bPc k t).view.set) := by
  ext i
  rw [mem_bRows, Finset.mem_biUnion]
  have h1 : (i 1).val < 4096 := (i 1).isLt
  constructor
  · intro h
    have ht : (i 1).val / 1024 < 4 := by omega
    refine ⟨(⟨(i 1).val / 1024, ht⟩ : Dev nD), Finset.mem_univ _, ?_⟩
    rw [mem_bPc]
    refine ⟨h.1, h.2, ?_⟩
    show 1024 * ((i 1).val / 1024) ≤ (i 1).val ∧ (i 1).val < 1024 * ((i 1).val / 1024) + 1024
    omega
  · rintro ⟨t, -, ht⟩
    rw [mem_bPc] at ht
    exact ⟨ht.1, ht.2.1⟩

theorem bRows_cover : (Finset.univ : Finset (bM : Memref sig .tc .vmem S4096x4096 .bf16).view.ty.Idx)
    = Finset.univ.biUnion (fun k : Fin 16 => ((bM : Memref sig .tc .vmem S4096x4096 .bf16).access (bRows k)).setOn Finset.univ) := by
  symm; rw [Finset.eq_univ_iff_forall]; intro i; rw [Finset.mem_biUnion]
  have h0 : (i 0).val < 4096 := (i 0).isLt
  have hk : (i 0).val / 256 < 16 := by omega
  refine ⟨⟨(i 0).val / 256, hk⟩, Finset.mem_univ _, ?_⟩
  rw [mem_bRows]
  show 256 * ((i 0).val / 256) ≤ (i 0).val ∧ (i 0).val < 256 * ((i 0).val / 256) + 256
  omega

theorem bRows_disj : ∀ k k' : Fin 16, k ≠ k' →
    Disjoint (((bM : Memref sig .tc .vmem S4096x4096 .bf16).access (bRows k)).setOn Finset.univ)
      (((bM : Memref sig .tc .vmem S4096x4096 .bf16).access (bRows k')).setOn Finset.univ) := by
  intro k k' h
  rw [Finset.disjoint_left]
  intro i hi hi'
  rw [mem_bRows] at hi hi'
  exact h (Fin.ext (by omega))

/-- info: 'Cert.KernelIdeal.A2A.mem_xCk' depends on axioms: [propext, Classical.choice, Quot.sound] -/
#guard_msgs in #print axioms mem_xCk

/-- info: 'Cert.KernelIdeal.A2A.mem_fSt' depends on axioms: [propext, Classical.choice, Quot.sound] -/
#guard_msgs in #print axioms mem_fSt

/-- info: 'Cert.KernelIdeal.A2A.mem_bPc' depends on axioms: [propext, Classical.choice, Quot.sound] -/
#guard_msgs in #print axioms mem_bPc

/-- info: 'Cert.KernelIdeal.A2A.mem_oCk' depends on axioms: [propext, Classical.choice, Quot.sound] -/
#guard_msgs in #print axioms mem_oCk

/-- info: 'Cert.KernelIdeal.A2A.mem_bRows' depends on axioms: [propext, Classical.choice, Quot.sound] -/
#guard_msgs in #print axioms mem_bRows

/-- info: 'Cert.KernelIdeal.A2A.mem_bRows_load' depends on axioms: [propext, Classical.choice, Quot.sound] -/
#guard_msgs in #print axioms mem_bRows_load

/-- info: 'Cert.KernelIdeal.A2A.mem_fRect_load' depends on axioms: [propext, Classical.choice, Quot.sound] -/
#guard_msgs in #print axioms mem_fRect_load

/-- info: 'Cert.KernelIdeal.A2A.fRect_loadSet' depends on axioms: [propext, Classical.choice, Quot.sound] -/
#guard_msgs in #print axioms fRect_loadSet

/-- info: 'Cert.KernelIdeal.A2A.bRows_loadSet_eq' depends on axioms: [propext, Classical.choice, Quot.sound] -/
#guard_msgs in #print axioms bRows_loadSet_eq

/-- info: 'Cert.KernelIdeal.A2A.xCk_cover' depends on axioms: [propext, Classical.choice, Quot.sound] -/
#guard_msgs in #print axioms xCk_cover

/-- info: 'Cert.KernelIdeal.A2A.xCk_disj' depends on axioms: [propext, Classical.choice, Quot.sound] -/
#guard_msgs in #print axioms xCk_disj

/-- info: 'Cert.KernelIdeal.A2A.fSt_cover' depends on axioms: [propext, Classical.choice, Quot.sound] -/
#guard_msgs in #print axioms fSt_cover

/-- info: 'Cert.KernelIdeal.A2A.fSt_disj' depends on axioms: [propext, Classical.choice, Quot.sound] -/
#guard_msgs in #print axioms fSt_disj

/-- info: 'Cert.KernelIdeal.A2A.oCk_cover' depends on axioms: [propext, Classical.choice, Quot.sound] -/
#guard_msgs in #print axioms oCk_cover

/-- info: 'Cert.KernelIdeal.A2A.oCk_disj' depends on axioms: [propext, Classical.choice, Quot.sound] -/
#guard_msgs in #print axioms oCk_disj

/-- info: 'Cert.KernelIdeal.A2A.bPc_cover' depends on axioms: [propext, Classical.choice, Quot.sound] -/
#guard_msgs in #print axioms bPc_cover

/-- info: 'Cert.KernelIdeal.A2A.bPc_disj' depends on axioms: [propext, Classical.choice, Quot.sound] -/
#guard_msgs in #print axioms bPc_disj

/-- info: 'Cert.KernelIdeal.A2A.bRows_eq' depends on axioms: [propext, Classical.choice, Quot.sound] -/
#guard_msgs in #print axioms bRows_eq

/-- info: 'Cert.KernelIdeal.A2A.bRows_cover' depends on axioms: [propext, Classical.choice, Quot.sound] -/
#guard_msgs in #print axioms bRows_cover

/-- info: 'Cert.KernelIdeal.A2A.bRows_disj' depends on axioms: [propext, Classical.choice, Quot.sound] -/
#guard_msgs in #print axioms bRows_disj

end Cert.KernelIdeal.A2A

end
-- ==== Proof.OpsLocal.lean ====
/-
  The steps of the body that stay on the device: staging a chunk, rounding and storing it, copying its own column
  block into the device's own result.
  Each lemma: what the step consumes ⊢ (what it leaves -∗ the rest of the body) -∗ the body from this step.
-/
import proofs.«900006_g7700000000000007_dist_a2a_v7x_i4_i_m4096_n1024_bf16_1_alg».proof.Proof.Ghost
import proofs.«900006_g7700000000000007_dist_a2a_v7x_i4_i_m4096_n1024_bf16_1_alg».proof.Proof.Tiling
import proofs.«900006_g7700000000000007_dist_a2a_v7x_i4_i_m4096_n1024_bf16_1_alg».proof.Proof.Values

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (c : Dev nD) (K : Dev nD × CI → ℕ)

/-! ## A cell's invariant and its round-0 fact, out of the records -/

/-- The number of a DMA semaphore's cell among a device's cells. -/
private def ciOf (s : DmaSem sig) : CI := ⟨s.val, Nat.lt_succ_of_lt s.isLt⟩

omit [FloatOps F] in
private theorem kcell_dma (c' : Dev nD) (s : DmaSem sig) : kcell (c', ciOf s) = ((c' : Thread nD τ), SemLoc.dma s) := by
  unfold kcell ciOf
  rw [dif_pos (show (s.val : ℕ) < 114 from s.isLt)]

private theorem inv_at (ck : Dev nD × CI) :
    (bigSep Finset.univ fun ck : Dev nD × CI => (cellInv ER (sched m) (K ck) (kcell ck) : sProp 𝕄))
      ⊢ cellInv ER (sched m) (K ck) (kcell ck) :=
  bigSep_elim (Finset.mem_univ ck)

omit [FloatOps F] in
private theorem reached_at (ck : Dev nD × CI) :
    (bigSep Finset.univ fun ck : Dev nD × CI => (reached ER (kcell ck) 0 : sProp 𝕄)) ⊢ reached ER (kcell ck) 0 :=
  bigSep_elim (Finset.mem_univ ck)

private theorem inv_dma (c' : Dev nD) (s : DmaSem sig) :
    records m K ⊢ cellInv ER (sched m) (K (c', ciOf s)) ((c' : Thread nD τ), SemLoc.dma s) := by
  unfold records
  iintro ⟨#HI, -⟩
  rw [← kcell_dma c' s]
  iapply (inv_at m K (c', ciOf s)); iexact HI

private theorem reached0_dma (c' : Dev nD) (s : DmaSem sig) :
    records m K ⊢ reached ER ((c' : Thread nD τ), SemLoc.dma s) 0 := by
  unfold records
  iintro ⟨-, #HR⟩
  rw [← kcell_dma c' s]
  iapply (reached_at (F := F) (c', ciOf s)); iexact HR

/-- The chunk staged by round `k / 2` of chunk `k`'s slot is chunk `k`. -/
private theorem ckOf_slot (k : Fin 16) : ckOf (slot k) (k.val / 2) = k := by revert k; decide

private theorem half_lt (k : Fin 16) : k.val / 2 < 8 := by have := k.isLt; omega

/-- What the wait for chunk `k`'s staging hands over. -/
private theorem rest_cp (k : Fin 16) :
    bigSep ((sched (F := F) m).duties (cpCell c (slot k)) (k.val / 2) \ ∅)
        (fun d => (sched (F := F) m).payload (cpCell c (slot k)) (k.val / 2) d) = cpPay m c k := by
  rw [Finset.sdiff_empty, duties_cp m c (slot k) (k.val / 2) (half_lt k), bigSep_singleton, payload_cp, ckOf_slot]

/-- Chunk `k`'s copy into its staging slot is issued. -/
theorem op_enq_in (k : Fin 16) {hsrc hdst hsem} {α : Type} {Q : α → sProp 𝕄} {kk : PUnit → Prog (TpuEff nD τ sig (Elt F) Λ₀ .tc) α} :
    iprop(records m K ∗ reached ER (cpCell c (slot k)) (k.val / 2) ∗ dutyTok ER (cpCell c (slot k)) (k.val / 2) (0 : Fin 3)
        ∗ (xL c ↦[(xCk k).view.set]{fullShare} Xc m c)
        ∗ (∃ fd : Buf (Elt F) (fL c), fL c ↦[(fSt (slot k)).view.set]{fullShare} fd))
      ⊢ iprop((cred (tallyAt (cpCell c (slot k)) () NF) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xCk k) (.here (fSt (slot k))) (.dma (cpS (slot k))) hsrc hdst hsem) kk) Q) := by
  iintro ⟨#HR, #Hr, Htok, Hx, ⟨%fd, Hf⟩⟩
  iapply (Rounds.wp_copy_pointsTo 𝒱₀ ER (sched m) (c : Thread nD τ) none (src := xCk k) (dst := fSt (slot k)) (sem := SemLoc.dma (cpS (slot k)))
      (q := fullShare) (fs := Xc m c) (fd := fd) (r := k.val / 2) (d := (0 : Fin 3)) (κ := K (c, ciOf (cpS (slot k))))
      (by rw [duties_cp m c (slot k) (k.val / 2) (half_lt k)]; exact Finset.mem_singleton_self _) () NF rfl (amount_cp m c (slot k) (k.val / 2) 0)
      (by rw [payload_cp, ckOf_slot]; unfold cpPay; rw [pointsTo_congr (FB_congr m c k fd)])) $$ [Htok Hx Hf]
  isplitr; · iapply (inv_dma m K c (cpS (slot k))); iexact HR
  isplitl [Hx]; · iexact Hx
  isplitl [Hf]; · iexact Hf
  isplitl [Htok]; · iexact Htok
  iexact Hr

/-- Chunk `k` has landed in its slot; it is loaded, rounded and stored into its rows of the rounded array (the
    load of those rows before the store reads nothing that is used). -/
theorem op_stage (k : Fin 16) (O : CellTallies nD τ sig Unit) (W : Waits sig Unit) {h1 h2 hl1 hl2 hx hm}
    {α : Type} {Q : α → sProp 𝕄} {k' : PUnit → Prog (TpuEff nD τ sig (Elt F) Λ₀ .tc) α} :
    iprop(records m K ∗ cred (tallyAt (cpCell c (slot k)) () NF) ∗ owes (c : Thread nD τ) O W
        ∗ MayWait (c : Thread nD τ) (.dma (cpS (slot k))) () O ∗ atPos ER (cpCell c (slot k)) (k.val / 2) ∅ 0
        ∗ (∃ fb : Buf (Elt F) (bL c), bL c ↦[((bM : Memref sig .tc .vmem S4096x4096 .bf16).access (bRows k)).setOn Finset.univ]{fullShare} fb))
      ⊢ iprop(((owes (c : Thread nD τ) O (insert (SemLoc.dma (cpS (slot k)), ()) W)
              ∗ atPos ER (cpCell c (slot k)) (k.val / 2 + 1) ∅ 0 ∗ reached ER (cpCell c (slot k)) (k.val / 2 + 1)
              ∗ (fL c ↦[(fSt (slot k)).view.set]{fullShare} FB m c k) ∗ (xL c ↦[(xCk k).view.set]{fullShare} Xc m c)
              ∗ (bL c ↦[((bM : Memref sig .tc .vmem S4096x4096 .bf16).access (bRows k)).setOn Finset.univ]{fullShare} BB m c k))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (cpS (slot k)) (xCk k) (fSt (slot k)) h1 h2) fun _ =>
                .op (.load (fM : Memref sig .tc .vmem S2x256x4096 .f32) (fRect (slot k)).toLoadRect hl1) fun v =>
                .op (.load (bM : Memref sig .tc .vmem S4096x4096 .bf16) (bRows k).toLoadRect hl2) fun _ =>
                .op (.store (bM : Memref sig .tc .vmem S4096x4096 .bf16) (bRows k) (pay v) Finset.univ hx hm) k') Q) := by
  iintro ⟨#HR, Hc, HO, HM, Hat, ⟨%fb, Hb⟩⟩ Hk
  -- the wait on the staging semaphore: the slot holding the chunk, and the chunk's rows of `x` back
  iapply (Rounds.wp_wait_rest_token 𝒱₀ ER (sched m) (c : Thread nD τ) none (κ := K (c, ciOf (cpS (slot k))))
      (wpE_waitDma2_eq 𝒱₀ (c : Thread nD τ) none Set.univ) (Set.mem_univ _) () (O := O) (W := W) (R := k.val / 2) (m := 0) (T := ∅)
      (by rw [Nat.zero_add, expect_cp m c (slot k) (k.val / 2) (half_lt k)])) $$ [Hc HO HM Hat]
  · isplitr; · iapply (inv_dma m K c (cpS (slot k))); iexact HR
    isplitl [Hc]; · iexact Hc
    isplitl [HO]; · iexact HO
    isplitl [HM]; · iexact HM
    iexact Hat
  iintro ⟨HO, Hat, #Hr1, Hpay⟩
  ihave Hp := (Entails.of_eq (rest_cp m c k)) $$ Hpay
  unfold cpPay
  icases Hp with ⟨Hf, Hx⟩
  -- the load of the slot
  iapply (wp_load 𝒱₀ (c : Thread nD τ) none Set.univ (m := (fM : Memref sig .tc .vmem S2x256x4096 .f32)) (r := (fRect (slot k)).toLoadRect)
      (S := (fSt (slot k)).view.set) (q := fullShare) (f := FB m c k) (by rw [fRect_loadSet])) $$ Hf
  iintro Hf
  -- the load of the chunk's rows of the rounded array
  iapply (wp_load 𝒱₀ (c : Thread nD τ) none Set.univ (m := (bM : Memref sig .tc .vmem S4096x4096 .bf16)) (r := (bRows k).toLoadRect)
      (S := ((bM : Memref sig .tc .vmem S4096x4096 .bf16).access (bRows k)).setOn Finset.univ) (q := fullShare) (f := fb)
      (by rw [bRows_loadSet_eq])) $$ Hb
  iintro Hb
  -- the store of the rounded chunk
  iapply (wp_store 𝒱₀ (c : Thread nD τ) none Set.univ (m := (bM : Memref sig .tc .vmem S4096x4096 .bf16)) (r := bRows k) (w := pay (ld m c k))
      (Mk := Finset.univ) (S := ((bM : Memref sig .tc .vmem S4096x4096 .bf16).access (bRows k)).setOn Finset.univ) (f := fb)
      subset_rfl) $$ Hb
  iintro Hb
  ihave Hb' := (Entails.of_eq (pointsTo_congr (BB_congr m c k fb))) $$ Hb
  iapply Hk
  isplitl [HO]; · iexact HO
  isplitl [Hat]; · iexact Hat
  isplitr; · iexact Hr1
  isplitl [Hf]; · iexact Hf
  isplitl [Hx]; · iexact Hx
  iexact Hb'

/-- Chunk `k`'s own column block is copied into the device's own result. -/
theorem op_enq_lc (k : Fin 16) (offB offO : Fin 2 → Nat) (hoffB : offB = bOff k c) (hoffO : offO = oOff c k)
    {hb ho hsrc hdst hsem} (g : Buf (Elt F) (oL c)) {α : Type} {Q : α → sProp 𝕄} {kk : PUnit → Prog (TpuEff nD τ sig (Elt F) Λ₀ .tc) α} :
    iprop(records m K ∗ dutyTok ER (lcCell c k) 0 (0 : Fin 3)
        ∗ (bL c ↦[(bPc k c).view.set]{fullShare} BB m c k) ∗ (oL c ↦[(oCk c k).view.set]{fullShare} g))
      ⊢ iprop((cred (tallyAt (lcCell c k) () NO) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (bSl offB hb) (.here (oSl offO ho)) (.dma (lcS k)) hsrc hdst hsem) kk) Q) := by
  subst hoffB hoffO
  iintro ⟨#HR, Htok, Hb, Ho⟩
  iapply (Rounds.wp_copy_pointsTo 𝒱₀ ER (sched m) (c : Thread nD τ) none (src := bPc k c) (dst := oCk c k) (sem := SemLoc.dma (lcS k))
      (q := fullShare) (fs := BB m c k) (fd := g) (r := 0) (d := (0 : Fin 3)) (κ := K (c, ciOf (lcS k)))
      (by rw [duties_lc]; exact Finset.mem_singleton_self _) () NO rfl (amount_lc m c k 0)
      (by rw [payload_lc]; unfold lcPay; rw [pointsTo_congr (OC_congr m c c k g)])) $$ [Htok Hb Ho]
  isplitr; · iapply (inv_dma m K c (lcS k)); iexact HR
  isplitl [Hb]; · iexact Hb
  isplitl [Ho]; · iexact Ho
  isplitl [Htok]; · iexact Htok
  iapply (reached0_dma m K c (lcS k)); iexact HR

end Ops

/-- info: 'Cert.KernelIdeal.A2A.op_enq_in' depends on axioms: [propext, Classical.choice, Quot.sound] -/
#guard_msgs in #print axioms op_enq_in

/-- info: 'Cert.KernelIdeal.A2A.op_stage' depends on axioms: [propext, Classical.choice, Quot.sound] -/
#guard_msgs in #print axioms op_stage

/-- info: 'Cert.KernelIdeal.A2A.op_enq_lc' depends on axioms: [propext, Classical.choice, Quot.sound] -/
#guard_msgs in #print axioms op_enq_lc

end Cert.KernelIdeal.A2A

end
-- ==== Proof.OpsRemote.lean ====
/-
  The steps of the body that cross devices or close the protocol: the barrier units, the sends, and the final waits.
  Each lemma: what the step consumes ⊢ (what it leaves -∗ the rest of the body) -∗ the body from this step.
-/
import proofs.«900006_g7700000000000007_dist_a2a_v7x_i4_i_m4096_n1024_bf16_1_alg».proof.Proof.Ghost
import proofs.«900006_g7700000000000007_dist_a2a_v7x_i4_i_m4096_n1024_bf16_1_alg».proof.Proof.Tiling
import proofs.«900006_g7700000000000007_dist_a2a_v7x_i4_i_m4096_n1024_bf16_1_alg».proof.Proof.Values

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (c : Dev nD) (K : Dev nD × CI → ℕ)

/-! ## A cell's invariant and its round-0 fact, out of the records -/

private def dmaIx (s : DmaSem sig) : CI := ⟨s.val, by have h : s.val < 114 := s.isLt; omega⟩
private def barIx : CI := ⟨114, by decide⟩

private theorem kcell_dma (c' : Dev nD) (s : DmaSem sig) : kcell (c', dmaIx s) = ((c' : Thread nD τ), .dma s) := by
  unfold kcell dmaIx
  rw [dif_pos (show s.val < 114 from s.isLt)]
private theorem kcell_bar (c' : Dev nD) : kcell (c', barIx) = barCell c' := by
  unfold kcell barIx
  rw [dif_neg (Nat.lt_irrefl 114)]

private theorem inv_dma (c' : Dev nD) (s : DmaSem sig) :
    records m K ⊢ cellInv ER (sched m) (K (c', dmaIx s)) ((c' : Thread nD τ), .dma s) := by
  have h : (bigSep Finset.univ fun ck : Dev nD × CI => (cellInv ER (sched m) (K ck) (kcell ck) : sProp 𝕄))
      ⊢ cellInv ER (sched m) (K (c', dmaIx s)) (kcell (c', dmaIx s)) := bigSep_elim (Finset.mem_univ _)
  rw [kcell_dma] at h
  unfold records
  exact sep_elim_left.trans h
private theorem reached_dma (c' : Dev nD) (s : DmaSem sig) :
    records m K ⊢ reached ER ((c' : Thread nD τ), .dma s) 0 := by
  have h : (bigSep Finset.univ fun ck : Dev nD × CI => (reached ER (kcell ck) 0 : sProp 𝕄))
      ⊢ reached ER (kcell (c', dmaIx s)) 0 := bigSep_elim (Finset.mem_univ _)
  rw [kcell_dma] at h
  unfold records
  exact sep_elim_right.trans h
private theorem inv_bar (c' : Dev nD) :
    records m K ⊢ cellInv ER (sched m) (K (c', barIx)) (barCell c') := by
  have h : (bigSep Finset.univ fun ck : Dev nD × CI => (cellInv ER (sched m) (K ck) (kcell ck) : sProp 𝕄))
      ⊢ cellInv ER (sched m) (K (c', barIx)) (kcell (c', barIx)) := bigSep_elim (Finset.mem_univ _)
  rw [kcell_bar] at h
  unfold records
  exact sep_elim_left.trans h
private theorem reached_bar (c' : Dev nD) :
    records m K ⊢ reached ER (barCell c') 0 := by
  have h : (bigSep Finset.univ fun ck : Dev nD × CI => (reached ER (kcell ck) 0 : sProp 𝕄))
      ⊢ reached ER (kcell (c', barIx)) 0 := bigSep_elim (Finset.mem_univ _)
  rw [kcell_bar] at h
  unfold records
  exact sep_elim_right.trans h

/-- The credit of any 256 × 1024 piece of a result: it reads only the buffer, the shape and the element type. -/
private theorem credit_oSl (off : Fin 2 → Nat) (h : ∀ a, off a + S256x1024.size a ≤ S16384x1024.size a) :
    (oSl off h).view.dmaCredit = NO := by
  unfold View.dmaCredit
  rfl

/-- The credit of any 256 × 1024 piece of the rounded array: the same number. -/
private theorem credit_bSl (off : Fin 2 → Nat) (h : ∀ a, off a + S256x1024.size a ≤ S4096x4096.size a) :
    (bSl off h).view.dmaCredit = NO := by
  unfold View.dmaCredit
  rfl

/-! ## The payloads of a cell's one round, listed -/

private theorem rest_lc (k : Fin 16) :
    bigSep ((sched (F := F) m).duties (lcCell c k) 0 \ ∅) (fun d => (sched (F := F) m).payload (lcCell c k) 0 d) = lcPay m c k := by
  rw [Finset.sdiff_empty, duties_lc, bigSep_singleton, payload_lc]
private theorem rest_sd (j : Fin 3) (k : Fin 16) :
    bigSep ((sched (F := F) m).duties (sdCell c j k) 0 \ ∅) (fun d => (sched (F := F) m).payload (sdCell c j k) 0 d) = sdPay m c j k := by
  rw [Finset.sdiff_empty, duties_sd, bigSep_singleton, payload_sd]
private theorem rest_rv (j : Fin 3) (k : Fin 16) :
    bigSep ((sched (F := F) m).duties (rvCell c j k) 0 \ ∅) (fun d => (sched (F := F) m).payload (rvCell c j k) 0 d) = rvPay m c j k := by
  rw [Finset.sdiff_empty, duties_rv, bigSep_singleton, payload_rv]
private theorem rest_bar :
    bigSep ((sched (F := F) m).duties (barCell c) 0 \ ∅) (fun d => (sched (F := F) m).payload (barCell c) 0 d)
      = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons,
    bigSepL_singleton]
  rfl

/-- The unit signalled to the barrier cell of the peer `j + 1` places on: it carries the rows of this device's result
    that peer will write. -/
theorem op_signal (j : Fin 3) (dv : Dev nD) (hdv : dv = pr c j) (f : ℕ) (W : Waits sig Unit) {α : Type} {Q : α → sProp 𝕄} {kk : PUnit → Prog (TpuEff nD τ sig (Elt F) Λ₀ .tc) α} :
    iprop(records m K ∗ owes (c : Thread nD τ) (owedFrom c (f + 1) j.val) W ∗ dutyTok ER (barCell (pr c j)) 0 j ∗ barPay (F := F) (pr c j) j)
      ⊢ iprop((owes (c : Thread nD τ) (owedFrom c f (j.val + 1)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((dv, Proc.tc) : Thread nD τ) barS (1#32).toNat) kk) Q) := by
  subst hdv
  iintro ⟨#Hrec, HO, Htok, Hpay⟩
  ihave #HI := (inv_bar m K (pr c j)) $$ Hrec
  ihave #Hr := (reached_bar m K (pr c j)) $$ Hrec
  iapply (Rounds.wp_signal 𝒱₀ ER (sched m) (c : Thread nD τ) none (dst := ((pr c j : Dev nD) : Thread nD τ)) (sem := barS)
      (κ := K (pr c j, barIx)) (r := 0) (d := j)
      (by rw [duties_bar]; exact Finset.mem_univ _) ((amount_bar m (pr c j) j).trans (by decide)) ()
      (O₀ := owedFrom c (f + 1) j.val) (owedFrom c f (j.val + 1))
      (by rw [owedFrom_succ, payTally_bar]; first | rfl | done) (W := W))
    $$ [HO Htok Hpay]
  · isplitr; · iexact HI
    isplitl [HO]; · iexact HO
    isplitl [Htok]; · iexact Htok
    isplitl [Hpay]; · rw [payload_bar]; iexact Hpay
    iexact Hr

/-- The wait for the three peers' units: with them come the rows of the peers' results this device writes. -/
theorem op_bar_wait (W : Waits sig Unit) {α : Type} {Q : α → sProp 𝕄} {kk : PUnit → Prog (TpuEff nD τ sig (Elt F) Λ₀ .tc) α} :
    iprop(records m K ∗ cred (tallyAt (barCell c) () 3) ∗ owes (c : Thread nD τ) (owedFrom c 48 3) W ∗ levAts L lv
        ∗ atPos ER (barCell c) 0 ∅ 0)
      ⊢ iprop(((owes (c : Thread nD τ) (owedFrom c 48 3) (insert (SemLoc.reg barS, ()) W) ∗ atPos ER (barCell c) 1 ∅ 0
              ∗ barPay (F := F) c 0 ∗ barPay (F := F) c 1 ∗ barPay (F := F) c 2) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32).toNat) kk) Q) := by
  iintro ⟨#Hrec, Hc, HO, #Hlev, Hat⟩ Hk
  ihave #HI := (inv_bar m K c) $$ Hrec
  iapply (Rounds.wp_wait_rest_token 𝒱₀ ER (sched m) (c : Thread nD τ) none (κ := K (c, barIx))
      (wpE_semWait_eq 𝒱₀ (c : Thread nD τ) none Set.univ) (Set.mem_univ _) () (O := owedFrom c 48 3) (W := W) (R := 0) (m := 0) (T := ∅)
      (by rw [expect_bar]; decide)) $$ [Hc HO Hat]
  · isplitr; · iexact HI
    isplitl [Hc]; · iexact Hc
    isplitl [HO]; · iexact HO
    isplitr; · iapply (mayWait_low c (.reg barS) (Nat.le_refl 1) 48 3 (Nat.le_refl 3)); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Chunk `k`'s column block for the peer `j + 1` places on is sent into that peer's result; it is payment
    `3 + 3 k + o` of the device, `o` the place of `j` in the order of the chunk's sends. -/
theorem op_send (j : Fin 3) (k : Fin 16) (o : Fin 3) (ho : ordJ o.val = j) (dv : Dev nD) (hdv : dv = pr c j)
    (offB offO : Fin 2 → Nat) (hoffB : offB = bOff k (pr c j)) (hoffO : offO = oOff c k) (f : ℕ) (W : Waits sig Unit)
    {hb hoo hsc hsrc hdst hsem} {α : Type} {Q : α → sProp 𝕄} {kk : PUnit → Prog (TpuEff nD τ sig (Elt F) Λ₀ .tc) α} :
    iprop(records m K ∗ dutyTok ER (sdCell c j k) 0 (0 : Fin 3) ∗ dutyTok ER (rvCell (pr c j) j k) 0 (0 : Fin 3)
        ∗ owes (c : Thread nD τ) (owedFrom c (f + 1) (3 + 3 * k.val + o.val)) W
        ∗ (bL c ↦[(bPc k (pr c j)).view.set]{fullShare} BB m c k)
        ∗ (∃ fd : Buf (Elt F) (oL (pr c j)), oL (pr c j) ↦[(oCk c k).view.set]{fullShare} fd))
      ⊢ iprop(((cred (tallyAt (sdCell c j k) () NO) ∗ owes (c : Thread nD τ) (owedFrom c f (3 + 3 * k.val + o.val + 1)) W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (bSl offB hb) (.remote (Dev.tc dv) (oSl offO hoo) (.dma (sdS j k)) hsc) (.dma (rvS j k)) hsrc hdst hsem) kk) Q) := by
  subst hdv hoffB hoffO
  iintro ⟨#Hrec, HtS, HtR, HO, Hb, ⟨%fd, Ho⟩⟩
  ihave #HIs := (inv_dma m K c (sdS j k)) $$ Hrec
  ihave #HIr := (inv_dma m K (pr c j) (rvS j k)) $$ Hrec
  ihave #Hrs := (reached_dma m K c (sdS j k)) $$ Hrec
  ihave #Hrr := (reached_dma m K (pr c j) (rvS j k)) $$ Hrec
  iapply (Rounds.wp_send_pointsTo 𝒱₀ ER (sched m) (c : Thread nD τ) none (c' := ((pr c j : Dev nD) : Thread nD τ))
      (src := bPc k (pr c j)) (dst := oCk c k) (sS := .dma (sdS j k)) (sem := .dma (rvS j k)) (q := fullShare)
      (fs := BB m c k) (fd := fd)
      (κ₁ := K (c, dmaIx (sdS j k))) (κ₂ := K (pr c j, dmaIx (rvS j k)))
      (r₁ := 0) (r₂ := 0) (d₁ := (0 : Fin 3)) (d₂ := (0 : Fin 3))
      (by rw [duties_sd]; exact Finset.mem_singleton_self _) (by rw [duties_rv]; exact Finset.mem_singleton_self _)
      () () NO rfl (amount_sd m c j k 0) (amount_rv m (pr c j) j k 0)
      (O₀ := owedFrom c (f + 1) (3 + 3 * k.val + o.val)) (owedFrom c f (3 + 3 * k.val + o.val + 1))
      (by rw [owedFrom_succ, payTally_rv, ho]) (W := W)
      (by rw [payload_sd]; exact Entails.rfl)
      (by rw [payload_rv]; unfold rvPay; rw [qr_pr]; exact Entails.of_eq (pointsTo_congr (OC_congr m (pr c j) c k fd))))
    $$ [HtS HtR HO Hb Ho]
  · isplitr; · iexact HIs
    isplitr; · iexact HIr
    isplitl [Hb]; · iexact Hb
    isplitl [Ho]; · iexact Ho
    isplitl [HO]; · iexact HO
    isplitl [HtS]; · iexact HtS
    isplitr; · iexact Hrs
    isplitl [HtR]; · iexact HtR
    iexact Hrr

/-- The three waits that end the body, each on a cell nobody owes after: the device owes nothing by then. -/
theorem op_wait_lc (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (lcCell c k) () NO) ∗ owes (c : Thread nD τ) 0 W ∗ atPos ER (lcCell c k) 0 ∅ 0)
      ⊢ iprop(((owes (c : Thread nD τ) 0 (insert (SemLoc.dma (lcS k), ()) W) ∗ atPos ER (lcCell c k) 1 ∅ 0 ∗ lcPay m c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcS k) (bSl offB hb) (oSl offO ho) h1 h2) kk) Q) := by
  iintro ⟨#Hrec, Hc, HO, Hat⟩ Hk
  ihave #HI := (inv_dma m K c (lcS k)) $$ Hrec
  iapply (Rounds.wp_wait_rest_token 𝒱₀ ER (sched m) (c : Thread nD τ) none (κ := K (c, dmaIx (lcS k)))
      (wpE_waitDma2_eq 𝒱₀ (c : Thread nD τ) none Set.univ) (Set.mem_univ _) () (O := 0) (W := W) (R := 0) (m := 0) (T := ∅)
      (by rw [Nat.zero_add, credit_oSl offO ho, expect_lc])) $$ [Hc HO Hat]
  · isplitr; · iexact HI
    isplitl [Hc]; · rw [credit_oSl offO ho]; iexact Hc
    isplitl [HO]; · iexact HO
    isplitr; · rw [MayWait_zero]; iempintro
    iexact Hat
  iintro ⟨HO, Hat, -, Hpay⟩
  ihave Hp := (Entails.of_eq (rest_lc m c k)) $$ Hpay
  iapply Hk
  isplitl [HO]; · iexact HO
  isplitl [Hat]; · iexact Hat
  iexact Hp

theorem op_wait_sd (j : Fin 3) (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (sdCell c j k) () NO) ∗ owes (c : Thread nD τ) 0 W ∗ atPos ER (sdCell c j k) 0 ∅ 0)
      ⊢ iprop(((owes (c : Thread nD τ) 0 (insert (SemLoc.dma (sdS j k), ()) W) ∗ atPos ER (sdCell c j k) 1 ∅ 0 ∗ sdPay m c j k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sdS j k) (oSl offO ho) (bSl offB hb) h1 h2) kk) Q) := by
  iintro ⟨#Hrec, Hc, HO, Hat⟩ Hk
  ihave #HI := (inv_dma m K c (sdS j k)) $$ Hrec
  iapply (Rounds.wp_wait_rest_token 𝒱₀ ER (sched m) (c : Thread nD τ) none (κ := K (c, dmaIx (sdS j k)))
      (wpE_waitDma2_eq 𝒱₀ (c : Thread nD τ) none Set.univ) (Set.mem_univ _) () (O := 0) (W := W) (R := 0) (m := 0) (T := ∅)
      (by rw [Nat.zero_add, credit_bSl offB hb, expect_sd])) $$ [Hc HO Hat]
  · isplitr; · iexact HI
    isplitl [Hc]; · rw [credit_bSl offB hb]; iexact Hc
    isplitl [HO]; · iexact HO
    isplitr; · rw [MayWait_zero]; iempintro
    iexact Hat
  iintro ⟨HO, Hat, -, Hpay⟩
  ihave Hp := (Entails.of_eq (rest_sd m c j k)) $$ Hpay
  iapply Hk
  isplitl [HO]; · iexact HO
  isplitl [Hat]; · iexact Hat
  iexact Hp

theorem op_wait_rv (j : Fin 3) (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (rvCell c j k) () NO) ∗ owes (c : Thread nD τ) 0 W ∗ atPos ER (rvCell c j k) 0 ∅ 0)
      ⊢ iprop(((owes (c : Thread nD τ) 0 (insert (SemLoc.dma (rvS j k), ()) W) ∗ atPos ER (rvCell c j k) 1 ∅ 0 ∗ rvPay m c j k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rvS j k) (bSl offB hb) (oSl offO ho) h1 h2) kk) Q) := by
  iintro ⟨#Hrec, Hc, HO, Hat⟩ Hk
  ihave #HI := (inv_dma m K c (rvS j k)) $$ Hrec
  iapply (Rounds.wp_wait_rest_token 𝒱₀ ER (sched m) (c : Thread nD τ) none (κ := K (c, dmaIx (rvS j k)))
      (wpE_waitDma2_eq 𝒱₀ (c : Thread nD τ) none Set.univ) (Set.mem_univ _) () (O := 0) (W := W) (R := 0) (m := 0) (T := ∅)
      (by rw [Nat.zero_add, credit_oSl offO ho, expect_rv])) $$ [Hc HO Hat]
  · isplitr; · iexact HI
    isplitl [Hc]; · rw [credit_oSl offO ho]; iexact Hc
    isplitl [HO]; · iexact HO
    isplitr; · rw [MayWait_zero]; iempintro
    iexact Hat
  iintro ⟨HO, Hat, -, Hpay⟩
  ihave Hp := (Entails.of_eq (rest_rv m c j k)) $$ Hpay
  iapply Hk
  isplitl [HO]; · iexact HO
  isplitl [Hat]; · iexact Hat
  iexact Hp

end Ops

/-- info: 'Cert.KernelIdeal.A2A.op_signal' depends on axioms: [propext, Classical.choice, Quot.sound] -/
#guard_msgs in #print axioms op_signal

/-- info: 'Cert.KernelIdeal.A2A.op_bar_wait' depends on axioms: [propext, Classical.choice, Quot.sound] -/
#guard_msgs in #print axioms op_bar_wait

/-- info: 'Cert.KernelIdeal.A2A.op_send' depends on axioms: [propext, Classical.choice, Quot.sound] -/
#guard_msgs in #print axioms op_send

/-- info: 'Cert.KernelIdeal.A2A.op_wait_lc' depends on axioms: [propext, Classical.choice, Quot.sound] -/
#guard_msgs in #print axioms op_wait_lc

/-- info: 'Cert.KernelIdeal.A2A.op_wait_sd' depends on axioms: [propext, Classical.choice, Quot.sound] -/
#guard_msgs in #print axioms op_wait_sd

/-- info: 'Cert.KernelIdeal.A2A.op_wait_rv' depends on axioms: [propext, Classical.choice, Quot.sound] -/
#guard_msgs in #print axioms op_wait_rv

end Cert.KernelIdeal.A2A

end
-- ==== Proof.Joins.lean ====
/-
  Holding an array whole and holding it piece by piece: the device's part of `x` by its sixteen chunks, the result
  by its 4 × 16 chunks, the rounded array by its chunks' rows and each chunk's rows by its four pieces, the staging
  buffer by its two slots; the pieces of the rounded array and the slots joined back; and a separating conjunction
  over a small finite type written out factor by factor.
-/
import proofs.«900006_g7700000000000007_dist_a2a_v7x_i4_i_m4096_n1024_bf16_1_alg».proof.Proof.Ghost
import proofs.«900006_g7700000000000007_dist_a2a_v7x_i4_i_m4096_n1024_bf16_1_alg».proof.Proof.Tiling

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## No element is left out -/

theorem xCk_ex (i : (xM : Memref sig .tc .hbm S4096x4096 .f32).view.ty.Idx) : ∃ k : Fin 16, i ∈ (xCk k).view.set := by
  have h0 : (i 0).val < 4096 := (i 0).isLt
  have hk : (i 0).val / 256 < 16 := by omega
  refine ⟨⟨(i 0).val / 256, hk⟩, ?_⟩
  rw [mem_xCk]
  show 256 * ((i 0).val / 256) ≤ (i 0).val ∧ (i 0).val < 256 * ((i 0).val / 256) + 256
  omega

theorem fSt_ex (x : (fM : Memref sig .tc .vmem S2x256x4096 .f32).view.ty.Idx) : ∃ i : Fin 2, x ∈ (fSt i).view.set := by
  have h0 : (x 0).val < 2 := (x 0).isLt
  refine ⟨⟨(x 0).val, h0⟩, ?_⟩
  rw [mem_fSt]

theorem oCk_ex (i : (oM : Memref sig .tc .hbm S16384x1024 .bf16).view.ty.Idx) :
    ∃ p : Dev nD × Fin 16, i ∈ (oCk p.1 p.2).view.set := by
  have h0 : (i 0).val < 16384 := (i 0).isLt
  have hs : (i 0).val / 4096 < 4 := by omega
  have hk : (i 0).val % 4096 / 256 < 16 := by omega
  refine ⟨((⟨(i 0).val / 4096, hs⟩ : Dev nD), (⟨(i 0).val % 4096 / 256, hk⟩ : Fin 16)), ?_⟩
  show i ∈ (oCk (⟨(i 0).val / 4096, hs⟩ : Dev nD) (⟨(i 0).val % 4096 / 256, hk⟩ : Fin 16)).view.set
  rw [mem_oCk]
  show 4096 * ((i 0).val / 4096) + 256 * ((i 0).val % 4096 / 256) ≤ (i 0).val
    ∧ (i 0).val < 4096 * ((i 0).val / 4096) + 256 * ((i 0).val % 4096 / 256) + 256
  omega

theorem bPc_ex (i : (bM : Memref sig .tc .vmem S4096x4096 .bf16).view.ty.Idx) :
    ∃ p : Fin 16 × Dev nD, i ∈ (bPc p.1 p.2).view.set := by
  have h0 : (i 0).val < 4096 := (i 0).isLt
  have h1 : (i 1).val < 4096 := (i 1).isLt
  have hk : (i 0).val / 256 < 16 := by omega
  have ht : (i 1).val / 1024 < 4 := by omega
  refine ⟨((⟨(i 0).val / 256, hk⟩ : Fin 16), (⟨(i 1).val / 1024, ht⟩ : Dev nD)), ?_⟩
  show i ∈ (bPc (⟨(i 0).val / 256, hk⟩ : Fin 16) (⟨(i 1).val / 1024, ht⟩ : Dev nD)).view.set
  rw [mem_bPc]
  show 256 * ((i 0).val / 256) ≤ (i 0).val ∧ (i 0).val < 256 * ((i 0).val / 256) + 256
    ∧ 1024 * ((i 1).val / 1024) ≤ (i 1).val ∧ (i 1).val < 1024 * ((i 1).val / 1024) + 1024
  omega

theorem bRows_ex (i : (bM : Memref sig .tc .vmem S4096x4096 .bf16).view.ty.Idx) :
    ∃ k : Fin 16, i ∈ ((bM : Memref sig .tc .vmem S4096x4096 .bf16).access (bRows k)).setOn Finset.univ := by
  have h0 : (i 0).val < 4096 := (i 0).isLt
  have hk : (i 0).val / 256 < 16 := by omega
  refine ⟨⟨(i 0).val / 256, hk⟩, ?_⟩
  rw [mem_bRows]
  show 256 * ((i 0).val / 256) ≤ (i 0).val ∧ (i 0).val < 256 * ((i 0).val / 256) + 256
  omega

/-! ## Held whole, held piece by piece -/

/-- A buffer held whole is held piece by piece, for pieces pairwise disjoint that leave no element out. -/
theorem split_of_ex {ℓ : Loc nD τ sig} {T : Type} [Fintype T] (K : T → Finset (Idx ℓ))
    (hc : ∀ i, ∃ t, i ∈ K t) (hd : ∀ t t', t ≠ t' → Disjoint (K t) (K t'))
    (q : PosShare TreeShare) (f : Buf (Elt F) ℓ) :
    (ℓ ↦{q} f : sProp 𝕄) = bigSep Finset.univ (fun t => (ℓ ↦[K t]{q} f : sProp 𝕄)) := by
  rw [← pointsTo_biUnion Finset.univ K (fun t _ t' _ h => hd t t' h)]
  congr 1
  symm; rw [Finset.eq_univ_iff_forall]; intro i
  obtain ⟨t, ht⟩ := hc i
  exact Finset.mem_biUnion.mpr ⟨t, Finset.mem_univ _, ht⟩

/-- Elements held are held piece by piece, for pieces pairwise disjoint that make them up. -/
theorem split_of_iff {ℓ : Loc nD τ sig} {T : Type} [Fintype T] (S : Finset (Idx ℓ)) (K : T → Finset (Idx ℓ))
    (hc : ∀ i, i ∈ S ↔ ∃ t, i ∈ K t) (hd : ∀ t t', t ≠ t' → Disjoint (K t) (K t'))
    (q : PosShare TreeShare) (f : Buf (Elt F) ℓ) :
    (ℓ ↦[S]{q} f : sProp 𝕄) = bigSep Finset.univ (fun t => (ℓ ↦[K t]{q} f : sProp 𝕄)) := by
  rw [← pointsTo_biUnion Finset.univ K (fun t _ t' _ h => hd t t' h)]
  congr 1
  ext i; rw [hc i, Finset.mem_biUnion]
  exact ⟨fun ⟨t, ht⟩ => ⟨t, Finset.mem_univ _, ht⟩, fun ⟨t, _, ht⟩ => ⟨t, ht⟩⟩

/-- Pieces pairwise disjoint that leave no element out, each held at contents of its own, are the buffer held
    whole at contents agreeing with each piece's on that piece. -/
theorem join_of_ex {ℓ : Loc nD τ sig} {T : Type} [Fintype T] (K : T → Finset (Idx ℓ))
    (hc : ∀ i, ∃ t, i ∈ K t) (hd : ∀ t t', t ≠ t' → Disjoint (K t) (K t'))
    (q : PosShare TreeShare) (fs : T → Buf (Elt F) ℓ) (f₀ : Buf (Elt F) ℓ) :
    bigSep Finset.univ (fun t => (ℓ ↦[K t]{q} fs t : sProp 𝕄))
      ⊢ (iprop(∃ g, ⌜∀ t, ∀ i ∈ K t, g i = fs t i⌝ ∗ ℓ ↦{q} g) : sProp 𝕄) := by
  refine (pointsTo_biUnion_join Finset.univ K fs f₀ (fun t _ t' _ h => hd t t' h)).trans ?_
  have hu : Finset.univ.biUnion K = Finset.univ := by
    rw [Finset.eq_univ_iff_forall]; intro i
    obtain ⟨t, ht⟩ := hc i
    exact Finset.mem_biUnion.mpr ⟨t, Finset.mem_univ _, ht⟩
  rw [hu]
  iintro ⟨%g, %hg, H⟩; iexists g; isplitr
  · ipureintro; exact fun t => hg t (Finset.mem_univ t)
  · iexact H

section Dev
variable (c : Dev nD)

theorem x_split (f : Buf (Elt F) (xL c)) :
    (xL c ↦{fullShare} f : sProp 𝕄)
      = bigSep Finset.univ (fun k : Fin 16 => (xL c ↦[(xCk k).view.set]{fullShare} f : sProp 𝕄)) :=
  split_of_ex (ℓ := xL c) (fun k : Fin 16 => (xCk k).view.set) xCk_ex xCk_disj fullShare f

theorem o_split (f : Buf (Elt F) (oL c)) :
    (oL c ↦{fullShare} f : sProp 𝕄)
      = bigSep Finset.univ (fun p : Dev nD × Fin 16 => (oL c ↦[(oCk p.1 p.2).view.set]{fullShare} f : sProp 𝕄)) :=
  split_of_ex (ℓ := oL c) (fun p : Dev nD × Fin 16 => (oCk p.1 p.2).view.set) oCk_ex oCk_disj fullShare f

theorem b_split_rows (f : Buf (Elt F) (bL c)) :
    (bL c ↦{fullShare} f : sProp 𝕄) = bigSep Finset.univ (fun k : Fin 16 =>
      (bL c ↦[((bM : Memref sig .tc .vmem S4096x4096 .bf16).access (bRows k)).setOn Finset.univ]{fullShare} f : sProp 𝕄)) :=
  split_of_ex (ℓ := bL c)
    (fun k : Fin 16 => ((bM : Memref sig .tc .vmem S4096x4096 .bf16).access (bRows k)).setOn Finset.univ)
    bRows_ex bRows_disj fullShare f

theorem rows_split (k : Fin 16) (f : Buf (Elt F) (bL c)) :
    (bL c ↦[((bM : Memref sig .tc .vmem S4096x4096 .bf16).access (bRows k)).setOn Finset.univ]{fullShare} f : sProp 𝕄)
      = bigSep Finset.univ (fun t : Dev nD => (bL c ↦[(bPc k t).view.set]{fullShare} f : sProp 𝕄)) :=
  split_of_iff (ℓ := bL c) _ (fun t : Dev nD => (bPc k t).view.set)
    (fun i => by
      rw [bRows_eq k, Finset.mem_biUnion]
      exact ⟨fun ⟨t, _, ht⟩ => ⟨t, ht⟩, fun ⟨t, ht⟩ => ⟨t, Finset.mem_univ _, ht⟩⟩)
    (bPc_disj_dev k) fullShare f

theorem b_split (f : Buf (Elt F) (bL c)) :
    (bL c ↦{fullShare} f : sProp 𝕄)
      = bigSep Finset.univ (fun p : Fin 16 × Dev nD => (bL c ↦[(bPc p.1 p.2).view.set]{fullShare} f : sProp 𝕄)) :=
  split_of_ex (ℓ := bL c) (fun p : Fin 16 × Dev nD => (bPc p.1 p.2).view.set) bPc_ex bPc_disj fullShare f

theorem f_split (f : Buf (Elt F) (fL c)) :
    (fL c ↦{fullShare} f : sProp 𝕄)
      = bigSep Finset.univ (fun i : Fin 2 => (fL c ↦[(fSt i).view.set]{fullShare} f : sProp 𝕄)) :=
  split_of_ex (ℓ := fL c) (fun i : Fin 2 => (fSt i).view.set) fSt_ex fSt_disj fullShare f

/-! ## Pieces joined back -/

theorem b_join_agree (fs : Fin 16 × Dev nD → Buf (Elt F) (bL c)) :
    bigSep Finset.univ (fun p : Fin 16 × Dev nD => (bL c ↦[(bPc p.1 p.2).view.set]{fullShare} fs p : sProp 𝕄))
      ⊢ (iprop(∃ g, ⌜∀ p : Fin 16 × Dev nD, ∀ i ∈ (bPc p.1 p.2).view.set, g i = fs p i⌝ ∗ bL c ↦{fullShare} g) : sProp 𝕄) :=
  join_of_ex (ℓ := bL c) (fun p : Fin 16 × Dev nD => (bPc p.1 p.2).view.set) bPc_ex bPc_disj fullShare fs (fs (0, 0))

theorem b_join (fs : Fin 16 × Dev nD → Buf (Elt F) (bL c)) :
    bigSep Finset.univ (fun p : Fin 16 × Dev nD => (bL c ↦[(bPc p.1 p.2).view.set]{fullShare} fs p : sProp 𝕄))
      ⊢ (iprop(∃ g, bL c ↦{fullShare} g) : sProp 𝕄) := by
  refine (b_join_agree c fs).trans ?_
  iintro ⟨%g, -, H⟩; iexists g; iexact H

theorem f_join_agree (fs : Fin 2 → Buf (Elt F) (fL c)) :
    bigSep Finset.univ (fun i : Fin 2 => (fL c ↦[(fSt i).view.set]{fullShare} fs i : sProp 𝕄))
      ⊢ (iprop(∃ g, ⌜∀ i : Fin 2, ∀ x ∈ (fSt i).view.set, g x = fs i x⌝ ∗ fL c ↦{fullShare} g) : sProp 𝕄) :=
  join_of_ex (ℓ := fL c) (fun i : Fin 2 => (fSt i).view.set) fSt_ex fSt_disj fullShare fs (fs 0)

theorem f_join (fs : Fin 2 → Buf (Elt F) (fL c)) :
    bigSep Finset.univ (fun i : Fin 2 => (fL c ↦[(fSt i).view.set]{fullShare} fs i : sProp 𝕄))
      ⊢ (iprop(∃ g, fL c ↦{fullShare} g) : sProp 𝕄) := by
  refine (f_join_agree c fs).trans ?_
  iintro ⟨%g, -, H⟩; iexists g; iexact H

end Dev

/-! ## A separating conjunction over a small finite type, factor by factor -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Dev nD → sProp 𝕄) : bigSep Finset.univ Φ = iprop(Φ 0 ∗ Φ 1 ∗ Φ 2 ∗ Φ 3) :=
  bigSep_univ_eq_bigSepL [0, 1, 2, 3] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The four devices, counted from one of them -/

theorem bigSep_dev_rel (c : Dev nD) (Φ : Dev nD → sProp 𝕄) :
    bigSep Finset.univ Φ = iprop(Φ c ∗ Φ (pr c 0) ∗ Φ (pr c 1) ∗ Φ (pr c 2)) :=
  bigSep_univ_eq_bigSepL [c, pr c 0, pr c 1, pr c 2] (by revert c; decide) (by revert c; decide) Φ

theorem bigSep_dev_rel_q (c : Dev nD) (Φ : Dev nD → sProp 𝕄) :
    bigSep Finset.univ Φ = iprop(Φ c ∗ Φ (qr c 0) ∗ Φ (qr c 1) ∗ Φ (qr c 2)) :=
  bigSep_univ_eq_bigSepL [c, qr c 0, qr c 1, qr c 2] (by revert c; decide) (by revert c; decide) Φ

/-- The rows of chunk `k` of the rounded array: the device's own piece, then the pieces of its three peers. -/
theorem rows_split_rel (c : Dev nD) (k : Fin 16) (f : Buf (Elt F) (bL c)) :
    (bL c ↦[((bM : Memref sig .tc .vmem S4096x4096 .bf16).access (bRows k)).setOn Finset.univ]{fullShare} f : sProp 𝕄)
      = iprop((bL c ↦[(bPc k c).view.set]{fullShare} f) ∗ (bL c ↦[(bPc k (pr c 0)).view.set]{fullShare} f)
        ∗ (bL c ↦[(bPc k (pr c 1)).view.set]{fullShare} f) ∗ (bL c ↦[(bPc k (pr c 2)).view.set]{fullShare} f)) := by
  rw [rows_split c k f, bigSep_dev_rel c]

/-! ## The records, cell by cell -/

theorem rec_inv (c' : Dev nD) (i : CI) (K : Dev nD × CI → ℕ) :
    records m K ⊢ (cellInv ER (sched m) (K (c', i)) (kcell (c', i)) : sProp 𝕄) := by
  unfold records
  have h : (bigSep Finset.univ fun ck : Dev nD × CI => (cellInv ER (sched m) (K ck) (kcell ck) : sProp 𝕄))
      ⊢ cellInv ER (sched m) (K (c', i)) (kcell (c', i)) := BI.bigSep_elim (Finset.mem_univ (c', i))
  iintro ⟨HA, -⟩
  iapply h; iexact HA

theorem rec_reached (c' : Dev nD) (i : CI) (K : Dev nD × CI → ℕ) :
    records m K ⊢ (reached ER (kcell (c', i)) 0 : sProp 𝕄) := by
  unfold records
  have h : (bigSep Finset.univ fun ck : Dev nD × CI => (reached ER (kcell ck) 0 : sProp 𝕄))
      ⊢ reached ER (kcell (c', i)) 0 := BI.bigSep_elim (Finset.mem_univ (c', i))
  iintro ⟨-, HB⟩
  iapply h; iexact HB

theorem kcell_dma (c' : Dev nD) (s : DmaSem sig) :
    kcell (c', ⟨s.val, Nat.lt_succ_of_lt (show s.val < 114 from s.isLt)⟩) = ((c' : Thread nD τ), .dma s) := by
  have h : s.val < 114 := s.isLt
  unfold kcell; exact dif_pos h

theorem kcell_bar (c' : Dev nD) : kcell (c', 114) = barCell c' := by
  unfold kcell; exact dif_neg (show ¬ ((114 : CI).val < 114) by decide)

theorem rec_reached_dma (c : Dev nD) (K : Dev nD × CI → ℕ) (s : DmaSem sig) :
    records m K ⊢ (reached ER ((c : Thread nD τ), .dma s) 0 : sProp 𝕄) := by
  rw [← kcell_dma c s]; exact rec_reached m c _ K

theorem rec_inv_dma (c : Dev nD) (K : Dev nD × CI → ℕ) (s : DmaSem sig) :
    records m K ⊢ (cellInv ER (sched m) (K (c, ⟨s.val, Nat.lt_succ_of_lt (show s.val < 114 from s.isLt)⟩))
      ((c : Thread nD τ), .dma s) : sProp 𝕄) := by
  rw [← kcell_dma c s]; exact rec_inv m c _ K

theorem rec_reached_cp (c : Dev nD) (K : Dev nD × CI → ℕ) (i : Fin 2) :
    records m K ⊢ (reached ER (cpCell c i) 0 : sProp 𝕄) :=
  rec_reached_dma m c K (cpS i)

theorem rec_reached_bar (c : Dev nD) (K : Dev nD × CI → ℕ) :
    records m K ⊢ (reached ER (barCell c) 0 : sProp 𝕄) := by
  rw [← kcell_bar c]; exact rec_reached m c _ K

/-- info: 'Cert.KernelIdeal.A2A.x_split' depends on axioms: [propext, Classical.choice, Quot.sound] -/
#guard_msgs in #print axioms x_split

/-- info: 'Cert.KernelIdeal.A2A.o_split' depends on axioms: [propext, Classical.choice, Quot.sound] -/
#guard_msgs in #print axioms o_split

/-- info: 'Cert.KernelIdeal.A2A.b_split_rows' depends on axioms: [propext, Classical.choice, Quot.sound] -/
#guard_msgs in #print axioms b_split_rows

/-- info: 'Cert.KernelIdeal.A2A.rows_split' depends on axioms: [propext, Classical.choice, Quot.sound] -/
#guard_msgs in #print axioms rows_split

/-- info: 'Cert.KernelIdeal.A2A.b_split' depends on axioms: [propext, Classical.choice, Quot.sound] -/
#guard_msgs in #print axioms b_split

/-- info: 'Cert.KernelIdeal.A2A.f_split' depends on axioms: [propext, Classical.choice, Quot.sound] -/
#guard_msgs in #print axioms f_split

/-- info: 'Cert.KernelIdeal.A2A.b_join_agree' depends on axioms: [propext, Classical.choice, Quot.sound] -/
#guard_msgs in #print axioms b_join_agree

/-- info: 'Cert.KernelIdeal.A2A.b_join' depends on axioms: [propext, Classical.choice, Quot.sound] -/
#guard_msgs in #print axioms b_join

/-- info: 'Cert.KernelIdeal.A2A.f_join_agree' depends on axioms: [propext, Classical.choice, Quot.sound] -/
#guard_msgs in #print axioms f_join_agree

/-- info: 'Cert.KernelIdeal.A2A.f_join' depends on axioms: [propext, Classical.choice, Quot.sound] -/
#guard_msgs in #print axioms f_join

/-- info: 'Cert.KernelIdeal.A2A.bigSep_fin16' depends on axioms: [propext, Classical.choice, Quot.sound] -/
#guard_msgs in #print axioms bigSep_fin16

/-- info: 'Cert.KernelIdeal.A2A.bigSep_dev_rel' depends on axioms: [propext, Classical.choice, Quot.sound] -/
#guard_msgs in #print axioms bigSep_dev_rel

/-- info: 'Cert.KernelIdeal.A2A.bigSep_dev_rel_q' depends on axioms: [propext, Classical.choice, Quot.sound] -/
#guard_msgs in #print axioms bigSep_dev_rel_q

/-- info: 'Cert.KernelIdeal.A2A.rows_split_rel' depends on axioms: [propext, Classical.choice, Quot.sound] -/
#guard_msgs in #print axioms rows_split_rel

/-- info: 'Cert.KernelIdeal.A2A.rec_inv' depends on axioms: [propext, Classical.choice, Quot.sound] -/
#guard_msgs in #print axioms rec_inv

/-- info: 'Cert.KernelIdeal.A2A.rec_reached' depends on axioms: [propext, Classical.choice, Quot.sound] -/
#guard_msgs in #print axioms rec_reached

/-- info: 'Cert.KernelIdeal.A2A.kcell_dma' depends on axioms: [propext, Classical.choice, Quot.sound] -/
#guard_msgs in #print axioms kcell_dma

/-- info: 'Cert.KernelIdeal.A2A.kcell_bar' depends on axioms: [propext, Classical.choice, Quot.sound] -/
#guard_msgs in #print axioms kcell_bar

/-- info: 'Cert.KernelIdeal.A2A.rec_reached_dma' depends on axioms: [propext, Classical.choice, Quot.sound] -/
#guard_msgs in #print axioms rec_reached_dma

/-- info: 'Cert.KernelIdeal.A2A.rec_inv_dma' depends on axioms: [propext, Classical.choice, Quot.sound] -/
#guard_msgs in #print axioms rec_inv_dma

/-- info: 'Cert.KernelIdeal.A2A.rec_reached_cp' depends on axioms: [propext, Classical.choice, Quot.sound] -/
#guard_msgs in #print axioms rec_reached_cp

/-- info: 'Cert.KernelIdeal.A2A.rec_reached_bar' depends on axioms: [propext, Classical.choice, Quot.sound] -/
#guard_msgs in #print axioms rec_reached_bar

end Cert.KernelIdeal.A2A

end
-- ==== Proof.Begin.lean ====
/-
  The body's first step: what the launch hands a device, cut into the pieces the body's steps use. The device's part
  of `x` by its sixteen chunks, each beside the token of its staging; the staging buffer by its two slots; the
  rounded array by its chunks' rows; the result by its 4 × 16 chunks, those of the device's own rows kept and those of
  each peer's rows made that peer's barrier payload; the cells' positions kind by kind.
-/
import proofs.«900006_g7700000000000007_dist_a2a_v7x_i4_i_m4096_n1024_bf16_1_alg».proof.Proof.BodyState
import proofs.«900006_g7700000000000007_dist_a2a_v7x_i4_i_m4096_n1024_bf16_1_alg».proof.Proof.Tiling
import proofs.«900006_g7700000000000007_dist_a2a_v7x_i4_i_m4096_n1024_bf16_1_alg».proof.Proof.Joins

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of a device, kind by kind -/

/-- The kinds of cell of a device: the barrier cell, two staging cells, sixteen copy cells, 3 × 16 send cells and
    3 × 16 receive cells. -/
private abbrev CK : Type := Unit ⊕ Fin 2 ⊕ Fin 16 ⊕ (Fin 3 × Fin 16) ⊕ (Fin 3 × Fin 16)

/-- The number of a cell given by its kind. -/
private def cellIx : CK → CI
  | .inl _ => ⟨114, by decide⟩
  | .inr (.inl i) => ⟨i.val, by have := i.isLt; omega⟩
  | .inr (.inr (.inl k)) => ⟨2 + k.val, by have := k.isLt; omega⟩
  | .inr (.inr (.inr (.inl jk))) => ⟨18 + 16 * jk.1.val + jk.2.val, by have := jk.1.isLt; have := jk.2.isLt; omega⟩
  | .inr (.inr (.inr (.inr jk))) => ⟨66 + 16 * jk.1.val + jk.2.val, by have := jk.1.isLt; have := jk.2.isLt; omega⟩

/-- The kind of the cell of a given number. -/
private def cellKind (i : CI) : CK :=
  if h0 : i.val < 2 then .inr (.inl ⟨i.val, h0⟩)
  else if h1 : i.val < 18 then .inr (.inr (.inl ⟨i.val - 2, by omega⟩))
  else if h2 : i.val < 66 then .inr (.inr (.inr (.inl (⟨(i.val - 18) / 16, by omega⟩, ⟨(i.val - 18) % 16, Nat.mod_lt _ (by decide)⟩))))
  else if h3 : i.val < 114 then .inr (.inr (.inr (.inr (⟨(i.val - 66) / 16, by omega⟩, ⟨(i.val - 66) % 16, Nat.mod_lt _ (by decide)⟩))))
  else .inl ()

private theorem cellKind_cellIx (x : CK) : cellKind (cellIx x) = x := by
  rcases x with _ | i | k | ⟨j, k⟩ | ⟨j, k⟩
  · rfl
  · have := i.isLt
    unfold cellKind cellIx; dsimp only
    rw [dif_pos (by omega)]
  · have := k.isLt
    unfold cellKind cellIx; dsimp only
    rw [dif_neg (by omega), dif_pos (by omega)]
    exact congrArg (fun x => Sum.inr (Sum.inr (Sum.inl x))) (Fin.ext (by show 2 + k.val - 2 = k.val; omega))
  · have := j.isLt; have := k.isLt
    unfold cellKind cellIx; dsimp only
    rw [dif_neg (by omega), dif_neg (by omega), dif_pos (by omega)]
    exact congrArg (fun x => Sum.inr (Sum.inr (Sum.inr (Sum.inl x))))
      (Prod.ext (Fin.ext (by show (18 + 16 * j.val + k.val - 18) / 16 = j.val; omega))
        (Fin.ext (by show (18 + 16 * j.val + k.val - 18) % 16 = k.val; omega)))
  · have := j.isLt; have := k.isLt
    unfold cellKind cellIx; dsimp only
    rw [dif_neg (by omega), dif_neg (by omega), dif_neg (by omega), dif_pos (by omega)]
    exact congrArg (fun x => Sum.inr (Sum.inr (Sum.inr (Sum.inr x))))
      (Prod.ext (Fin.ext (by show (66 + 16 * j.val + k.val - 66) / 16 = j.val; omega))
        (Fin.ext (by show (66 + 16 * j.val + k.val - 66) % 16 = k.val; omega)))

private theorem cellIx_cellKind (i : CI) : cellIx (cellKind i) = i := by
  have hi : i.val < 115 := i.isLt
  unfold cellKind
  split_ifs with h0 h1 h2 h3
  · rfl
  · exact Fin.ext (by show 2 + (i.val - 2) = i.val; omega)
  · exact Fin.ext (by show 18 + 16 * ((i.val - 18) / 16) + (i.val - 18) % 16 = i.val; omega)
  · exact Fin.ext (by show 66 + 16 * ((i.val - 66) / 16) + (i.val - 66) % 16 = i.val; omega)
  · exact Fin.ext (by show 114 = i.val; omega)

/-- Kinds and numbers of cells correspond one to one. -/
private def cellEquiv : CK ≃ CI := ⟨cellIx, cellKind, cellKind_cellIx, cellIx_cellKind⟩

/-- The cell numbered like a DMA semaphore is that semaphore's cell. -/
private theorem kcell_of_dma (c : Dev nD) (i : CI) (s : DmaSem sig) (h : i.val = s.val) :
    kcell (c, i) = (((c : Thread nD τ), .dma s) : GSem nD τ sig) := by
  have hs : s.val < 114 := s.isLt
  unfold kcell; dsimp only
  rw [dif_pos (by omega)]
  exact congrArg (fun x : DmaSem sig => (((c : Thread nD τ), SemLoc.dma x) : GSem nD τ sig)) (Fin.ext h)

private theorem kcell_of_bar (c : Dev nD) : kcell (c, cellIx (.inl ())) = barCell c := by
  unfold kcell cellIx; dsimp only
  rw [dif_neg (by decide)]

/-- A separating conjunction over the cells of a device, kind by kind. -/
theorem bigSep_kcell (c : Dev nD) (Φ : GSem nD τ sig → sProp 𝕄) :
    bigSep Finset.univ (fun i : CI => Φ (kcell (c, i)))
      = iprop(Φ (barCell c) ∗ Φ (cpCell c 0) ∗ Φ (cpCell c 1)
          ∗ (bigSep Finset.univ fun k : Fin 16 => Φ (lcCell c k))
          ∗ (bigSep Finset.univ fun jk : Fin 3 × Fin 16 => Φ (sdCell c jk.1 jk.2))
          ∗ (bigSep Finset.univ fun jk : Fin 3 × Fin 16 => Φ (rvCell c jk.1 jk.2))) := by
  rw [bigSep_univ_equiv cellEquiv (fun i : CI => Φ (kcell (c, i))), bigSep_univ_sum, bigSep_univ_sum, bigSep_univ_sum,
    bigSep_univ_sum, bigSep_univ_of_subsingleton (), bigSep_fin_two]
  have e0 : kcell (c, cellEquiv (.inl ())) = barCell c := kcell_of_bar c
  have e1 : ∀ i : Fin 2, kcell (c, cellEquiv (.inr (.inl i))) = cpCell c i := fun i =>
    kcell_of_dma c _ (cpS i) (by rw [cpS_val]; rfl)
  have e2 : ∀ k : Fin 16, kcell (c, cellEquiv (.inr (.inr (.inl k)))) = lcCell c k := fun k =>
    kcell_of_dma c _ (lcS k) (by rw [lcS_val]; rfl)
  have e3 : ∀ jk : Fin 3 × Fin 16, kcell (c, cellEquiv (.inr (.inr (.inr (.inl jk))))) = sdCell c jk.1 jk.2 := fun jk =>
    kcell_of_dma c _ (sdS jk.1 jk.2) (by rw [sdS_val]; rfl)
  have e4 : ∀ jk : Fin 3 × Fin 16, kcell (c, cellEquiv (.inr (.inr (.inr (.inr jk))))) = rvCell c jk.1 jk.2 := fun jk =>
    kcell_of_dma c _ (rvS jk.1 jk.2) (by rw [rvS_val]; rfl)
  rw [e0, e1 0, e1 1]
  simp only [e2, e3, e4]
  exact congrArg (BI.sep (Φ (barCell c)))
    (Std.Associative.assoc (op := (fun P Q : sProp 𝕄 => BI.sep P Q)) _ _ _)

/-! ## The arrays cut -/

/-- Elements held at some contents are held at whatever they hold. -/
private theorem pt_any {ℓ : Loc nD τ sig} (S : Finset (Idx ℓ)) (f : Buf (Elt F) ℓ) :
    (ℓ ↦[S]{fullShare} f : sProp 𝕄) ⊢ iprop(∃ g : Buf (Elt F) ℓ, ℓ ↦[S]{fullShare} g) := by
  iintro H; iexists f; iexact H

/-- The staging buffer at whatever it holds: each slot at whatever it holds. -/
private theorem f_open (c : Dev nD) :
    (iprop(∃ f : Buf (Elt F) (fL c), fL c ↦{fullShare} f) : sProp 𝕄)
      ⊢ bigSep Finset.univ fun i : Fin 2 => iprop(∃ fd : Buf (Elt F) (fL c), fL c ↦[(fSt i).view.set]{fullShare} fd) := by
  have h : ∀ f : Buf (Elt F) (fL c), (fL c ↦{fullShare} f : sProp 𝕄)
      ⊢ bigSep Finset.univ fun i : Fin 2 => iprop(∃ fd : Buf (Elt F) (fL c), fL c ↦[(fSt i).view.set]{fullShare} fd) := fun f => by
    rw [f_split c f]
    exact bigSep_mono fun i _ => pt_any _ f
  iintro ⟨%f, H⟩
  iapply (h f) $$ H

/-- The rounded array at whatever it holds: each chunk's rows at whatever they hold. -/
private theorem b_open (c : Dev nD) :
    (iprop(∃ f : Buf (Elt F) (bL c), bL c ↦{fullShare} f) : sProp 𝕄)
      ⊢ bigSep Finset.univ fun k : Fin 16 => iprop(∃ fb : Buf (Elt F) (bL c),
          bL c ↦[((bM : Memref sig .tc .vmem S4096x4096 .bf16).access (bRows k)).setOn Finset.univ]{fullShare} fb) := by
  have h : ∀ f : Buf (Elt F) (bL c), (bL c ↦{fullShare} f : sProp 𝕄)
      ⊢ bigSep Finset.univ fun k : Fin 16 => iprop(∃ fb : Buf (Elt F) (bL c),
          bL c ↦[((bM : Memref sig .tc .vmem S4096x4096 .bf16).access (bRows k)).setOn Finset.univ]{fullShare} fb) := fun f => by
    rw [b_split_rows c f]
    exact bigSep_mono fun k _ => pt_any _ f
  iintro ⟨%f, H⟩
  iapply (h f) $$ H

/-- The sixteen chunks of device `s`'s rows in device `c`'s result, held at some contents, are held at whatever
    they hold, the result's device named in any way. -/
private theorem chunks_any (c d s : Dev nD) (h : d = c) (f : Buf (Elt F) (oL c)) :
    bigSep Finset.univ (fun k : Fin 16 => (oL c ↦[(oCk s k).view.set]{fullShare} f : sProp 𝕄))
      ⊢ bigSep Finset.univ (fun k : Fin 16 => iprop(∃ g : Buf (Elt F) (oL d), oL d ↦[(oCk s k).view.set]{fullShare} g)) := by
  subst h
  exact bigSep_mono fun k _ => pt_any _ f

/-- The rows of the peer `j + 1` places on, in this device's result: that peer's barrier payload. -/
private theorem to_barPay (c : Dev nD) (j : Fin 3) (f : Buf (Elt F) (oL c)) :
    bigSep Finset.univ (fun k : Fin 16 => (oL c ↦[(oCk (pr c j) k).view.set]{fullShare} f : sProp 𝕄))
      ⊢ barPay (F := F) (pr c j) j :=
  chunks_any c (qr (pr c j) j) (pr c j) (qr_pr c j) f

/-- The result cut: the device's own rows chunk by chunk, and each peer's rows as that peer's barrier payload. -/
private theorem o_open (c : Dev nD) (f : Buf (Elt F) (oL c)) :
    (oL c ↦{fullShare} f : sProp 𝕄)
      ⊢ iprop((bigSep Finset.univ fun k : Fin 16 => (oL c ↦[(oCk c k).view.set]{fullShare} f))
          ∗ bigSep Finset.univ fun j : Fin 3 => barPay (F := F) (pr c j) j) := by
  rw [o_split c f, bigSep_univ_prod, bigSep_dev_rel c, bigSep_fin3]
  exact BI.sep_mono_r (BI.sep_mono (to_barPay c 0 f) (BI.sep_mono (to_barPay c 1 f) (to_barPay c 2 f)))

/-! ## The first step -/

theorem begin_spec (c : Dev nD) : bodyPre m c ⊢ (Opened m c : sProp 𝕄) := by
  unfold bodyPre Φ₀ start ghost linear Opened
  rw [bigSep_kcell c (fun g => atPos ER g 0 ∅ 0), x_split c (Xc m c)]
  simp only [bigSep_sep']
  iintro ⟨⟨⟨⟨%K, Hrec, ⟨Hpb, Hp0, Hp1, Hplc, Hpsd, Hprv⟩, Htcp, Htlc, Htsd, Htrv, Htbar⟩, Hcb, Hcrv, Hlev, Hx, Ho⟩, Hf, Hb⟩, Howes⟩
  ihave Ho' := (o_open c (m (oL c))) $$ Ho
  icases Ho' with ⟨Hoc, Hbar⟩
  ihave Hf' := (f_open c) $$ Hf
  ihave Hb' := (b_open c) $$ Hb
  iexists K
  iframe

/-- info: 'Cert.KernelIdeal.A2A.bigSep_kcell' depends on axioms: [propext, Classical.choice, Quot.sound] -/
#guard_msgs in #print axioms bigSep_kcell

/-- info: 'Cert.KernelIdeal.A2A.begin_spec' depends on axioms: [propext, Classical.choice, Quot.sound] -/
#guard_msgs in #print axioms begin_spec

end Cert.KernelIdeal.A2A

end
-- ==== Proof.Finish.lean ====
/-
  The body's last step: the pieces the last waits returned fold back into the whole arrays, each own DMA
  semaphore's cell closes with its counter at zero, and nothing is owed.
-/
import proofs.«900006_g7700000000000007_dist_a2a_v7x_i4_i_m4096_n1024_bf16_1_alg».proof.Proof.BodyState
import proofs.«900006_g7700000000000007_dist_a2a_v7x_i4_i_m4096_n1024_bf16_1_alg».proof.Proof.Values
import proofs.«900006_g7700000000000007_dist_a2a_v7x_i4_i_m4096_n1024_bf16_1_alg».proof.Proof.Tiling
import proofs.«900006_g7700000000000007_dist_a2a_v7x_i4_i_m4096_n1024_bf16_1_alg».proof.Proof.Joins

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's 114 DMA semaphores, listed by what they are for -/

/-- A staging slot, a chunk's own copy, a chunk's send to a peer, a chunk's arrival from a peer. -/
private abbrev SemIx : Type := Fin 2 ⊕ (Fin 16 ⊕ (Fin 3 × Fin 16 ⊕ Fin 3 × Fin 16))

private def semOf : SemIx → DmaSem sig
  | .inl i => cpS i
  | .inr (.inl k) => lcS k
  | .inr (.inr (.inl jk)) => sdS jk.1 jk.2
  | .inr (.inr (.inr jk)) => rvS jk.1 jk.2

private theorem semOf_inj : Function.Injective semOf := by
  intro x y h
  have hv := congrArg Fin.val h
  rcases x with i | k | ⟨j, k⟩ | ⟨j, k⟩ <;> rcases y with i' | k' | ⟨j', k'⟩ | ⟨j', k'⟩ <;>
    simp only [semOf, cpS_val, lcS_val, sdS_val, rvS_val] at hv
  all_goals
    (try have hi : i.val < 2 := i.isLt)
    (try have hi' : i'.val < 2 := i'.isLt)
    (try have hk : k.val < 16 := k.isLt)
    (try have hk' : k'.val < 16 := k'.isLt)
    (try have hj : j.val < 3 := j.isLt)
    (try have hj' : j'.val < 3 := j'.isLt)
    first
      | (exfalso; omega)
      | (obtain rfl : i = i' := Fin.ext (by omega); rfl)
      | (obtain rfl : k = k' := Fin.ext (by omega); rfl)
      | (obtain rfl : j = j' := Fin.ext (by omega); obtain rfl : k = k' := Fin.ext (by omega); rfl)

private theorem semOf_univ : Finset.univ.map ⟨semOf, semOf_inj⟩ = (Finset.univ : Finset (DmaSem sig)) :=
  Finset.eq_univ_of_card _ (by rw [Finset.card_map]; decide)

/-- A separating conjunction over the 114 semaphores, group by group. -/
private theorem bigSep_sems (Ψ : DmaSem sig → sProp 𝕄) :
    bigSep Finset.univ Ψ = iprop((Ψ (cpS 0) ∗ Ψ (cpS 1)) ∗ (bigSep Finset.univ fun k : Fin 16 => Ψ (lcS k))
      ∗ (bigSep Finset.univ fun jk : Fin 3 × Fin 16 => Ψ (sdS jk.1 jk.2))
      ∗ bigSep Finset.univ fun jk : Fin 3 × Fin 16 => Ψ (rvS jk.1 jk.2)) := by
  rw [← semOf_univ, bigSep_map, bigSep_univ_sum, bigSep_univ_sum, bigSep_univ_sum, bigSep_univ_two]
  rfl

/-! ## Every own cell closes -/

section Close
variable (c : Dev nD)

/-- The round after a semaphore's last: the ninth of a staging semaphore, the second of any other. -/
private def Rof (s : DmaSem sig) : ℕ := if s.val < 2 then 8 else 1

private theorem Rof_cp (i : Fin 2) : Rof (cpS i) = 8 := by unfold Rof; rw [if_pos (by rw [cpS_val]; exact i.isLt)]
private theorem Rof_lc (k : Fin 16) : Rof (lcS k) = 1 := by unfold Rof; rw [if_neg (by rw [lcS_val]; omega)]
private theorem Rof_sd (j : Fin 3) (k : Fin 16) : Rof (sdS j k) = 1 := by unfold Rof; rw [if_neg (by rw [sdS_val]; omega)]
private theorem Rof_rv (j : Fin 3) (k : Fin 16) : Rof (rvS j k) = 1 := by unfold Rof; rw [if_neg (by rw [rvS_val]; omega)]

private theorem duties_later_all (s : DmaSem sig) :
    ∀ r, Rof s ≤ r → (sched (F := F) m).duties ((c : Thread nD τ), .dma s) r = ∅ := fun r hr => by
  dsimp only [sched]; exact if_neg fun h => by
    unfold Rof at hr
    rcases h.2 with h' | h'
    · rw [if_pos h'.1] at hr; omega
    · rw [if_neg (by omega)] at hr; omega

private theorem close_one (K : Dev nD × CI → ℕ) (s : DmaSem sig) :
    iprop(records m K ∗ atPos ER (((c : Thread nD τ), SemLoc.dma s) : GSem nD τ sig) (Rof s) ∅ 0)
      ⊢ (iprop(|={Set.univ}=> semVal (((c : Thread nD τ), SemLoc.dma s) : GSem nD τ sig) 0) : sProp 𝕄) := by
  iintro ⟨Hrec, Hat⟩
  ihave HI := (rec_inv_dma m c K s) $$ Hrec
  iapply (Rounds.cell_close ER (sched m) (Set.mem_univ _) (fun h => h) (R := Rof s) (duties_later_all m c s))
  isplitl [HI]; · iexact HI
  iexact Hat

/-- Every own DMA cell at the round after its last closes: all 114 counters are at zero. -/
private theorem close_all (K : Dev nD × CI → ℕ) :
    iprop(records m K ∗ bigSep Finset.univ fun s : DmaSem sig =>
        atPos ER (((c : Thread nD τ), SemLoc.dma s) : GSem nD τ sig) (Rof s) ∅ 0)
      ⊢ (iprop(|={Set.univ}=> bigSep Finset.univ fun s : DmaSem sig =>
        semVal (((c : Thread nD τ), SemLoc.dma s) : GSem nD τ sig) 0) : sProp 𝕄) :=
  (bigSep_with_persistent fun s _ => close_one m c K s).trans (bigSep_fupd _ _)

/-- The positions the last waits left, as one position per semaphore. -/
private theorem atPos_regroup :
    (bigSep Finset.univ fun s : DmaSem sig => (atPos ER (((c : Thread nD τ), SemLoc.dma s) : GSem nD τ sig) (Rof s) ∅ 0 : sProp 𝕄))
      = iprop((atPos ER (cpCell c 0) 8 ∅ 0 ∗ atPos ER (cpCell c 1) 8 ∅ 0)
        ∗ (bigSep Finset.univ fun k : Fin 16 => atPos ER (lcCell c k) 1 ∅ 0)
        ∗ (bigSep Finset.univ fun jk : Fin 3 × Fin 16 => atPos ER (sdCell c jk.1 jk.2) 1 ∅ 0)
        ∗ bigSep Finset.univ fun jk : Fin 3 × Fin 16 => atPos ER (rvCell c jk.1 jk.2) 1 ∅ 0) := by
  rw [bigSep_sems]
  simp only [Rof_cp, Rof_lc, Rof_sd, Rof_rv]

end Close

/-! ## The pieces fold back -/

section Fold
variable (c : Dev nD)

/-- The sixteen chunks of the device's part of `x`, all at the same contents, are the part whole. -/
private theorem x_fold :
    (bigSep Finset.univ fun k : Fin 16 => (xL c ↦[(xCk k).view.set]{fullShare} Xc m c : sProp 𝕄))
      ⊢ (xL c ↦{fullShare} Xc m c : sProp 𝕄) :=
  Entails.of_eq (x_split c (Xc m c)).symm

/-- The two staging slots, each at whatever it holds, are the staging buffer at some contents. -/
private theorem f_fold :
    (bigSep Finset.univ fun i : Fin 2 => (iprop(∃ fd : Buf (Elt F) (fL c), fL c ↦[(fSt i).view.set]{fullShare} fd) : sProp 𝕄))
      ⊢ (iprop(∃ g : Buf (Elt F) (fL c), fL c ↦{fullShare} g) : sProp 𝕄) := by
  rw [bigSep_fin2]
  iintro ⟨⟨%f0, H0⟩, ⟨%f1, H1⟩⟩
  iapply (f_join c ![f0, f1])
  rw [bigSep_fin2]
  isplitl [H0]; · iexact H0
  iexact H1

/-- The sixteen own chunks and the forty-eight received ones are the 4 × 16 chunks of the result; each holds the
    final contents on its rows, so together they are the result whole. -/
private theorem o_fold :
    iprop((bigSep Finset.univ fun k : Fin 16 => (oL c ↦[(oCk c k).view.set]{fullShare} OC m c c k : sProp 𝕄))
      ∗ bigSep Finset.univ fun jk : Fin 3 × Fin 16 =>
          (oL c ↦[(oCk (qr c jk.1) jk.2).view.set]{fullShare} OC m c (qr c jk.1) jk.2 : sProp 𝕄))
      ⊢ (oL c ↦{fullShare} outF m c : sProp 𝕄) := by
  have hc : ∀ (s : Dev nD) (k : Fin 16), (oL c ↦[(oCk s k).view.set]{fullShare} OC m c s k : sProp 𝕄)
      = (oL c ↦[(oCk s k).view.set]{fullShare} outF m c) := fun s k => pointsTo_congr (outF_eq_OC m c s k)
  refine Entails.of_eq (Eq.symm ((o_split c (outF m c)).trans ((bigSep_univ_prod _).trans
    ((bigSep_dev_rel_q c _).trans ?_))))
  rw [bigSep_univ_prod, bigSep_fin3]
  simp only [hc]

/-- The sixteen own pieces and the forty-eight sent ones are the 16 × 4 pieces of the rounded array: the array at
    some contents. -/
private theorem b_fold :
    iprop((bigSep Finset.univ fun k : Fin 16 => (bL c ↦[(bPc k c).view.set]{fullShare} BB m c k : sProp 𝕄))
      ∗ bigSep Finset.univ fun jk : Fin 3 × Fin 16 =>
          (bL c ↦[(bPc jk.2 (pr c jk.1)).view.set]{fullShare} BB m c jk.2 : sProp 𝕄))
      ⊢ (iprop(∃ g : Buf (Elt F) (bL c), bL c ↦{fullShare} g) : sProp 𝕄) := by
  refine .trans (Entails.of_eq ?_) (b_join c (fun p => BB m c p.1))
  refine Eq.symm ((bigSep_univ_equiv (Equiv.prodComm (Dev nD) (Fin 16)) _).trans ((bigSep_univ_prod _).trans
    ((bigSep_dev_rel c _).trans ?_)))
  rw [bigSep_univ_prod, bigSep_fin3]
  rfl

end Fold

/-! ## The last step -/

/-- From what the last waits returned: the arrays whole again, the result at its final contents, every own DMA
    semaphore at zero, nothing owed. -/
theorem finish_spec (c : Dev nD) (K : Dev nD × CI → ℕ) :
    iprop(records m K ∗ Closed m c) ⊢ (iprop(|={Set.univ}=> bodyPost m c) : sProp 𝕄) := by
  unfold Closed
  rw [bigSep_sep', bigSep_sep', bigSep_sep', bigSep_sep', bigSep_sep']
  iintro ⟨#Hrec, Hx, Hf, ⟨HBo, HOo, HAlc⟩, ⟨HBp, HOp, HAsd, HArv⟩, Hcp0, Hcp1, %W, HO⟩
  imod (close_all m c K) $$ [HAlc HAsd HArv Hcp0 Hcp1] with Hz
  · isplitr; · iexact Hrec
    rw [atPos_regroup]
    isplitl [Hcp0 Hcp1]
    · isplitl [Hcp0]; · iexact Hcp0
      iexact Hcp1
    isplitl [HAlc]; · iexact HAlc
    isplitl [HAsd]; · iexact HAsd
    iexact HArv
  imodintro
  unfold bodyPost Φ₁ Dat.owesAt Pipeline.owesWithin
  rw [show (dats m 0 c).owed t₀.succ = 0 from rfl]
  isplitl [Hx Hf HBo HOo HBp HOp Hz]
  · isplitl [Hx]; · iapply (x_fold m c); iexact Hx
    isplitl [HOo HOp]
    · iapply (o_fold m c); isplitl [HOo]; · iexact HOo
      iexact HOp
    isplitl [Hf]; · iapply (f_fold c); iexact Hf
    isplitl [HBo HBp]
    · iapply (b_fold m c); isplitl [HBo]; · iexact HBo
      iexact HBp
    iexact Hz
  iexists W
  isplitr; · ipureintro; exact fun _ _ => Or.inl trivial
  iexact HO

/-- info: 'Cert.KernelIdeal.A2A.finish_spec' depends on axioms: [propext, Classical.choice, Quot.sound] -/
#guard_msgs in #print axioms finish_spec

end Cert.KernelIdeal.A2A

end
-- ==== Proof.Body.lean ====
/-
  One device's body, from what the launch hands it (cut into pieces by the first step) to what it hands back (folded by
  the last): three barrier units out; then, chunk by chunk, the chunk staged, rounded and stored, the next-but-one chunk's
  staging started, the chunk's own column block copied into the device's own result and its other three column blocks
  sent to the three peers (the first chunk's sends after the wait for the peers' barrier units); then the waits for the
  sixteen own copies, the forty-eight sends read out, and the forty-eight arrivals from the peers.
-/
import proofs.«900006_g7700000000000007_dist_a2a_v7x_i4_i_m4096_n1024_bf16_1_alg».proof.Proof.BodyState
import proofs.«900006_g7700000000000007_dist_a2a_v7x_i4_i_m4096_n1024_bf16_1_alg».proof.Proof.OpsLocal
import proofs.«900006_g7700000000000007_dist_a2a_v7x_i4_i_m4096_n1024_bf16_1_alg».proof.Proof.OpsRemote
import proofs.«900006_g7700000000000007_dist_a2a_v7x_i4_i_m4096_n1024_bf16_1_alg».proof.Proof.Joins
import proofs.«900006_g7700000000000007_dist_a2a_v7x_i4_i_m4096_n1024_bf16_1_alg».proof.Proof.Begin
import proofs.«900006_g7700000000000007_dist_a2a_v7x_i4_i_m4096_n1024_bf16_1_alg».proof.Proof.Finish
import proofs.«900006_g7700000000000007_dist_a2a_v7x_i4_i_m4096_n1024_bf16_1_alg».proof.Proof.Gen.KernelIdeal.Skeleton

set_option maxRecDepth 65536

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Aux
variable (c : Dev nD) (K : Dev nD × CI → ℕ)

theorem bigSep_f2 (Φ : Fin 2 → sProp 𝕄) : bigSep Finset.univ Φ = iprop(Φ 0 ∗ Φ 1) := bigSep_univ_eq_bigSepL [0, 1] (by decide) (by decide) Φ
theorem bigSep_f3 (Φ : Fin 3 → sProp 𝕄) : bigSep Finset.univ Φ = iprop(Φ 0 ∗ Φ 1 ∗ Φ 2) := bigSep_univ_eq_bigSepL [0, 1, 2] (by decide) (by decide) Φ
theorem bigSep_f16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_f3x16 (Φ : Fin 3 × Fin 16 → sProp 𝕄) : bigSep Finset.univ Φ =
    iprop((Φ (0, 0) ∗ Φ (0, 1) ∗ Φ (0, 2) ∗ Φ (0, 3) ∗ Φ (0, 4) ∗ Φ (0, 5) ∗ Φ (0, 6) ∗ Φ (0, 7) ∗ Φ (0, 8) ∗ Φ (0, 9) ∗ Φ (0, 10) ∗ Φ (0, 11) ∗ Φ (0, 12) ∗ Φ (0, 13) ∗ Φ (0, 14) ∗ Φ (0, 15)) ∗ (Φ (1, 0) ∗ Φ (1, 1) ∗ Φ (1, 2) ∗ Φ (1, 3) ∗ Φ (1, 4) ∗ Φ (1, 5) ∗ Φ (1, 6) ∗ Φ (1, 7) ∗ Φ (1, 8) ∗ Φ (1, 9) ∗ Φ (1, 10) ∗ Φ (1, 11) ∗ Φ (1, 12) ∗ Φ (1, 13) ∗ Φ (1, 14) ∗ Φ (1, 15)) ∗ (Φ (2, 0) ∗ Φ (2, 1) ∗ Φ (2, 2) ∗ Φ (2, 3) ∗ Φ (2, 4) ∗ Φ (2, 5) ∗ Φ (2, 6) ∗ Φ (2, 7) ∗ Φ (2, 8) ∗ Φ (2, 9) ∗ Φ (2, 10) ∗ Φ (2, 11) ∗ Φ (2, 12) ∗ Φ (2, 13) ∗ Φ (2, 14) ∗ Φ (2, 15))) := by
  rw [bigSep_univ_prod, bigSep_f3, bigSep_f16, bigSep_f16, bigSep_f16]

/-- A staging cell lies below the barrier cells. -/
theorem lv_cp (i : Fin 2) : lv (cpCell c i) () ≤ 1 := by
  show (if 66 ≤ (cpS i).val then 2 else 0) ≤ 1
  rw [if_neg (by rw [cpS_val]; have := i.isLt; omega)]; decide

/-- What the peer `j + 1` places back handed over, row block by row block, named by where that peer stands. -/
theorem barPay_list (j : Fin 3) : (barPay (F := F) c j : sProp 𝕄) =
    iprop((∃ f : Buf (Elt F) (oL (pr c (opp j))), oL (pr c (opp j)) ↦[(oCk c 0).view.set]{fullShare} f) ∗ (∃ f : Buf (Elt F) (oL (pr c (opp j))), oL (pr c (opp j)) ↦[(oCk c 1).view.set]{fullShare} f) ∗ (∃ f : Buf (Elt F) (oL (pr c (opp j))), oL (pr c (opp j)) ↦[(oCk c 2).view.set]{fullShare} f) ∗ (∃ f : Buf (Elt F) (oL (pr c (opp j))), oL (pr c (opp j)) ↦[(oCk c 3).view.set]{fullShare} f) ∗ (∃ f : Buf (Elt F) (oL (pr c (opp j))), oL (pr c (opp j)) ↦[(oCk c 4).view.set]{fullShare} f) ∗ (∃ f : Buf (Elt F) (oL (pr c (opp j))), oL (pr c (opp j)) ↦[(oCk c 5).view.set]{fullShare} f) ∗ (∃ f : Buf (Elt F) (oL (pr c (opp j))), oL (pr c (opp j)) ↦[(oCk c 6).view.set]{fullShare} f) ∗ (∃ f : Buf (Elt F) (oL (pr c (opp j))), oL (pr c (opp j)) ↦[(oCk c 7).view.set]{fullShare} f) ∗ (∃ f : Buf (Elt F) (oL (pr c (opp j))), oL (pr c (opp j)) ↦[(oCk c 8).view.set]{fullShare} f) ∗ (∃ f : Buf (Elt F) (oL (pr c (opp j))), oL (pr c (opp j)) ↦[(oCk c 9).view.set]{fullShare} f) ∗ (∃ f : Buf (Elt F) (oL (pr c (opp j))), oL (pr c (opp j)) ↦[(oCk c 10).view.set]{fullShare} f) ∗ (∃ f : Buf (Elt F) (oL (pr c (opp j))), oL (pr c (opp j)) ↦[(oCk c 11).view.set]{fullShare} f) ∗ (∃ f : Buf (Elt F) (oL (pr c (opp j))), oL (pr c (opp j)) ↦[(oCk c 12).view.set]{fullShare} f) ∗ (∃ f : Buf (Elt F) (oL (pr c (opp j))), oL (pr c (opp j)) ↦[(oCk c 13).view.set]{fullShare} f) ∗ (∃ f : Buf (Elt F) (oL (pr c (opp j))), oL (pr c (opp j)) ↦[(oCk c 14).view.set]{fullShare} f) ∗ (∃ f : Buf (Elt F) (oL (pr c (opp j))), oL (pr c (opp j)) ↦[(oCk c 15).view.set]{fullShare} f)) := by
  unfold barPay; rw [bigSep_f16, qr_eq_pr_opp]

theorem lcPay_eq (k : Fin 16) : lcPay m c k =
    iprop((oL c ↦[(oCk c k).view.set]{fullShare} OC m c c k) ∗ (bL c ↦[(bPc k c).view.set]{fullShare} BB m c k)) := rfl
theorem sdPay_eq (j : Fin 3) (k : Fin 16) : sdPay m c j k = (bL c ↦[(bPc k (pr c j)).view.set]{fullShare} BB m c k : sProp 𝕄) := rfl
theorem rvPay_eq (j : Fin 3) (k : Fin 16) : rvPay m c j k = (oL c ↦[(oCk (qr c j) k).view.set]{fullShare} OC m c (qr c j) k : sProp 𝕄) := rfl
end Aux

set_option maxHeartbeats 16000000 in
/-- The body. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ (theBody (F := F)) Kt := by
  simp only [theBody, cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel,
    semSignalWord, semWaitWord, Prog.lift, Prog.bind_op, Prog.bind_ret, Prog.pure_eq_ret, wp_deviceId]
  iintro ⟨Hpre, Hk⟩
  ihave Hop := (begin_spec m c) $$ Hpre
  unfold Opened Dat.owesAt Pipeline.owesWithin
  rw [show (dats m 0 c).owed t₀.castSucc = O₀ c from rfl]
  icases Hop with ⟨%K, #HR, ⟨%W0, %hW0, HO⟩, #Hlev, HcB, HaB, Ha0, Ha1, HBs, HIs, HFs, HLs, HSs⟩
  ihave HBs := (Entails.of_eq (bigSep_f3 _)) $$ HBs
  icases HBs with ⟨⟨HtB0, HgB0⟩, ⟨HtB1, HgB1⟩, ⟨HtB2, HgB2⟩⟩
  ihave HIs := (Entails.of_eq (bigSep_f16 _)) $$ HIs
  icases HIs with ⟨⟨HtI0, Hx0⟩, ⟨HtI1, Hx1⟩, ⟨HtI2, Hx2⟩, ⟨HtI3, Hx3⟩, ⟨HtI4, Hx4⟩, ⟨HtI5, Hx5⟩, ⟨HtI6, Hx6⟩, ⟨HtI7, Hx7⟩, ⟨HtI8, Hx8⟩, ⟨HtI9, Hx9⟩, ⟨HtI10, Hx10⟩, ⟨HtI11, Hx11⟩, ⟨HtI12, Hx12⟩, ⟨HtI13, Hx13⟩, ⟨HtI14, Hx14⟩, ⟨HtI15, Hx15⟩⟩
  ihave HFs := (Entails.of_eq (bigSep_f2 _)) $$ HFs
  icases HFs with ⟨⟨%fd0, Hf0⟩, ⟨%fd1, Hf1⟩⟩
  ihave HLs := (Entails.of_eq (bigSep_f16 _)) $$ HLs
  icases HLs with ⟨⟨⟨%fb0, Hrow0⟩, HtL0, HaL0, HoO0⟩, ⟨⟨%fb1, Hrow1⟩, HtL1, HaL1, HoO1⟩, ⟨⟨%fb2, Hrow2⟩, HtL2, HaL2, HoO2⟩, ⟨⟨%fb3, Hrow3⟩, HtL3, HaL3, HoO3⟩, ⟨⟨%fb4, Hrow4⟩, HtL4, HaL4, HoO4⟩, ⟨⟨%fb5, Hrow5⟩, HtL5, HaL5, HoO5⟩, ⟨⟨%fb6, Hrow6⟩, HtL6, HaL6, HoO6⟩, ⟨⟨%fb7, Hrow7⟩, HtL7, HaL7, HoO7⟩, ⟨⟨%fb8, Hrow8⟩, HtL8, HaL8, HoO8⟩, ⟨⟨%fb9, Hrow9⟩, HtL9, HaL9, HoO9⟩, ⟨⟨%fb10, Hrow10⟩, HtL10, HaL10, HoO10⟩, ⟨⟨%fb11, Hrow11⟩, HtL11, HaL11, HoO11⟩, ⟨⟨%fb12, Hrow12⟩, HtL12, HaL12, HoO12⟩, ⟨⟨%fb13, Hrow13⟩, HtL13, HaL13, HoO13⟩, ⟨⟨%fb14, Hrow14⟩, HtL14, HaL14, HoO14⟩, ⟨⟨%fb15, Hrow15⟩, HtL15, HaL15, HoO15⟩⟩
  ihave HSs := (Entails.of_eq (bigSep_f3x16 _)) $$ HSs
  icases HSs with ⟨⟨⟨HtS0_0, HtR0_0, HaS0_0, HcR0_0, HaR0_0⟩, ⟨HtS0_1, HtR0_1, HaS0_1, HcR0_1, HaR0_1⟩, ⟨HtS0_2, HtR0_2, HaS0_2, HcR0_2, HaR0_2⟩, ⟨HtS0_3, HtR0_3, HaS0_3, HcR0_3, HaR0_3⟩, ⟨HtS0_4, HtR0_4, HaS0_4, HcR0_4, HaR0_4⟩, ⟨HtS0_5, HtR0_5, HaS0_5, HcR0_5, HaR0_5⟩, ⟨HtS0_6, HtR0_6, HaS0_6, HcR0_6, HaR0_6⟩, ⟨HtS0_7, HtR0_7, HaS0_7, HcR0_7, HaR0_7⟩, ⟨HtS0_8, HtR0_8, HaS0_8, HcR0_8, HaR0_8⟩, ⟨HtS0_9, HtR0_9, HaS0_9, HcR0_9, HaR0_9⟩, ⟨HtS0_10, HtR0_10, HaS0_10, HcR0_10, HaR0_10⟩, ⟨HtS0_11, HtR0_11, HaS0_11, HcR0_11, HaR0_11⟩, ⟨HtS0_12, HtR0_12, HaS0_12, HcR0_12, HaR0_12⟩, ⟨HtS0_13, HtR0_13, HaS0_13, HcR0_13, HaR0_13⟩, ⟨HtS0_14, HtR0_14, HaS0_14, HcR0_14, HaR0_14⟩, ⟨HtS0_15, HtR0_15, HaS0_15, HcR0_15, HaR0_15⟩⟩, ⟨⟨HtS1_0, HtR1_0, HaS1_0, HcR1_0, HaR1_0⟩, ⟨HtS1_1, HtR1_1, HaS1_1, HcR1_1, HaR1_1⟩, ⟨HtS1_2, HtR1_2, HaS1_2, HcR1_2, HaR1_2⟩, ⟨HtS1_3, HtR1_3, HaS1_3, HcR1_3, HaR1_3⟩, ⟨HtS1_4, HtR1_4, HaS1_4, HcR1_4, HaR1_4⟩, ⟨HtS1_5, HtR1_5, HaS1_5, HcR1_5, HaR1_5⟩, ⟨HtS1_6, HtR1_6, HaS1_6, HcR1_6, HaR1_6⟩, ⟨HtS1_7, HtR1_7, HaS1_7, HcR1_7, HaR1_7⟩, ⟨HtS1_8, HtR1_8, HaS1_8, HcR1_8, HaR1_8⟩, ⟨HtS1_9, HtR1_9, HaS1_9, HcR1_9, HaR1_9⟩, ⟨HtS1_10, HtR1_10, HaS1_10, HcR1_10, HaR1_10⟩, ⟨HtS1_11, HtR1_11, HaS1_11, HcR1_11, HaR1_11⟩, ⟨HtS1_12, HtR1_12, HaS1_12, HcR1_12, HaR1_12⟩, ⟨HtS1_13, HtR1_13, HaS1_13, HcR1_13, HaR1_13⟩, ⟨HtS1_14, HtR1_14, HaS1_14, HcR1_14, HaR1_14⟩, ⟨HtS1_15, HtR1_15, HaS1_15, HcR1_15, HaR1_15⟩⟩, ⟨⟨HtS2_0, HtR2_0, HaS2_0, HcR2_0, HaR2_0⟩, ⟨HtS2_1, HtR2_1, HaS2_1, HcR2_1, HaR2_1⟩, ⟨HtS2_2, HtR2_2, HaS2_2, HcR2_2, HaR2_2⟩, ⟨HtS2_3, HtR2_3, HaS2_3, HcR2_3, HaR2_3⟩, ⟨HtS2_4, HtR2_4, HaS2_4, HcR2_4, HaR2_4⟩, ⟨HtS2_5, HtR2_5, HaS2_5, HcR2_5, HaR2_5⟩, ⟨HtS2_6, HtR2_6, HaS2_6, HcR2_6, HaR2_6⟩, ⟨HtS2_7, HtR2_7, HaS2_7, HcR2_7, HaR2_7⟩, ⟨HtS2_8, HtR2_8, HaS2_8, HcR2_8, HaR2_8⟩, ⟨HtS2_9, HtR2_9, HaS2_9, HcR2_9, HaR2_9⟩, ⟨HtS2_10, HtR2_10, HaS2_10, HcR2_10, HaR2_10⟩, ⟨HtS2_11, HtR2_11, HaS2_11, HcR2_11, HaR2_11⟩, ⟨HtS2_12, HtR2_12, HaS2_12, HcR2_12, HaR2_12⟩, ⟨HtS2_13, HtR2_13, HaS2_13, HcR2_13, HaR2_13⟩, ⟨HtS2_14, HtR2_14, HaS2_14, HcR2_14, HaR2_14⟩, ⟨HtS2_15, HtR2_15, HaS2_15, HcR2_15, HaR2_15⟩⟩⟩
  ihave #Hr0 := (rec_reached_cp m c K 0) $$ HR
  ihave #Hr1 := (rec_reached_cp m c K 1) $$ HR
  -- the unit to the peer 1 place(s) on
  iapply (op_signal m c K 0 _ (Fin.ext (k0_dev1_eq c)) 50 _) $$ [HO HtB0 HgB0]
  · isplitr; · iexact HR
    isplitl [HO]; · iexact HO
    isplitl [HtB0]; · iexact HtB0
    iexact HgB0
  iintro HO
  -- the unit to the peer 2 place(s) on
  iapply (op_signal m c K 1 _ (Fin.ext (k0_dev2_eq c)) 49 _) $$ [HO HtB1 HgB1]
  · isplitr; · iexact HR
    isplitl [HO]; · iexact HO
    isplitl [HtB1]; · iexact HtB1
    iexact HgB1
  iintro HO
  -- the unit to the peer 3 place(s) on
  iapply (op_signal m c K 2 _ (Fin.ext (k0_dev3_eq c)) 48 _) $$ [HO HtB2 HgB2]
  · isplitr; · iexact HR
    isplitl [HO]; · iexact HO
    isplitl [HtB2]; · iexact HtB2
    iexact HgB2
  iintro HO
  -- chunk 0 starts towards slot 0
  iapply (op_enq_in m c K 0) $$ [HtI0 Hx0 Hf0]
  · isplitr; · iexact HR
    isplitr; · iexact Hr0
    isplitl [HtI0]; · iexact HtI0
    isplitl [Hx0]; · iexact Hx0
    iexists _; iexact Hf0
  iintro HcI0
  -- chunk 1 starts towards slot 1
  iapply (op_enq_in m c K 1) $$ [HtI1 Hx1 Hf1]
  · isplitr; · iexact HR
    isplitr; · iexact Hr1
    isplitl [HtI1]; · iexact HtI1
    isplitl [Hx1]; · iexact Hx1
    iexists _; iexact Hf1
  iintro HcI1
  -- chunk 0: landed, rounded, stored
  iapply (op_stage m c K 0 (owedFrom c 48 3) _) $$ [HcI0 HO Ha0 Hrow0]
  · isplitr; · iexact HR
    isplitl [HcI0]; · iexact HcI0
    isplitl [HO]; · iexact HO
    isplitr; · iapply (mayWait_low (F := F) c (.dma (cpS 0)) (lv_cp c 0) 48 3 (by omega)); iexact Hlev
    isplitl [Ha0]; · iexact Ha0
    iexists _; iexact Hrow0
  iintro ⟨HO, Ha0, #Hr0, Hf0, Hx0, Hrow0⟩
  -- chunk 2 starts towards slot 0
  iapply (op_enq_in m c K 2) $$ [HtI2 Hx2 Hf0]
  · isplitr; · iexact HR
    isplitr; · iexact Hr0
    isplitl [HtI2]; · iexact HtI2
    isplitl [Hx2]; · iexact Hx2
    iexists _; iexact Hf0
  iintro HcI0
  ihave Hpc := (Entails.of_eq (rows_split_rel c 0 _)) $$ Hrow0
  icases Hpc with ⟨Hb0, Hp0_0, Hp1_0, Hp2_0⟩
  -- its own column block into the device's own result
  iapply (op_enq_lc m c K 0 _ _ (k0_off2_eq c) (k0_off1_eq c ⟨0, by decide⟩) _) $$ [HtL0 Hb0 HoO0]
  · isplitr; · iexact HR
    isplitl [HtL0]; · iexact HtL0
    isplitl [Hb0]; · iexact Hb0
    iexact HoO0
  iintro HcL0
  -- the three peers are in: their rows come with their units
  iapply (op_bar_wait m c K _) $$ [HcB HO HaB]
  · isplitr; · iexact HR
    isplitl [HcB]; · iexact HcB
    isplitl [HO]; · iexact HO
    isplitr; · iexact Hlev
    iexact HaB
  iintro ⟨HO, HaB, Hq0, Hq1, Hq2⟩
  ihave Hq0 := (Entails.of_eq (barPay_list c 0)) $$ Hq0
  icases Hq0 with ⟨HQ0_0, HQ0_1, HQ0_2, HQ0_3, HQ0_4, HQ0_5, HQ0_6, HQ0_7, HQ0_8, HQ0_9, HQ0_10, HQ0_11, HQ0_12, HQ0_13, HQ0_14, HQ0_15⟩
  ihave Hq1 := (Entails.of_eq (barPay_list c 1)) $$ Hq1
  icases Hq1 with ⟨HQ1_0, HQ1_1, HQ1_2, HQ1_3, HQ1_4, HQ1_5, HQ1_6, HQ1_7, HQ1_8, HQ1_9, HQ1_10, HQ1_11, HQ1_12, HQ1_13, HQ1_14, HQ1_15⟩
  ihave Hq2 := (Entails.of_eq (barPay_list c 2)) $$ Hq2
  icases Hq2 with ⟨HQ2_0, HQ2_1, HQ2_2, HQ2_3, HQ2_4, HQ2_5, HQ2_6, HQ2_7, HQ2_8, HQ2_9, HQ2_10, HQ2_11, HQ2_12, HQ2_13, HQ2_14, HQ2_15⟩
  -- chunk 0 to the peer 2 place(s) on
  iapply (op_send m c K 1 0 0 rfl _ (Fin.ext (k0_dev4_eq c)) _ _ (k0_off3_eq c ⟨1, by decide⟩) (k0_off1_eq c ⟨0, by decide⟩) 47 _) $$ [HtS1_0 HtR1_0 HO Hp1_0 HQ1_0]
  · isplitr; · iexact HR
    isplitl [HtS1_0]; · iexact HtS1_0
    isplitl [HtR1_0]; · iexact HtR1_0
    isplitl [HO]; · iexact HO
    isplitl [Hp1_0]; · iexact Hp1_0
    iexact HQ1_0
  iintro ⟨HcS1_0, HO⟩
  -- chunk 0 to the peer 1 place(s) on
  iapply (op_send m c K 0 0 1 rfl _ (Fin.ext (k0_dev5_eq c)) _ _ (k0_off3_eq c ⟨0, by decide⟩) (k0_off1_eq c ⟨0, by decide⟩) 46 _) $$ [HtS0_0 HtR0_0 HO Hp0_0 HQ2_0]
  · isplitr; · iexact HR
    isplitl [HtS0_0]; · iexact HtS0_0
    isplitl [HtR0_0]; · iexact HtR0_0
    isplitl [HO]; · iexact HO
    isplitl [Hp0_0]; · iexact Hp0_0
    iexact HQ2_0
  iintro ⟨HcS0_0, HO⟩
  -- chunk 0 to the peer 3 place(s) on
  iapply (op_send m c K 2 0 2 rfl _ (Fin.ext (k0_dev6_eq c)) _ _ (k0_off3_eq c ⟨2, by decide⟩) (k0_off1_eq c ⟨0, by decide⟩) 45 _) $$ [HtS2_0 HtR2_0 HO Hp2_0 HQ0_0]
  · isplitr; · iexact HR
    isplitl [HtS2_0]; · iexact HtS2_0
    isplitl [HtR2_0]; · iexact HtR2_0
    isplitl [HO]; · iexact HO
    isplitl [Hp2_0]; · iexact Hp2_0
    iexact HQ0_0
  iintro ⟨HcS2_0, HO⟩
  -- chunk 1: landed, rounded, stored
  iapply (op_stage m c K 1 (owedFrom c 45 6) _) $$ [HcI1 HO Ha1 Hrow1]
  · isplitr; · iexact HR
    isplitl [HcI1]; · iexact HcI1
    isplitl [HO]; · iexact HO
    isplitr; · iapply (mayWait_low (F := F) c (.dma (cpS 1)) (lv_cp c 1) 45 6 (by omega)); iexact Hlev
    isplitl [Ha1]; · iexact Ha1
    iexists _; iexact Hrow1
  iintro ⟨HO, Ha1, #Hr1, Hf1, Hx1, Hrow1⟩
  -- chunk 3 starts towards slot 1
  iapply (op_enq_in m c K 3) $$ [HtI3 Hx3 Hf1]
  · isplitr; · iexact HR
    isplitr; · iexact Hr1
    isplitl [HtI3]; · iexact HtI3
    isplitl [Hx3]; · iexact Hx3
    iexists _; iexact Hf1
  iintro HcI1
  ihave Hpc := (Entails.of_eq (rows_split_rel c 1 _)) $$ Hrow1
  icases Hpc with ⟨Hb1, Hp0_1, Hp1_1, Hp2_1⟩
  -- its own column block into the device's own result
  iapply (op_enq_lc m c K 1 _ _ (k0_off4_eq c) (k0_off1_eq c ⟨1, by decide⟩) _) $$ [HtL1 Hb1 HoO1]
  · isplitr; · iexact HR
    isplitl [HtL1]; · iexact HtL1
    isplitl [Hb1]; · iexact Hb1
    iexact HoO1
  iintro HcL1
  -- chunk 1 to the peer 2 place(s) on
  iapply (op_send m c K 1 1 0 rfl _ (Fin.ext (k0_dev7_eq c)) _ _ (k0_off5_eq c ⟨1, by decide⟩) (k0_off1_eq c ⟨1, by decide⟩) 44 _) $$ [HtS1_1 HtR1_1 HO Hp1_1 HQ1_1]
  · isplitr; · iexact HR
    isplitl [HtS1_1]; · iexact HtS1_1
    isplitl [HtR1_1]; · iexact HtR1_1
    isplitl [HO]; · iexact HO
    isplitl [Hp1_1]; · iexact Hp1_1
    iexact HQ1_1
  iintro ⟨HcS1_1, HO⟩
  -- chunk 1 to the peer 1 place(s) on
  iapply (op_send m c K 0 1 1 rfl _ (Fin.ext (k0_dev8_eq c)) _ _ (k0_off5_eq c ⟨0, by decide⟩) (k0_off1_eq c ⟨1, by decide⟩) 43 _) $$ [HtS0_1 HtR0_1 HO Hp0_1 HQ2_1]
  · isplitr; · iexact HR
    isplitl [HtS0_1]; · iexact HtS0_1
    isplitl [HtR0_1]; · iexact HtR0_1
    isplitl [HO]; · iexact HO
    isplitl [Hp0_1]; · iexact Hp0_1
    iexact HQ2_1
  iintro ⟨HcS0_1, HO⟩
  -- chunk 1 to the peer 3 place(s) on
  iapply (op_send m c K 2 1 2 rfl _ (Fin.ext (k0_dev9_eq c)) _ _ (k0_off5_eq c ⟨2, by decide⟩) (k0_off1_eq c ⟨1, by decide⟩) 42 _) $$ [HtS2_1 HtR2_1 HO Hp2_1 HQ0_1]
  · isplitr; · iexact HR
    isplitl [HtS2_1]; · iexact HtS2_1
    isplitl [HtR2_1]; · iexact HtR2_1
    isplitl [HO]; · iexact HO
    isplitl [Hp2_1]; · iexact Hp2_1
    iexact HQ0_1
  iintro ⟨HcS2_1, HO⟩
  -- chunk 2: landed, rounded, stored
  iapply (op_stage m c K 2 (owedFrom c 42 9) _) $$ [HcI0 HO Ha0 Hrow2]
  · isplitr; · iexact HR
    isplitl [HcI0]; · iexact HcI0
    isplitl [HO]; · iexact HO
    isplitr; · iapply (mayWait_low (F := F) c (.dma (cpS 0)) (lv_cp c 0) 42 9 (by omega)); iexact Hlev
    isplitl [Ha0]; · iexact Ha0
    iexists _; iexact Hrow2
  iintro ⟨HO, Ha0, #Hr0, Hf0, Hx2, Hrow2⟩
  -- chunk 4 starts towards slot 0
  iapply (op_enq_in m c K 4) $$ [HtI4 Hx4 Hf0]
  · isplitr; · iexact HR
    isplitr; · iexact Hr0
    isplitl [HtI4]; · iexact HtI4
    isplitl [Hx4]; · iexact Hx4
    iexists _; iexact Hf0
  iintro HcI0
  ihave Hpc := (Entails.of_eq (rows_split_rel c 2 _)) $$ Hrow2
  icases Hpc with ⟨Hb2, Hp0_2, Hp1_2, Hp2_2⟩
  -- its own column block into the device's own result
  iapply (op_enq_lc m c K 2 _ _ (k0_off6_eq c) (k0_off1_eq c ⟨2, by decide⟩) _) $$ [HtL2 Hb2 HoO2]
  · isplitr; · iexact HR
    isplitl [HtL2]; · iexact HtL2
    isplitl [Hb2]; · iexact Hb2
    iexact HoO2
  iintro HcL2
  -- chunk 2 to the peer 2 place(s) on
  iapply (op_send m c K 1 2 0 rfl _ (Fin.ext (k0_dev10_eq c)) _ _ (k0_off7_eq c ⟨1, by decide⟩) (k0_off1_eq c ⟨2, by decide⟩) 41 _) $$ [HtS1_2 HtR1_2 HO Hp1_2 HQ1_2]
  · isplitr; · iexact HR
    isplitl [HtS1_2]; · iexact HtS1_2
    isplitl [HtR1_2]; · iexact HtR1_2
    isplitl [HO]; · iexact HO
    isplitl [Hp1_2]; · iexact Hp1_2
    iexact HQ1_2
  iintro ⟨HcS1_2, HO⟩
  -- chunk 2 to the peer 1 place(s) on
  iapply (op_send m c K 0 2 1 rfl _ (Fin.ext (k0_dev11_eq c)) _ _ (k0_off7_eq c ⟨0, by decide⟩) (k0_off1_eq c ⟨2, by decide⟩) 40 _) $$ [HtS0_2 HtR0_2 HO Hp0_2 HQ2_2]
  · isplitr; · iexact HR
    isplitl [HtS0_2]; · iexact HtS0_2
    isplitl [HtR0_2]; · iexact HtR0_2
    isplitl [HO]; · iexact HO
    isplitl [Hp0_2]; · iexact Hp0_2
    iexact HQ2_2
  iintro ⟨HcS0_2, HO⟩
  -- chunk 2 to the peer 3 place(s) on
  iapply (op_send m c K 2 2 2 rfl _ (Fin.ext (k0_dev12_eq c)) _ _ (k0_off7_eq c ⟨2, by decide⟩) (k0_off1_eq c ⟨2, by decide⟩) 39 _) $$ [HtS2_2 HtR2_2 HO Hp2_2 HQ0_2]
  · isplitr; · iexact HR
    isplitl [HtS2_2]; · iexact HtS2_2
    isplitl [HtR2_2]; · iexact HtR2_2
    isplitl [HO]; · iexact HO
    isplitl [Hp2_2]; · iexact Hp2_2
    iexact HQ0_2
  iintro ⟨HcS2_2, HO⟩
  -- chunk 3: landed, rounded, stored
  iapply (op_stage m c K 3 (owedFrom c 39 12) _) $$ [HcI1 HO Ha1 Hrow3]
  · isplitr; · iexact HR
    isplitl [HcI1]; · iexact HcI1
    isplitl [HO]; · iexact HO
    isplitr; · iapply (mayWait_low (F := F) c (.dma (cpS 1)) (lv_cp c 1) 39 12 (by omega)); iexact Hlev
    isplitl [Ha1]; · iexact Ha1
    iexists _; iexact Hrow3
  iintro ⟨HO, Ha1, #Hr1, Hf1, Hx3, Hrow3⟩
  -- chunk 5 starts towards slot 1
  iapply (op_enq_in m c K 5) $$ [HtI5 Hx5 Hf1]
  · isplitr; · iexact HR
    isplitr; · iexact Hr1
    isplitl [HtI5]; · iexact HtI5
    isplitl [Hx5]; · iexact Hx5
    iexists _; iexact Hf1
  iintro HcI1
  ihave Hpc := (Entails.of_eq (rows_split_rel c 3 _)) $$ Hrow3
  icases Hpc with ⟨Hb3, Hp0_3, Hp1_3, Hp2_3⟩
  -- its own column block into the device's own result
  iapply (op_enq_lc m c K 3 _ _ (k0_off8_eq c) (k0_off1_eq c ⟨3, by decide⟩) _) $$ [HtL3 Hb3 HoO3]
  · isplitr; · iexact HR
    isplitl [HtL3]; · iexact HtL3
    isplitl [Hb3]; · iexact Hb3
    iexact HoO3
  iintro HcL3
  -- chunk 3 to the peer 2 place(s) on
  iapply (op_send m c K 1 3 0 rfl _ (Fin.ext (k0_dev13_eq c)) _ _ (k0_off9_eq c ⟨1, by decide⟩) (k0_off1_eq c ⟨3, by decide⟩) 38 _) $$ [HtS1_3 HtR1_3 HO Hp1_3 HQ1_3]
  · isplitr; · iexact HR
    isplitl [HtS1_3]; · iexact HtS1_3
    isplitl [HtR1_3]; · iexact HtR1_3
    isplitl [HO]; · iexact HO
    isplitl [Hp1_3]; · iexact Hp1_3
    iexact HQ1_3
  iintro ⟨HcS1_3, HO⟩
  -- chunk 3 to the peer 1 place(s) on
  iapply (op_send m c K 0 3 1 rfl _ (Fin.ext (k0_dev14_eq c)) _ _ (k0_off9_eq c ⟨0, by decide⟩) (k0_off1_eq c ⟨3, by decide⟩) 37 _) $$ [HtS0_3 HtR0_3 HO Hp0_3 HQ2_3]
  · isplitr; · iexact HR
    isplitl [HtS0_3]; · iexact HtS0_3
    isplitl [HtR0_3]; · iexact HtR0_3
    isplitl [HO]; · iexact HO
    isplitl [Hp0_3]; · iexact Hp0_3
    iexact HQ2_3
  iintro ⟨HcS0_3, HO⟩
  -- chunk 3 to the peer 3 place(s) on
  iapply (op_send m c K 2 3 2 rfl _ (Fin.ext (k0_dev15_eq c)) _ _ (k0_off9_eq c ⟨2, by decide⟩) (k0_off1_eq c ⟨3, by decide⟩) 36 _) $$ [HtS2_3 HtR2_3 HO Hp2_3 HQ0_3]
  · isplitr; · iexact HR
    isplitl [HtS2_3]; · iexact HtS2_3
    isplitl [HtR2_3]; · iexact HtR2_3
    isplitl [HO]; · iexact HO
    isplitl [Hp2_3]; · iexact Hp2_3
    iexact HQ0_3
  iintro ⟨HcS2_3, HO⟩
  -- chunk 4: landed, rounded, stored
  iapply (op_stage m c K 4 (owedFrom c 36 15) _) $$ [HcI0 HO Ha0 Hrow4]
  · isplitr; · iexact HR
    isplitl [HcI0]; · iexact HcI0
    isplitl [HO]; · iexact HO
    isplitr; · iapply (mayWait_low (F := F) c (.dma (cpS 0)) (lv_cp c 0) 36 15 (by omega)); iexact Hlev
    isplitl [Ha0]; · iexact Ha0
    iexists _; iexact Hrow4
  iintro ⟨HO, Ha0, #Hr0, Hf0, Hx4, Hrow4⟩
  -- chunk 6 starts towards slot 0
  iapply (op_enq_in m c K 6) $$ [HtI6 Hx6 Hf0]
  · isplitr; · iexact HR
    isplitr; · iexact Hr0
    isplitl [HtI6]; · iexact HtI6
    isplitl [Hx6]; · iexact Hx6
    iexists _; iexact Hf0
  iintro HcI0
  ihave Hpc := (Entails.of_eq (rows_split_rel c 4 _)) $$ Hrow4
  icases Hpc with ⟨Hb4, Hp0_4, Hp1_4, Hp2_4⟩
  -- its own column block into the device's own result
  iapply (op_enq_lc m c K 4 _ _ (k0_off10_eq c) (k0_off1_eq c ⟨4, by decide⟩) _) $$ [HtL4 Hb4 HoO4]
  · isplitr; · iexact HR
    isplitl [HtL4]; · iexact HtL4
    isplitl [Hb4]; · iexact Hb4
    iexact HoO4
  iintro HcL4
  -- chunk 4 to the peer 2 place(s) on
  iapply (op_send m c K 1 4 0 rfl _ (Fin.ext (k0_dev16_eq c)) _ _ (k0_off11_eq c ⟨1, by decide⟩) (k0_off1_eq c ⟨4, by decide⟩) 35 _) $$ [HtS1_4 HtR1_4 HO Hp1_4 HQ1_4]
  · isplitr; · iexact HR
    isplitl [HtS1_4]; · iexact HtS1_4
    isplitl [HtR1_4]; · iexact HtR1_4
    isplitl [HO]; · iexact HO
    isplitl [Hp1_4]; · iexact Hp1_4
    iexact HQ1_4
  iintro ⟨HcS1_4, HO⟩
  -- chunk 4 to the peer 1 place(s) on
  iapply (op_send m c K 0 4 1 rfl _ (Fin.ext (k0_dev17_eq c)) _ _ (k0_off11_eq c ⟨0, by decide⟩) (k0_off1_eq c ⟨4, by decide⟩) 34 _) $$ [HtS0_4 HtR0_4 HO Hp0_4 HQ2_4]
  · isplitr; · iexact HR
    isplitl [HtS0_4]; · iexact HtS0_4
    isplitl [HtR0_4]; · iexact HtR0_4
    isplitl [HO]; · iexact HO
    isplitl [Hp0_4]; · iexact Hp0_4
    iexact HQ2_4
  iintro ⟨HcS0_4, HO⟩
  -- chunk 4 to the peer 3 place(s) on
  iapply (op_send m c K 2 4 2 rfl _ (Fin.ext (k0_dev18_eq c)) _ _ (k0_off11_eq c ⟨2, by decide⟩) (k0_off1_eq c ⟨4, by decide⟩) 33 _) $$ [HtS2_4 HtR2_4 HO Hp2_4 HQ0_4]
  · isplitr; · iexact HR
    isplitl [HtS2_4]; · iexact HtS2_4
    isplitl [HtR2_4]; · iexact HtR2_4
    isplitl [HO]; · iexact HO
    isplitl [Hp2_4]; · iexact Hp2_4
    iexact HQ0_4
  iintro ⟨HcS2_4, HO⟩
  -- chunk 5: landed, rounded, stored
  iapply (op_stage m c K 5 (owedFrom c 33 18) _) $$ [HcI1 HO Ha1 Hrow5]
  · isplitr; · iexact HR
    isplitl [HcI1]; · iexact HcI1
    isplitl [HO]; · iexact HO
    isplitr; · iapply (mayWait_low (F := F) c (.dma (cpS 1)) (lv_cp c 1) 33 18 (by omega)); iexact Hlev
    isplitl [Ha1]; · iexact Ha1
    iexists _; iexact Hrow5
  iintro ⟨HO, Ha1, #Hr1, Hf1, Hx5, Hrow5⟩
  -- chunk 7 starts towards slot 1
  iapply (op_enq_in m c K 7) $$ [HtI7 Hx7 Hf1]
  · isplitr; · iexact HR
    isplitr; · iexact Hr1
    isplitl [HtI7]; · iexact HtI7
    isplitl [Hx7]; · iexact Hx7
    iexists _; iexact Hf1
  iintro HcI1
  ihave Hpc := (Entails.of_eq (rows_split_rel c 5 _)) $$ Hrow5
  icases Hpc with ⟨Hb5, Hp0_5, Hp1_5, Hp2_5⟩
  -- its own column block into the device's own result
  iapply (op_enq_lc m c K 5 _ _ (k0_off12_eq c) (k0_off1_eq c ⟨5, by decide⟩) _) $$ [HtL5 Hb5 HoO5]
  · isplitr; · iexact HR
    isplitl [HtL5]; · iexact HtL5
    isplitl [Hb5]; · iexact Hb5
    iexact HoO5
  iintro HcL5
  -- chunk 5 to the peer 2 place(s) on
  iapply (op_send m c K 1 5 0 rfl _ (Fin.ext (k0_dev19_eq c)) _ _ (k0_off13_eq c ⟨1, by decide⟩) (k0_off1_eq c ⟨5, by decide⟩) 32 _) $$ [HtS1_5 HtR1_5 HO Hp1_5 HQ1_5]
  · isplitr; · iexact HR
    isplitl [HtS1_5]; · iexact HtS1_5
    isplitl [HtR1_5]; · iexact HtR1_5
    isplitl [HO]; · iexact HO
    isplitl [Hp1_5]; · iexact Hp1_5
    iexact HQ1_5
  iintro ⟨HcS1_5, HO⟩
  -- chunk 5 to the peer 1 place(s) on
  iapply (op_send m c K 0 5 1 rfl _ (Fin.ext (k0_dev20_eq c)) _ _ (k0_off13_eq c ⟨0, by decide⟩) (k0_off1_eq c ⟨5, by decide⟩) 31 _) $$ [HtS0_5 HtR0_5 HO Hp0_5 HQ2_5]
  · isplitr; · iexact HR
    isplitl [HtS0_5]; · iexact HtS0_5
    isplitl [HtR0_5]; · iexact HtR0_5
    isplitl [HO]; · iexact HO
    isplitl [Hp0_5]; · iexact Hp0_5
    iexact HQ2_5
  iintro ⟨HcS0_5, HO⟩
  -- chunk 5 to the peer 3 place(s) on
  iapply (op_send m c K 2 5 2 rfl _ (Fin.ext (k0_dev21_eq c)) _ _ (k0_off13_eq c ⟨2, by decide⟩) (k0_off1_eq c ⟨5, by decide⟩) 30 _) $$ [HtS2_5 HtR2_5 HO Hp2_5 HQ0_5]
  · isplitr; · iexact HR
    isplitl [HtS2_5]; · iexact HtS2_5
    isplitl [HtR2_5]; · iexact HtR2_5
    isplitl [HO]; · iexact HO
    isplitl [Hp2_5]; · iexact Hp2_5
    iexact HQ0_5
  iintro ⟨HcS2_5, HO⟩
  -- chunk 6: landed, rounded, stored
  iapply (op_stage m c K 6 (owedFrom c 30 21) _) $$ [HcI0 HO Ha0 Hrow6]
  · isplitr; · iexact HR
    isplitl [HcI0]; · iexact HcI0
    isplitl [HO]; · iexact HO
    isplitr; · iapply (mayWait_low (F := F) c (.dma (cpS 0)) (lv_cp c 0) 30 21 (by omega)); iexact Hlev
    isplitl [Ha0]; · iexact Ha0
    iexists _; iexact Hrow6
  iintro ⟨HO, Ha0, #Hr0, Hf0, Hx6, Hrow6⟩
  -- chunk 8 starts towards slot 0
  iapply (op_enq_in m c K 8) $$ [HtI8 Hx8 Hf0]
  · isplitr; · iexact HR
    isplitr; · iexact Hr0
    isplitl [HtI8]; · iexact HtI8
    isplitl [Hx8]; · iexact Hx8
    iexists _; iexact Hf0
  iintro HcI0
  ihave Hpc := (Entails.of_eq (rows_split_rel c 6 _)) $$ Hrow6
  icases Hpc with ⟨Hb6, Hp0_6, Hp1_6, Hp2_6⟩
  -- its own column block into the device's own result
  iapply (op_enq_lc m c K 6 _ _ (k0_off14_eq c) (k0_off1_eq c ⟨6, by decide⟩) _) $$ [HtL6 Hb6 HoO6]
  · isplitr; · iexact HR
    isplitl [HtL6]; · iexact HtL6
    isplitl [Hb6]; · iexact Hb6
    iexact HoO6
  iintro HcL6
  -- chunk 6 to the peer 2 place(s) on
  iapply (op_send m c K 1 6 0 rfl _ (Fin.ext (k0_dev22_eq c)) _ _ (k0_off15_eq c ⟨1, by decide⟩) (k0_off1_eq c ⟨6, by decide⟩) 29 _) $$ [HtS1_6 HtR1_6 HO Hp1_6 HQ1_6]
  · isplitr; · iexact HR
    isplitl [HtS1_6]; · iexact HtS1_6
    isplitl [HtR1_6]; · iexact HtR1_6
    isplitl [HO]; · iexact HO
    isplitl [Hp1_6]; · iexact Hp1_6
    iexact HQ1_6
  iintro ⟨HcS1_6, HO⟩
  -- chunk 6 to the peer 1 place(s) on
  iapply (op_send m c K 0 6 1 rfl _ (Fin.ext (k0_dev23_eq c)) _ _ (k0_off15_eq c ⟨0, by decide⟩) (k0_off1_eq c ⟨6, by decide⟩) 28 _) $$ [HtS0_6 HtR0_6 HO Hp0_6 HQ2_6]
  · isplitr; · iexact HR
    isplitl [HtS0_6]; · iexact HtS0_6
    isplitl [HtR0_6]; · iexact HtR0_6
    isplitl [HO]; · iexact HO
    isplitl [Hp0_6]; · iexact Hp0_6
    iexact HQ2_6
  iintro ⟨HcS0_6, HO⟩
  -- chunk 6 to the peer 3 place(s) on
  iapply (op_send m c K 2 6 2 rfl _ (Fin.ext (k0_dev24_eq c)) _ _ (k0_off15_eq c ⟨2, by decide⟩) (k0_off1_eq c ⟨6, by decide⟩) 27 _) $$ [HtS2_6 HtR2_6 HO Hp2_6 HQ0_6]
  · isplitr; · iexact HR
    isplitl [HtS2_6]; · iexact HtS2_6
    isplitl [HtR2_6]; · iexact HtR2_6
    isplitl [HO]; · iexact HO
    isplitl [Hp2_6]; · iexact Hp2_6
    iexact HQ0_6
  iintro ⟨HcS2_6, HO⟩
  -- chunk 7: landed, rounded, stored
  iapply (op_stage m c K 7 (owedFrom c 27 24) _) $$ [HcI1 HO Ha1 Hrow7]
  · isplitr; · iexact HR
    isplitl [HcI1]; · iexact HcI1
    isplitl [HO]; · iexact HO
    isplitr; · iapply (mayWait_low (F := F) c (.dma (cpS 1)) (lv_cp c 1) 27 24 (by omega)); iexact Hlev
    isplitl [Ha1]; · iexact Ha1
    iexists _; iexact Hrow7
  iintro ⟨HO, Ha1, #Hr1, Hf1, Hx7, Hrow7⟩
  -- chunk 9 starts towards slot 1
  iapply (op_enq_in m c K 9) $$ [HtI9 Hx9 Hf1]
  · isplitr; · iexact HR
    isplitr; · iexact Hr1
    isplitl [HtI9]; · iexact HtI9
    isplitl [Hx9]; · iexact Hx9
    iexists _; iexact Hf1
  iintro HcI1
  ihave Hpc := (Entails.of_eq (rows_split_rel c 7 _)) $$ Hrow7
  icases Hpc with ⟨Hb7, Hp0_7, Hp1_7, Hp2_7⟩
  -- its own column block into the device's own result
  iapply (op_enq_lc m c K 7 _ _ (k0_off16_eq c) (k0_off1_eq c ⟨7, by decide⟩) _) $$ [HtL7 Hb7 HoO7]
  · isplitr; · iexact HR
    isplitl [HtL7]; · iexact HtL7
    isplitl [Hb7]; · iexact Hb7
    iexact HoO7
  iintro HcL7
  -- chunk 7 to the peer 2 place(s) on
  iapply (op_send m c K 1 7 0 rfl _ (Fin.ext (k0_dev25_eq c)) _ _ (k0_off17_eq c ⟨1, by decide⟩) (k0_off1_eq c ⟨7, by decide⟩) 26 _) $$ [HtS1_7 HtR1_7 HO Hp1_7 HQ1_7]
  · isplitr; · iexact HR
    isplitl [HtS1_7]; · iexact HtS1_7
    isplitl [HtR1_7]; · iexact HtR1_7
    isplitl [HO]; · iexact HO
    isplitl [Hp1_7]; · iexact Hp1_7
    iexact HQ1_7
  iintro ⟨HcS1_7, HO⟩
  -- chunk 7 to the peer 1 place(s) on
  iapply (op_send m c K 0 7 1 rfl _ (Fin.ext (k0_dev26_eq c)) _ _ (k0_off17_eq c ⟨0, by decide⟩) (k0_off1_eq c ⟨7, by decide⟩) 25 _) $$ [HtS0_7 HtR0_7 HO Hp0_7 HQ2_7]
  · isplitr; · iexact HR
    isplitl [HtS0_7]; · iexact HtS0_7
    isplitl [HtR0_7]; · iexact HtR0_7
    isplitl [HO]; · iexact HO
    isplitl [Hp0_7]; · iexact Hp0_7
    iexact HQ2_7
  iintro ⟨HcS0_7, HO⟩
  -- chunk 7 to the peer 3 place(s) on
  iapply (op_send m c K 2 7 2 rfl _ (Fin.ext (k0_dev27_eq c)) _ _ (k0_off17_eq c ⟨2, by decide⟩) (k0_off1_eq c ⟨7, by decide⟩) 24 _) $$ [HtS2_7 HtR2_7 HO Hp2_7 HQ0_7]
  · isplitr; · iexact HR
    isplitl [HtS2_7]; · iexact HtS2_7
    isplitl [HtR2_7]; · iexact HtR2_7
    isplitl [HO]; · iexact HO
    isplitl [Hp2_7]; · iexact Hp2_7
    iexact HQ0_7
  iintro ⟨HcS2_7, HO⟩
  -- chunk 8: landed, rounded, stored
  iapply (op_stage m c K 8 (owedFrom c 24 27) _) $$ [HcI0 HO Ha0 Hrow8]
  · isplitr; · iexact HR
    isplitl [HcI0]; · iexact HcI0
    isplitl [HO]; · iexact HO
    isplitr; · iapply (mayWait_low (F := F) c (.dma (cpS 0)) (lv_cp c 0) 24 27 (by omega)); iexact Hlev
    isplitl [Ha0]; · iexact Ha0
    iexists _; iexact Hrow8
  iintro ⟨HO, Ha0, #Hr0, Hf0, Hx8, Hrow8⟩
  -- chunk 10 starts towards slot 0
  iapply (op_enq_in m c K 10) $$ [HtI10 Hx10 Hf0]
  · isplitr; · iexact HR
    isplitr; · iexact Hr0
    isplitl [HtI10]; · iexact HtI10
    isplitl [Hx10]; · iexact Hx10
    iexists _; iexact Hf0
  iintro HcI0
  ihave Hpc := (Entails.of_eq (rows_split_rel c 8 _)) $$ Hrow8
  icases Hpc with ⟨Hb8, Hp0_8, Hp1_8, Hp2_8⟩
  -- its own column block into the device's own result
  iapply (op_enq_lc m c K 8 _ _ (k0_off18_eq c) (k0_off1_eq c ⟨8, by decide⟩) _) $$ [HtL8 Hb8 HoO8]
  · isplitr; · iexact HR
    isplitl [HtL8]; · iexact HtL8
    isplitl [Hb8]; · iexact Hb8
    iexact HoO8
  iintro HcL8
  -- chunk 8 to the peer 2 place(s) on
  iapply (op_send m c K 1 8 0 rfl _ (Fin.ext (k0_dev28_eq c)) _ _ (k0_off19_eq c ⟨1, by decide⟩) (k0_off1_eq c ⟨8, by decide⟩) 23 _) $$ [HtS1_8 HtR1_8 HO Hp1_8 HQ1_8]
  · isplitr; · iexact HR
    isplitl [HtS1_8]; · iexact HtS1_8
    isplitl [HtR1_8]; · iexact HtR1_8
    isplitl [HO]; · iexact HO
    isplitl [Hp1_8]; · iexact Hp1_8
    iexact HQ1_8
  iintro ⟨HcS1_8, HO⟩
  -- chunk 8 to the peer 1 place(s) on
  iapply (op_send m c K 0 8 1 rfl _ (Fin.ext (k0_dev29_eq c)) _ _ (k0_off19_eq c ⟨0, by decide⟩) (k0_off1_eq c ⟨8, by decide⟩) 22 _) $$ [HtS0_8 HtR0_8 HO Hp0_8 HQ2_8]
  · isplitr; · iexact HR
    isplitl [HtS0_8]; · iexact HtS0_8
    isplitl [HtR0_8]; · iexact HtR0_8
    isplitl [HO]; · iexact HO
    isplitl [Hp0_8]; · iexact Hp0_8
    iexact HQ2_8
  iintro ⟨HcS0_8, HO⟩
  -- chunk 8 to the peer 3 place(s) on
  iapply (op_send m c K 2 8 2 rfl _ (Fin.ext (k0_dev30_eq c)) _ _ (k0_off19_eq c ⟨2, by decide⟩) (k0_off1_eq c ⟨8, by decide⟩) 21 _) $$ [HtS2_8 HtR2_8 HO Hp2_8 HQ0_8]
  · isplitr; · iexact HR
    isplitl [HtS2_8]; · iexact HtS2_8
    isplitl [HtR2_8]; · iexact HtR2_8
    isplitl [HO]; · iexact HO
    isplitl [Hp2_8]; · iexact Hp2_8
    iexact HQ0_8
  iintro ⟨HcS2_8, HO⟩
  -- chunk 9: landed, rounded, stored
  iapply (op_stage m c K 9 (owedFrom c 21 30) _) $$ [HcI1 HO Ha1 Hrow9]
  · isplitr; · iexact HR
    isplitl [HcI1]; · iexact HcI1
    isplitl [HO]; · iexact HO
    isplitr; · iapply (mayWait_low (F := F) c (.dma (cpS 1)) (lv_cp c 1) 21 30 (by omega)); iexact Hlev
    isplitl [Ha1]; · iexact Ha1
    iexists _; iexact Hrow9
  iintro ⟨HO, Ha1, #Hr1, Hf1, Hx9, Hrow9⟩
  -- chunk 11 starts towards slot 1
  iapply (op_enq_in m c K 11) $$ [HtI11 Hx11 Hf1]
  · isplitr; · iexact HR
    isplitr; · iexact Hr1
    isplitl [HtI11]; · iexact HtI11
    isplitl [Hx11]; · iexact Hx11
    iexists _; iexact Hf1
  iintro HcI1
  ihave Hpc := (Entails.of_eq (rows_split_rel c 9 _)) $$ Hrow9
  icases Hpc with ⟨Hb9, Hp0_9, Hp1_9, Hp2_9⟩
  -- its own column block into the device's own result
  iapply (op_enq_lc m c K 9 _ _ (k0_off20_eq c) (k0_off1_eq c ⟨9, by decide⟩) _) $$ [HtL9 Hb9 HoO9]
  · isplitr; · iexact HR
    isplitl [HtL9]; · iexact HtL9
    isplitl [Hb9]; · iexact Hb9
    iexact HoO9
  iintro HcL9
  -- chunk 9 to the peer 2 place(s) on
  iapply (op_send m c K 1 9 0 rfl _ (Fin.ext (k0_dev31_eq c)) _ _ (k0_off21_eq c ⟨1, by decide⟩) (k0_off1_eq c ⟨9, by decide⟩) 20 _) $$ [HtS1_9 HtR1_9 HO Hp1_9 HQ1_9]
  · isplitr; · iexact HR
    isplitl [HtS1_9]; · iexact HtS1_9
    isplitl [HtR1_9]; · iexact HtR1_9
    isplitl [HO]; · iexact HO
    isplitl [Hp1_9]; · iexact Hp1_9
    iexact HQ1_9
  iintro ⟨HcS1_9, HO⟩
  -- chunk 9 to the peer 1 place(s) on
  iapply (op_send m c K 0 9 1 rfl _ (Fin.ext (k0_dev32_eq c)) _ _ (k0_off21_eq c ⟨0, by decide⟩) (k0_off1_eq c ⟨9, by decide⟩) 19 _) $$ [HtS0_9 HtR0_9 HO Hp0_9 HQ2_9]
  · isplitr; · iexact HR
    isplitl [HtS0_9]; · iexact HtS0_9
    isplitl [HtR0_9]; · iexact HtR0_9
    isplitl [HO]; · iexact HO
    isplitl [Hp0_9]; · iexact Hp0_9
    iexact HQ2_9
  iintro ⟨HcS0_9, HO⟩
  -- chunk 9 to the peer 3 place(s) on
  iapply (op_send m c K 2 9 2 rfl _ (Fin.ext (k0_dev33_eq c)) _ _ (k0_off21_eq c ⟨2, by decide⟩) (k0_off1_eq c ⟨9, by decide⟩) 18 _) $$ [HtS2_9 HtR2_9 HO Hp2_9 HQ0_9]
  · isplitr; · iexact HR
    isplitl [HtS2_9]; · iexact HtS2_9
    isplitl [HtR2_9]; · iexact HtR2_9
    isplitl [HO]; · iexact HO
    isplitl [Hp2_9]; · iexact Hp2_9
    iexact HQ0_9
  iintro ⟨HcS2_9, HO⟩
  -- chunk 10: landed, rounded, stored
  iapply (op_stage m c K 10 (owedFrom c 18 33) _) $$ [HcI0 HO Ha0 Hrow10]
  · isplitr; · iexact HR
    isplitl [HcI0]; · iexact HcI0
    isplitl [HO]; · iexact HO
    isplitr; · iapply (mayWait_low (F := F) c (.dma (cpS 0)) (lv_cp c 0) 18 33 (by omega)); iexact Hlev
    isplitl [Ha0]; · iexact Ha0
    iexists _; iexact Hrow10
  iintro ⟨HO, Ha0, #Hr0, Hf0, Hx10, Hrow10⟩
  -- chunk 12 starts towards slot 0
  iapply (op_enq_in m c K 12) $$ [HtI12 Hx12 Hf0]
  · isplitr; · iexact HR
    isplitr; · iexact Hr0
    isplitl [HtI12]; · iexact HtI12
    isplitl [Hx12]; · iexact Hx12
    iexists _; iexact Hf0
  iintro HcI0
  ihave Hpc := (Entails.of_eq (rows_split_rel c 10 _)) $$ Hrow10
  icases Hpc with ⟨Hb10, Hp0_10, Hp1_10, Hp2_10⟩
  -- its own column block into the device's own result
  iapply (op_enq_lc m c K 10 _ _ (k0_off22_eq c) (k0_off1_eq c ⟨10, by decide⟩) _) $$ [HtL10 Hb10 HoO10]
  · isplitr; · iexact HR
    isplitl [HtL10]; · iexact HtL10
    isplitl [Hb10]; · iexact Hb10
    iexact HoO10
  iintro HcL10
  -- chunk 10 to the peer 2 place(s) on
  iapply (op_send m c K 1 10 0 rfl _ (Fin.ext (k0_dev34_eq c)) _ _ (k0_off23_eq c ⟨1, by decide⟩) (k0_off1_eq c ⟨10, by decide⟩) 17 _) $$ [HtS1_10 HtR1_10 HO Hp1_10 HQ1_10]
  · isplitr; · iexact HR
    isplitl [HtS1_10]; · iexact HtS1_10
    isplitl [HtR1_10]; · iexact HtR1_10
    isplitl [HO]; · iexact HO
    isplitl [Hp1_10]; · iexact Hp1_10
    iexact HQ1_10
  iintro ⟨HcS1_10, HO⟩
  -- chunk 10 to the peer 1 place(s) on
  iapply (op_send m c K 0 10 1 rfl _ (Fin.ext (k0_dev35_eq c)) _ _ (k0_off23_eq c ⟨0, by decide⟩) (k0_off1_eq c ⟨10, by decide⟩) 16 _) $$ [HtS0_10 HtR0_10 HO Hp0_10 HQ2_10]
  · isplitr; · iexact HR
    isplitl [HtS0_10]; · iexact HtS0_10
    isplitl [HtR0_10]; · iexact HtR0_10
    isplitl [HO]; · iexact HO
    isplitl [Hp0_10]; · iexact Hp0_10
    iexact HQ2_10
  iintro ⟨HcS0_10, HO⟩
  -- chunk 10 to the peer 3 place(s) on
  iapply (op_send m c K 2 10 2 rfl _ (Fin.ext (k0_dev36_eq c)) _ _ (k0_off23_eq c ⟨2, by decide⟩) (k0_off1_eq c ⟨10, by decide⟩) 15 _) $$ [HtS2_10 HtR2_10 HO Hp2_10 HQ0_10]
  · isplitr; · iexact HR
    isplitl [HtS2_10]; · iexact HtS2_10
    isplitl [HtR2_10]; · iexact HtR2_10
    isplitl [HO]; · iexact HO
    isplitl [Hp2_10]; · iexact Hp2_10
    iexact HQ0_10
  iintro ⟨HcS2_10, HO⟩
  -- chunk 11: landed, rounded, stored
  iapply (op_stage m c K 11 (owedFrom c 15 36) _) $$ [HcI1 HO Ha1 Hrow11]
  · isplitr; · iexact HR
    isplitl [HcI1]; · iexact HcI1
    isplitl [HO]; · iexact HO
    isplitr; · iapply (mayWait_low (F := F) c (.dma (cpS 1)) (lv_cp c 1) 15 36 (by omega)); iexact Hlev
    isplitl [Ha1]; · iexact Ha1
    iexists _; iexact Hrow11
  iintro ⟨HO, Ha1, #Hr1, Hf1, Hx11, Hrow11⟩
  -- chunk 13 starts towards slot 1
  iapply (op_enq_in m c K 13) $$ [HtI13 Hx13 Hf1]
  · isplitr; · iexact HR
    isplitr; · iexact Hr1
    isplitl [HtI13]; · iexact HtI13
    isplitl [Hx13]; · iexact Hx13
    iexists _; iexact Hf1
  iintro HcI1
  ihave Hpc := (Entails.of_eq (rows_split_rel c 11 _)) $$ Hrow11
  icases Hpc with ⟨Hb11, Hp0_11, Hp1_11, Hp2_11⟩
  -- its own column block into the device's own result
  iapply (op_enq_lc m c K 11 _ _ (k0_off24_eq c) (k0_off1_eq c ⟨11, by decide⟩) _) $$ [HtL11 Hb11 HoO11]
  · isplitr; · iexact HR
    isplitl [HtL11]; · iexact HtL11
    isplitl [Hb11]; · iexact Hb11
    iexact HoO11
  iintro HcL11
  -- chunk 11 to the peer 2 place(s) on
  iapply (op_send m c K 1 11 0 rfl _ (Fin.ext (k0_dev37_eq c)) _ _ (k0_off25_eq c ⟨1, by decide⟩) (k0_off1_eq c ⟨11, by decide⟩) 14 _) $$ [HtS1_11 HtR1_11 HO Hp1_11 HQ1_11]
  · isplitr; · iexact HR
    isplitl [HtS1_11]; · iexact HtS1_11
    isplitl [HtR1_11]; · iexact HtR1_11
    isplitl [HO]; · iexact HO
    isplitl [Hp1_11]; · iexact Hp1_11
    iexact HQ1_11
  iintro ⟨HcS1_11, HO⟩
  -- chunk 11 to the peer 1 place(s) on
  iapply (op_send m c K 0 11 1 rfl _ (Fin.ext (k0_dev38_eq c)) _ _ (k0_off25_eq c ⟨0, by decide⟩) (k0_off1_eq c ⟨11, by decide⟩) 13 _) $$ [HtS0_11 HtR0_11 HO Hp0_11 HQ2_11]
  · isplitr; · iexact HR
    isplitl [HtS0_11]; · iexact HtS0_11
    isplitl [HtR0_11]; · iexact HtR0_11
    isplitl [HO]; · iexact HO
    isplitl [Hp0_11]; · iexact Hp0_11
    iexact HQ2_11
  iintro ⟨HcS0_11, HO⟩
  -- chunk 11 to the peer 3 place(s) on
  iapply (op_send m c K 2 11 2 rfl _ (Fin.ext (k0_dev39_eq c)) _ _ (k0_off25_eq c ⟨2, by decide⟩) (k0_off1_eq c ⟨11, by decide⟩) 12 _) $$ [HtS2_11 HtR2_11 HO Hp2_11 HQ0_11]
  · isplitr; · iexact HR
    isplitl [HtS2_11]; · iexact HtS2_11
    isplitl [HtR2_11]; · iexact HtR2_11
    isplitl [HO]; · iexact HO
    isplitl [Hp2_11]; · iexact Hp2_11
    iexact HQ0_11
  iintro ⟨HcS2_11, HO⟩
  -- chunk 12: landed, rounded, stored
  iapply (op_stage m c K 12 (owedFrom c 12 39) _) $$ [HcI0 HO Ha0 Hrow12]
  · isplitr; · iexact HR
    isplitl [HcI0]; · iexact HcI0
    isplitl [HO]; · iexact HO
    isplitr; · iapply (mayWait_low (F := F) c (.dma (cpS 0)) (lv_cp c 0) 12 39 (by omega)); iexact Hlev
    isplitl [Ha0]; · iexact Ha0
    iexists _; iexact Hrow12
  iintro ⟨HO, Ha0, #Hr0, Hf0, Hx12, Hrow12⟩
  -- chunk 14 starts towards slot 0
  iapply (op_enq_in m c K 14) $$ [HtI14 Hx14 Hf0]
  · isplitr; · iexact HR
    isplitr; · iexact Hr0
    isplitl [HtI14]; · iexact HtI14
    isplitl [Hx14]; · iexact Hx14
    iexists _; iexact Hf0
  iintro HcI0
  ihave Hpc := (Entails.of_eq (rows_split_rel c 12 _)) $$ Hrow12
  icases Hpc with ⟨Hb12, Hp0_12, Hp1_12, Hp2_12⟩
  -- its own column block into the device's own result
  iapply (op_enq_lc m c K 12 _ _ (k0_off26_eq c) (k0_off1_eq c ⟨12, by decide⟩) _) $$ [HtL12 Hb12 HoO12]
  · isplitr; · iexact HR
    isplitl [HtL12]; · iexact HtL12
    isplitl [Hb12]; · iexact Hb12
    iexact HoO12
  iintro HcL12
  -- chunk 12 to the peer 2 place(s) on
  iapply (op_send m c K 1 12 0 rfl _ (Fin.ext (k0_dev40_eq c)) _ _ (k0_off27_eq c ⟨1, by decide⟩) (k0_off1_eq c ⟨12, by decide⟩) 11 _) $$ [HtS1_12 HtR1_12 HO Hp1_12 HQ1_12]
  · isplitr; · iexact HR
    isplitl [HtS1_12]; · iexact HtS1_12
    isplitl [HtR1_12]; · iexact HtR1_12
    isplitl [HO]; · iexact HO
    isplitl [Hp1_12]; · iexact Hp1_12
    iexact HQ1_12
  iintro ⟨HcS1_12, HO⟩
  -- chunk 12 to the peer 1 place(s) on
  iapply (op_send m c K 0 12 1 rfl _ (Fin.ext (k0_dev41_eq c)) _ _ (k0_off27_eq c ⟨0, by decide⟩) (k0_off1_eq c ⟨12, by decide⟩) 10 _) $$ [HtS0_12 HtR0_12 HO Hp0_12 HQ2_12]
  · isplitr; · iexact HR
    isplitl [HtS0_12]; · iexact HtS0_12
    isplitl [HtR0_12]; · iexact HtR0_12
    isplitl [HO]; · iexact HO
    isplitl [Hp0_12]; · iexact Hp0_12
    iexact HQ2_12
  iintro ⟨HcS0_12, HO⟩
  -- chunk 12 to the peer 3 place(s) on
  iapply (op_send m c K 2 12 2 rfl _ (Fin.ext (k0_dev42_eq c)) _ _ (k0_off27_eq c ⟨2, by decide⟩) (k0_off1_eq c ⟨12, by decide⟩) 9 _) $$ [HtS2_12 HtR2_12 HO Hp2_12 HQ0_12]
  · isplitr; · iexact HR
    isplitl [HtS2_12]; · iexact HtS2_12
    isplitl [HtR2_12]; · iexact HtR2_12
    isplitl [HO]; · iexact HO
    isplitl [Hp2_12]; · iexact Hp2_12
    iexact HQ0_12
  iintro ⟨HcS2_12, HO⟩
  -- chunk 13: landed, rounded, stored
  iapply (op_stage m c K 13 (owedFrom c 9 42) _) $$ [HcI1 HO Ha1 Hrow13]
  · isplitr; · iexact HR
    isplitl [HcI1]; · iexact HcI1
    isplitl [HO]; · iexact HO
    isplitr; · iapply (mayWait_low (F := F) c (.dma (cpS 1)) (lv_cp c 1) 9 42 (by omega)); iexact Hlev
    isplitl [Ha1]; · iexact Ha1
    iexists _; iexact Hrow13
  iintro ⟨HO, Ha1, #Hr1, Hf1, Hx13, Hrow13⟩
  -- chunk 15 starts towards slot 1
  iapply (op_enq_in m c K 15) $$ [HtI15 Hx15 Hf1]
  · isplitr; · iexact HR
    isplitr; · iexact Hr1
    isplitl [HtI15]; · iexact HtI15
    isplitl [Hx15]; · iexact Hx15
    iexists _; iexact Hf1
  iintro HcI1
  ihave Hpc := (Entails.of_eq (rows_split_rel c 13 _)) $$ Hrow13
  icases Hpc with ⟨Hb13, Hp0_13, Hp1_13, Hp2_13⟩
  -- its own column block into the device's own result
  iapply (op_enq_lc m c K 13 _ _ (k0_off28_eq c) (k0_off1_eq c ⟨13, by decide⟩) _) $$ [HtL13 Hb13 HoO13]
  · isplitr; · iexact HR
    isplitl [HtL13]; · iexact HtL13
    isplitl [Hb13]; · iexact Hb13
    iexact HoO13
  iintro HcL13
  -- chunk 13 to the peer 2 place(s) on
  iapply (op_send m c K 1 13 0 rfl _ (Fin.ext (k0_dev43_eq c)) _ _ (k0_off29_eq c ⟨1, by decide⟩) (k0_off1_eq c ⟨13, by decide⟩) 8 _) $$ [HtS1_13 HtR1_13 HO Hp1_13 HQ1_13]
  · isplitr; · iexact HR
    isplitl [HtS1_13]; · iexact HtS1_13
    isplitl [HtR1_13]; · iexact HtR1_13
    isplitl [HO]; · iexact HO
    isplitl [Hp1_13]; · iexact Hp1_13
    iexact HQ1_13
  iintro ⟨HcS1_13, HO⟩
  -- chunk 13 to the peer 1 place(s) on
  iapply (op_send m c K 0 13 1 rfl _ (Fin.ext (k0_dev44_eq c)) _ _ (k0_off29_eq c ⟨0, by decide⟩) (k0_off1_eq c ⟨13, by decide⟩) 7 _) $$ [HtS0_13 HtR0_13 HO Hp0_13 HQ2_13]
  · isplitr; · iexact HR
    isplitl [HtS0_13]; · iexact HtS0_13
    isplitl [HtR0_13]; · iexact HtR0_13
    isplitl [HO]; · iexact HO
    isplitl [Hp0_13]; · iexact Hp0_13
    iexact HQ2_13
  iintro ⟨HcS0_13, HO⟩
  -- chunk 13 to the peer 3 place(s) on
  iapply (op_send m c K 2 13 2 rfl _ (Fin.ext (k0_dev45_eq c)) _ _ (k0_off29_eq c ⟨2, by decide⟩) (k0_off1_eq c ⟨13, by decide⟩) 6 _) $$ [HtS2_13 HtR2_13 HO Hp2_13 HQ0_13]
  · isplitr; · iexact HR
    isplitl [HtS2_13]; · iexact HtS2_13
    isplitl [HtR2_13]; · iexact HtR2_13
    isplitl [HO]; · iexact HO
    isplitl [Hp2_13]; · iexact Hp2_13
    iexact HQ0_13
  iintro ⟨HcS2_13, HO⟩
  -- chunk 14: landed, rounded, stored
  iapply (op_stage m c K 14 (owedFrom c 6 45) _) $$ [HcI0 HO Ha0 Hrow14]
  · isplitr; · iexact HR
    isplitl [HcI0]; · iexact HcI0
    isplitl [HO]; · iexact HO
    isplitr; · iapply (mayWait_low (F := F) c (.dma (cpS 0)) (lv_cp c 0) 6 45 (by omega)); iexact Hlev
    isplitl [Ha0]; · iexact Ha0
    iexists _; iexact Hrow14
  iintro ⟨HO, Ha0, #Hr0, Hf0, Hx14, Hrow14⟩
  ihave Hpc := (Entails.of_eq (rows_split_rel c 14 _)) $$ Hrow14
  icases Hpc with ⟨Hb14, Hp0_14, Hp1_14, Hp2_14⟩
  -- its own column block into the device's own result
  iapply (op_enq_lc m c K 14 _ _ (k0_off30_eq c) (k0_off1_eq c ⟨14, by decide⟩) _) $$ [HtL14 Hb14 HoO14]
  · isplitr; · iexact HR
    isplitl [HtL14]; · iexact HtL14
    isplitl [Hb14]; · iexact Hb14
    iexact HoO14
  iintro HcL14
  -- chunk 14 to the peer 2 place(s) on
  iapply (op_send m c K 1 14 0 rfl _ (Fin.ext (k0_dev46_eq c)) _ _ (k0_off31_eq c ⟨1, by decide⟩) (k0_off1_eq c ⟨14, by decide⟩) 5 _) $$ [HtS1_14 HtR1_14 HO Hp1_14 HQ1_14]
  · isplitr; · iexact HR
    isplitl [HtS1_14]; · iexact HtS1_14
    isplitl [HtR1_14]; · iexact HtR1_14
    isplitl [HO]; · iexact HO
    isplitl [Hp1_14]; · iexact Hp1_14
    iexact HQ1_14
  iintro ⟨HcS1_14, HO⟩
  -- chunk 14 to the peer 1 place(s) on
  iapply (op_send m c K 0 14 1 rfl _ (Fin.ext (k0_dev47_eq c)) _ _ (k0_off31_eq c ⟨0, by decide⟩) (k0_off1_eq c ⟨14, by decide⟩) 4 _) $$ [HtS0_14 HtR0_14 HO Hp0_14 HQ2_14]
  · isplitr; · iexact HR
    isplitl [HtS0_14]; · iexact HtS0_14
    isplitl [HtR0_14]; · iexact HtR0_14
    isplitl [HO]; · iexact HO
    isplitl [Hp0_14]; · iexact Hp0_14
    iexact HQ2_14
  iintro ⟨HcS0_14, HO⟩
  -- chunk 14 to the peer 3 place(s) on
  iapply (op_send m c K 2 14 2 rfl _ (Fin.ext (k0_dev48_eq c)) _ _ (k0_off31_eq c ⟨2, by decide⟩) (k0_off1_eq c ⟨14, by decide⟩) 3 _) $$ [HtS2_14 HtR2_14 HO Hp2_14 HQ0_14]
  · isplitr; · iexact HR
    isplitl [HtS2_14]; · iexact HtS2_14
    isplitl [HtR2_14]; · iexact HtR2_14
    isplitl [HO]; · iexact HO
    isplitl [Hp2_14]; · iexact Hp2_14
    iexact HQ0_14
  iintro ⟨HcS2_14, HO⟩
  -- chunk 15: landed, rounded, stored
  iapply (op_stage m c K 15 (owedFrom c 3 48) _) $$ [HcI1 HO Ha1 Hrow15]
  · isplitr; · iexact HR
    isplitl [HcI1]; · iexact HcI1
    isplitl [HO]; · iexact HO
    isplitr; · iapply (mayWait_low (F := F) c (.dma (cpS 1)) (lv_cp c 1) 3 48 (by omega)); iexact Hlev
    isplitl [Ha1]; · iexact Ha1
    iexists _; iexact Hrow15
  iintro ⟨HO, Ha1, #Hr1, Hf1, Hx15, Hrow15⟩
  ihave Hpc := (Entails.of_eq (rows_split_rel c 15 _)) $$ Hrow15
  icases Hpc with ⟨Hb15, Hp0_15, Hp1_15, Hp2_15⟩
  -- its own column block into the device's own result
  iapply (op_enq_lc m c K 15 _ _ (k0_off32_eq c) (k0_off1_eq c ⟨15, by decide⟩) _) $$ [HtL15 Hb15 HoO15]
  · isplitr; · iexact HR
    isplitl [HtL15]; · iexact HtL15
    isplitl [Hb15]; · iexact Hb15
    iexact HoO15
  iintro HcL15
  -- chunk 15 to the peer 2 place(s) on
  iapply (op_send m c K 1 15 0 rfl _ (Fin.ext (k0_dev49_eq c)) _ _ (k0_off33_eq c ⟨1, by decide⟩) (k0_off1_eq c ⟨15, by decide⟩) 2 _) $$ [HtS1_15 HtR1_15 HO Hp1_15 HQ1_15]
  · isplitr; · iexact HR
    isplitl [HtS1_15]; · iexact HtS1_15
    isplitl [HtR1_15]; · iexact HtR1_15
    isplitl [HO]; · iexact HO
    isplitl [Hp1_15]; · iexact Hp1_15
    iexact HQ1_15
  iintro ⟨HcS1_15, HO⟩
  -- chunk 15 to the peer 1 place(s) on
  iapply (op_send m c K 0 15 1 rfl _ (Fin.ext (k0_dev50_eq c)) _ _ (k0_off33_eq c ⟨0, by decide⟩) (k0_off1_eq c ⟨15, by decide⟩) 1 _) $$ [HtS0_15 HtR0_15 HO Hp0_15 HQ2_15]
  · isplitr; · iexact HR
    isplitl [HtS0_15]; · iexact HtS0_15
    isplitl [HtR0_15]; · iexact HtR0_15
    isplitl [HO]; · iexact HO
    isplitl [Hp0_15]; · iexact Hp0_15
    iexact HQ2_15
  iintro ⟨HcS0_15, HO⟩
  -- chunk 15 to the peer 3 place(s) on
  iapply (op_send m c K 2 15 2 rfl _ (Fin.ext (k0_dev51_eq c)) _ _ (k0_off33_eq c ⟨2, by decide⟩) (k0_off1_eq c ⟨15, by decide⟩) 0 _) $$ [HtS2_15 HtR2_15 HO Hp2_15 HQ0_15]
  · isplitr; · iexact HR
    isplitl [HtS2_15]; · iexact HtS2_15
    isplitl [HtR2_15]; · iexact HtR2_15
    isplitl [HO]; · iexact HO
    isplitl [Hp2_15]; · iexact Hp2_15
    iexact HQ0_15
  iintro ⟨HcS2_15, HO⟩
  -- chunk 0's own copy has landed
  iapply (op_wait_lc m c K 0 _ _ _) $$ [HcL0 HO HaL0]
  · isplitr; · iexact HR
    isplitl [HcL0]; · iexact HcL0
    isplitl [HO]; · iexact HO
    iexact HaL0
  iintro ⟨HO, HaL0, Hlp⟩
  ihave Hlp := (Entails.of_eq (lcPay_eq m c 0)) $$ Hlp
  icases Hlp with ⟨HoO0, Hb0⟩
  -- chunk 1's own copy has landed
  iapply (op_wait_lc m c K 1 _ _ _) $$ [HcL1 HO HaL1]
  · isplitr; · iexact HR
    isplitl [HcL1]; · iexact HcL1
    isplitl [HO]; · iexact HO
    iexact HaL1
  iintro ⟨HO, HaL1, Hlp⟩
  ihave Hlp := (Entails.of_eq (lcPay_eq m c 1)) $$ Hlp
  icases Hlp with ⟨HoO1, Hb1⟩
  -- chunk 2's own copy has landed
  iapply (op_wait_lc m c K 2 _ _ _) $$ [HcL2 HO HaL2]
  · isplitr; · iexact HR
    isplitl [HcL2]; · iexact HcL2
    isplitl [HO]; · iexact HO
    iexact HaL2
  iintro ⟨HO, HaL2, Hlp⟩
  ihave Hlp := (Entails.of_eq (lcPay_eq m c 2)) $$ Hlp
  icases Hlp with ⟨HoO2, Hb2⟩
  -- chunk 3's own copy has landed
  iapply (op_wait_lc m c K 3 _ _ _) $$ [HcL3 HO HaL3]
  · isplitr; · iexact HR
    isplitl [HcL3]; · iexact HcL3
    isplitl [HO]; · iexact HO
    iexact HaL3
  iintro ⟨HO, HaL3, Hlp⟩
  ihave Hlp := (Entails.of_eq (lcPay_eq m c 3)) $$ Hlp
  icases Hlp with ⟨HoO3, Hb3⟩
  -- chunk 4's own copy has landed
  iapply (op_wait_lc m c K 4 _ _ _) $$ [HcL4 HO HaL4]
  · isplitr; · iexact HR
    isplitl [HcL4]; · iexact HcL4
    isplitl [HO]; · iexact HO
    iexact HaL4
  iintro ⟨HO, HaL4, Hlp⟩
  ihave Hlp := (Entails.of_eq (lcPay_eq m c 4)) $$ Hlp
  icases Hlp with ⟨HoO4, Hb4⟩
  -- chunk 5's own copy has landed
  iapply (op_wait_lc m c K 5 _ _ _) $$ [HcL5 HO HaL5]
  · isplitr; · iexact HR
    isplitl [HcL5]; · iexact HcL5
    isplitl [HO]; · iexact HO
    iexact HaL5
  iintro ⟨HO, HaL5, Hlp⟩
  ihave Hlp := (Entails.of_eq (lcPay_eq m c 5)) $$ Hlp
  icases Hlp with ⟨HoO5, Hb5⟩
  -- chunk 6's own copy has landed
  iapply (op_wait_lc m c K 6 _ _ _) $$ [HcL6 HO HaL6]
  · isplitr; · iexact HR
    isplitl [HcL6]; · iexact HcL6
    isplitl [HO]; · iexact HO
    iexact HaL6
  iintro ⟨HO, HaL6, Hlp⟩
  ihave Hlp := (Entails.of_eq (lcPay_eq m c 6)) $$ Hlp
  icases Hlp with ⟨HoO6, Hb6⟩
  -- chunk 7's own copy has landed
  iapply (op_wait_lc m c K 7 _ _ _) $$ [HcL7 HO HaL7]
  · isplitr; · iexact HR
    isplitl [HcL7]; · iexact HcL7
    isplitl [HO]; · iexact HO
    iexact HaL7
  iintro ⟨HO, HaL7, Hlp⟩
  ihave Hlp := (Entails.of_eq (lcPay_eq m c 7)) $$ Hlp
  icases Hlp with ⟨HoO7, Hb7⟩
  -- chunk 8's own copy has landed
  iapply (op_wait_lc m c K 8 _ _ _) $$ [HcL8 HO HaL8]
  · isplitr; · iexact HR
    isplitl [HcL8]; · iexact HcL8
    isplitl [HO]; · iexact HO
    iexact HaL8
  iintro ⟨HO, HaL8, Hlp⟩
  ihave Hlp := (Entails.of_eq (lcPay_eq m c 8)) $$ Hlp
  icases Hlp with ⟨HoO8, Hb8⟩
  -- chunk 9's own copy has landed
  iapply (op_wait_lc m c K 9 _ _ _) $$ [HcL9 HO HaL9]
  · isplitr; · iexact HR
    isplitl [HcL9]; · iexact HcL9
    isplitl [HO]; · iexact HO
    iexact HaL9
  iintro ⟨HO, HaL9, Hlp⟩
  ihave Hlp := (Entails.of_eq (lcPay_eq m c 9)) $$ Hlp
  icases Hlp with ⟨HoO9, Hb9⟩
  -- chunk 10's own copy has landed
  iapply (op_wait_lc m c K 10 _ _ _) $$ [HcL10 HO HaL10]
  · isplitr; · iexact HR
    isplitl [HcL10]; · iexact HcL10
    isplitl [HO]; · iexact HO
    iexact HaL10
  iintro ⟨HO, HaL10, Hlp⟩
  ihave Hlp := (Entails.of_eq (lcPay_eq m c 10)) $$ Hlp
  icases Hlp with ⟨HoO10, Hb10⟩
  -- chunk 11's own copy has landed
  iapply (op_wait_lc m c K 11 _ _ _) $$ [HcL11 HO HaL11]
  · isplitr; · iexact HR
    isplitl [HcL11]; · iexact HcL11
    isplitl [HO]; · iexact HO
    iexact HaL11
  iintro ⟨HO, HaL11, Hlp⟩
  ihave Hlp := (Entails.of_eq (lcPay_eq m c 11)) $$ Hlp
  icases Hlp with ⟨HoO11, Hb11⟩
  -- chunk 12's own copy has landed
  iapply (op_wait_lc m c K 12 _ _ _) $$ [HcL12 HO HaL12]
  · isplitr; · iexact HR
    isplitl [HcL12]; · iexact HcL12
    isplitl [HO]; · iexact HO
    iexact HaL12
  iintro ⟨HO, HaL12, Hlp⟩
  ihave Hlp := (Entails.of_eq (lcPay_eq m c 12)) $$ Hlp
  icases Hlp with ⟨HoO12, Hb12⟩
  -- chunk 13's own copy has landed
  iapply (op_wait_lc m c K 13 _ _ _) $$ [HcL13 HO HaL13]
  · isplitr; · iexact HR
    isplitl [HcL13]; · iexact HcL13
    isplitl [HO]; · iexact HO
    iexact HaL13
  iintro ⟨HO, HaL13, Hlp⟩
  ihave Hlp := (Entails.of_eq (lcPay_eq m c 13)) $$ Hlp
  icases Hlp with ⟨HoO13, Hb13⟩
  -- chunk 14's own copy has landed
  iapply (op_wait_lc m c K 14 _ _ _) $$ [HcL14 HO HaL14]
  · isplitr; · iexact HR
    isplitl [HcL14]; · iexact HcL14
    isplitl [HO]; · iexact HO
    iexact HaL14
  iintro ⟨HO, HaL14, Hlp⟩
  ihave Hlp := (Entails.of_eq (lcPay_eq m c 14)) $$ Hlp
  icases Hlp with ⟨HoO14, Hb14⟩
  -- chunk 15's own copy has landed
  iapply (op_wait_lc m c K 15 _ _ _) $$ [HcL15 HO HaL15]
  · isplitr; · iexact HR
    isplitl [HcL15]; · iexact HcL15
    isplitl [HO]; · iexact HO
    iexact HaL15
  iintro ⟨HO, HaL15, Hlp⟩
  ihave Hlp := (Entails.of_eq (lcPay_eq m c 15)) $$ Hlp
  icases Hlp with ⟨HoO15, Hb15⟩
  -- chunk 0's piece for the peer 2 place(s) on has been read out
  iapply (op_wait_sd m c K 1 0 _ _ _) $$ [HcS1_0 HO HaS1_0]
  · isplitr; · iexact HR
    isplitl [HcS1_0]; · iexact HcS1_0
    isplitl [HO]; · iexact HO
    iexact HaS1_0
  iintro ⟨HO, HaS1_0, Hp1_0⟩
  ihave Hp1_0 := (Entails.of_eq (sdPay_eq m c 1 0)) $$ Hp1_0
  -- chunk 0's piece for the peer 1 place(s) on has been read out
  iapply (op_wait_sd m c K 0 0 _ _ _) $$ [HcS0_0 HO HaS0_0]
  · isplitr; · iexact HR
    isplitl [HcS0_0]; · iexact HcS0_0
    isplitl [HO]; · iexact HO
    iexact HaS0_0
  iintro ⟨HO, HaS0_0, Hp0_0⟩
  ihave Hp0_0 := (Entails.of_eq (sdPay_eq m c 0 0)) $$ Hp0_0
  -- chunk 0's piece for the peer 3 place(s) on has been read out
  iapply (op_wait_sd m c K 2 0 _ _ _) $$ [HcS2_0 HO HaS2_0]
  · isplitr; · iexact HR
    isplitl [HcS2_0]; · iexact HcS2_0
    isplitl [HO]; · iexact HO
    iexact HaS2_0
  iintro ⟨HO, HaS2_0, Hp2_0⟩
  ihave Hp2_0 := (Entails.of_eq (sdPay_eq m c 2 0)) $$ Hp2_0
  -- chunk 1's piece for the peer 2 place(s) on has been read out
  iapply (op_wait_sd m c K 1 1 _ _ _) $$ [HcS1_1 HO HaS1_1]
  · isplitr; · iexact HR
    isplitl [HcS1_1]; · iexact HcS1_1
    isplitl [HO]; · iexact HO
    iexact HaS1_1
  iintro ⟨HO, HaS1_1, Hp1_1⟩
  ihave Hp1_1 := (Entails.of_eq (sdPay_eq m c 1 1)) $$ Hp1_1
  -- chunk 1's piece for the peer 1 place(s) on has been read out
  iapply (op_wait_sd m c K 0 1 _ _ _) $$ [HcS0_1 HO HaS0_1]
  · isplitr; · iexact HR
    isplitl [HcS0_1]; · iexact HcS0_1
    isplitl [HO]; · iexact HO
    iexact HaS0_1
  iintro ⟨HO, HaS0_1, Hp0_1⟩
  ihave Hp0_1 := (Entails.of_eq (sdPay_eq m c 0 1)) $$ Hp0_1
  -- chunk 1's piece for the peer 3 place(s) on has been read out
  iapply (op_wait_sd m c K 2 1 _ _ _) $$ [HcS2_1 HO HaS2_1]
  · isplitr; · iexact HR
    isplitl [HcS2_1]; · iexact HcS2_1
    isplitl [HO]; · iexact HO
    iexact HaS2_1
  iintro ⟨HO, HaS2_1, Hp2_1⟩
  ihave Hp2_1 := (Entails.of_eq (sdPay_eq m c 2 1)) $$ Hp2_1
  -- chunk 2's piece for the peer 2 place(s) on has been read out
  iapply (op_wait_sd m c K 1 2 _ _ _) $$ [HcS1_2 HO HaS1_2]
  · isplitr; · iexact HR
    isplitl [HcS1_2]; · iexact HcS1_2
    isplitl [HO]; · iexact HO
    iexact HaS1_2
  iintro ⟨HO, HaS1_2, Hp1_2⟩
  ihave Hp1_2 := (Entails.of_eq (sdPay_eq m c 1 2)) $$ Hp1_2
  -- chunk 2's piece for the peer 1 place(s) on has been read out
  iapply (op_wait_sd m c K 0 2 _ _ _) $$ [HcS0_2 HO HaS0_2]
  · isplitr; · iexact HR
    isplitl [HcS0_2]; · iexact HcS0_2
    isplitl [HO]; · iexact HO
    iexact HaS0_2
  iintro ⟨HO, HaS0_2, Hp0_2⟩
  ihave Hp0_2 := (Entails.of_eq (sdPay_eq m c 0 2)) $$ Hp0_2
  -- chunk 2's piece for the peer 3 place(s) on has been read out
  iapply (op_wait_sd m c K 2 2 _ _ _) $$ [HcS2_2 HO HaS2_2]
  · isplitr; · iexact HR
    isplitl [HcS2_2]; · iexact HcS2_2
    isplitl [HO]; · iexact HO
    iexact HaS2_2
  iintro ⟨HO, HaS2_2, Hp2_2⟩
  ihave Hp2_2 := (Entails.of_eq (sdPay_eq m c 2 2)) $$ Hp2_2
  -- chunk 3's piece for the peer 2 place(s) on has been read out
  iapply (op_wait_sd m c K 1 3 _ _ _) $$ [HcS1_3 HO HaS1_3]
  · isplitr; · iexact HR
    isplitl [HcS1_3]; · iexact HcS1_3
    isplitl [HO]; · iexact HO
    iexact HaS1_3
  iintro ⟨HO, HaS1_3, Hp1_3⟩
  ihave Hp1_3 := (Entails.of_eq (sdPay_eq m c 1 3)) $$ Hp1_3
  -- chunk 3's piece for the peer 1 place(s) on has been read out
  iapply (op_wait_sd m c K 0 3 _ _ _) $$ [HcS0_3 HO HaS0_3]
  · isplitr; · iexact HR
    isplitl [HcS0_3]; · iexact HcS0_3
    isplitl [HO]; · iexact HO
    iexact HaS0_3
  iintro ⟨HO, HaS0_3, Hp0_3⟩
  ihave Hp0_3 := (Entails.of_eq (sdPay_eq m c 0 3)) $$ Hp0_3
  -- chunk 3's piece for the peer 3 place(s) on has been read out
  iapply (op_wait_sd m c K 2 3 _ _ _) $$ [HcS2_3 HO HaS2_3]
  · isplitr; · iexact HR
    isplitl [HcS2_3]; · iexact HcS2_3
    isplitl [HO]; · iexact HO
    iexact HaS2_3
  iintro ⟨HO, HaS2_3, Hp2_3⟩
  ihave Hp2_3 := (Entails.of_eq (sdPay_eq m c 2 3)) $$ Hp2_3
  -- chunk 4's piece for the peer 2 place(s) on has been read out
  iapply (op_wait_sd m c K 1 4 _ _ _) $$ [HcS1_4 HO HaS1_4]
  · isplitr; · iexact HR
    isplitl [HcS1_4]; · iexact HcS1_4
    isplitl [HO]; · iexact HO
    iexact HaS1_4
  iintro ⟨HO, HaS1_4, Hp1_4⟩
  ihave Hp1_4 := (Entails.of_eq (sdPay_eq m c 1 4)) $$ Hp1_4
  -- chunk 4's piece for the peer 1 place(s) on has been read out
  iapply (op_wait_sd m c K 0 4 _ _ _) $$ [HcS0_4 HO HaS0_4]
  · isplitr; · iexact HR
    isplitl [HcS0_4]; · iexact HcS0_4
    isplitl [HO]; · iexact HO
    iexact HaS0_4
  iintro ⟨HO, HaS0_4, Hp0_4⟩
  ihave Hp0_4 := (Entails.of_eq (sdPay_eq m c 0 4)) $$ Hp0_4
  -- chunk 4's piece for the peer 3 place(s) on has been read out
  iapply (op_wait_sd m c K 2 4 _ _ _) $$ [HcS2_4 HO HaS2_4]
  · isplitr; · iexact HR
    isplitl [HcS2_4]; · iexact HcS2_4
    isplitl [HO]; · iexact HO
    iexact HaS2_4
  iintro ⟨HO, HaS2_4, Hp2_4⟩
  ihave Hp2_4 := (Entails.of_eq (sdPay_eq m c 2 4)) $$ Hp2_4
  -- chunk 5's piece for the peer 2 place(s) on has been read out
  iapply (op_wait_sd m c K 1 5 _ _ _) $$ [HcS1_5 HO HaS1_5]
  · isplitr; · iexact HR
    isplitl [HcS1_5]; · iexact HcS1_5
    isplitl [HO]; · iexact HO
    iexact HaS1_5
  iintro ⟨HO, HaS1_5, Hp1_5⟩
  ihave Hp1_5 := (Entails.of_eq (sdPay_eq m c 1 5)) $$ Hp1_5
  -- chunk 5's piece for the peer 1 place(s) on has been read out
  iapply (op_wait_sd m c K 0 5 _ _ _) $$ [HcS0_5 HO HaS0_5]
  · isplitr; · iexact HR
    isplitl [HcS0_5]; · iexact HcS0_5
    isplitl [HO]; · iexact HO
    iexact HaS0_5
  iintro ⟨HO, HaS0_5, Hp0_5⟩
  ihave Hp0_5 := (Entails.of_eq (sdPay_eq m c 0 5)) $$ Hp0_5
  -- chunk 5's piece for the peer 3 place(s) on has been read out
  iapply (op_wait_sd m c K 2 5 _ _ _) $$ [HcS2_5 HO HaS2_5]
  · isplitr; · iexact HR
    isplitl [HcS2_5]; · iexact HcS2_5
    isplitl [HO]; · iexact HO
    iexact HaS2_5
  iintro ⟨HO, HaS2_5, Hp2_5⟩
  ihave Hp2_5 := (Entails.of_eq (sdPay_eq m c 2 5)) $$ Hp2_5
  -- chunk 6's piece for the peer 2 place(s) on has been read out
  iapply (op_wait_sd m c K 1 6 _ _ _) $$ [HcS1_6 HO HaS1_6]
  · isplitr; · iexact HR
    isplitl [HcS1_6]; · iexact HcS1_6
    isplitl [HO]; · iexact HO
    iexact HaS1_6
  iintro ⟨HO, HaS1_6, Hp1_6⟩
  ihave Hp1_6 := (Entails.of_eq (sdPay_eq m c 1 6)) $$ Hp1_6
  -- chunk 6's piece for the peer 1 place(s) on has been read out
  iapply (op_wait_sd m c K 0 6 _ _ _) $$ [HcS0_6 HO HaS0_6]
  · isplitr; · iexact HR
    isplitl [HcS0_6]; · iexact HcS0_6
    isplitl [HO]; · iexact HO
    iexact HaS0_6
  iintro ⟨HO, HaS0_6, Hp0_6⟩
  ihave Hp0_6 := (Entails.of_eq (sdPay_eq m c 0 6)) $$ Hp0_6
  -- chunk 6's piece for the peer 3 place(s) on has been read out
  iapply (op_wait_sd m c K 2 6 _ _ _) $$ [HcS2_6 HO HaS2_6]
  · isplitr; · iexact HR
    isplitl [HcS2_6]; · iexact HcS2_6
    isplitl [HO]; · iexact HO
    iexact HaS2_6
  iintro ⟨HO, HaS2_6, Hp2_6⟩
  ihave Hp2_6 := (Entails.of_eq (sdPay_eq m c 2 6)) $$ Hp2_6
  -- chunk 7's piece for the peer 2 place(s) on has been read out
  iapply (op_wait_sd m c K 1 7 _ _ _) $$ [HcS1_7 HO HaS1_7]
  · isplitr; · iexact HR
    isplitl [HcS1_7]; · iexact HcS1_7
    isplitl [HO]; · iexact HO
    iexact HaS1_7
  iintro ⟨HO, HaS1_7, Hp1_7⟩
  ihave Hp1_7 := (Entails.of_eq (sdPay_eq m c 1 7)) $$ Hp1_7
  -- chunk 7's piece for the peer 1 place(s) on has been read out
  iapply (op_wait_sd m c K 0 7 _ _ _) $$ [HcS0_7 HO HaS0_7]
  · isplitr; · iexact HR
    isplitl [HcS0_7]; · iexact HcS0_7
    isplitl [HO]; · iexact HO
    iexact HaS0_7
  iintro ⟨HO, HaS0_7, Hp0_7⟩
  ihave Hp0_7 := (Entails.of_eq (sdPay_eq m c 0 7)) $$ Hp0_7
  -- chunk 7's piece for the peer 3 place(s) on has been read out
  iapply (op_wait_sd m c K 2 7 _ _ _) $$ [HcS2_7 HO HaS2_7]
  · isplitr; · iexact HR
    isplitl [HcS2_7]; · iexact HcS2_7
    isplitl [HO]; · iexact HO
    iexact HaS2_7
  iintro ⟨HO, HaS2_7, Hp2_7⟩
  ihave Hp2_7 := (Entails.of_eq (sdPay_eq m c 2 7)) $$ Hp2_7
  -- chunk 8's piece for the peer 2 place(s) on has been read out
  iapply (op_wait_sd m c K 1 8 _ _ _) $$ [HcS1_8 HO HaS1_8]
  · isplitr; · iexact HR
    isplitl [HcS1_8]; · iexact HcS1_8
    isplitl [HO]; · iexact HO
    iexact HaS1_8
  iintro ⟨HO, HaS1_8, Hp1_8⟩
  ihave Hp1_8 := (Entails.of_eq (sdPay_eq m c 1 8)) $$ Hp1_8
  -- chunk 8's piece for the peer 1 place(s) on has been read out
  iapply (op_wait_sd m c K 0 8 _ _ _) $$ [HcS0_8 HO HaS0_8]
  · isplitr; · iexact HR
    isplitl [HcS0_8]; · iexact HcS0_8
    isplitl [HO]; · iexact HO
    iexact HaS0_8
  iintro ⟨HO, HaS0_8, Hp0_8⟩
  ihave Hp0_8 := (Entails.of_eq (sdPay_eq m c 0 8)) $$ Hp0_8
  -- chunk 8's piece for the peer 3 place(s) on has been read out
  iapply (op_wait_sd m c K 2 8 _ _ _) $$ [HcS2_8 HO HaS2_8]
  · isplitr; · iexact HR
    isplitl [HcS2_8]; · iexact HcS2_8
    isplitl [HO]; · iexact HO
    iexact HaS2_8
  iintro ⟨HO, HaS2_8, Hp2_8⟩
  ihave Hp2_8 := (Entails.of_eq (sdPay_eq m c 2 8)) $$ Hp2_8
  -- chunk 9's piece for the peer 2 place(s) on has been read out
  iapply (op_wait_sd m c K 1 9 _ _ _) $$ [HcS1_9 HO HaS1_9]
  · isplitr; · iexact HR
    isplitl [HcS1_9]; · iexact HcS1_9
    isplitl [HO]; · iexact HO
    iexact HaS1_9
  iintro ⟨HO, HaS1_9, Hp1_9⟩
  ihave Hp1_9 := (Entails.of_eq (sdPay_eq m c 1 9)) $$ Hp1_9
  -- chunk 9's piece for the peer 1 place(s) on has been read out
  iapply (op_wait_sd m c K 0 9 _ _ _) $$ [HcS0_9 HO HaS0_9]
  · isplitr; · iexact HR
    isplitl [HcS0_9]; · iexact HcS0_9
    isplitl [HO]; · iexact HO
    iexact HaS0_9
  iintro ⟨HO, HaS0_9, Hp0_9⟩
  ihave Hp0_9 := (Entails.of_eq (sdPay_eq m c 0 9)) $$ Hp0_9
  -- chunk 9's piece for the peer 3 place(s) on has been read out
  iapply (op_wait_sd m c K 2 9 _ _ _) $$ [HcS2_9 HO HaS2_9]
  · isplitr; · iexact HR
    isplitl [HcS2_9]; · iexact HcS2_9
    isplitl [HO]; · iexact HO
    iexact HaS2_9
  iintro ⟨HO, HaS2_9, Hp2_9⟩
  ihave Hp2_9 := (Entails.of_eq (sdPay_eq m c 2 9)) $$ Hp2_9
  -- chunk 10's piece for the peer 2 place(s) on has been read out
  iapply (op_wait_sd m c K 1 10 _ _ _) $$ [HcS1_10 HO HaS1_10]
  · isplitr; · iexact HR
    isplitl [HcS1_10]; · iexact HcS1_10
    isplitl [HO]; · iexact HO
    iexact HaS1_10
  iintro ⟨HO, HaS1_10, Hp1_10⟩
  ihave Hp1_10 := (Entails.of_eq (sdPay_eq m c 1 10)) $$ Hp1_10
  -- chunk 10's piece for the peer 1 place(s) on has been read out
  iapply (op_wait_sd m c K 0 10 _ _ _) $$ [HcS0_10 HO HaS0_10]
  · isplitr; · iexact HR
    isplitl [HcS0_10]; · iexact HcS0_10
    isplitl [HO]; · iexact HO
    iexact HaS0_10
  iintro ⟨HO, HaS0_10, Hp0_10⟩
  ihave Hp0_10 := (Entails.of_eq (sdPay_eq m c 0 10)) $$ Hp0_10
  -- chunk 10's piece for the peer 3 place(s) on has been read out
  iapply (op_wait_sd m c K 2 10 _ _ _) $$ [HcS2_10 HO HaS2_10]
  · isplitr; · iexact HR
    isplitl [HcS2_10]; · iexact HcS2_10
    isplitl [HO]; · iexact HO
    iexact HaS2_10
  iintro ⟨HO, HaS2_10, Hp2_10⟩
  ihave Hp2_10 := (Entails.of_eq (sdPay_eq m c 2 10)) $$ Hp2_10
  -- chunk 11's piece for the peer 2 place(s) on has been read out
  iapply (op_wait_sd m c K 1 11 _ _ _) $$ [HcS1_11 HO HaS1_11]
  · isplitr; · iexact HR
    isplitl [HcS1_11]; · iexact HcS1_11
    isplitl [HO]; · iexact HO
    iexact HaS1_11
  iintro ⟨HO, HaS1_11, Hp1_11⟩
  ihave Hp1_11 := (Entails.of_eq (sdPay_eq m c 1 11)) $$ Hp1_11
  -- chunk 11's piece for the peer 1 place(s) on has been read out
  iapply (op_wait_sd m c K 0 11 _ _ _) $$ [HcS0_11 HO HaS0_11]
  · isplitr; · iexact HR
    isplitl [HcS0_11]; · iexact HcS0_11
    isplitl [HO]; · iexact HO
    iexact HaS0_11
  iintro ⟨HO, HaS0_11, Hp0_11⟩
  ihave Hp0_11 := (Entails.of_eq (sdPay_eq m c 0 11)) $$ Hp0_11
  -- chunk 11's piece for the peer 3 place(s) on has been read out
  iapply (op_wait_sd m c K 2 11 _ _ _) $$ [HcS2_11 HO HaS2_11]
  · isplitr; · iexact HR
    isplitl [HcS2_11]; · iexact HcS2_11
    isplitl [HO]; · iexact HO
    iexact HaS2_11
  iintro ⟨HO, HaS2_11, Hp2_11⟩
  ihave Hp2_11 := (Entails.of_eq (sdPay_eq m c 2 11)) $$ Hp2_11
  -- chunk 12's piece for the peer 2 place(s) on has been read out
  iapply (op_wait_sd m c K 1 12 _ _ _) $$ [HcS1_12 HO HaS1_12]
  · isplitr; · iexact HR
    isplitl [HcS1_12]; · iexact HcS1_12
    isplitl [HO]; · iexact HO
    iexact HaS1_12
  iintro ⟨HO, HaS1_12, Hp1_12⟩
  ihave Hp1_12 := (Entails.of_eq (sdPay_eq m c 1 12)) $$ Hp1_12
  -- chunk 12's piece for the peer 1 place(s) on has been read out
  iapply (op_wait_sd m c K 0 12 _ _ _) $$ [HcS0_12 HO HaS0_12]
  · isplitr; · iexact HR
    isplitl [HcS0_12]; · iexact HcS0_12
    isplitl [HO]; · iexact HO
    iexact HaS0_12
  iintro ⟨HO, HaS0_12, Hp0_12⟩
  ihave Hp0_12 := (Entails.of_eq (sdPay_eq m c 0 12)) $$ Hp0_12
  -- chunk 12's piece for the peer 3 place(s) on has been read out
  iapply (op_wait_sd m c K 2 12 _ _ _) $$ [HcS2_12 HO HaS2_12]
  · isplitr; · iexact HR
    isplitl [HcS2_12]; · iexact HcS2_12
    isplitl [HO]; · iexact HO
    iexact HaS2_12
  iintro ⟨HO, HaS2_12, Hp2_12⟩
  ihave Hp2_12 := (Entails.of_eq (sdPay_eq m c 2 12)) $$ Hp2_12
  -- chunk 13's piece for the peer 2 place(s) on has been read out
  iapply (op_wait_sd m c K 1 13 _ _ _) $$ [HcS1_13 HO HaS1_13]
  · isplitr; · iexact HR
    isplitl [HcS1_13]; · iexact HcS1_13
    isplitl [HO]; · iexact HO
    iexact HaS1_13
  iintro ⟨HO, HaS1_13, Hp1_13⟩
  ihave Hp1_13 := (Entails.of_eq (sdPay_eq m c 1 13)) $$ Hp1_13
  -- chunk 13's piece for the peer 1 place(s) on has been read out
  iapply (op_wait_sd m c K 0 13 _ _ _) $$ [HcS0_13 HO HaS0_13]
  · isplitr; · iexact HR
    isplitl [HcS0_13]; · iexact HcS0_13
    isplitl [HO]; · iexact HO
    iexact HaS0_13
  iintro ⟨HO, HaS0_13, Hp0_13⟩
  ihave Hp0_13 := (Entails.of_eq (sdPay_eq m c 0 13)) $$ Hp0_13
  -- chunk 13's piece for the peer 3 place(s) on has been read out
  iapply (op_wait_sd m c K 2 13 _ _ _) $$ [HcS2_13 HO HaS2_13]
  · isplitr; · iexact HR
    isplitl [HcS2_13]; · iexact HcS2_13
    isplitl [HO]; · iexact HO
    iexact HaS2_13
  iintro ⟨HO, HaS2_13, Hp2_13⟩
  ihave Hp2_13 := (Entails.of_eq (sdPay_eq m c 2 13)) $$ Hp2_13
  -- chunk 14's piece for the peer 2 place(s) on has been read out
  iapply (op_wait_sd m c K 1 14 _ _ _) $$ [HcS1_14 HO HaS1_14]
  · isplitr; · iexact HR
    isplitl [HcS1_14]; · iexact HcS1_14
    isplitl [HO]; · iexact HO
    iexact HaS1_14
  iintro ⟨HO, HaS1_14, Hp1_14⟩
  ihave Hp1_14 := (Entails.of_eq (sdPay_eq m c 1 14)) $$ Hp1_14
  -- chunk 14's piece for the peer 1 place(s) on has been read out
  iapply (op_wait_sd m c K 0 14 _ _ _) $$ [HcS0_14 HO HaS0_14]
  · isplitr; · iexact HR
    isplitl [HcS0_14]; · iexact HcS0_14
    isplitl [HO]; · iexact HO
    iexact HaS0_14
  iintro ⟨HO, HaS0_14, Hp0_14⟩
  ihave Hp0_14 := (Entails.of_eq (sdPay_eq m c 0 14)) $$ Hp0_14
  -- chunk 14's piece for the peer 3 place(s) on has been read out
  iapply (op_wait_sd m c K 2 14 _ _ _) $$ [HcS2_14 HO HaS2_14]
  · isplitr; · iexact HR
    isplitl [HcS2_14]; · iexact HcS2_14
    isplitl [HO]; · iexact HO
    iexact HaS2_14
  iintro ⟨HO, HaS2_14, Hp2_14⟩
  ihave Hp2_14 := (Entails.of_eq (sdPay_eq m c 2 14)) $$ Hp2_14
  -- chunk 15's piece for the peer 2 place(s) on has been read out
  iapply (op_wait_sd m c K 1 15 _ _ _) $$ [HcS1_15 HO HaS1_15]
  · isplitr; · iexact HR
    isplitl [HcS1_15]; · iexact HcS1_15
    isplitl [HO]; · iexact HO
    iexact HaS1_15
  iintro ⟨HO, HaS1_15, Hp1_15⟩
  ihave Hp1_15 := (Entails.of_eq (sdPay_eq m c 1 15)) $$ Hp1_15
  -- chunk 15's piece for the peer 1 place(s) on has been read out
  iapply (op_wait_sd m c K 0 15 _ _ _) $$ [HcS0_15 HO HaS0_15]
  · isplitr; · iexact HR
    isplitl [HcS0_15]; · iexact HcS0_15
    isplitl [HO]; · iexact HO
    iexact HaS0_15
  iintro ⟨HO, HaS0_15, Hp0_15⟩
  ihave Hp0_15 := (Entails.of_eq (sdPay_eq m c 0 15)) $$ Hp0_15
  -- chunk 15's piece for the peer 3 place(s) on has been read out
  iapply (op_wait_sd m c K 2 15 _ _ _) $$ [HcS2_15 HO HaS2_15]
  · isplitr; · iexact HR
    isplitl [HcS2_15]; · iexact HcS2_15
    isplitl [HO]; · iexact HO
    iexact HaS2_15
  iintro ⟨HO, HaS2_15, Hp2_15⟩
  ihave Hp2_15 := (Entails.of_eq (sdPay_eq m c 2 15)) $$ Hp2_15
  -- chunk 0 of the peer 1 place(s) back has arrived
  iapply (op_wait_rv m c K 0 0 _ _ _) $$ [HcR0_0 HO HaR0_0]
  · isplitr; · iexact HR
    isplitl [HcR0_0]; · iexact HcR0_0
    isplitl [HO]; · iexact HO
    iexact HaR0_0
  iintro ⟨HO, HaR0_0, Hrv0_0⟩
  ihave Hrv0_0 := (Entails.of_eq (rvPay_eq m c 0 0)) $$ Hrv0_0
  -- chunk 1 of the peer 1 place(s) back has arrived
  iapply (op_wait_rv m c K 0 1 _ _ _) $$ [HcR0_1 HO HaR0_1]
  · isplitr; · iexact HR
    isplitl [HcR0_1]; · iexact HcR0_1
    isplitl [HO]; · iexact HO
    iexact HaR0_1
  iintro ⟨HO, HaR0_1, Hrv0_1⟩
  ihave Hrv0_1 := (Entails.of_eq (rvPay_eq m c 0 1)) $$ Hrv0_1
  -- chunk 2 of the peer 1 place(s) back has arrived
  iapply (op_wait_rv m c K 0 2 _ _ _) $$ [HcR0_2 HO HaR0_2]
  · isplitr; · iexact HR
    isplitl [HcR0_2]; · iexact HcR0_2
    isplitl [HO]; · iexact HO
    iexact HaR0_2
  iintro ⟨HO, HaR0_2, Hrv0_2⟩
  ihave Hrv0_2 := (Entails.of_eq (rvPay_eq m c 0 2)) $$ Hrv0_2
  -- chunk 3 of the peer 1 place(s) back has arrived
  iapply (op_wait_rv m c K 0 3 _ _ _) $$ [HcR0_3 HO HaR0_3]
  · isplitr; · iexact HR
    isplitl [HcR0_3]; · iexact HcR0_3
    isplitl [HO]; · iexact HO
    iexact HaR0_3
  iintro ⟨HO, HaR0_3, Hrv0_3⟩
  ihave Hrv0_3 := (Entails.of_eq (rvPay_eq m c 0 3)) $$ Hrv0_3
  -- chunk 4 of the peer 1 place(s) back has arrived
  iapply (op_wait_rv m c K 0 4 _ _ _) $$ [HcR0_4 HO HaR0_4]
  · isplitr; · iexact HR
    isplitl [HcR0_4]; · iexact HcR0_4
    isplitl [HO]; · iexact HO
    iexact HaR0_4
  iintro ⟨HO, HaR0_4, Hrv0_4⟩
  ihave Hrv0_4 := (Entails.of_eq (rvPay_eq m c 0 4)) $$ Hrv0_4
  -- chunk 5 of the peer 1 place(s) back has arrived
  iapply (op_wait_rv m c K 0 5 _ _ _) $$ [HcR0_5 HO HaR0_5]
  · isplitr; · iexact HR
    isplitl [HcR0_5]; · iexact HcR0_5
    isplitl [HO]; · iexact HO
    iexact HaR0_5
  iintro ⟨HO, HaR0_5, Hrv0_5⟩
  ihave Hrv0_5 := (Entails.of_eq (rvPay_eq m c 0 5)) $$ Hrv0_5
  -- chunk 6 of the peer 1 place(s) back has arrived
  iapply (op_wait_rv m c K 0 6 _ _ _) $$ [HcR0_6 HO HaR0_6]
  · isplitr; · iexact HR
    isplitl [HcR0_6]; · iexact HcR0_6
    isplitl [HO]; · iexact HO
    iexact HaR0_6
  iintro ⟨HO, HaR0_6, Hrv0_6⟩
  ihave Hrv0_6 := (Entails.of_eq (rvPay_eq m c 0 6)) $$ Hrv0_6
  -- chunk 7 of the peer 1 place(s) back has arrived
  iapply (op_wait_rv m c K 0 7 _ _ _) $$ [HcR0_7 HO HaR0_7]
  · isplitr; · iexact HR
    isplitl [HcR0_7]; · iexact HcR0_7
    isplitl [HO]; · iexact HO
    iexact HaR0_7
  iintro ⟨HO, HaR0_7, Hrv0_7⟩
  ihave Hrv0_7 := (Entails.of_eq (rvPay_eq m c 0 7)) $$ Hrv0_7
  -- chunk 8 of the peer 1 place(s) back has arrived
  iapply (op_wait_rv m c K 0 8 _ _ _) $$ [HcR0_8 HO HaR0_8]
  · isplitr; · iexact HR
    isplitl [HcR0_8]; · iexact HcR0_8
    isplitl [HO]; · iexact HO
    iexact HaR0_8
  iintro ⟨HO, HaR0_8, Hrv0_8⟩
  ihave Hrv0_8 := (Entails.of_eq (rvPay_eq m c 0 8)) $$ Hrv0_8
  -- chunk 9 of the peer 1 place(s) back has arrived
  iapply (op_wait_rv m c K 0 9 _ _ _) $$ [HcR0_9 HO HaR0_9]
  · isplitr; · iexact HR
    isplitl [HcR0_9]; · iexact HcR0_9
    isplitl [HO]; · iexact HO
    iexact HaR0_9
  iintro ⟨HO, HaR0_9, Hrv0_9⟩
  ihave Hrv0_9 := (Entails.of_eq (rvPay_eq m c 0 9)) $$ Hrv0_9
  -- chunk 10 of the peer 1 place(s) back has arrived
  iapply (op_wait_rv m c K 0 10 _ _ _) $$ [HcR0_10 HO HaR0_10]
  · isplitr; · iexact HR
    isplitl [HcR0_10]; · iexact HcR0_10
    isplitl [HO]; · iexact HO
    iexact HaR0_10
  iintro ⟨HO, HaR0_10, Hrv0_10⟩
  ihave Hrv0_10 := (Entails.of_eq (rvPay_eq m c 0 10)) $$ Hrv0_10
  -- chunk 11 of the peer 1 place(s) back has arrived
  iapply (op_wait_rv m c K 0 11 _ _ _) $$ [HcR0_11 HO HaR0_11]
  · isplitr; · iexact HR
    isplitl [HcR0_11]; · iexact HcR0_11
    isplitl [HO]; · iexact HO
    iexact HaR0_11
  iintro ⟨HO, HaR0_11, Hrv0_11⟩
  ihave Hrv0_11 := (Entails.of_eq (rvPay_eq m c 0 11)) $$ Hrv0_11
  -- chunk 12 of the peer 1 place(s) back has arrived
  iapply (op_wait_rv m c K 0 12 _ _ _) $$ [HcR0_12 HO HaR0_12]
  · isplitr; · iexact HR
    isplitl [HcR0_12]; · iexact HcR0_12
    isplitl [HO]; · iexact HO
    iexact HaR0_12
  iintro ⟨HO, HaR0_12, Hrv0_12⟩
  ihave Hrv0_12 := (Entails.of_eq (rvPay_eq m c 0 12)) $$ Hrv0_12
  -- chunk 13 of the peer 1 place(s) back has arrived
  iapply (op_wait_rv m c K 0 13 _ _ _) $$ [HcR0_13 HO HaR0_13]
  · isplitr; · iexact HR
    isplitl [HcR0_13]; · iexact HcR0_13
    isplitl [HO]; · iexact HO
    iexact HaR0_13
  iintro ⟨HO, HaR0_13, Hrv0_13⟩
  ihave Hrv0_13 := (Entails.of_eq (rvPay_eq m c 0 13)) $$ Hrv0_13
  -- chunk 14 of the peer 1 place(s) back has arrived
  iapply (op_wait_rv m c K 0 14 _ _ _) $$ [HcR0_14 HO HaR0_14]
  · isplitr; · iexact HR
    isplitl [HcR0_14]; · iexact HcR0_14
    isplitl [HO]; · iexact HO
    iexact HaR0_14
  iintro ⟨HO, HaR0_14, Hrv0_14⟩
  ihave Hrv0_14 := (Entails.of_eq (rvPay_eq m c 0 14)) $$ Hrv0_14
  -- chunk 15 of the peer 1 place(s) back has arrived
  iapply (op_wait_rv m c K 0 15 _ _ _) $$ [HcR0_15 HO HaR0_15]
  · isplitr; · iexact HR
    isplitl [HcR0_15]; · iexact HcR0_15
    isplitl [HO]; · iexact HO
    iexact HaR0_15
  iintro ⟨HO, HaR0_15, Hrv0_15⟩
  ihave Hrv0_15 := (Entails.of_eq (rvPay_eq m c 0 15)) $$ Hrv0_15
  -- chunk 0 of the peer 2 place(s) back has arrived
  iapply (op_wait_rv m c K 1 0 _ _ _) $$ [HcR1_0 HO HaR1_0]
  · isplitr; · iexact HR
    isplitl [HcR1_0]; · iexact HcR1_0
    isplitl [HO]; · iexact HO
    iexact HaR1_0
  iintro ⟨HO, HaR1_0, Hrv1_0⟩
  ihave Hrv1_0 := (Entails.of_eq (rvPay_eq m c 1 0)) $$ Hrv1_0
  -- chunk 1 of the peer 2 place(s) back has arrived
  iapply (op_wait_rv m c K 1 1 _ _ _) $$ [HcR1_1 HO HaR1_1]
  · isplitr; · iexact HR
    isplitl [HcR1_1]; · iexact HcR1_1
    isplitl [HO]; · iexact HO
    iexact HaR1_1
  iintro ⟨HO, HaR1_1, Hrv1_1⟩
  ihave Hrv1_1 := (Entails.of_eq (rvPay_eq m c 1 1)) $$ Hrv1_1
  -- chunk 2 of the peer 2 place(s) back has arrived
  iapply (op_wait_rv m c K 1 2 _ _ _) $$ [HcR1_2 HO HaR1_2]
  · isplitr; · iexact HR
    isplitl [HcR1_2]; · iexact HcR1_2
    isplitl [HO]; · iexact HO
    iexact HaR1_2
  iintro ⟨HO, HaR1_2, Hrv1_2⟩
  ihave Hrv1_2 := (Entails.of_eq (rvPay_eq m c 1 2)) $$ Hrv1_2
  -- chunk 3 of the peer 2 place(s) back has arrived
  iapply (op_wait_rv m c K 1 3 _ _ _) $$ [HcR1_3 HO HaR1_3]
  · isplitr; · iexact HR
    isplitl [HcR1_3]; · iexact HcR1_3
    isplitl [HO]; · iexact HO
    iexact HaR1_3
  iintro ⟨HO, HaR1_3, Hrv1_3⟩
  ihave Hrv1_3 := (Entails.of_eq (rvPay_eq m c 1 3)) $$ Hrv1_3
  -- chunk 4 of the peer 2 place(s) back has arrived
  iapply (op_wait_rv m c K 1 4 _ _ _) $$ [HcR1_4 HO HaR1_4]
  · isplitr; · iexact HR
    isplitl [HcR1_4]; · iexact HcR1_4
    isplitl [HO]; · iexact HO
    iexact HaR1_4
  iintro ⟨HO, HaR1_4, Hrv1_4⟩
  ihave Hrv1_4 := (Entails.of_eq (rvPay_eq m c 1 4)) $$ Hrv1_4
  -- chunk 5 of the peer 2 place(s) back has arrived
  iapply (op_wait_rv m c K 1 5 _ _ _) $$ [HcR1_5 HO HaR1_5]
  · isplitr; · iexact HR
    isplitl [HcR1_5]; · iexact HcR1_5
    isplitl [HO]; · iexact HO
    iexact HaR1_5
  iintro ⟨HO, HaR1_5, Hrv1_5⟩
  ihave Hrv1_5 := (Entails.of_eq (rvPay_eq m c 1 5)) $$ Hrv1_5
  -- chunk 6 of the peer 2 place(s) back has arrived
  iapply (op_wait_rv m c K 1 6 _ _ _) $$ [HcR1_6 HO HaR1_6]
  · isplitr; · iexact HR
    isplitl [HcR1_6]; · iexact HcR1_6
    isplitl [HO]; · iexact HO
    iexact HaR1_6
  iintro ⟨HO, HaR1_6, Hrv1_6⟩
  ihave Hrv1_6 := (Entails.of_eq (rvPay_eq m c 1 6)) $$ Hrv1_6
  -- chunk 7 of the peer 2 place(s) back has arrived
  iapply (op_wait_rv m c K 1 7 _ _ _) $$ [HcR1_7 HO HaR1_7]
  · isplitr; · iexact HR
    isplitl [HcR1_7]; · iexact HcR1_7
    isplitl [HO]; · iexact HO
    iexact HaR1_7
  iintro ⟨HO, HaR1_7, Hrv1_7⟩
  ihave Hrv1_7 := (Entails.of_eq (rvPay_eq m c 1 7)) $$ Hrv1_7
  -- chunk 8 of the peer 2 place(s) back has arrived
  iapply (op_wait_rv m c K 1 8 _ _ _) $$ [HcR1_8 HO HaR1_8]
  · isplitr; · iexact HR
    isplitl [HcR1_8]; · iexact HcR1_8
    isplitl [HO]; · iexact HO
    iexact HaR1_8
  iintro ⟨HO, HaR1_8, Hrv1_8⟩
  ihave Hrv1_8 := (Entails.of_eq (rvPay_eq m c 1 8)) $$ Hrv1_8
  -- chunk 9 of the peer 2 place(s) back has arrived
  iapply (op_wait_rv m c K 1 9 _ _ _) $$ [HcR1_9 HO HaR1_9]
  · isplitr; · iexact HR
    isplitl [HcR1_9]; · iexact HcR1_9
    isplitl [HO]; · iexact HO
    iexact HaR1_9
  iintro ⟨HO, HaR1_9, Hrv1_9⟩
  ihave Hrv1_9 := (Entails.of_eq (rvPay_eq m c 1 9)) $$ Hrv1_9
  -- chunk 10 of the peer 2 place(s) back has arrived
  iapply (op_wait_rv m c K 1 10 _ _ _) $$ [HcR1_10 HO HaR1_10]
  · isplitr; · iexact HR
    isplitl [HcR1_10]; · iexact HcR1_10
    isplitl [HO]; · iexact HO
    iexact HaR1_10
  iintro ⟨HO, HaR1_10, Hrv1_10⟩
  ihave Hrv1_10 := (Entails.of_eq (rvPay_eq m c 1 10)) $$ Hrv1_10
  -- chunk 11 of the peer 2 place(s) back has arrived
  iapply (op_wait_rv m c K 1 11 _ _ _) $$ [HcR1_11 HO HaR1_11]
  · isplitr; · iexact HR
    isplitl [HcR1_11]; · iexact HcR1_11
    isplitl [HO]; · iexact HO
    iexact HaR1_11
  iintro ⟨HO, HaR1_11, Hrv1_11⟩
  ihave Hrv1_11 := (Entails.of_eq (rvPay_eq m c 1 11)) $$ Hrv1_11
  -- chunk 12 of the peer 2 place(s) back has arrived
  iapply (op_wait_rv m c K 1 12 _ _ _) $$ [HcR1_12 HO HaR1_12]
  · isplitr; · iexact HR
    isplitl [HcR1_12]; · iexact HcR1_12
    isplitl [HO]; · iexact HO
    iexact HaR1_12
  iintro ⟨HO, HaR1_12, Hrv1_12⟩
  ihave Hrv1_12 := (Entails.of_eq (rvPay_eq m c 1 12)) $$ Hrv1_12
  -- chunk 13 of the peer 2 place(s) back has arrived
  iapply (op_wait_rv m c K 1 13 _ _ _) $$ [HcR1_13 HO HaR1_13]
  · isplitr; · iexact HR
    isplitl [HcR1_13]; · iexact HcR1_13
    isplitl [HO]; · iexact HO
    iexact HaR1_13
  iintro ⟨HO, HaR1_13, Hrv1_13⟩
  ihave Hrv1_13 := (Entails.of_eq (rvPay_eq m c 1 13)) $$ Hrv1_13
  -- chunk 14 of the peer 2 place(s) back has arrived
  iapply (op_wait_rv m c K 1 14 _ _ _) $$ [HcR1_14 HO HaR1_14]
  · isplitr; · iexact HR
    isplitl [HcR1_14]; · iexact HcR1_14
    isplitl [HO]; · iexact HO
    iexact HaR1_14
  iintro ⟨HO, HaR1_14, Hrv1_14⟩
  ihave Hrv1_14 := (Entails.of_eq (rvPay_eq m c 1 14)) $$ Hrv1_14
  -- chunk 15 of the peer 2 place(s) back has arrived
  iapply (op_wait_rv m c K 1 15 _ _ _) $$ [HcR1_15 HO HaR1_15]
  · isplitr; · iexact HR
    isplitl [HcR1_15]; · iexact HcR1_15
    isplitl [HO]; · iexact HO
    iexact HaR1_15
  iintro ⟨HO, HaR1_15, Hrv1_15⟩
  ihave Hrv1_15 := (Entails.of_eq (rvPay_eq m c 1 15)) $$ Hrv1_15
  -- chunk 0 of the peer 3 place(s) back has arrived
  iapply (op_wait_rv m c K 2 0 _ _ _) $$ [HcR2_0 HO HaR2_0]
  · isplitr; · iexact HR
    isplitl [HcR2_0]; · iexact HcR2_0
    isplitl [HO]; · iexact HO
    iexact HaR2_0
  iintro ⟨HO, HaR2_0, Hrv2_0⟩
  ihave Hrv2_0 := (Entails.of_eq (rvPay_eq m c 2 0)) $$ Hrv2_0
  -- chunk 1 of the peer 3 place(s) back has arrived
  iapply (op_wait_rv m c K 2 1 _ _ _) $$ [HcR2_1 HO HaR2_1]
  · isplitr; · iexact HR
    isplitl [HcR2_1]; · iexact HcR2_1
    isplitl [HO]; · iexact HO
    iexact HaR2_1
  iintro ⟨HO, HaR2_1, Hrv2_1⟩
  ihave Hrv2_1 := (Entails.of_eq (rvPay_eq m c 2 1)) $$ Hrv2_1
  -- chunk 2 of the peer 3 place(s) back has arrived
  iapply (op_wait_rv m c K 2 2 _ _ _) $$ [HcR2_2 HO HaR2_2]
  · isplitr; · iexact HR
    isplitl [HcR2_2]; · iexact HcR2_2
    isplitl [HO]; · iexact HO
    iexact HaR2_2
  iintro ⟨HO, HaR2_2, Hrv2_2⟩
  ihave Hrv2_2 := (Entails.of_eq (rvPay_eq m c 2 2)) $$ Hrv2_2
  -- chunk 3 of the peer 3 place(s) back has arrived
  iapply (op_wait_rv m c K 2 3 _ _ _) $$ [HcR2_3 HO HaR2_3]
  · isplitr; · iexact HR
    isplitl [HcR2_3]; · iexact HcR2_3
    isplitl [HO]; · iexact HO
    iexact HaR2_3
  iintro ⟨HO, HaR2_3, Hrv2_3⟩
  ihave Hrv2_3 := (Entails.of_eq (rvPay_eq m c 2 3)) $$ Hrv2_3
  -- chunk 4 of the peer 3 place(s) back has arrived
  iapply (op_wait_rv m c K 2 4 _ _ _) $$ [HcR2_4 HO HaR2_4]
  · isplitr; · iexact HR
    isplitl [HcR2_4]; · iexact HcR2_4
    isplitl [HO]; · iexact HO
    iexact HaR2_4
  iintro ⟨HO, HaR2_4, Hrv2_4⟩
  ihave Hrv2_4 := (Entails.of_eq (rvPay_eq m c 2 4)) $$ Hrv2_4
  -- chunk 5 of the peer 3 place(s) back has arrived
  iapply (op_wait_rv m c K 2 5 _ _ _) $$ [HcR2_5 HO HaR2_5]
  · isplitr; · iexact HR
    isplitl [HcR2_5]; · iexact HcR2_5
    isplitl [HO]; · iexact HO
    iexact HaR2_5
  iintro ⟨HO, HaR2_5, Hrv2_5⟩
  ihave Hrv2_5 := (Entails.of_eq (rvPay_eq m c 2 5)) $$ Hrv2_5
  -- chunk 6 of the peer 3 place(s) back has arrived
  iapply (op_wait_rv m c K 2 6 _ _ _) $$ [HcR2_6 HO HaR2_6]
  · isplitr; · iexact HR
    isplitl [HcR2_6]; · iexact HcR2_6
    isplitl [HO]; · iexact HO
    iexact HaR2_6
  iintro ⟨HO, HaR2_6, Hrv2_6⟩
  ihave Hrv2_6 := (Entails.of_eq (rvPay_eq m c 2 6)) $$ Hrv2_6
  -- chunk 7 of the peer 3 place(s) back has arrived
  iapply (op_wait_rv m c K 2 7 _ _ _) $$ [HcR2_7 HO HaR2_7]
  · isplitr; · iexact HR
    isplitl [HcR2_7]; · iexact HcR2_7
    isplitl [HO]; · iexact HO
    iexact HaR2_7
  iintro ⟨HO, HaR2_7, Hrv2_7⟩
  ihave Hrv2_7 := (Entails.of_eq (rvPay_eq m c 2 7)) $$ Hrv2_7
  -- chunk 8 of the peer 3 place(s) back has arrived
  iapply (op_wait_rv m c K 2 8 _ _ _) $$ [HcR2_8 HO HaR2_8]
  · isplitr; · iexact HR
    isplitl [HcR2_8]; · iexact HcR2_8
    isplitl [HO]; · iexact HO
    iexact HaR2_8
  iintro ⟨HO, HaR2_8, Hrv2_8⟩
  ihave Hrv2_8 := (Entails.of_eq (rvPay_eq m c 2 8)) $$ Hrv2_8
  -- chunk 9 of the peer 3 place(s) back has arrived
  iapply (op_wait_rv m c K 2 9 _ _ _) $$ [HcR2_9 HO HaR2_9]
  · isplitr; · iexact HR
    isplitl [HcR2_9]; · iexact HcR2_9
    isplitl [HO]; · iexact HO
    iexact HaR2_9
  iintro ⟨HO, HaR2_9, Hrv2_9⟩
  ihave Hrv2_9 := (Entails.of_eq (rvPay_eq m c 2 9)) $$ Hrv2_9
  -- chunk 10 of the peer 3 place(s) back has arrived
  iapply (op_wait_rv m c K 2 10 _ _ _) $$ [HcR2_10 HO HaR2_10]
  · isplitr; · iexact HR
    isplitl [HcR2_10]; · iexact HcR2_10
    isplitl [HO]; · iexact HO
    iexact HaR2_10
  iintro ⟨HO, HaR2_10, Hrv2_10⟩
  ihave Hrv2_10 := (Entails.of_eq (rvPay_eq m c 2 10)) $$ Hrv2_10
  -- chunk 11 of the peer 3 place(s) back has arrived
  iapply (op_wait_rv m c K 2 11 _ _ _) $$ [HcR2_11 HO HaR2_11]
  · isplitr; · iexact HR
    isplitl [HcR2_11]; · iexact HcR2_11
    isplitl [HO]; · iexact HO
    iexact HaR2_11
  iintro ⟨HO, HaR2_11, Hrv2_11⟩
  ihave Hrv2_11 := (Entails.of_eq (rvPay_eq m c 2 11)) $$ Hrv2_11
  -- chunk 12 of the peer 3 place(s) back has arrived
  iapply (op_wait_rv m c K 2 12 _ _ _) $$ [HcR2_12 HO HaR2_12]
  · isplitr; · iexact HR
    isplitl [HcR2_12]; · iexact HcR2_12
    isplitl [HO]; · iexact HO
    iexact HaR2_12
  iintro ⟨HO, HaR2_12, Hrv2_12⟩
  ihave Hrv2_12 := (Entails.of_eq (rvPay_eq m c 2 12)) $$ Hrv2_12
  -- chunk 13 of the peer 3 place(s) back has arrived
  iapply (op_wait_rv m c K 2 13 _ _ _) $$ [HcR2_13 HO HaR2_13]
  · isplitr; · iexact HR
    isplitl [HcR2_13]; · iexact HcR2_13
    isplitl [HO]; · iexact HO
    iexact HaR2_13
  iintro ⟨HO, HaR2_13, Hrv2_13⟩
  ihave Hrv2_13 := (Entails.of_eq (rvPay_eq m c 2 13)) $$ Hrv2_13
  -- chunk 14 of the peer 3 place(s) back has arrived
  iapply (op_wait_rv m c K 2 14 _ _ _) $$ [HcR2_14 HO HaR2_14]
  · isplitr; · iexact HR
    isplitl [HcR2_14]; · iexact HcR2_14
    isplitl [HO]; · iexact HO
    iexact HaR2_14
  iintro ⟨HO, HaR2_14, Hrv2_14⟩
  ihave Hrv2_14 := (Entails.of_eq (rvPay_eq m c 2 14)) $$ Hrv2_14
  -- chunk 15 of the peer 3 place(s) back has arrived
  iapply (op_wait_rv m c K 2 15 _ _ _) $$ [HcR2_15 HO HaR2_15]
  · isplitr; · iexact HR
    isplitl [HcR2_15]; · iexact HcR2_15
    isplitl [HO]; · iexact HO
    iexact HaR2_15
  iintro ⟨HO, HaR2_15, Hrv2_15⟩
  ihave Hrv2_15 := (Entails.of_eq (rvPay_eq m c 2 15)) $$ Hrv2_15
  -- everything folded back
  rw [wp_ret]
  imod (finish_spec m c K) $$ [Hx0 Hx1 Hx2 Hx3 Hx4 Hx5 Hx6 Hx7 Hx8 Hx9 Hx10 Hx11 Hx12 Hx13 Hx14 Hx15 Hf0 Hf1 Hb0 HoO0 HaL0 Hb1 HoO1 HaL1 Hb2 HoO2 HaL2 Hb3 HoO3 HaL3 Hb4 HoO4 HaL4 Hb5 HoO5 HaL5 Hb6 HoO6 HaL6 Hb7 HoO7 HaL7 Hb8 HoO8 HaL8 Hb9 HoO9 HaL9 Hb10 HoO10 HaL10 Hb11 HoO11 HaL11 Hb12 HoO12 HaL12 Hb13 HoO13 HaL13 Hb14 HoO14 HaL14 Hb15 HoO15 HaL15 Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15 Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15 Hp2_0 Hrv2_0 HaS2_0 HaR2_0 Hp2_1 Hrv2_1 HaS2_1 HaR2_1 Hp2_2 Hrv2_2 HaS2_2 HaR2_2 Hp2_3 Hrv2_3 HaS2_3 HaR2_3 Hp2_4 Hrv2_4 HaS2_4 HaR2_4 Hp2_5 Hrv2_5 HaS2_5 HaR2_5 Hp2_6 Hrv2_6 HaS2_6 HaR2_6 Hp2_7 Hrv2_7 HaS2_7 HaR2_7 Hp2_8 Hrv2_8 HaS2_8 HaR2_8 Hp2_9 Hrv2_9 HaS2_9 HaR2_9 Hp2_10 Hrv2_10 HaS2_10 HaR2_10 Hp2_11 Hrv2_11 HaS2_11 HaR2_11 Hp2_12 Hrv2_12 HaS2_12 HaR2_12 Hp2_13 Hrv2_13 HaS2_13 HaR2_13 Hp2_14 Hrv2_14 HaS2_14 HaR2_14 Hp2_15 Hrv2_15 HaS2_15 HaR2_15 Ha0 Ha1 HO] with Hpost
  · isplitr; · iexact HR
    unfold Closed
    simp only [bigSep_f16, bigSep_f2, bigSep_f3x16]
    isplitl [Hx0 Hx1 Hx2 Hx3 Hx4 Hx5 Hx6 Hx7 Hx8 Hx9 Hx10 Hx11 Hx12 Hx13 Hx14 Hx15]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      isplitl [Hx12]; · iexact Hx12
      isplitl [Hx13]; · iexact Hx13
      isplitl [Hx14]; · iexact Hx14
      iexact Hx15
    isplitl [Hf0 Hf1]
    · isplitl [Hf0]; · (iexists _; iexact Hf0)
      iexists _; iexact Hf1
    isplitl [Hb0 HoO0 HaL0 Hb1 HoO1 HaL1 Hb2 HoO2 HaL2 Hb3 HoO3 HaL3 Hb4 HoO4 HaL4 Hb5 HoO5 HaL5 Hb6 HoO6 HaL6 Hb7 HoO7 HaL7 Hb8 HoO8 HaL8 Hb9 HoO9 HaL9 Hb10 HoO10 HaL10 Hb11 HoO11 HaL11 Hb12 HoO12 HaL12 Hb13 HoO13 HaL13 Hb14 HoO14 HaL14 Hb15 HoO15 HaL15]
    · isplitl [Hb0 HoO0 HaL0]
      · isplitl [Hb0]; · iexact Hb0
        isplitl [HoO0]; · iexact HoO0
        iexact HaL0
      isplitl [Hb1 HoO1 HaL1]
      · isplitl [Hb1]; · iexact Hb1
        isplitl [HoO1]; · iexact HoO1
        iexact HaL1
      isplitl [Hb2 HoO2 HaL2]
      · isplitl [Hb2]; · iexact Hb2
        isplitl [HoO2]; · iexact HoO2
        iexact HaL2
      isplitl [Hb3 HoO3 HaL3]
      · isplitl [Hb3]; · iexact Hb3
        isplitl [HoO3]; · iexact HoO3
        iexact HaL3
      isplitl [Hb4 HoO4 HaL4]
      · isplitl [Hb4]; · iexact Hb4
        isplitl [HoO4]; · iexact HoO4
        iexact HaL4
      isplitl [Hb5 HoO5 HaL5]
      · isplitl [Hb5]; · iexact Hb5
        isplitl [HoO5]; · iexact HoO5
        iexact HaL5
      isplitl [Hb6 HoO6 HaL6]
      · isplitl [Hb6]; · iexact Hb6
        isplitl [HoO6]; · iexact HoO6
        iexact HaL6
      isplitl [Hb7 HoO7 HaL7]
      · isplitl [Hb7]; · iexact Hb7
        isplitl [HoO7]; · iexact HoO7
        iexact HaL7
      isplitl [Hb8 HoO8 HaL8]
      · isplitl [Hb8]; · iexact Hb8
        isplitl [HoO8]; · iexact HoO8
        iexact HaL8
      isplitl [Hb9 HoO9 HaL9]
      · isplitl [Hb9]; · iexact Hb9
        isplitl [HoO9]; · iexact HoO9
        iexact HaL9
      isplitl [Hb10 HoO10 HaL10]
      · isplitl [Hb10]; · iexact Hb10
        isplitl [HoO10]; · iexact HoO10
        iexact HaL10
      isplitl [Hb11 HoO11 HaL11]
      · isplitl [Hb11]; · iexact Hb11
        isplitl [HoO11]; · iexact HoO11
        iexact HaL11
      isplitl [Hb12 HoO12 HaL12]
      · isplitl [Hb12]; · iexact Hb12
        isplitl [HoO12]; · iexact HoO12
        iexact HaL12
      isplitl [Hb13 HoO13 HaL13]
      · isplitl [Hb13]; · iexact Hb13
        isplitl [HoO13]; · iexact HoO13
        iexact HaL13
      isplitl [Hb14 HoO14 HaL14]
      · isplitl [Hb14]; · iexact Hb14
        isplitl [HoO14]; · iexact HoO14
        iexact HaL14
      isplitl [Hb15]; · iexact Hb15
      isplitl [HoO15]; · iexact HoO15
      iexact HaL15
    isplitl [Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15 Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15 Hp2_0 Hrv2_0 HaS2_0 HaR2_0 Hp2_1 Hrv2_1 HaS2_1 HaR2_1 Hp2_2 Hrv2_2 HaS2_2 HaR2_2 Hp2_3 Hrv2_3 HaS2_3 HaR2_3 Hp2_4 Hrv2_4 HaS2_4 HaR2_4 Hp2_5 Hrv2_5 HaS2_5 HaR2_5 Hp2_6 Hrv2_6 HaS2_6 HaR2_6 Hp2_7 Hrv2_7 HaS2_7 HaR2_7 Hp2_8 Hrv2_8 HaS2_8 HaR2_8 Hp2_9 Hrv2_9 HaS2_9 HaR2_9 Hp2_10 Hrv2_10 HaS2_10 HaR2_10 Hp2_11 Hrv2_11 HaS2_11 HaR2_11 Hp2_12 Hrv2_12 HaS2_12 HaR2_12 Hp2_13 Hrv2_13 HaS2_13 HaR2_13 Hp2_14 Hrv2_14 HaS2_14 HaR2_14 Hp2_15 Hrv2_15 HaS2_15 HaR2_15]
    · isplitl [Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15]
      · skip
        isplitl [Hp0_0 Hrv0_0 HaS0_0 HaR0_0]
        · isplitl [Hp0_0]; · iexact Hp0_0
          isplitl [Hrv0_0]; · iexact Hrv0_0
          isplitl [HaS0_0]; · iexact HaS0_0
          iexact HaR0_0
        isplitl [Hp0_1 Hrv0_1 HaS0_1 HaR0_1]
        · isplitl [Hp0_1]; · iexact Hp0_1
          isplitl [Hrv0_1]; · iexact Hrv0_1
          isplitl [HaS0_1]; · iexact HaS0_1
          iexact HaR0_1
        isplitl [Hp0_2 Hrv0_2 HaS0_2 HaR0_2]
        · isplitl [Hp0_2]; · iexact Hp0_2
          isplitl [Hrv0_2]; · iexact Hrv0_2
          isplitl [HaS0_2]; · iexact HaS0_2
          iexact HaR0_2
        isplitl [Hp0_3 Hrv0_3 HaS0_3 HaR0_3]
        · isplitl [Hp0_3]; · iexact Hp0_3
          isplitl [Hrv0_3]; · iexact Hrv0_3
          isplitl [HaS0_3]; · iexact HaS0_3
          iexact HaR0_3
        isplitl [Hp0_4 Hrv0_4 HaS0_4 HaR0_4]
        · isplitl [Hp0_4]; · iexact Hp0_4
          isplitl [Hrv0_4]; · iexact Hrv0_4
          isplitl [HaS0_4]; · iexact HaS0_4
          iexact HaR0_4
        isplitl [Hp0_5 Hrv0_5 HaS0_5 HaR0_5]
        · isplitl [Hp0_5]; · iexact Hp0_5
          isplitl [Hrv0_5]; · iexact Hrv0_5
          isplitl [HaS0_5]; · iexact HaS0_5
          iexact HaR0_5
        isplitl [Hp0_6 Hrv0_6 HaS0_6 HaR0_6]
        · isplitl [Hp0_6]; · iexact Hp0_6
          isplitl [Hrv0_6]; · iexact Hrv0_6
          isplitl [HaS0_6]; · iexact HaS0_6
          iexact HaR0_6
        isplitl [Hp0_7 Hrv0_7 HaS0_7 HaR0_7]
        · isplitl [Hp0_7]; · iexact Hp0_7
          isplitl [Hrv0_7]; · iexact Hrv0_7
          isplitl [HaS0_7]; · iexact HaS0_7
          iexact HaR0_7
        isplitl [Hp0_8 Hrv0_8 HaS0_8 HaR0_8]
        · isplitl [Hp0_8]; · iexact Hp0_8
          isplitl [Hrv0_8]; · iexact Hrv0_8
          isplitl [HaS0_8]; · iexact HaS0_8
          iexact HaR0_8
        isplitl [Hp0_9 Hrv0_9 HaS0_9 HaR0_9]
        · isplitl [Hp0_9]; · iexact Hp0_9
          isplitl [Hrv0_9]; · iexact Hrv0_9
          isplitl [HaS0_9]; · iexact HaS0_9
          iexact HaR0_9
        isplitl [Hp0_10 Hrv0_10 HaS0_10 HaR0_10]
        · isplitl [Hp0_10]; · iexact Hp0_10
          isplitl [Hrv0_10]; · iexact Hrv0_10
          isplitl [HaS0_10]; · iexact HaS0_10
          iexact HaR0_10
        isplitl [Hp0_11 Hrv0_11 HaS0_11 HaR0_11]
        · isplitl [Hp0_11]; · iexact Hp0_11
          isplitl [Hrv0_11]; · iexact Hrv0_11
          isplitl [HaS0_11]; · iexact HaS0_11
          iexact HaR0_11
        isplitl [Hp0_12 Hrv0_12 HaS0_12 HaR0_12]
        · isplitl [Hp0_12]; · iexact Hp0_12
          isplitl [Hrv0_12]; · iexact Hrv0_12
          isplitl [HaS0_12]; · iexact HaS0_12
          iexact HaR0_12
        isplitl [Hp0_13 Hrv0_13 HaS0_13 HaR0_13]
        · isplitl [Hp0_13]; · iexact Hp0_13
          isplitl [Hrv0_13]; · iexact Hrv0_13
          isplitl [HaS0_13]; · iexact HaS0_13
          iexact HaR0_13
        isplitl [Hp0_14 Hrv0_14 HaS0_14 HaR0_14]
        · isplitl [Hp0_14]; · iexact Hp0_14
          isplitl [Hrv0_14]; · iexact Hrv0_14
          isplitl [HaS0_14]; · iexact HaS0_14
          iexact HaR0_14
        isplitl [Hp0_15]; · iexact Hp0_15
        isplitl [Hrv0_15]; · iexact Hrv0_15
        isplitl [HaS0_15]; · iexact HaS0_15
        iexact HaR0_15
      isplitl [Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15]
      · skip
        isplitl [Hp1_0 Hrv1_0 HaS1_0 HaR1_0]
        · isplitl [Hp1_0]; · iexact Hp1_0
          isplitl [Hrv1_0]; · iexact Hrv1_0
          isplitl [HaS1_0]; · iexact HaS1_0
          iexact HaR1_0
        isplitl [Hp1_1 Hrv1_1 HaS1_1 HaR1_1]
        · isplitl [Hp1_1]; · iexact Hp1_1
          isplitl [Hrv1_1]; · iexact Hrv1_1
          isplitl [HaS1_1]; · iexact HaS1_1
          iexact HaR1_1
        isplitl [Hp1_2 Hrv1_2 HaS1_2 HaR1_2]
        · isplitl [Hp1_2]; · iexact Hp1_2
          isplitl [Hrv1_2]; · iexact Hrv1_2
          isplitl [HaS1_2]; · iexact HaS1_2
          iexact HaR1_2
        isplitl [Hp1_3 Hrv1_3 HaS1_3 HaR1_3]
        · isplitl [Hp1_3]; · iexact Hp1_3
          isplitl [Hrv1_3]; · iexact Hrv1_3
          isplitl [HaS1_3]; · iexact HaS1_3
          iexact HaR1_3
        isplitl [Hp1_4 Hrv1_4 HaS1_4 HaR1_4]
        · isplitl [Hp1_4]; · iexact Hp1_4
          isplitl [Hrv1_4]; · iexact Hrv1_4
          isplitl [HaS1_4]; · iexact HaS1_4
          iexact HaR1_4
        isplitl [Hp1_5 Hrv1_5 HaS1_5 HaR1_5]
        · isplitl [Hp1_5]; · iexact Hp1_5
          isplitl [Hrv1_5]; · iexact Hrv1_5
          isplitl [HaS1_5]; · iexact HaS1_5
          iexact HaR1_5
        isplitl [Hp1_6 Hrv1_6 HaS1_6 HaR1_6]
        · isplitl [Hp1_6]; · iexact Hp1_6
          isplitl [Hrv1_6]; · iexact Hrv1_6
          isplitl [HaS1_6]; · iexact HaS1_6
          iexact HaR1_6
        isplitl [Hp1_7 Hrv1_7 HaS1_7 HaR1_7]
        · isplitl [Hp1_7]; · iexact Hp1_7
          isplitl [Hrv1_7]; · iexact Hrv1_7
          isplitl [HaS1_7]; · iexact HaS1_7
          iexact HaR1_7
        isplitl [Hp1_8 Hrv1_8 HaS1_8 HaR1_8]
        · isplitl [Hp1_8]; · iexact Hp1_8
          isplitl [Hrv1_8]; · iexact Hrv1_8
          isplitl [HaS1_8]; · iexact HaS1_8
          iexact HaR1_8
        isplitl [Hp1_9 Hrv1_9 HaS1_9 HaR1_9]
        · isplitl [Hp1_9]; · iexact Hp1_9
          isplitl [Hrv1_9]; · iexact Hrv1_9
          isplitl [HaS1_9]; · iexact HaS1_9
          iexact HaR1_9
        isplitl [Hp1_10 Hrv1_10 HaS1_10 HaR1_10]
        · isplitl [Hp1_10]; · iexact Hp1_10
          isplitl [Hrv1_10]; · iexact Hrv1_10
          isplitl [HaS1_10]; · iexact HaS1_10
          iexact HaR1_10
        isplitl [Hp1_11 Hrv1_11 HaS1_11 HaR1_11]
        · isplitl [Hp1_11]; · iexact Hp1_11
          isplitl [Hrv1_11]; · iexact Hrv1_11
          isplitl [HaS1_11]; · iexact HaS1_11
          iexact HaR1_11
        isplitl [Hp1_12 Hrv1_12 HaS1_12 HaR1_12]
        · isplitl [Hp1_12]; · iexact Hp1_12
          isplitl [Hrv1_12]; · iexact Hrv1_12
          isplitl [HaS1_12]; · iexact HaS1_12
          iexact HaR1_12
        isplitl [Hp1_13 Hrv1_13 HaS1_13 HaR1_13]
        · isplitl [Hp1_13]; · iexact Hp1_13
          isplitl [Hrv1_13]; · iexact Hrv1_13
          isplitl [HaS1_13]; · iexact HaS1_13
          iexact HaR1_13
        isplitl [Hp1_14 Hrv1_14 HaS1_14 HaR1_14]
        · isplitl [Hp1_14]; · iexact Hp1_14
          isplitl [Hrv1_14]; · iexact Hrv1_14
          isplitl [HaS1_14]; · iexact HaS1_14
          iexact HaR1_14
        isplitl [Hp1_15]; · iexact Hp1_15
        isplitl [Hrv1_15]; · iexact Hrv1_15
        isplitl [HaS1_15]; · iexact HaS1_15
        iexact HaR1_15
      isplitl [Hp2_0 Hrv2_0 HaS2_0 HaR2_0]
      · isplitl [Hp2_0]; · iexact Hp2_0
        isplitl [Hrv2_0]; · iexact Hrv2_0
        isplitl [HaS2_0]; · iexact HaS2_0
        iexact HaR2_0
      isplitl [Hp2_1 Hrv2_1 HaS2_1 HaR2_1]
      · isplitl [Hp2_1]; · iexact Hp2_1
        isplitl [Hrv2_1]; · iexact Hrv2_1
        isplitl [HaS2_1]; · iexact HaS2_1
        iexact HaR2_1
      isplitl [Hp2_2 Hrv2_2 HaS2_2 HaR2_2]
      · isplitl [Hp2_2]; · iexact Hp2_2
        isplitl [Hrv2_2]; · iexact Hrv2_2
        isplitl [HaS2_2]; · iexact HaS2_2
        iexact HaR2_2
      isplitl [Hp2_3 Hrv2_3 HaS2_3 HaR2_3]
      · isplitl [Hp2_3]; · iexact Hp2_3
        isplitl [Hrv2_3]; · iexact Hrv2_3
        isplitl [HaS2_3]; · iexact HaS2_3
        iexact HaR2_3
      isplitl [Hp2_4 Hrv2_4 HaS2_4 HaR2_4]
      · isplitl [Hp2_4]; · iexact Hp2_4
        isplitl [Hrv2_4]; · iexact Hrv2_4
        isplitl [HaS2_4]; · iexact HaS2_4
        iexact HaR2_4
      isplitl [Hp2_5 Hrv2_5 HaS2_5 HaR2_5]
      · isplitl [Hp2_5]; · iexact Hp2_5
        isplitl [Hrv2_5]; · iexact Hrv2_5
        isplitl [HaS2_5]; · iexact HaS2_5
        iexact HaR2_5
      isplitl [Hp2_6 Hrv2_6 HaS2_6 HaR2_6]
      · isplitl [Hp2_6]; · iexact Hp2_6
        isplitl [Hrv2_6]; · iexact Hrv2_6
        isplitl [HaS2_6]; · iexact HaS2_6
        iexact HaR2_6
      isplitl [Hp2_7 Hrv2_7 HaS2_7 HaR2_7]
      · isplitl [Hp2_7]; · iexact Hp2_7
        isplitl [Hrv2_7]; · iexact Hrv2_7
        isplitl [HaS2_7]; · iexact HaS2_7
        iexact HaR2_7
      isplitl [Hp2_8 Hrv2_8 HaS2_8 HaR2_8]
      · isplitl [Hp2_8]; · iexact Hp2_8
        isplitl [Hrv2_8]; · iexact Hrv2_8
        isplitl [HaS2_8]; · iexact HaS2_8
        iexact HaR2_8
      isplitl [Hp2_9 Hrv2_9 HaS2_9 HaR2_9]
      · isplitl [Hp2_9]; · iexact Hp2_9
        isplitl [Hrv2_9]; · iexact Hrv2_9
        isplitl [HaS2_9]; · iexact HaS2_9
        iexact HaR2_9
      isplitl [Hp2_10 Hrv2_10 HaS2_10 HaR2_10]
      · isplitl [Hp2_10]; · iexact Hp2_10
        isplitl [Hrv2_10]; · iexact Hrv2_10
        isplitl [HaS2_10]; · iexact HaS2_10
        iexact HaR2_10
      isplitl [Hp2_11 Hrv2_11 HaS2_11 HaR2_11]
      · isplitl [Hp2_11]; · iexact Hp2_11
        isplitl [Hrv2_11]; · iexact Hrv2_11
        isplitl [HaS2_11]; · iexact HaS2_11
        iexact HaR2_11
      isplitl [Hp2_12 Hrv2_12 HaS2_12 HaR2_12]
      · isplitl [Hp2_12]; · iexact Hp2_12
        isplitl [Hrv2_12]; · iexact Hrv2_12
        isplitl [HaS2_12]; · iexact HaS2_12
        iexact HaR2_12
      isplitl [Hp2_13 Hrv2_13 HaS2_13 HaR2_13]
      · isplitl [Hp2_13]; · iexact Hp2_13
        isplitl [Hrv2_13]; · iexact Hrv2_13
        isplitl [HaS2_13]; · iexact HaS2_13
        iexact HaR2_13
      isplitl [Hp2_14 Hrv2_14 HaS2_14 HaR2_14]
      · isplitl [Hp2_14]; · iexact Hp2_14
        isplitl [Hrv2_14]; · iexact Hrv2_14
        isplitl [HaS2_14]; · iexact HaS2_14
        iexact HaR2_14
      isplitl [Hp2_15]; · iexact Hp2_15
      isplitl [Hrv2_15]; · iexact Hrv2_15
      isplitl [HaS2_15]; · iexact HaS2_15
      iexact HaR2_15
    isplitl [Ha0]; · iexact Ha0
    isplitl [Ha1]; · iexact Ha1
    iexists _; iexact HO
  imodintro
  iapply Hk
  iexact Hpost

end Cert.KernelIdeal.A2A

end
-- ==== Proof.Bits.Pieces.lean ====
/-
  The all-to-all's protocol, per device: which semaphore cells there are, what each unit landing on a cell
  hands its owner, what each device owes at launch, and the levels that order the waits.

  Device `c` holds rows `4096·c … 4096·c + 4095` of `x`. It rounds them to bf16 chunk by chunk (sixteen chunks of
  256 rows) into a scratch array, and sends column block `t` of every chunk to device `t`, where it lands in rows
  `4096·c + 256·k …` of `t`'s result; column block `c` it copies into its own result. Before its first send a
  device waits until all three peers have signalled its barrier semaphore: a peer's signal hands over the rows of
  the peer's result that this device will write.
-/
import proofs.«900006_g7700000000000007_dist_a2a_v7x_i4_i_m4096_n1024_bf16_1_alg».proof.Proof.Gen.Kernel
import proofs.«900006_g7700000000000007_dist_a2a_v7x_i4_i_m4096_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

/-- The device `j + 1` places after `c` on the ring of four. -/
def pr (c : Dev nD) (j : Fin 3) : Dev nD := ⟨(c.val + j.val + 1) % 4, Nat.mod_lt _ (by decide)⟩
/-- The device `j + 1` places before `c`: the one whose `pr · j` is `c`. -/
def qr (c : Dev nD) (j : Fin 3) : Dev nD := ⟨(c.val + 3 - j.val) % 4, Nat.mod_lt _ (by decide)⟩
/-- Seen from `pr c j`, device `c` is `3 - j` places after it. -/
def opp (j : Fin 3) : Fin 3 := ⟨2 - j.val, by omega⟩

theorem pr_qr (c : Dev nD) (j : Fin 3) : pr (qr c j) j = c := by revert c j; decide
theorem qr_pr (c : Dev nD) (j : Fin 3) : qr (pr c j) j = c := by revert c j; decide
theorem pr_opp (c : Dev nD) (j : Fin 3) : pr (pr c j) (opp j) = c := by revert c j; decide
theorem qr_eq_pr_opp (c : Dev nD) (j : Fin 3) : qr c j = pr c (opp j) := by revert c j; decide
theorem pr_ne (c : Dev nD) (j : Fin 3) : pr c j ≠ c := by revert c j; decide
theorem pr_inj (c : Dev nD) : Function.Injective (pr c) := by revert c; decide

/-! ## The semaphores -/

/-- The runtime's barrier semaphore of collective id 0. -/
abbrev barS : Sem sig := (SemArray.scalar (sig.barrier 0 rfl) : Sems sig S_).sem

theorem inb2 (i : Fin 2) : ∀ a, (![i.val] : Fin 1 → Nat) a + S1.size a ≤ S2.size a := by revert i; decide
theorem inb16 (k : Fin 16) : ∀ a, (![k.val] : Fin 1 → Nat) a + S1.size a ≤ S16.size a := by revert k; decide
theorem inb3x16 (j : Fin 3) (k : Fin 16) : ∀ a, (![j.val, k.val] : Fin 2 → Nat) a + S1x1.size a ≤ S3x16.size a := by
  revert j k; decide

/-- The semaphore of staging slot `i` (the chunk copies `x → staging` of chunks `i, i + 2, …`). -/
def cpS (i : Fin 2) : DmaSem sig := ((cc0_scratch2.slice (Rect.unit (s := S2) ![i.val] S1.size (inb2 i))).squeeze S_ squeezes_S1_S_).sem
/-- The semaphore of chunk `k`'s copy into the device's own result. -/
def lcS (k : Fin 16) : DmaSem sig := ((cc0_scratch3.slice (Rect.unit (s := S16) ![k.val] S1.size (inb16 k))).squeeze S_ squeezes_S1_S_).sem
/-- The send semaphore of chunk `k`'s transfer to the peer `j + 1` places on. -/
def sdS (j : Fin 3) (k : Fin 16) : DmaSem sig := ((cc0_scratch4.slice (Rect.unit (s := S3x16) ![j.val, k.val] S1x1.size (inb3x16 j k))).squeeze S_ squeezes_S1x1_S_).sem
/-- The receive semaphore of chunk `k` arriving from the peer `j + 1` places back. -/
def rvS (j : Fin 3) (k : Fin 16) : DmaSem sig := ((cc0_scratch5.slice (Rect.unit (s := S3x16) ![j.val, k.val] S1x1.size (inb3x16 j k))).squeeze S_ squeezes_S1x1_S_).sem

theorem cpS_val (i : Fin 2) : (cpS i).val = i.val := by revert i; decide
theorem lcS_val (k : Fin 16) : (lcS k).val = 2 + k.val := by revert k; decide
theorem sdS_val (j : Fin 3) (k : Fin 16) : (sdS j k).val = 18 + 16 * j.val + k.val := by revert j k; decide
theorem rvS_val (j : Fin 3) (k : Fin 16) : (rvS j k).val = 66 + 16 * j.val + k.val := by revert j k; decide

/-! ## The arrays and their pieces -/

abbrev xM : Memref sig .tc .hbm S4096x4096 .f32 := Memref.whole main_arg0
abbrev oM : Memref sig .tc .hbm S16384x1024 .bf16 := Memref.whole main_v1
abbrev fM : Memref sig .tc .vmem S2x256x4096 .f32 := Memref.whole cc0_scratch0
abbrev bM : Memref sig .tc .vmem S4096x4096 .bf16 := Memref.whole cc0_scratch1

/-- A block of 256 rows of the device's part of `x`, at row and column offsets `off`. -/
abbrev xSl (off : Fin 2 → Nat) (h : ∀ a, off a + S256x4096.size a ≤ S4096x4096.size a) : Memref sig .tc .hbm S256x4096 .f32 :=
  xM.slice (Rect.unit (s := S4096x4096) off S256x4096.size h) (fun _ => rfl)
/-- One of the two staging slots. -/
abbrev fSl (off : Fin 3 → Nat) (h : ∀ a, off a + S1x256x4096.size a ≤ S2x256x4096.size a) : Memref sig .tc .vmem S256x4096 .f32 :=
  (fM.slice (Rect.unit (s := S2x256x4096) off S1x256x4096.size h) (fun _ => rfl)).squeeze S256x4096 squeezes_S1x256x4096_S256x4096
/-- A 256 × 1024 piece of the rounded array. -/
abbrev bSl (off : Fin 2 → Nat) (h : ∀ a, off a + S256x1024.size a ≤ S4096x4096.size a) : Memref sig .tc .vmem S256x1024 .bf16 :=
  bM.slice (Rect.unit (s := S4096x4096) off S256x1024.size h) (fun _ => rfl)
/-- 256 rows of the result. -/
abbrev oSl (off : Fin 2 → Nat) (h : ∀ a, off a + S256x1024.size a ≤ S16384x1024.size a) : Memref sig .tc .hbm S256x1024 .bf16 :=
  oM.slice (Rect.unit (s := S16384x1024) off S256x1024.size h) (fun _ => rfl)

def xOff (k : Fin 16) : Fin 2 → Nat := ![256 * k.val, 0]
def fOff (i : Fin 2) : Fin 3 → Nat := ![i.val, 0, 0]
def bOff (k : Fin 16) (t : Dev nD) : Fin 2 → Nat := ![256 * k.val, 1024 * t.val]
def oOff (s : Dev nD) (k : Fin 16) : Fin 2 → Nat := ![4096 * s.val + 256 * k.val, 0]

theorem xOff_inb (k : Fin 16) : ∀ a, xOff k a + S256x4096.size a ≤ S4096x4096.size a := by revert k; decide
theorem fOff_inb (i : Fin 2) : ∀ a, fOff i a + S1x256x4096.size a ≤ S2x256x4096.size a := by revert i; decide
theorem bOff_inb (k : Fin 16) (t : Dev nD) : ∀ a, bOff k t a + S256x1024.size a ≤ S4096x4096.size a := by revert k t; decide
theorem oOff_inb (s : Dev nD) (k : Fin 16) : ∀ a, oOff s k a + S256x1024.size a ≤ S16384x1024.size a := by revert s k; decide
theorem rOff_inb (k : Fin 16) : ∀ a, xOff k a + S256x4096.size a ≤ S4096x4096.size a := xOff_inb k

/-- Chunk `k` of the device's part of `x`: rows `256 k …`. -/
abbrev xCk (k : Fin 16) : Memref sig .tc .hbm S256x4096 .f32 := xSl (xOff k) (xOff_inb k)
/-- Staging slot `i`. -/
abbrev fSt (i : Fin 2) : Memref sig .tc .vmem S256x4096 .f32 := fSl (fOff i) (fOff_inb i)
/-- Rows `256 k …`, columns `1024 t …` of the rounded array: what goes to device `t` of chunk `k`. -/
abbrev bPc (k : Fin 16) (t : Dev nD) : Memref sig .tc .vmem S256x1024 .bf16 := bSl (bOff k t) (bOff_inb k t)
/-- Rows `4096 s + 256 k …` of the result: where chunk `k` of device `s` lands. -/
abbrev oCk (s : Dev nD) (k : Fin 16) : Memref sig .tc .hbm S256x1024 .bf16 := oSl (oOff s k) (oOff_inb s k)

/-- The rectangle of chunk `k`'s rows in the rounded array (all 4096 columns): what the store of chunk `k` writes. -/
abbrev bRows (k : Fin 16) : Rect S4096x4096 := Rect.unit (s := S4096x4096) (xOff k) S256x4096.size (xOff_inb k)
/-- The rectangle of staging slot `i`, as the load reads it. -/
abbrev fRect (i : Fin 2) : Rect S2x256x4096 := Rect.unit (s := S2x256x4096) (fOff i) S1x256x4096.size (fOff_inb i)

/-- The slot chunk `k` is staged in. -/
def slot (k : Fin 16) : Fin 2 := ⟨k.val % 2, Nat.mod_lt _ (by decide)⟩

/-! ## What the buffers hold -/

variable (m : (ℓ : Loc nD τ sig) → Buf (Elt F) ℓ)

/-- Device `c`'s part of `x`. -/
def Xc (c : Dev nD) : Buf (Elt F) ((c : Thread nD τ).loc main_arg0) := m ((c : Thread nD τ).loc main_arg0)

/-- The staging buffer once chunk `k` has landed in its slot (elsewhere as it was at launch). -/
def FB (c : Dev nD) (k : Fin 16) : Buf (Elt F) ((c : Thread nD τ).loc cc0_scratch0) :=
  (fSt (slot k)).view.write (Elt F) (m ((c : Thread nD τ).loc cc0_scratch0)) ((xCk k).view.read (Elt F) (Xc m c)) Finset.univ

/-- What the load of chunk `k`'s slot reads. -/
def ld (c : Dev nD) (k : Fin 16) : Vec F S1x256x4096 .f32 :=
  (fM : Memref sig .tc .vmem S2x256x4096 .f32).view.readAt (Elt F) (fRect (slot k)).toLoadRect (FB m c k)

/-- A staged chunk rounded to bf16, as the body computes it. -/
def pay (v : Vec F S1x256x4096 .f32) : FVec F S256x4096 .bf16 :=
  shapeCast S256x4096 (truncf .bf16 (shapeCast S256x4096 v shapeCasts_S1x256x4096_S256x4096) bitsLt_bf16_f32) shapeCasts_S256x4096_S256x4096

/-- The rounded array once chunk `k` is stored (other rows as at launch). -/
def BB (c : Dev nD) (k : Fin 16) : Buf (Elt F) ((c : Thread nD τ).loc cc0_scratch1) :=
  ((bM : Memref sig .tc .vmem S4096x4096 .bf16).access (bRows k)).write (Elt F) (m ((c : Thread nD τ).loc cc0_scratch1)) (pay (ld m c k)) Finset.univ

/-- Device `t`'s result once chunk `k` of device `s` has landed (other rows as at launch). -/
def OC (t s : Dev nD) (k : Fin 16) : Buf (Elt F) ((t : Thread nD τ).loc main_v1) :=
  (oCk s k).view.write (Elt F) (m ((t : Thread nD τ).loc main_v1)) ((bPc k t).view.read (Elt F) (BB m s k)) Finset.univ

/-- Device `t`'s result at the end: on the rows of chunk `k` of device `s`, what that chunk's transfer wrote. -/
def outF (t : Dev nD) : Buf (Elt F) ((t : Thread nD τ).loc main_v1) := fun i =>
  OC m t ⟨(i 0).val / 4096, by have h : (i 0).val < 16384 := (i 0).isLt; show _ < 4; omega⟩ ⟨((i 0).val % 4096) / 256, by omega⟩ i

/-! ## The cells -/

abbrev barCell (c : Dev nD) : GSem nD τ sig := ((c : Thread nD τ), .reg barS)
abbrev cpCell (c : Dev nD) (i : Fin 2) : GSem nD τ sig := ((c : Thread nD τ), .dma (cpS i))
abbrev lcCell (c : Dev nD) (k : Fin 16) : GSem nD τ sig := ((c : Thread nD τ), .dma (lcS k))
abbrev sdCell (c : Dev nD) (j : Fin 3) (k : Fin 16) : GSem nD τ sig := ((c : Thread nD τ), .dma (sdS j k))
abbrev rvCell (c : Dev nD) (j : Fin 3) (k : Fin 16) : GSem nD τ sig := ((c : Thread nD τ), .dma (rvS j k))

/-- The credit of a chunk landing in a staging slot, and of a 256 × 1024 piece landing in a result. -/
abbrev NF : ℕ := (fSt 0 : Memref sig .tc .vmem S256x4096 .f32).view.dmaCredit
abbrev NO : ℕ := (oCk 0 0 : Memref sig .tc .hbm S256x1024 .bf16).view.dmaCredit
theorem NF_pos : 0 < NF := View.dmaCredit_pos _ (by decide)
theorem NO_pos : 0 < NO := View.dmaCredit_pos _ (by decide)

/-! ## What each landing hands over -/

abbrev xL (c : Dev nD) : Loc nD τ sig := (c : Thread nD τ).loc main_arg0
abbrev oL (c : Dev nD) : Loc nD τ sig := (c : Thread nD τ).loc main_v1
abbrev fL (c : Dev nD) : Loc nD τ sig := (c : Thread nD τ).loc cc0_scratch0
abbrev bL (c : Dev nD) : Loc nD τ sig := (c : Thread nD τ).loc cc0_scratch1

/-- Chunk `k` staged: its slot holding the chunk, and the chunk's rows of `x` back. -/
def cpPay (c : Dev nD) (k : Fin 16) : sProp 𝕄 :=
  iprop((fL c ↦[(fSt (slot k)).view.set]{fullShare} FB m c k) ∗ (xL c ↦[(xCk k).view.set]{fullShare} Xc m c))
/-- Chunk `k`'s own column block copied into the device's own result, and the piece back. -/
def lcPay (c : Dev nD) (k : Fin 16) : sProp 𝕄 :=
  iprop((oL c ↦[(oCk c k).view.set]{fullShare} OC m c c k) ∗ (bL c ↦[(bPc k c).view.set]{fullShare} BB m c k))
/-- A sent piece read out: the piece back. -/
def sdPay (c : Dev nD) (j : Fin 3) (k : Fin 16) : sProp 𝕄 :=
  (bL c ↦[(bPc k (pr c j)).view.set]{fullShare} BB m c k)
/-- Chunk `k` of the peer `j + 1` places back has landed in this device's result. -/
def rvPay (c : Dev nD) (j : Fin 3) (k : Fin 16) : sProp 𝕄 :=
  (oL c ↦[(oCk (qr c j) k).view.set]{fullShare} OC m c (qr c j) k)
/-- The peer `j + 1` places back is in the kernel: it hands over the rows of ITS result that this device writes. -/
def barPay (c : Dev nD) (j : Fin 3) : sProp 𝕄 :=
  bigSep (Finset.univ : Finset (Fin 16)) fun k => iprop(∃ f : Buf (Elt F) (oL (qr c j)), oL (qr c j) ↦[(oCk c k).view.set]{fullShare} f)

/-- The chunk staged by round `r` of slot `i`'s semaphore. -/
def ckOf (i : Fin 2) (r : ℕ) : Fin 16 := ⟨(2 * r + i.val) % 16, Nat.mod_lt _ (by decide)⟩

/-- The schedule. A staging semaphore has eight rounds of one duty (a chunk landing); every other DMA semaphore one
    round of one duty; the barrier semaphore one round of three duties of a unit, one per peer. -/
def sched : Rounds.Schedule (GSem nD τ sig) (Fin 3) 𝕄 where
  duties g r := match g.2 with
    | .reg s => if g.1.2 = .tc ∧ s = barS ∧ r = 0 then Finset.univ else ∅
    | .dma s => if g.1.2 = .tc ∧ ((s.val < 2 ∧ r < 8) ∨ (2 ≤ s.val ∧ r = 0)) then {0} else ∅
  unitless _ := False
  amount g _ _ := match g.2 with
    | .reg _ => 1
    | .dma s => if s.val < 2 then NF else NO
  payload g r d := match g.2 with
    | .reg _ => barPay g.1.1 d
    | .dma s =>
      if h : s.val < 2 then cpPay m g.1.1 (ckOf ⟨s.val, h⟩ r)
      else if h₁ : s.val < 18 then lcPay m g.1.1 ⟨s.val - 2, by omega⟩
      else if h₂ : s.val < 66 then sdPay m g.1.1 ⟨(s.val - 18) / 16, by omega⟩ ⟨(s.val - 18) % 16, Nat.mod_lt _ (by decide)⟩
      else rvPay m g.1.1 ⟨(s.val - 66) / 16, by have h114 : s.val < 114 := s.isLt; omega⟩ ⟨(s.val - 66) % 16, Nat.mod_lt _ (by decide)⟩
  amount_pos g _ _ _ := by
    rcases g with ⟨th, (s | s)⟩
    · exact Nat.one_pos
    · dsimp only; split
      · exact NF_pos
      · exact NO_pos

instance sched_payload_storable (g : GSem nD τ sig) (r : ℕ) (d : Fin 3) :
    BI.Storable (upEmb : UEmb _ 𝕄) ((sched (F := F) m).payload g r d) := by
  rcases g with ⟨th, (s | s)⟩
  · show BI.Storable upEmb (barPay th.1 d); unfold barPay; infer_instance
  · dsimp only [sched]; unfold cpPay lcPay sdPay rvPay
    (repeat' split) <;> infer_instance

end Cert.Kernel.A2A

end
-- ==== Proof.Bits.Ghost.lean ====
/-
  The protocol's tables, what each device owes at launch in the order it pays, the levels that order the waits,
  and what a device's body starts from and ends with.
-/
import proofs.«900006_g7700000000000007_dist_a2a_v7x_i4_i_m4096_n1024_bf16_1_alg».proof.Proof.Bits.Pieces

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Tables
variable (c : Dev nD)

theorem duties_bar : (sched (F := F) m).duties (barCell c) 0 = Finset.univ := by
  dsimp only [sched]; exact if_pos ⟨rfl, rfl, rfl⟩
theorem duties_cp (i : Fin 2) (r : ℕ) (hr : r < 8) : (sched (F := F) m).duties (cpCell c i) r = {0} := by
  dsimp only [sched]; exact if_pos ⟨rfl, Or.inl ⟨by rw [cpS_val]; exact i.isLt, hr⟩⟩
theorem duties_lc (k : Fin 16) : (sched (F := F) m).duties (lcCell c k) 0 = {0} := by
  dsimp only [sched]; exact if_pos ⟨rfl, Or.inr ⟨by rw [lcS_val]; omega, rfl⟩⟩
theorem duties_sd (j : Fin 3) (k : Fin 16) : (sched (F := F) m).duties (sdCell c j k) 0 = {0} := by
  dsimp only [sched]; exact if_pos ⟨rfl, Or.inr ⟨by rw [sdS_val]; omega, rfl⟩⟩
theorem duties_rv (j : Fin 3) (k : Fin 16) : (sched (F := F) m).duties (rvCell c j k) 0 = {0} := by
  dsimp only [sched]; exact if_pos ⟨rfl, Or.inr ⟨by rw [rvS_val]; omega, rfl⟩⟩

/-- Past its last round a cell has no duties: round 8 on for a staging semaphore, round 1 on for every other. -/
theorem duties_later_cp (i : Fin 2) : ∀ r, 8 ≤ r → (sched (F := F) m).duties (cpCell c i) r = ∅ := fun r hr => by
  dsimp only [sched]; exact if_neg fun h => by
    rcases h.2 with h' | h'
    · omega
    · have := cpS_val i; have := i.isLt; omega
theorem duties_later_dma (s : DmaSem sig) (hs : 2 ≤ s.val) : ∀ r, 1 ≤ r → (sched (F := F) m).duties ((c : Thread nD τ), .dma s) r = ∅ := fun r hr => by
  dsimp only [sched]; exact if_neg fun h => by
    rcases h.2 with h' | h' <;> omega

theorem amount_bar (d : Fin 3) : (sched (F := F) m).amount (barCell c) 0 d = 1 := rfl
theorem amount_cp (i : Fin 2) (r : ℕ) (d : Fin 3) : (sched (F := F) m).amount (cpCell c i) r d = NF := by
  dsimp only [sched]; exact if_pos (by rw [cpS_val]; exact i.isLt)
theorem amount_lc (k : Fin 16) (d : Fin 3) : (sched (F := F) m).amount (lcCell c k) 0 d = NO := by
  dsimp only [sched]; exact if_neg (by rw [lcS_val]; omega)
theorem amount_sd (j : Fin 3) (k : Fin 16) (d : Fin 3) : (sched (F := F) m).amount (sdCell c j k) 0 d = NO := by
  dsimp only [sched]; exact if_neg (by rw [sdS_val]; omega)
theorem amount_rv (j : Fin 3) (k : Fin 16) (d : Fin 3) : (sched (F := F) m).amount (rvCell c j k) 0 d = NO := by
  dsimp only [sched]; exact if_neg (by rw [rvS_val]; omega)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_cp (i : Fin 2) (r : ℕ) (hr : r < 8) : (sched (F := F) m).expect (cpCell c i) r = NF := by
  unfold Schedule.expect Schedule.amountOf; rw [duties_cp m c i r hr, Finset.sum_singleton, amount_cp]
theorem expect_lc (k : Fin 16) : (sched (F := F) m).expect (lcCell c k) 0 = NO := by
  unfold Schedule.expect Schedule.amountOf; rw [duties_lc, Finset.sum_singleton, amount_lc]
theorem expect_sd (j : Fin 3) (k : Fin 16) : (sched (F := F) m).expect (sdCell c j k) 0 = NO := by
  unfold Schedule.expect Schedule.amountOf; rw [duties_sd, Finset.sum_singleton, amount_sd]
theorem expect_rv (j : Fin 3) (k : Fin 16) : (sched (F := F) m).expect (rvCell c j k) 0 = NO := by
  unfold Schedule.expect Schedule.amountOf; rw [duties_rv, Finset.sum_singleton, amount_rv]

theorem payload_bar (d : Fin 3) : (sched (F := F) m).payload (barCell c) 0 d = barPay c d := rfl
theorem payload_cp (i : Fin 2) (r : ℕ) (d : Fin 3) : (sched (F := F) m).payload (cpCell c i) r d = cpPay m c (ckOf i r) := by
  have h : (cpS i).val < 2 := by rw [cpS_val]; exact i.isLt
  show (if h : (cpS i).val < 2 then cpPay m c (ckOf ⟨(cpS i).val, h⟩ r) else _) = _
  rw [dif_pos h]
  exact congrArg (fun x => cpPay m c (ckOf x r)) (Fin.ext (cpS_val i))
theorem payload_lc (k : Fin 16) (d : Fin 3) : (sched (F := F) m).payload (lcCell c k) 0 d = lcPay m c k := by
  have h0 : ¬ (lcS k).val < 2 := by rw [lcS_val]; omega
  have h1 : (lcS k).val < 18 := by rw [lcS_val]; omega
  show (if h : (lcS k).val < 2 then _ else if h₁ : (lcS k).val < 18 then lcPay m c ⟨(lcS k).val - 2, _⟩ else _) = _
  rw [dif_neg h0, dif_pos h1]
  exact congrArg (fun x => lcPay m c x) (Fin.ext (by show (lcS k).val - 2 = k.val; rw [lcS_val]; omega))
theorem payload_sd (j : Fin 3) (k : Fin 16) (d : Fin 3) : (sched (F := F) m).payload (sdCell c j k) 0 d = sdPay m c j k := by
  have h0 : ¬ (sdS j k).val < 2 := by rw [sdS_val]; omega
  have h1 : ¬ (sdS j k).val < 18 := by rw [sdS_val]; omega
  have h2 : (sdS j k).val < 66 := by rw [sdS_val]; omega
  show (if h : (sdS j k).val < 2 then _ else if h₁ : (sdS j k).val < 18 then _ else if h₂ : (sdS j k).val < 66 then
    sdPay m c ⟨((sdS j k).val - 18) / 16, _⟩ ⟨((sdS j k).val - 18) % 16, _⟩ else _) = _
  rw [dif_neg h0, dif_neg h1, dif_pos h2]
  have e1 : (⟨((sdS j k).val - 18) / 16, by omega⟩ : Fin 3) = j := Fin.ext (by show ((sdS j k).val - 18) / 16 = j.val; rw [sdS_val]; omega)
  have e2 : (⟨((sdS j k).val - 18) % 16, Nat.mod_lt _ (by decide)⟩ : Fin 16) = k := Fin.ext (by show ((sdS j k).val - 18) % 16 = k.val; rw [sdS_val]; omega)
  rw [e1, e2]
theorem payload_rv (j : Fin 3) (k : Fin 16) (d : Fin 3) : (sched (F := F) m).payload (rvCell c j k) 0 d = rvPay m c j k := by
  have h0 : ¬ (rvS j k).val < 2 := by rw [rvS_val]; omega
  have h1 : ¬ (rvS j k).val < 18 := by rw [rvS_val]; omega
  have h2 : ¬ (rvS j k).val < 66 := by rw [rvS_val]; omega
  show (if h : (rvS j k).val < 2 then _ else if h₁ : (rvS j k).val < 18 then _ else if h₂ : (rvS j k).val < 66 then _ else
    rvPay m c ⟨((rvS j k).val - 66) / 16, _⟩ ⟨((rvS j k).val - 66) % 16, _⟩) = _
  rw [dif_neg h0, dif_neg h1, dif_neg h2]
  have e1 : (⟨((rvS j k).val - 66) / 16, by have := (rvS j k).isLt; have : (rvS j k).val < 114 := this; omega⟩ : Fin 3) = j :=
    Fin.ext (by show ((rvS j k).val - 66) / 16 = j.val; rw [rvS_val]; omega)
  have e2 : (⟨((rvS j k).val - 66) % 16, Nat.mod_lt _ (by decide)⟩ : Fin 16) = k := Fin.ext (by show ((rvS j k).val - 66) % 16 = k.val; rw [rvS_val]; omega)
  rw [e1, e2]

end Tables

/-! ## What a device owes, in the order it pays -/

/-- The order of a chunk's three sends: to the peer two places on, then one, then three. -/
def ordJ (o : ℕ) : Fin 3 := if o % 3 = 0 then 1 else if o % 3 = 1 then 0 else 2

/-- Device `c`'s `n`-th payment: a unit to each peer's barrier cell (one, two, three places on), then, chunk by
    chunk, the three arrivals. -/
def payTally (c : Dev nD) (n : ℕ) : CellTallies nD τ sig Unit :=
  if n < 3 then tallyAt (barCell (pr c ⟨n % 3, Nat.mod_lt _ (by decide)⟩)) () 1
  else tallyAt (rvCell (pr c (ordJ (n - 3))) (ordJ (n - 3)) ⟨((n - 3) / 3) % 16, Nat.mod_lt _ (by decide)⟩) () NO

/-- What is still owed before payment `n`, `f` payments being left: summed so that payment `n` is the last summand. -/
def owedFrom (c : Dev nD) : ℕ → ℕ → CellTallies nD τ sig Unit
  | 0, _ => 0
  | f + 1, n => owedFrom c f (n + 1) + payTally c n

def O₀ (c : Dev nD) : CellTallies nD τ sig Unit := owedFrom c 51 0

theorem owedFrom_succ (c : Dev nD) (f n : ℕ) : owedFrom c (f + 1) n = owedFrom c f (n + 1) + payTally c n := rfl

theorem payTally_bar (c : Dev nD) (j : Fin 3) : payTally c j.val = tallyAt (barCell (pr c j)) () 1 := by
  unfold payTally; rw [if_pos j.isLt]
  exact congrArg (fun x => tallyAt (barCell (pr c x)) () 1) (Fin.ext (Nat.mod_eq_of_lt j.isLt))

theorem payTally_rv (c : Dev nD) (k : Fin 16) (o : Fin 3) :
    payTally c (3 + 3 * k.val + o.val) = tallyAt (rvCell (pr c (ordJ o.val)) (ordJ o.val) k) () NO := by
  unfold payTally; rw [if_neg (by omega)]
  have e1 : ordJ (3 + 3 * k.val + o.val - 3) = ordJ o.val := by
    unfold ordJ; have : (3 + 3 * k.val + o.val - 3) % 3 = o.val % 3 := by omega
    rw [this]
  have e2 : (⟨((3 + 3 * k.val + o.val - 3) / 3) % 16, Nat.mod_lt _ (by decide)⟩ : Fin 16) = k :=
    Fin.ext (by show ((3 + 3 * k.val + o.val - 3) / 3) % 16 = k.val; have := k.isLt; have := o.isLt; omega)
  rw [e1, e2]

/-! ## The levels: barrier cells above the local ones, receive cells above the barrier cells -/

def L (g : GSem nD τ sig) : Finset Unit := if g.1.2 = .tc then {()} else ∅
def lv (g : GSem nD τ sig) (_ : Unit) : ℕ := match g.2 with
  | .reg _ => 1
  | .dma s => if 66 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rv (t : Dev nD) (j : Fin 3) (k : Fin 16) : lv (rvCell t j k) () = 2 := by
  show (if 66 ≤ (rvS j k).val then 2 else 0) = 2; rw [if_pos (by rw [rvS_val]; omega)]

/-- From the fourth payment on a device owes receive cells only. -/
theorem owedFrom_pos (c : Dev nD) : ∀ (f n : ℕ), 3 ≤ n → ∀ {g : GSem nD τ sig} {u : Unit}, 0 < owedFrom c f n g u →
    ∃ t j k, g = rvCell t j k
  | 0, _, _, _, _, h => absurd h (Nat.lt_irrefl 0)
  | f + 1, n, hn, g, u, h => by
    rw [owedFrom_succ, Pi.add_apply, Finsupp.add_apply] at h
    rcases Nat.add_pos_iff_pos_or_pos.mp h with h' | h'
    · exact owedFrom_pos c f (n + 1) (by omega) h'
    · unfold payTally at h'
      rw [if_neg (by omega), tallyAt_apply] at h'
      by_cases hg : g = rvCell (pr c (ordJ (n - 3))) (ordJ (n - 3)) ⟨((n - 3) / 3) % 16, Nat.mod_lt _ (by decide)⟩ ∧ u = ()
      · exact ⟨_, _, _, hg.1⟩
      · rw [if_neg hg] at h'; exact absurd h' (Nat.lt_irrefl 0)

/-- A wait on one of its own cells that is no receive cell, while the device owes receive cells only. -/
theorem mayWait_low (c : Dev nD) (sm : SemLoc sig) (hsm : lv ((c : Thread nD τ), sm) () ≤ 1) (f n : ℕ) (hn : 3 ≤ n) :
    (levAts L lv : sProp 𝕄) ⊢ MayWait (c : Thread nD τ) sm () (owedFrom c f n) :=
  MayOwe.of_cut (L := L) (lev := lv) 1 (fun p hp => by rw [Finset.mem_singleton.mp hp, L_tc]; exact Finset.mem_singleton_self _)
    (fun g u hg => by obtain ⟨t, j, k, rfl⟩ := owedFrom_pos c f n hn hg; exact Finset.mem_singleton_self _)
    (fun p hp => by rw [Finset.mem_singleton.mp hp]; exact hsm)
    (fun g u hg => by obtain ⟨t, j, k, rfl⟩ := owedFrom_pos c f n hn hg; rw [lv_rv]; decide)

/-! ## The cells of a device, numbered: its 114 DMA semaphores, then the barrier semaphore -/

abbrev CI : Type := Fin 115
def kcell (ck : Dev nD × CI) : GSem nD τ sig :=
  if h : ck.2.val < 114 then ((ck.1 : Thread nD τ), .dma ⟨ck.2.val, h⟩) else ((ck.1 : Thread nD τ), .reg barS)

/-- The invariants of every cell of every device, and that round 0 of each is reached (persistent). -/
def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records (F := F) m K) := by unfold records; infer_instance

/-- What stays with device `c`: its position at the start of each of its cells, and the tokens of the duties IT pays —
    its own staging, copy and send duties, its arrivals at the peers, its unit at each peer's barrier cell. -/
def linear (c : Dev nD) : sProp 𝕄 :=
  iprop((bigSep Finset.univ fun i : CI => atPos ER (kcell (c, i)) 0 ∅ 0)
    ∗ (bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell (pr c jk.1) jk.1 jk.2) 0 (0 : Fin 3))
    ∗ (bigSep Finset.univ fun j : Fin 3 => dutyTok ER (barCell (pr c j)) 0 j))

def ghost (K : Dev nD × CI → ℕ) (c : Dev nD) : sProp 𝕄 := iprop(records m K ∗ linear c)

/-- What device `c`'s body starts from: the ghost state at some names, the credit for what its peers owe its cells
    (three barrier units, forty-eight arrivals), the level facts, and its two arrays: its part of `x`, and its result
    at whatever it held at launch. -/
def start (c : Dev nD) : sProp 𝕄 :=
  iprop((∃ K, ghost m K c) ∗ cred (tallyAt (barCell c) () 3)
    ∗ (bigSep Finset.univ fun jk : Fin 3 × Fin 16 => cred (tallyAt (rvCell c jk.1 jk.2) () NO))
    ∗ levAts L lv ∗ (xL c ↦{fullShare} Xc m c) ∗ (oL c ↦{fullShare} m (oL c)))

def Φ₀ (c : Dev nD) : sProp 𝕄 :=
  iprop(start m c ∗ (∃ f : Buf (Elt F) (fL c), fL c ↦{fullShare} f) ∗ (∃ f : Buf (Elt F) (bL c), bL c ↦{fullShare} f))

/-- After the body: `x` as it was, the result holding every device's chunks, the two scratch arrays at whatever they
    hold, every own DMA semaphore at zero again. -/
def Φ₁ (c : Dev nD) : sProp 𝕄 :=
  iprop((xL c ↦{fullShare} Xc m c) ∗ (oL c ↦{fullShare} outF m c)
    ∗ (∃ f : Buf (Elt F) (fL c), fL c ↦{fullShare} f) ∗ (∃ f : Buf (Elt F) (bL c), bL c ↦{fullShare} f)
    ∗ bigSep Finset.univ fun i : Fin 114 => semVal (((c : Thread nD τ), .dma i) : GSem nD τ sig) 0)

/-- The pipeline's proof data: no windows; before the one point the device owes everything, after it nothing. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

/-- The kernel's body as the launch calls it. -/
abbrev theBody : Prog (TpuEff nD τ sig (Elt F) Λ₀ .tc) PUnit :=
  cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5

end Cert.Kernel.A2A

end
-- ==== Proof.Bits.Launch.lean ====
/-
  The launch: from one device's body to the run of the whole program on the four devices.
-/
import proofs.«900006_g7700000000000007_dist_a2a_v7x_i4_i_m4096_n1024_bf16_1_alg».proof.Proof.Bits.Ghost

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

namespace Lch

omit [FloatOps F] in
/-- There is no window: a product over the windows is empty. -/
theorem bigSep_W (Φ : Fin cfg0.W → sProp 𝕄) : bigSep Finset.univ Φ = iprop(emp) := by
  rw [Finset.univ_eq_empty]; rfl

end Lch

/-- The library's body obligation on device `c`, from the body's own statement. -/
theorem body_obligation
    (hsound : ∀ (c : Dev nD) (Kt : PUnit → sProp 𝕄), iprop(bodyPre m c ∗ (bodyPost m c -∗ Kt ⟨⟩))
      ⊢ wp frame (wpE (defs₀ (F := F)) 𝒱₀ c none) Set.univ (theBody (F := F)) Kt) (c : Dev nD) :
    BodyObligation (dats (F := F) m 0 c) (defs₀ (F := F)) 𝒱₀ () Set.univ := fun t => by
  rw [fin_N t, Lch.bigSep_W, Lch.bigSep_W]
  show iprop(Φ₀ m c ∗ (dats m 0 c).owesAt () t₀.castSucc ∗ emp)
    ⊢ wp frame (wpE (defs₀ (F := F)) 𝒱₀ c none) Set.univ (theBody (F := F))
        (fun _ => iprop(Φ₁ m c ∗ (dats m 0 c).owesAt () t₀.succ ∗ emp))
  iintro ⟨HΦ, Ho, -⟩
  iapply (hsound c _)
  isplitl [HΦ Ho]
  · unfold bodyPre; isplitl [HΦ] <;> iassumption
  · unfold bodyPost; iintro ⟨H1, H2⟩
    isplitl [H1]; · iexact H1
    isplitl [H2]; · iexact H2
    iempintro

namespace Lch

/-! ## The device's own semaphores -/

/-- The device's own (scoped) semaphores: its 114 DMA semaphores. -/
abbrev osem : Fin 114 → SemLoc sig := fun i => .dma i

theorem ownSemFacts : Pipeline.OwnSemFacts cfg0.spec osem :=
  ⟨by decide, fun i j h => SemLoc.dma.inj h, fun k w => w.elim0⟩

theorem share_eq (c : Dev nD) (w : Fin cfg0.W) : (dats (F := F) m 0 c).share w = fullShare := w.elim0

/-! ## The cells, numbered -/

theorem kcell_fst (ck : Dev nD × CI) : (kcell ck).1 = (ck.1 : Thread nD τ) := by
  unfold kcell; split <;> rfl
theorem kcell_snd (ck : Dev nD × CI) :
    (kcell ck).2 = if h : ck.2.val < 114 then SemLoc.dma (⟨ck.2.val, h⟩ : DmaSem sig) else SemLoc.reg barS := by
  unfold kcell; split <;> rfl

theorem kcell_dma (c : Dev nD) (s : DmaSem sig) (i : CI) (h : i.val = s.val) :
    kcell (c, i) = (((c : Thread nD τ), SemLoc.dma s) : GSem nD τ sig) := by
  have hi : i.val < 114 := h ▸ s.isLt
  refine Prod.ext (kcell_fst (c, i)) ?_
  rw [kcell_snd]
  show (if h : i.val < 114 then SemLoc.dma (⟨i.val, h⟩ : DmaSem sig) else SemLoc.reg barS) = SemLoc.dma s
  rw [dif_pos hi]
  exact congrArg SemLoc.dma (Fin.ext h)

theorem kcell_bar (c : Dev nD) : kcell (c, Fin.last 114) = barCell c := by
  refine Prod.ext (kcell_fst (c, Fin.last 114)) ?_
  rw [kcell_snd]
  exact dif_neg (show ¬ (Fin.last 114 : CI).val < 114 by decide)

theorem kcell_injective : Function.Injective (kcell : Dev nD × CI → GSem nD τ sig) := by
  rintro ⟨c, i⟩ ⟨c', i'⟩ h
  have h1 : c = c' := by
    have := congrArg Prod.fst h
    rw [kcell_fst, kcell_fst] at this
    exact congrArg Prod.fst this
  subst h1
  have h2 : i = i' := by
    have := congrArg Prod.snd h
    rw [kcell_snd, kcell_snd] at this
    dsimp only at this
    by_cases hi : i.val < 114 <;> by_cases hi' : i'.val < 114
    · rw [dif_pos hi, dif_pos hi'] at this; exact Fin.ext (Fin.mk.inj (SemLoc.dma.inj this))
    · rw [dif_pos hi, dif_neg hi'] at this; cases this
    · rw [dif_neg hi, dif_pos hi'] at this; cases this
    · exact Fin.ext (by have := i.isLt; have := i'.isLt; omega)
  subst h2; rfl

def allCells : Finset (GSem nD τ sig) := Finset.univ.map ⟨kcell, kcell_injective⟩

/-! ## The duty tokens, as minted: per device its staging, copy, send, receive and barrier duties -/

abbrev TI : Type := Fin 16 ⊕ (Fin 16 ⊕ ((Fin 3 × Fin 16) ⊕ ((Fin 3 × Fin 16) ⊕ Fin 3)))

def tokOf (cx : Dev nD × TI) : GSem nD τ sig × ℕ × Fin 3 := match cx.2 with
  | .inl k => (cpCell cx.1 (slot k), k.val / 2, 0)
  | .inr (.inl k) => (lcCell cx.1 k, 0, 0)
  | .inr (.inr (.inl jk)) => (sdCell cx.1 jk.1 jk.2, 0, 0)
  | .inr (.inr (.inr (.inl jk))) => (rvCell cx.1 jk.1 jk.2, 0, 0)
  | .inr (.inr (.inr (.inr j))) => (barCell cx.1, 0, j)

/-- A semaphore's number: a DMA semaphore its index, the barrier semaphore 114. -/
def semNo : SemLoc sig → ℕ
  | .dma s => s.val
  | .reg _ => 114

theorem tokOf_injective : Function.Injective tokOf := by
  rintro ⟨c, x⟩ ⟨c', x'⟩ h
  have hc : c = c' := by
    rcases x with k | k | ⟨j, k⟩ | ⟨j, k⟩ | j <;> rcases x' with k' | k' | ⟨j', k'⟩ | ⟨j', k'⟩ | j' <;>
      exact congrArg (fun y : GSem nD τ sig × ℕ × Fin 3 => y.1.1.1) h
  subst hc
  have hs := congrArg (fun y : GSem nD τ sig × ℕ × Fin 3 => semNo y.1.2) h
  have hr := congrArg (fun y : GSem nD τ sig × ℕ × Fin 3 => y.2.1) h
  have hd := congrArg (fun y : GSem nD τ sig × ℕ × Fin 3 => y.2.2.val) h
  rcases x with k | k | ⟨j, k⟩ | ⟨j, k⟩ | j <;> rcases x' with k' | k' | ⟨j', k'⟩ | ⟨j', k'⟩ | j' <;>
    simp only [tokOf, semNo, cpS_val, lcS_val, sdS_val, rvS_val, slot] at hs hr hd <;>
    first
    | (exfalso; omega)
    | (obtain rfl : j = j' := Fin.ext (by omega); obtain rfl : k = k' := Fin.ext (by omega); rfl)
    | (obtain rfl : k = k' := Fin.ext (by omega); rfl)
    | (obtain rfl : j = j' := Fin.ext (by omega); rfl)

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-! ## What the launch element deals each device, and what the global step makes of it -/

/-- The duty tokens of device `c`'s own cells. -/
def toks (c : Dev nD) : sProp 𝕄 :=
  bigSep Finset.univ fun x : TI => dutyTok ER (tokOf (c, x)).1 (tokOf (c, x)).2.1 (tokOf (c, x)).2.2

/-- The tokens of the duties device `c` pays. -/
def payToks (c : Dev nD) : sProp 𝕄 :=
  iprop((bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell (pr c jk.1) jk.1 jk.2) 0 (0 : Fin 3))
    ∗ (bigSep Finset.univ fun j : Fin 3 => dutyTok ER (barCell (pr c j)) 0 j))

def G (c : Dev nD) : sProp 𝕄 :=
  iprop((bigSep Finset.univ fun i : CI => roundState ER (sched m) (kcell (c, i)) 0)
    ∗ (bigSep Finset.univ fun i : CI => iprop(atPos ER (kcell (c, i)) 0 ∅ 0 ∗ reached ER (kcell (c, i)) 0)) ∗ toks c)

def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A product over a device's cells: the barrier cell, then the DMA cells. -/
theorem bigSep_CI (Φ : CI → sProp 𝕄) :
    bigSep Finset.univ Φ = iprop(Φ (Fin.last 114) ∗ bigSep Finset.univ fun i : Fin 114 => Φ i.castSucc) := by
  have hnm : Fin.last 114 ∉ (Finset.univ : Finset (Fin 114)).map Fin.castSuccEmb := fun h => by
    obtain ⟨x, -, hx⟩ := Finset.mem_map.mp h
    have hx' : x.val = 114 := congrArg Fin.val hx
    have := x.isLt; omega
  rw [Fin.univ_castSuccEmb, Finset.cons_eq_insert, bigSep_insert hnm, bigSep_map]; rfl

theorem unscopedSems0_bar (c : Dev nD) : (unscopedSems0 c : sProp 𝕄) ⊢ semVal (barCell c) 0 := by
  unfold unscopedSems0
  exact bigSep_elim (Finset.mem_filter.mpr ⟨Finset.mem_univ _, by decide⟩)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [bigSep_CI, kcell_bar,
    bigSep_congr (Ψ := fun i : Fin 114 => (semVal (((c : Thread nD τ), SemLoc.dma i) : GSem nD τ sig) 0 : sProp 𝕄))
      fun i _ => by rw [kcell_dma c i i.castSucc rfl]]
  iintro ⟨HS, HB⟩
  isplitl [HB]
  · iapply (unscopedSems0_bar (F := F) c); iexact HB
  · unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The devices' places `j + 1` on, as a permutation of the devices. -/
def prE (j : Fin 3) : Dev nD ≃ Dev nD := ⟨fun c => pr c j, fun c => qr c j, fun c => qr_pr c j, fun c => pr_qr c j⟩

/-- A product over devices and an index may be read, index by index, at the device `e x` places on. -/
theorem around {J : Type} [Fintype J] (e : J → Fin 3) (Φ : Dev nD → J → sProp 𝕄) :
    (bigSep Finset.univ fun c : Dev nD => bigSep Finset.univ fun x : J => Φ c x)
      = bigSep Finset.univ fun c : Dev nD => bigSep Finset.univ fun x : J => Φ (pr c (e x)) x :=
  (bigSep_univ_comm Φ).trans
    ((bigSep_congr fun x _ => bigSep_univ_equiv (prE (e x)) (fun c => Φ c x)).trans
      (bigSep_univ_comm fun c x => Φ (pr c (e x)) x).symm)

theorem toks_eq (c : Dev nD) : (toks c : sProp 𝕄) =
    iprop((bigSep Finset.univ fun k : Fin 16 => dutyTok ER (cpCell c (slot k)) (k.val / 2) (0 : Fin 3))
    ∗ (bigSep Finset.univ fun k : Fin 16 => dutyTok ER (lcCell c k) 0 (0 : Fin 3))
    ∗ (bigSep Finset.univ fun jk : Fin 3 × Fin 16 => dutyTok ER (sdCell c jk.1 jk.2) 0 (0 : Fin 3))
    ∗ (bigSep Finset.univ fun jk : Fin 3 × Fin 16 => dutyTok ER (rvCell c jk.1 jk.2) 0 (0 : Fin 3))
    ∗ (bigSep Finset.univ fun j : Fin 3 => dutyTok ER (barCell c) 0 j)) := by
  unfold toks
  rw [bigSep_univ_sum, bigSep_univ_sum, bigSep_univ_sum, bigSep_univ_sum]
  rfl

/-- The tokens dealt around: a receive cell's token to the device that pays it, a barrier cell's three tokens to the
    three peers. -/
theorem toks_around : (bigSep Finset.univ fun c : Dev nD => (toks c : sProp 𝕄)) ⊢ bigSep Finset.univ fun c : Dev nD => payToks c := by
  rw [bigSep_congr fun c _ => toks_eq (F := F) c]
  unfold payToks
  rw [bigSep_sep', bigSep_sep', bigSep_sep', bigSep_sep', bigSep_sep', bigSep_sep', bigSep_sep', bigSep_sep',
    around (fun jk : Fin 3 × Fin 16 => jk.1) (fun c jk => (dutyTok ER (rvCell c jk.1 jk.2) 0 (0 : Fin 3) : sProp 𝕄)),
    around (fun j : Fin 3 => j) (fun c j => (dutyTok ER (barCell c) 0 j : sProp 𝕄))]

theorem ghost_intro (K : Dev nD × CI → ℕ) (c : Dev nD) : iprop(records m K ∗ linear c) ⊢ G' m c := by
  unfold G' ghost
  iintro H; iexists K; iexact H

theorem regroup :
    (bigSep Finset.univ fun c : Dev nD => iprop((bigSep Finset.univ fun i : CI => iprop(∃ κ : ℕ, cellInv ER (sched m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => show _ ⊢ linear c from Entails.of_eq (by unfold linear payToks; rfl)))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed is the sum of the payments still to come. -/
theorem owedFrom_eq_sum (c : Dev nD) : ∀ f n : ℕ, owedFrom c f n = ∑ i ∈ Finset.range f, payTally c (n + i)
  | 0, n => by rw [Finset.range_zero, Finset.sum_empty]; rfl
  | f + 1, n => by
    rw [owedFrom_succ, owedFrom_eq_sum c f (n + 1), Finset.sum_range_succ', Nat.add_zero]
    exact congrArg (· + payTally c n) (Finset.sum_congr rfl fun i _ => congrArg (payTally c) (by omega))

theorem O₀_eq : (O₀ : Dev nD → CellTallies nD τ sig Unit) = fun d => ∑ r ∈ Finset.range 51, payTally d r :=
  funext fun d => by
    unfold O₀; rw [owedFrom_eq_sum]
    exact Finset.sum_congr rfl fun i _ => congrArg (payTally d) (Nat.zero_add i)

theorem ordJ_ordJ (j : Fin 3) : ordJ (ordJ j.val).val = j := by revert j; decide

/-- The barrier payments' places in the order of payment, and the arrivals'. -/
def barIdx : Finset ℕ := Finset.univ.map ⟨fun j : Fin 3 => j.val, fun a b h => Fin.ext h⟩
def rvIdx : Finset ℕ := Finset.univ.map ⟨fun jk : Fin 3 × Fin 16 => 3 + 3 * jk.2.val + (ordJ jk.1.val).val, by
  rintro ⟨j, k⟩ ⟨j', k'⟩ h
  dsimp only at h
  have hk : k = k' := Fin.ext (by omega)
  have ho : ordJ j.val = ordJ j'.val := Fin.ext (by omega)
  have hj : j = j' := by rw [← ordJ_ordJ j, ← ordJ_ordJ j', ho]
  rw [hk, hj]⟩

theorem idx_sub : barIdx ∪ rvIdx ⊆ Finset.range 51 := fun n hn => by
  rw [Finset.mem_range]
  rcases Finset.mem_union.mp hn with h | h
  · obtain ⟨j, -, rfl⟩ := Finset.mem_map.mp h; exact Nat.lt_trans j.isLt (by decide)
  · obtain ⟨⟨j, k⟩, -, rfl⟩ := Finset.mem_map.mp h
    show 3 + 3 * k.val + (ordJ j.val).val < 51
    omega

theorem idx_disj : Disjoint barIdx rvIdx := Finset.disjoint_left.mpr fun n h h' => by
  obtain ⟨j, -, rfl⟩ := Finset.mem_map.mp h
  obtain ⟨⟨j', k⟩, -, e⟩ := Finset.mem_map.mp h'
  have e' : 3 + 3 * k.val + (ordJ j'.val).val = j.val := e
  omega

/-- The credit for a peer's unit at the barrier cell. -/
theorem cred_pay_bar (c : Dev nD) (j : Fin 3) :
    (Pipeline.launchCred (fun d : Dev nD => payTally d j.val) c : sProp 𝕄) ⊢ cred (tallyAt (barCell c) () 1) := by
  rw [show (fun d : Dev nD => payTally d j.val) = fun d => tallyAt ((((pr d j : Dev nD) : Thread nD τ), SemLoc.reg barS) : GSem nD τ sig) () 1 from
    funext fun d => payTally_bar d j]
  exact Pipeline.launchCred_tallyAt (.reg barS) (fun d => pr d j) (fun c => qr c j) (fun c => pr_qr c j) (fun d => qr_pr d j) () 1 c

/-- The credit for a peer's chunk arriving. -/
theorem cred_pay_rv (c : Dev nD) (k : Fin 16) (o : Fin 3) :
    (Pipeline.launchCred (fun d : Dev nD => payTally d (3 + 3 * k.val + o.val)) c : sProp 𝕄)
      ⊢ cred (tallyAt (rvCell c (ordJ o.val) k) () NO) := by
  rw [show (fun d : Dev nD => payTally d (3 + 3 * k.val + o.val))
      = fun d => tallyAt ((((pr d (ordJ o.val) : Dev nD) : Thread nD τ), SemLoc.dma (rvS (ordJ o.val) k)) : GSem nD τ sig) () NO from
    funext fun d => payTally_rv d k o]
  exact Pipeline.launchCred_tallyAt (.dma (rvS (ordJ o.val) k)) (fun d => pr d (ordJ o.val)) (fun c => qr c (ordJ o.val))
    (fun c => pr_qr c _) (fun d => qr_pr d _) () NO c

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem cred_bar3 (c : Dev nD) :
    (bigSep Finset.univ fun _ : Fin 3 => (cred (tallyAt (barCell c) () 1) : sProp 𝕄)) ⊢ cred (tallyAt (barCell c) () 3) := by
  rw [bigSep_fin3,
    show (tallyAt (barCell c) () 3 : CellTallies nD τ sig Unit)
      = tallyAt (barCell c) () 1 + (tallyAt (barCell c) () 1 + tallyAt (barCell c) () 1) from by rw [tallyAt_add, tallyAt_add]]
  iintro ⟨H0, H1, H2⟩
  iapply (cred_add _ _).2
  isplitl [H0]; · iexact H0
  iapply (cred_add _ _).2
  isplitl [H1] <;> iassumption

theorem creds (c : Dev nD) :
    (Pipeline.launchCred O₀ c : sProp 𝕄) ⊢ iprop(cred (tallyAt (barCell c) () 3)
      ∗ bigSep Finset.univ fun jk : Fin 3 × Fin 16 => cred (tallyAt (rvCell c jk.1 jk.2) () NO)) := by
  rw [O₀_eq, Pipeline.launchCred_sum]
  refine (bigSep_subset idx_sub).trans ?_
  rw [bigSep_union idx_disj]
  unfold barIdx rvIdx
  rw [bigSep_map, bigSep_map]
  refine sep_mono ?_ ?_
  · exact (bigSep_mono fun j _ => cred_pay_bar (F := F) c j).trans (cred_bar3 (F := F) c)
  · exact bigSep_mono fun jk _ =>
      (cred_pay_rv (F := F) c jk.2 (ordJ jk.1.val)).trans (Entails.of_eq (by rw [ordJ_ordJ]))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  imodintro
  unfold start G' Xc
  isplitl
  · isplitl [HG]; · iexact HG
    isplitl [H3]; · iexact H3
    isplitl [HN]; · iexact HN
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hf, Hb⟩
  isplitl [Hs]; · iexact Hs
  isplitl [Hf]; · iexact Hf
  iexact Hb

/-- What a device hands back at the end besides its own semaphores and scratch arrays: its two arrays. -/
def Yc (c : Dev nD) : sProp 𝕄 := iprop((xL c ↦{fullShare} Xc m c) ∗ (oL c ↦{fullShare} outF m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, Hf, Hb, Hs⟩
  isplitl [Hx Ho]
  · isplitl [Hx] <;> iassumption
  isplitl [Hs]; · iexact Hs
  isplitl [Hf] <;> iassumption

theorem waits (c : Dev nD) : (levAts L lv : sProp 𝕄) ⊢ Pipeline.cellsWaits cfgs (dats m) () 0 c :=
  Pipeline.cellsWaits_intro cfgs (dats m) () 0 c fun w s t => w.elim0

end Lch

/-! ## The run -/

open Lch in
set_option maxRecDepth 8000 in
/-- At the compiled mesh of four devices, for any float values, from any memory with zero counters: every weakly fair
    execution of the program terminates, and every final state has each device's result holding every device's chunks,
    rounded, and its part of `x` unchanged. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, r.2.mem (oL c) = outF m c ∧ r.2.mem (xL c) = Xc m c) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem (oL c) = outF m c ∧ s.mem (xL c) = Xc m c)
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.Bits.Claims.lean ====
/-
  The word-level kernel's frame, from ONE hypothesis: that one device's body, started from its precondition, reaches its
  postcondition.
-/
import proofs.«900006_g7700000000000007_dist_a2a_v7x_i4_i_m4096_n1024_bf16_1_alg».proof.Proof.Bits.Launch
import proofs.«900006_g7700000000000007_dist_a2a_v7x_i4_i_m4096_n1024_bf16_1_alg».proof.Defs
import proofs.«900006_g7700000000000007_dist_a2a_v7x_i4_i_m4096_n1024_bf16_1_alg».proof.Proof.Gen.Pre_finite_inputs_Kernel

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The word-level kernel runs and leaves each device's part of `x` as it was. -/
theorem frame_bits_of_sound
    (hsound : ∀ (m : (ℓ : Loc nD τ sig) → Buf (Elt Bits) ℓ) (c : Dev nD) (Kt : PUnit → sProp (MT nD τ sig Unit (Elt Bits) ℕ UU ℕ)),
      iprop(bodyPre m c ∗ (bodyPost m c -∗ Kt ⟨⟩))
        ⊢ wp frame (wpE (defs₀ (F := Bits)) 𝒱₀ c none) Set.univ (theBody (F := Bits)) Kt) :
    Cert.frame_Kernel :=
  fun m g _ => (θ_run defs _ _).mono (fun _ h c => (h c).2)
    (run_main (F := Bits) m g fun c => body_obligation m (hsound m) c)

/-- info: 'Cert.Kernel.A2A.frame_bits_of_sound' depends on axioms: [propext, Classical.choice, Quot.sound] -/
#guard_msgs in #print axioms frame_bits_of_sound

end Cert.Kernel.A2A

end
-- ==== Proof.Bits.BodyState.lean ====
/-
  The state of one device's body between its steps: at the start every buffer cut into the pieces the steps hand
  around, at the end the pieces as the last waits returned them.
-/
import proofs.«900006_g7700000000000007_dist_a2a_v7x_i4_i_m4096_n1024_bf16_1_alg».proof.Proof.Bits.Ghost

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's resources opened piece by piece, and folded back -/

section Open
variable (c : Dev nD)

/-- What the body works with, each buffer cut into the pieces the steps hand around and the ghost state grouped by
    the step that uses it. -/
def Opened : sProp 𝕄 :=
  iprop(∃ K : Dev nD × CI → ℕ, records m K
    ∗ (dats m 0 c).owesAt () t₀.castSucc ∗ levAts L lv ∗ cred (tallyAt (barCell c) () 3)
    ∗ atPos ER (barCell c) 0 ∅ 0 ∗ atPos ER (cpCell c 0) 0 ∅ 0 ∗ atPos ER (cpCell c 1) 0 ∅ 0
    ∗ (bigSep Finset.univ fun j : Fin 3 => iprop(dutyTok ER (barCell (pr c j)) 0 j ∗ barPay (F := F) (pr c j) j))
    ∗ (bigSep Finset.univ fun k : Fin 16 => iprop(dutyTok ER (cpCell c (slot k)) (k.val / 2) (0 : Fin 3) ∗ (xL c ↦[(xCk k).view.set]{fullShare} Xc m c)))
    ∗ (bigSep Finset.univ fun i : Fin 2 => iprop(∃ fd : Buf (Elt F) (fL c), fL c ↦[(fSt i).view.set]{fullShare} fd))
    ∗ (bigSep Finset.univ fun k : Fin 16 => iprop((∃ fb : Buf (Elt F) (bL c), bL c ↦[((bM : Memref sig .tc .vmem S4096x4096 .bf16).access (bRows k)).setOn Finset.univ]{fullShare} fb)
        ∗ dutyTok ER (lcCell c k) 0 (0 : Fin 3) ∗ atPos ER (lcCell c k) 0 ∅ 0 ∗ (oL c ↦[(oCk c k).view.set]{fullShare} m (oL c))))
    ∗ (bigSep Finset.univ fun jk : Fin 3 × Fin 16 => iprop(dutyTok ER (sdCell c jk.1 jk.2) 0 (0 : Fin 3) ∗ dutyTok ER (rvCell (pr c jk.1) jk.1 jk.2) 0 (0 : Fin 3)
        ∗ atPos ER (sdCell c jk.1 jk.2) 0 ∅ 0 ∗ cred (tallyAt (rvCell c jk.1 jk.2) () NO) ∗ atPos ER (rvCell c jk.1 jk.2) 0 ∅ 0)))

/-- What is left when the last wait has returned. -/
def Closed : sProp 𝕄 :=
  iprop((bigSep Finset.univ fun k : Fin 16 => (xL c ↦[(xCk k).view.set]{fullShare} Xc m c))
    ∗ (bigSep Finset.univ fun i : Fin 2 => iprop(∃ fd : Buf (Elt F) (fL c), fL c ↦[(fSt i).view.set]{fullShare} fd))
    ∗ (bigSep Finset.univ fun k : Fin 16 => iprop((bL c ↦[(bPc k c).view.set]{fullShare} BB m c k) ∗ (oL c ↦[(oCk c k).view.set]{fullShare} OC m c c k) ∗ atPos ER (lcCell c k) 1 ∅ 0))
    ∗ (bigSep Finset.univ fun jk : Fin 3 × Fin 16 => iprop((bL c ↦[(bPc jk.2 (pr c jk.1)).view.set]{fullShare} BB m c jk.2)
        ∗ (oL c ↦[(oCk (qr c jk.1) jk.2).view.set]{fullShare} OC m c (qr c jk.1) jk.2) ∗ atPos ER (sdCell c jk.1 jk.2) 1 ∅ 0 ∗ atPos ER (rvCell c jk.1 jk.2) 1 ∅ 0))
    ∗ atPos ER (cpCell c 0) 8 ∅ 0 ∗ atPos ER (cpCell c 1) 8 ∅ 0 ∗ ∃ W, owes (c : Thread nD τ) 0 W)

end Open

end Cert.Kernel.A2A

end
-- ==== Proof.Bits.Tiling.lean ====
/-
  How each array is cut by its pieces: the sixteen chunks of 256 rows of the device's part of `x`, the two staging
  slots, the 16 × 4 pieces (256 rows × 1024 columns) of the rounded array, and the 4 × 16 chunks of 256 rows of the
  result. Each family is pairwise disjoint and covers its array; membership is by coordinates.
-/
import proofs.«900006_g7700000000000007_dist_a2a_v7x_i4_i_m4096_n1024_bf16_1_alg».proof.Proof.Bits.Pieces
import proofs.«900006_g7700000000000007_dist_a2a_v7x_i4_i_m4096_n1024_bf16_1_alg».proof.Proof.Gen.Kernel
import proofs.«900006_g7700000000000007_dist_a2a_v7x_i4_i_m4096_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pieces' element sets are rectangles of the arrays -/

theorem xCk_set (k : Fin 16) :
    (xCk k).view.set = (Rect.unit (s := S4096x4096) (xOff k) S256x4096.size (xOff_inb k)).set :=
  View.set_slice_whole main_arg0 _

theorem fSt_set (i : Fin 2) : (fSt i).view.set = (fRect i).set := by
  show (((View.whole cc0_scratch0).slice (fRect i)).reshape S256x4096 _).set = _
  rw [View.set_reshape]; exact View.set_slice_whole cc0_scratch0 _

theorem bPc_set (k : Fin 16) (t : Dev nD) :
    (bPc k t).view.set = (Rect.unit (s := S4096x4096) (bOff k t) S256x1024.size (bOff_inb k t)).set :=
  View.set_slice_whole cc0_scratch1 _

theorem oCk_set (s : Dev nD) (k : Fin 16) :
    (oCk s k).view.set = (Rect.unit (s := S16384x1024) (oOff s k) S256x1024.size (oOff_inb s k)).set :=
  View.set_slice_whole main_v1 _

/-- What the store of chunk `k` writes: the chunk's rows of the rounded array. -/
theorem bRows_set (k : Fin 16) :
    ((bM : Memref sig .tc .vmem S4096x4096 .bf16).access (bRows k)).setOn Finset.univ = (bRows k).set :=
  View.set_slice_whole cc0_scratch1 _

/-- The same rows, as a load of them sees them. -/
theorem bRows_loadSet (k : Fin 16) :
    (bM : Memref sig .tc .vmem S4096x4096 .bf16).view.setOn (bRows k).toLoadRect.set = (bRows k).set :=
  Finset.map_refl

/-- What the load of staging slot `i` reads is the slot. -/
theorem fRect_loadSet (i : Fin 2) :
    (fM : Memref sig .tc .vmem S2x256x4096 .f32).view.setOn (fRect i).toLoadRect.set = (fSt i).view.set := by
  rw [fSt_set]; exact Finset.map_refl

theorem bRows_loadSet_eq (k : Fin 16) :
    (bM : Memref sig .tc .vmem S4096x4096 .bf16).view.setOn (bRows k).toLoadRect.set
      = ((bM : Memref sig .tc .vmem S4096x4096 .bf16).access (bRows k)).setOn Finset.univ := by
  rw [bRows_loadSet, bRows_set]

/-! ## Membership by coordinates -/

theorem mem_xCk (k : Fin 16) (i : (xM : Memref sig .tc .hbm S4096x4096 .f32).view.ty.Idx) :
    i ∈ (xCk k).view.set ↔ 256 * k.val ≤ (i 0).val ∧ (i 0).val < 256 * k.val + 256 := by
  rw [xCk_set, Rect.mem_set_unit]
  refine Fin.forall_fin_two.trans ?_
  show (256 * k.val ≤ (i 0).val ∧ (i 0).val < 256 * k.val + 256) ∧ (0 ≤ (i 1).val ∧ (i 1).val < 0 + 4096) ↔ _
  have h1 : (i 1).val < 4096 := (i 1).isLt
  constructor
  · rintro ⟨h0, _⟩; exact h0
  · intro h0; exact ⟨h0, Nat.zero_le _, by omega⟩

theorem mem_fSt (i : Fin 2) (x : (fM : Memref sig .tc .vmem S2x256x4096 .f32).view.ty.Idx) :
    x ∈ (fSt i).view.set ↔ (x 0).val = i.val := by
  rw [fSt_set, Rect.mem_set_unit]
  refine (Fin.forall_fin_succ.trans (and_congr Iff.rfl Fin.forall_fin_two)).trans ?_
  show (i.val ≤ (x 0).val ∧ (x 0).val < i.val + 1) ∧ (0 ≤ (x 1).val ∧ (x 1).val < 0 + 256)
    ∧ (0 ≤ (x 2).val ∧ (x 2).val < 0 + 4096) ↔ _
  have h1 : (x 1).val < 256 := (x 1).isLt
  have h2 : (x 2).val < 4096 := (x 2).isLt
  constructor
  · rintro ⟨h0, _⟩; omega
  · intro h0; exact ⟨by omega, ⟨Nat.zero_le _, by omega⟩, Nat.zero_le _, by omega⟩

theorem mem_bPc (k : Fin 16) (t : Dev nD) (i : (bM : Memref sig .tc .vmem S4096x4096 .bf16).view.ty.Idx) :
    i ∈ (bPc k t).view.set ↔ 256 * k.val ≤ (i 0).val ∧ (i 0).val < 256 * k.val + 256
      ∧ 1024 * t.val ≤ (i 1).val ∧ (i 1).val < 1024 * t.val + 1024 := by
  rw [bPc_set, Rect.mem_set_unit]
  refine Fin.forall_fin_two.trans ?_
  show (256 * k.val ≤ (i 0).val ∧ (i 0).val < 256 * k.val + 256)
    ∧ (1024 * t.val ≤ (i 1).val ∧ (i 1).val < 1024 * t.val + 1024) ↔ _
  constructor
  · rintro ⟨⟨a, b⟩, c, d⟩; exact ⟨a, b, c, d⟩
  · rintro ⟨a, b, c, d⟩; exact ⟨⟨a, b⟩, c, d⟩

theorem mem_oCk (s : Dev nD) (k : Fin 16) (i : (oM : Memref sig .tc .hbm S16384x1024 .bf16).view.ty.Idx) :
    i ∈ (oCk s k).view.set ↔ 4096 * s.val + 256 * k.val ≤ (i 0).val ∧ (i 0).val < 4096 * s.val + 256 * k.val + 256 := by
  rw [oCk_set, Rect.mem_set_unit]
  refine Fin.forall_fin_two.trans ?_
  show (4096 * s.val + 256 * k.val ≤ (i 0).val ∧ (i 0).val < 4096 * s.val + 256 * k.val + 256)
    ∧ (0 ≤ (i 1).val ∧ (i 1).val < 0 + 1024) ↔ _
  have h1 : (i 1).val < 1024 := (i 1).isLt
  constructor
  · rintro ⟨h0, _⟩; exact h0
  · intro h0; exact ⟨h0, Nat.zero_le _, by omega⟩

theorem mem_bRows_rect (k : Fin 16) (i : S4096x4096.Idx) :
    i ∈ (bRows k).set ↔ 256 * k.val ≤ (i 0).val ∧ (i 0).val < 256 * k.val + 256 := by
  rw [Rect.mem_set_unit]
  refine Fin.forall_fin_two.trans ?_
  show (256 * k.val ≤ (i 0).val ∧ (i 0).val < 256 * k.val + 256) ∧ (0 ≤ (i 1).val ∧ (i 1).val < 0 + 4096) ↔ _
  have h1 : (i 1).val < 4096 := (i 1).isLt
  constructor
  · rintro ⟨h0, _⟩; exact h0
  · intro h0; exact ⟨h0, Nat.zero_le _, by omega⟩

theorem mem_bRows (k : Fin 16) (i : (bM : Memref sig .tc .vmem S4096x4096 .bf16).view.ty.Idx) :
    i ∈ ((bM : Memref sig .tc .vmem S4096x4096 .bf16).access (bRows k)).setOn Finset.univ
      ↔ 256 * k.val ≤ (i 0).val ∧ (i 0).val < 256 * k.val + 256 := by
  rw [bRows_set]; exact mem_bRows_rect k i

theorem mem_bRows_load (k : Fin 16) (i : (bM : Memref sig .tc .vmem S4096x4096 .bf16).view.ty.Idx) :
    i ∈ (bM : Memref sig .tc .vmem S4096x4096 .bf16).view.setOn (bRows k).toLoadRect.set
      ↔ 256 * k.val ≤ (i 0).val ∧ (i 0).val < 256 * k.val + 256 := by
  rw [bRows_loadSet]; exact mem_bRows_rect k i

theorem mem_fRect_load (i : Fin 2) (x : (fM : Memref sig .tc .vmem S2x256x4096 .f32).view.ty.Idx) :
    x ∈ (fM : Memref sig .tc .vmem S2x256x4096 .f32).view.setOn (fRect i).toLoadRect.set ↔ (x 0).val = i.val := by
  rw [fRect_loadSet]; exact mem_fSt i x

/-! ## Each family is pairwise disjoint and covers its array -/

theorem xCk_cover : (Finset.univ : Finset (xM : Memref sig .tc .hbm S4096x4096 .f32).view.ty.Idx)
    = Finset.univ.biUnion (fun k : Fin 16 => (xCk k).view.set) := by
  symm; rw [Finset.eq_univ_iff_forall]; intro i; rw [Finset.mem_biUnion]
  have h0 : (i 0).val < 4096 := (i 0).isLt
  have hk : (i 0).val / 256 < 16 := by omega
  refine ⟨⟨(i 0).val / 256, hk⟩, Finset.mem_univ _, ?_⟩
  rw [mem_xCk]
  show 256 * ((i 0).val / 256) ≤ (i 0).val ∧ (i 0).val < 256 * ((i 0).val / 256) + 256
  omega

theorem xCk_disj : ∀ k k' : Fin 16, k ≠ k' → Disjoint (xCk k).view.set (xCk k').view.set := by
  intro k k' h
  rw [Finset.disjoint_left]
  intro i hi hi'
  rw [mem_xCk] at hi hi'
  exact h (Fin.ext (by omega))

theorem fSt_cover : (Finset.univ : Finset (fM : Memref sig .tc .vmem S2x256x4096 .f32).view.ty.Idx)
    = Finset.univ.biUnion (fun i : Fin 2 => (fSt i).view.set) := by
  symm; rw [Finset.eq_univ_iff_forall]; intro x; rw [Finset.mem_biUnion]
  have h0 : (x 0).val < 2 := (x 0).isLt
  refine ⟨⟨(x 0).val, h0⟩, Finset.mem_univ _, ?_⟩
  rw [mem_fSt]

theorem fSt_disj : ∀ i i' : Fin 2, i ≠ i' → Disjoint (fSt i).view.set (fSt i').view.set := by
  intro i i' h
  rw [Finset.disjoint_left]
  intro x hx hx'
  rw [mem_fSt] at hx hx'
  exact h (Fin.ext (by omega))

theorem oCk_cover : (Finset.univ : Finset (oM : Memref sig .tc .hbm S16384x1024 .bf16).view.ty.Idx)
    = Finset.univ.biUnion (fun p : Dev nD × Fin 16 => (oCk p.1 p.2).view.set) := by
  symm; rw [Finset.eq_univ_iff_forall]; intro i; rw [Finset.mem_biUnion]
  have h0 : (i 0).val < 16384 := (i 0).isLt
  have hs : (i 0).val / 4096 < 4 := by omega
  have hk : (i 0).val % 4096 / 256 < 16 := by omega
  refine ⟨((⟨(i 0).val / 4096, hs⟩ : Dev nD), (⟨(i 0).val % 4096 / 256, hk⟩ : Fin 16)), Finset.mem_univ _, ?_⟩
  show i ∈ (oCk (⟨(i 0).val / 4096, hs⟩ : Dev nD) (⟨(i 0).val % 4096 / 256, hk⟩ : Fin 16)).view.set
  rw [mem_oCk]
  show 4096 * ((i 0).val / 4096) + 256 * ((i 0).val % 4096 / 256) ≤ (i 0).val
    ∧ (i 0).val < 4096 * ((i 0).val / 4096) + 256 * ((i 0).val % 4096 / 256) + 256
  omega

theorem oCk_disj' (s s' : Dev nD) (k k' : Fin 16) (h : s ≠ s' ∨ k ≠ k') :
    Disjoint (oCk s k).view.set (oCk s' k').view.set := by
  rw [Finset.disjoint_left]
  intro i hi hi'
  rw [mem_oCk] at hi hi'
  have hk := k.isLt
  have hk' := k'.isLt
  rcases h with h | h
  · exact h (Fin.ext (by omega))
  · exact h (Fin.ext (by omega))

theorem oCk_disj : ∀ p p' : Dev nD × Fin 16, p ≠ p' → Disjoint (oCk p.1 p.2).view.set (oCk p'.1 p'.2).view.set := by
  rintro ⟨s, k⟩ ⟨s', k'⟩ h
  refine oCk_disj' s s' k k' ?_
  by_cases e : s = s'
  · exact .inr fun e' => h (by rw [e, e'])
  · exact .inl e

theorem bPc_cover : (Finset.univ : Finset (bM : Memref sig .tc .vmem S4096x4096 .bf16).view.ty.Idx)
    = Finset.univ.biUnion (fun p : Fin 16 × Dev nD => (bPc p.1 p.2).view.set) := by
  symm; rw [Finset.eq_univ_iff_forall]; intro i; rw [Finset.mem_biUnion]
  have h0 : (i 0).val < 4096 := (i 0).isLt
  have h1 : (i 1).val < 4096 := (i 1).isLt
  have hk : (i 0).val / 256 < 16 := by omega
  have ht : (i 1).val / 1024 < 4 := by omega
  refine ⟨((⟨(i 0).val / 256, hk⟩ : Fin 16), (⟨(i 1).val / 1024, ht⟩ : Dev nD)), Finset.mem_univ _, ?_⟩
  show i ∈ (bPc (⟨(i 0).val / 256, hk⟩ : Fin 16) (⟨(i 1).val / 1024, ht⟩ : Dev nD)).view.set
  rw [mem_bPc]
  show 256 * ((i 0).val / 256) ≤ (i 0).val ∧ (i 0).val < 256 * ((i 0).val / 256) + 256
    ∧ 1024 * ((i 1).val / 1024) ≤ (i 1).val ∧ (i 1).val < 1024 * ((i 1).val / 1024) + 1024
  omega

theorem bPc_disj' (k k' : Fin 16) (t t' : Dev nD) (h : k ≠ k' ∨ t ≠ t') :
    Disjoint (bPc k t).view.set (bPc k' t').view.set := by
  rw [Finset.disjoint_left]
  intro i hi hi'
  rw [mem_bPc] at hi hi'
  rcases h with h | h
  · exact h (Fin.ext (by omega))
  · exact h (Fin.ext (by omega))

theorem bPc_disj : ∀ p p' : Fin 16 × Dev nD, p ≠ p' → Disjoint (bPc p.1 p.2).view.set (bPc p'.1 p'.2).view.set := by
  rintro ⟨k, t⟩ ⟨k', t'⟩ h
  refine bPc_disj' k k' t t' ?_
  by_cases e : k = k'
  · exact .inr fun e' => h (by rw [e, e'])
  · exact .inl e

/-- Within one chunk, the pieces to different devices are disjoint. -/
theorem bPc_disj_dev (k : Fin 16) : ∀ t t' : Dev nD, t ≠ t' → Disjoint (bPc k t).view.set (bPc k t').view.set :=
  fun t t' h => bPc_disj' k k t t' (.inr h)

/-- The rows of chunk `k` of the rounded array are its four pieces. -/
theorem bRows_eq (k : Fin 16) :
    ((bM : Memref sig .tc .vmem S4096x4096 .bf16).access (bRows k)).setOn Finset.univ
      = Finset.univ.biUnion (fun t : Dev nD => (bPc k t).view.set) := by
  ext i
  rw [mem_bRows, Finset.mem_biUnion]
  have h1 : (i 1).val < 4096 := (i 1).isLt
  constructor
  · intro h
    have ht : (i 1).val / 1024 < 4 := by omega
    refine ⟨(⟨(i 1).val / 1024, ht⟩ : Dev nD), Finset.mem_univ _, ?_⟩
    rw [mem_bPc]
    refine ⟨h.1, h.2, ?_⟩
    show 1024 * ((i 1).val / 1024) ≤ (i 1).val ∧ (i 1).val < 1024 * ((i 1).val / 1024) + 1024
    omega
  · rintro ⟨t, -, ht⟩
    rw [mem_bPc] at ht
    exact ⟨ht.1, ht.2.1⟩

theorem bRows_cover : (Finset.univ : Finset (bM : Memref sig .tc .vmem S4096x4096 .bf16).view.ty.Idx)
    = Finset.univ.biUnion (fun k : Fin 16 => ((bM : Memref sig .tc .vmem S4096x4096 .bf16).access (bRows k)).setOn Finset.univ) := by
  symm; rw [Finset.eq_univ_iff_forall]; intro i; rw [Finset.mem_biUnion]
  have h0 : (i 0).val < 4096 := (i 0).isLt
  have hk : (i 0).val / 256 < 16 := by omega
  refine ⟨⟨(i 0).val / 256, hk⟩, Finset.mem_univ _, ?_⟩
  rw [mem_bRows]
  show 256 * ((i 0).val / 256) ≤ (i 0).val ∧ (i 0).val < 256 * ((i 0).val / 256) + 256
  omega

theorem bRows_disj : ∀ k k' : Fin 16, k ≠ k' →
    Disjoint (((bM : Memref sig .tc .vmem S4096x4096 .bf16).access (bRows k)).setOn Finset.univ)
      (((bM : Memref sig .tc .vmem S4096x4096 .bf16).access (bRows k')).setOn Finset.univ) := by
  intro k k' h
  rw [Finset.disjoint_left]
  intro i hi hi'
  rw [mem_bRows] at hi hi'
  exact h (Fin.ext (by omega))

/-- info: 'Cert.Kernel.A2A.mem_xCk' depends on axioms: [propext, Classical.choice, Quot.sound] -/
#guard_msgs in #print axioms mem_xCk

/-- info: 'Cert.Kernel.A2A.mem_fSt' depends on axioms: [propext, Classical.choice, Quot.sound] -/
#guard_msgs in #print axioms mem_fSt

/-- info: 'Cert.Kernel.A2A.mem_bPc' depends on axioms: [propext, Classical.choice, Quot.sound] -/
#guard_msgs in #print axioms mem_bPc

/-- info: 'Cert.Kernel.A2A.mem_oCk' depends on axioms: [propext, Classical.choice, Quot.sound] -/
#guard_msgs in #print axioms mem_oCk

/-- info: 'Cert.Kernel.A2A.mem_bRows' depends on axioms: [propext, Classical.choice, Quot.sound] -/
#guard_msgs in #print axioms mem_bRows

/-- info: 'Cert.Kernel.A2A.mem_bRows_load' depends on axioms: [propext, Classical.choice, Quot.sound] -/
#guard_msgs in #print axioms mem_bRows_load

/-- info: 'Cert.Kernel.A2A.mem_fRect_load' depends on axioms: [propext, Classical.choice, Quot.sound] -/
#guard_msgs in #print axioms mem_fRect_load

/-- info: 'Cert.Kernel.A2A.fRect_loadSet' depends on axioms: [propext, Classical.choice, Quot.sound] -/
#guard_msgs in #print axioms fRect_loadSet

/-- info: 'Cert.Kernel.A2A.bRows_loadSet_eq' depends on axioms: [propext, Classical.choice, Quot.sound] -/
#guard_msgs in #print axioms bRows_loadSet_eq

/-- info: 'Cert.Kernel.A2A.xCk_cover' depends on axioms: [propext, Classical.choice, Quot.sound] -/
#guard_msgs in #print axioms xCk_cover

/-- info: 'Cert.Kernel.A2A.xCk_disj' depends on axioms: [propext, Classical.choice, Quot.sound] -/
#guard_msgs in #print axioms xCk_disj

/-- info: 'Cert.Kernel.A2A.fSt_cover' depends on axioms: [propext, Classical.choice, Quot.sound] -/
#guard_msgs in #print axioms fSt_cover

/-- info: 'Cert.Kernel.A2A.fSt_disj' depends on axioms: [propext, Classical.choice, Quot.sound] -/
#guard_msgs in #print axioms fSt_disj

/-- info: 'Cert.Kernel.A2A.oCk_cover' depends on axioms: [propext, Classical.choice, Quot.sound] -/
#guard_msgs in #print axioms oCk_cover

/-- info: 'Cert.Kernel.A2A.oCk_disj' depends on axioms: [propext, Classical.choice, Quot.sound] -/
#guard_msgs in #print axioms oCk_disj

/-- info: 'Cert.Kernel.A2A.bPc_cover' depends on axioms: [propext, Classical.choice, Quot.sound] -/
#guard_msgs in #print axioms bPc_cover

/-- info: 'Cert.Kernel.A2A.bPc_disj' depends on axioms: [propext, Classical.choice, Quot.sound] -/
#guard_msgs in #print axioms bPc_disj

/-- info: 'Cert.Kernel.A2A.bRows_eq' depends on axioms: [propext, Classical.choice, Quot.sound] -/
#guard_msgs in #print axioms bRows_eq

/-- info: 'Cert.Kernel.A2A.bRows_cover' depends on axioms: [propext, Classical.choice, Quot.sound] -/
#guard_msgs in #print axioms bRows_cover

/-- info: 'Cert.Kernel.A2A.bRows_disj' depends on axioms: [propext, Classical.choice, Quot.sound] -/
#guard_msgs in #print axioms bRows_disj

end Cert.Kernel.A2A

end
-- ==== Proof.Bits.Values.lean ====
/-
  What the all-to-all's data movement computes, index by index.

  Device `s` stages chunk `k` of its part of `x` (rows `256 k …`, all 4096 columns) in a slot, reads the slot back,
  rounds it to bf16 element by element, stores it into rows `256 k …` of a 4096 × 4096 array, and the 256 × 1024
  piece at columns `1024 t …` of those rows is copied to rows `4096 s + 256 k …` of device `t`'s result. So the
  result of device `t` at row `r`, column `j` is the rounding of the element of device `r / 4096`'s part of `x`
  at row `r % 4096`, column `1024 t + j`.
-/
import proofs.«900006_g7700000000000007_dist_a2a_v7x_i4_i_m4096_n1024_bf16_1_alg».proof.Proof.Bits.Pieces
import Idealize.ShloMosaic.Lib.Pipeline.Value
import Idealize.ShloMosaic.Lib.ValueIdx
import Idealize.ShloMosaic.Lib.ValueLayout

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The three writes do not depend, where they write, on what was there before -/

theorem FB_congr (c : Dev nD) (k : Fin 16) (fd : Buf (Elt F) ((c : Thread nD τ).loc cc0_scratch0)) :
    ∀ i ∈ (fSt (slot k)).view.set,
      (fSt (slot k)).view.write (Elt F) fd ((xCk k).view.read (Elt F) (Xc m c)) Finset.univ i = FB m c k i := by
  intro i hi
  exact View.write_congr (fun _ _ _ => rfl) (fun h => absurd hi h)

theorem BB_congr (c : Dev nD) (k : Fin 16) (fd : Buf (Elt F) ((c : Thread nD τ).loc cc0_scratch1)) :
    ∀ i ∈ ((bM : Memref sig .tc .vmem S4096x4096 .bf16).access (bRows k)).setOn Finset.univ,
      ((bM : Memref sig .tc .vmem S4096x4096 .bf16).access (bRows k)).write (Elt F) fd (pay (ld m c k)) Finset.univ i
        = BB m c k i := by
  intro i hi
  exact View.write_congr (fun _ _ _ => rfl) (fun h => absurd hi h)

theorem OC_congr (t s : Dev nD) (k : Fin 16) (fd : Buf (Elt F) ((t : Thread nD τ).loc main_v1)) :
    ∀ i ∈ (oCk s k).view.set,
      (oCk s k).view.write (Elt F) fd ((bPc k t).view.read (Elt F) (BB m s k)) Finset.univ i = OC m t s k i := by
  intro i hi
  exact View.write_congr (fun _ _ _ => rfl) (fun h => absurd hi h)

open Idealize.ShloMosaic.ValueIdx

/-! ## Membership in the rows of a chunk of the result, by coordinates -/

private theorem mem_oCk' (t s : Dev nD) (k : Fin 16) (i : Idx ((t : Thread nD τ).loc main_v1)) :
    i ∈ (oCk s k).view.set ↔
      4096 * s.val + 256 * k.val ≤ (i 0).val ∧ (i 0).val < 4096 * s.val + 256 * k.val + 256 := by
  rw [show (oCk s k).view.set = (Rect.unit (s := S16384x1024) (oOff s k) S256x1024.size (oOff_inb s k)).set from
    View.set_slice_whole _ _]
  rw [Rect.mem_set_unit, Fin.forall_fin_two]
  have h1 : (i 1).val < 1024 := (i 1).isLt
  show (4096 * s.val + 256 * k.val ≤ (i 0).val ∧ (i 0).val < 4096 * s.val + 256 * k.val + 256)
      ∧ (0 ≤ (i 1).val ∧ (i 1).val < 0 + 1024) ↔ _
  omega

/-! ## One element of each buffer -/

/-- Column `j` of a piece for device `t` is column `1024 t + j` of the chunk. -/
def colIx (t : Dev nD) (y : S256x1024.Idx) : S256x4096.Idx :=
  ix2 (y 0) ⟨1024 * t.val + (y 1).val, by
    have h1 : (y 1).val < 1024 := (y 1).isLt
    have h2 : t.val < 4 := t.isLt
    show _ < 4096; omega⟩

/-- What the load of the staged chunk reads at row `y 0`, column `y 1`: that element of the chunk of `x`. -/
theorem ld_apply (c : Dev nD) (k : Fin 16) (y : S256x4096.Idx) :
    ld m c k (Fin.cons ⟨0, Nat.one_pos⟩ y) = Xc m c ((xCk k).view.emb y) := by
  unfold ld
  rw [View.readAt_apply, View.read_apply]
  have he : (fM : Memref sig .tc .vmem S2x256x4096 .f32).view.emb
      ((fRect (slot k)).toLoadRect.idx (Fin.cons ⟨0, Nat.one_pos⟩ y)) = (fSt (slot k)).view.emb y := by
    show (fRect (slot k)).emb (Fin.cons ⟨0, Nat.one_pos⟩ y) = (fRect (slot k)).emb (Shape.reshapeEquiv _ y)
    rw [Shape.reshapeEquiv_cons_one]
  rw [he]
  unfold FB
  rw [View.write_emb_of_mem _ _ (Finset.mem_univ y), View.read_apply]
  rfl

/-- An element of the rounded rows of chunk `k`: the rounding of that element of the chunk of `x`. -/
theorem BB_emb (c : Dev nD) (k : Fin 16) (y : S256x4096.Idx) :
    BB m c k (((bM : Memref sig .tc .vmem S4096x4096 .bf16).access (bRows k)).emb y)
      = FloatOps.truncf .bf16 bitsLt_bf16_f32 (Xc m c ((xCk k).view.emb y)) := by
  unfold BB
  rw [View.write_emb_of_mem _ _ (Finset.mem_univ y)]
  have hp : pay (ld m c k) y = FloatOps.truncf .bf16 bitsLt_bf16_f32 (ld m c k (Fin.cons ⟨0, Nat.one_pos⟩ y)) := by
    unfold pay
    rw [shapeCast_apply _ _ y y rfl]
    show FloatOps.truncf .bf16 bitsLt_bf16_f32 (shapeCast S256x4096 (ld m c k) _ y) = _
    rw [shapeCast_dropUnit_apply]
  rw [hp, ld_apply]
  rfl

/-- An element of the landed chunk `(s, k)` of device `t`'s result. -/
theorem OC_emb (t s : Dev nD) (k : Fin 16) (y : S256x1024.Idx) :
    OC m t s k ((oCk s k).view.emb y)
      = FloatOps.truncf .bf16 bitsLt_bf16_f32 (Xc m s ((xCk k).view.emb (colIx t y))) := by
  unfold OC
  rw [View.write_emb_of_mem _ _ (Finset.mem_univ y), View.read_apply]
  have he : (bPc k t).view.emb y
      = ((bM : Memref sig .tc .vmem S4096x4096 .bf16).access (bRows k)).emb (colIx t y) := by
    funext a; apply Fin.ext
    match a with
    | ⟨0, _⟩ => rfl
    | ⟨1, _⟩ => show 1024 * t.val + 1 * (y 1).val = 0 + 1 * (1024 * t.val + (y 1).val); omega
  rw [he, BB_emb]
  rfl

/-- The chunk's content does not depend on how its device and number are spelt. -/
theorem OC_idx_congr (t : Dev nD) {s s' : Dev nD} {k k' : Fin 16} (hs : s.val = s'.val) (hk : k.val = k'.val)
    (i : Idx ((t : Thread nD τ).loc main_v1)) : OC m t s k i = OC m t s' k' i := by
  obtain rfl := Fin.ext hs
  obtain rfl := Fin.ext hk
  rfl

/-- On the rows of chunk `(s, k)` the final result is what that chunk's transfer wrote. -/
theorem outF_eq_OC (t s : Dev nD) (k : Fin 16) : ∀ i ∈ (oCk s k).view.set, OC m t s k i = outF m t i := by
  intro i hi
  have h := (mem_oCk' t s k i).mp hi
  have hk : k.val < 16 := k.isLt
  exact OC_idx_congr m t (by show s.val = (i 0).val / 4096; omega) (by show k.val = (i 0).val % 4096 / 256; omega) i

/-- The landed chunk `(s, k)` of device `t`'s result at an index of its rows, by coordinates: row `a` of device
    `s`'s part of `x` where `a + 4096 s` is the index's row, column `1024 t +` the index's column. -/
theorem OC_apply (t s : Dev nD) (k : Fin 16) (i : Idx ((t : Thread nD τ).loc main_v1)) (hi : i ∈ (oCk s k).view.set)
    (a b : Fin 4096) (ha : a.val + 4096 * s.val = (i 0).val) (hb : b.val = 1024 * t.val + (i 1).val) :
    OC m t s k i = FloatOps.truncf .bf16 bitsLt_bf16_f32 (Xc m s (ix2 (n0 := 4096) (n1 := 4096) a b)) := by
  obtain ⟨y, rfl⟩ := View.exists_emb_of_mem_set _ hi
  rw [OC_emb]
  have ha' : a.val + 4096 * s.val = 4096 * s.val + 256 * k.val + 1 * (y 0).val := ha
  have hb' : b.val = 1024 * t.val + (0 + 1 * (y 1).val) := hb
  have he : (xCk k).view.emb (colIx t y) = ix2 (n0 := 4096) (n1 := 4096) a b := by
    funext d; apply Fin.ext
    match d with
    | ⟨0, _⟩ => show 256 * k.val + 1 * (y 0).val = a.val; omega
    | ⟨1, _⟩ => show 0 + 1 * (1024 * t.val + (y 1).val) = b.val; omega
  rw [he]

/-- The final result of device `t` at row `r`, column `j`: the rounding of the element of device `r / 4096`'s part
    of `x` at row `r % 4096`, column `1024 t + j`. -/
theorem outF_apply (t : Dev nD) (i : Idx ((t : Thread nD τ).loc main_v1)) :
    outF m t i = FloatOps.truncf .bf16 bitsLt_bf16_f32
      (Xc m ⟨(i 0).val / 4096, by have h : (i 0).val < 16384 := (i 0).isLt; show _ < 4; omega⟩
        (ix2 (n0 := 4096) (n1 := 4096) ⟨(i 0).val % 4096, Nat.mod_lt _ (by decide)⟩
          ⟨1024 * t.val + (i 1).val, by
            have h1 : (i 1).val < 1024 := (i 1).isLt
            have h2 : t.val < 4 := t.isLt
            omega⟩)) := by
  have h0 : (i 0).val < 16384 := (i 0).isLt
  unfold outF
  refine OC_apply m t _ _ i ((mem_oCk' t _ _ i).mpr ?_) _ _ ?_ rfl
  · show 4096 * ((i 0).val / 4096) + 256 * ((i 0).val % 4096 / 256) ≤ (i 0).val
      ∧ (i 0).val < 4096 * ((i 0).val / 4096) + 256 * ((i 0).val % 4096 / 256) + 256
    omega
  · show (i 0).val % 4096 + 4096 * ((i 0).val / 4096) = (i 0).val
    omega

/-- info: 'Cert.Kernel.A2A.outF_apply' depends on axioms: [propext, Classical.choice, Quot.sound] -/
#guard_msgs in #print axioms outF_apply

/-- info: 'Cert.Kernel.A2A.outF_eq_OC' depends on axioms: [propext, Classical.choice, Quot.sound] -/
#guard_msgs in #print axioms outF_eq_OC

/-- info: 'Cert.Kernel.A2A.OC_congr' depends on axioms: [propext, Classical.choice, Quot.sound] -/
#guard_msgs in #print axioms OC_congr

/-- info: 'Cert.Kernel.A2A.BB_congr' depends on axioms: [propext, Classical.choice, Quot.sound] -/
#guard_msgs in #print axioms BB_congr

/-- info: 'Cert.Kernel.A2A.FB_congr' depends on axioms: [propext, Classical.choice, Quot.sound] -/
#guard_msgs in #print axioms FB_congr

end Cert.Kernel.A2A

end
-- ==== Proof.Bits.OpsLocal.lean ====
/-
  The steps of the body that stay on the device: staging a chunk, rounding and storing it, copying its own column
  block into the device's own result.
  Each lemma: what the step consumes ⊢ (what it leaves -∗ the rest of the body) -∗ the body from this step.
-/
import proofs.«900006_g7700000000000007_dist_a2a_v7x_i4_i_m4096_n1024_bf16_1_alg».proof.Proof.Bits.Ghost
import proofs.«900006_g7700000000000007_dist_a2a_v7x_i4_i_m4096_n1024_bf16_1_alg».proof.Proof.Bits.Tiling
import proofs.«900006_g7700000000000007_dist_a2a_v7x_i4_i_m4096_n1024_bf16_1_alg».proof.Proof.Bits.Values

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (c : Dev nD) (K : Dev nD × CI → ℕ)

/-! ## A cell's invariant and its round-0 fact, out of the records -/

/-- The number of a DMA semaphore's cell among a device's cells. -/
private def ciOf (s : DmaSem sig) : CI := ⟨s.val, Nat.lt_succ_of_lt s.isLt⟩

omit [FloatOps F] in
private theorem kcell_dma (c' : Dev nD) (s : DmaSem sig) : kcell (c', ciOf s) = ((c' : Thread nD τ), SemLoc.dma s) := by
  unfold kcell ciOf
  rw [dif_pos (show (s.val : ℕ) < 114 from s.isLt)]

private theorem inv_at (ck : Dev nD × CI) :
    (bigSep Finset.univ fun ck : Dev nD × CI => (cellInv ER (sched m) (K ck) (kcell ck) : sProp 𝕄))
      ⊢ cellInv ER (sched m) (K ck) (kcell ck) :=
  bigSep_elim (Finset.mem_univ ck)

omit [FloatOps F] in
private theorem reached_at (ck : Dev nD × CI) :
    (bigSep Finset.univ fun ck : Dev nD × CI => (reached ER (kcell ck) 0 : sProp 𝕄)) ⊢ reached ER (kcell ck) 0 :=
  bigSep_elim (Finset.mem_univ ck)

private theorem inv_dma (c' : Dev nD) (s : DmaSem sig) :
    records m K ⊢ cellInv ER (sched m) (K (c', ciOf s)) ((c' : Thread nD τ), SemLoc.dma s) := by
  unfold records
  iintro ⟨#HI, -⟩
  rw [← kcell_dma c' s]
  iapply (inv_at m K (c', ciOf s)); iexact HI

private theorem reached0_dma (c' : Dev nD) (s : DmaSem sig) :
    records m K ⊢ reached ER ((c' : Thread nD τ), SemLoc.dma s) 0 := by
  unfold records
  iintro ⟨-, #HR⟩
  rw [← kcell_dma c' s]
  iapply (reached_at (F := F) (c', ciOf s)); iexact HR

/-- The chunk staged by round `k / 2` of chunk `k`'s slot is chunk `k`. -/
private theorem ckOf_slot (k : Fin 16) : ckOf (slot k) (k.val / 2) = k := by revert k; decide

private theorem half_lt (k : Fin 16) : k.val / 2 < 8 := by have := k.isLt; omega

/-- What the wait for chunk `k`'s staging hands over. -/
private theorem rest_cp (k : Fin 16) :
    bigSep ((sched (F := F) m).duties (cpCell c (slot k)) (k.val / 2) \ ∅)
        (fun d => (sched (F := F) m).payload (cpCell c (slot k)) (k.val / 2) d) = cpPay m c k := by
  rw [Finset.sdiff_empty, duties_cp m c (slot k) (k.val / 2) (half_lt k), bigSep_singleton, payload_cp, ckOf_slot]

/-- Chunk `k`'s copy into its staging slot is issued. -/
theorem op_enq_in (k : Fin 16) {hsrc hdst hsem} {α : Type} {Q : α → sProp 𝕄} {kk : PUnit → Prog (TpuEff nD τ sig (Elt F) Λ₀ .tc) α} :
    iprop(records m K ∗ reached ER (cpCell c (slot k)) (k.val / 2) ∗ dutyTok ER (cpCell c (slot k)) (k.val / 2) (0 : Fin 3)
        ∗ (xL c ↦[(xCk k).view.set]{fullShare} Xc m c)
        ∗ (∃ fd : Buf (Elt F) (fL c), fL c ↦[(fSt (slot k)).view.set]{fullShare} fd))
      ⊢ iprop((cred (tallyAt (cpCell c (slot k)) () NF) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xCk k) (.here (fSt (slot k))) (.dma (cpS (slot k))) hsrc hdst hsem) kk) Q) := by
  iintro ⟨#HR, #Hr, Htok, Hx, ⟨%fd, Hf⟩⟩
  iapply (Rounds.wp_copy_pointsTo 𝒱₀ ER (sched m) (c : Thread nD τ) none (src := xCk k) (dst := fSt (slot k)) (sem := SemLoc.dma (cpS (slot k)))
      (q := fullShare) (fs := Xc m c) (fd := fd) (r := k.val / 2) (d := (0 : Fin 3)) (κ := K (c, ciOf (cpS (slot k))))
      (by rw [duties_cp m c (slot k) (k.val / 2) (half_lt k)]; exact Finset.mem_singleton_self _) () NF rfl (amount_cp m c (slot k) (k.val / 2) 0)
      (by rw [payload_cp, ckOf_slot]; unfold cpPay; rw [pointsTo_congr (FB_congr m c k fd)])) $$ [Htok Hx Hf]
  isplitr; · iapply (inv_dma m K c (cpS (slot k))); iexact HR
  isplitl [Hx]; · iexact Hx
  isplitl [Hf]; · iexact Hf
  isplitl [Htok]; · iexact Htok
  iexact Hr

/-- Chunk `k` has landed in its slot; it is loaded, rounded and stored into its rows of the rounded array (the
    load of those rows before the store reads nothing that is used). -/
theorem op_stage (k : Fin 16) (O : CellTallies nD τ sig Unit) (W : Waits sig Unit) {h1 h2 hl1 hl2 hx hm}
    {α : Type} {Q : α → sProp 𝕄} {k' : PUnit → Prog (TpuEff nD τ sig (Elt F) Λ₀ .tc) α} :
    iprop(records m K ∗ cred (tallyAt (cpCell c (slot k)) () NF) ∗ owes (c : Thread nD τ) O W
        ∗ MayWait (c : Thread nD τ) (.dma (cpS (slot k))) () O ∗ atPos ER (cpCell c (slot k)) (k.val / 2) ∅ 0
        ∗ (∃ fb : Buf (Elt F) (bL c), bL c ↦[((bM : Memref sig .tc .vmem S4096x4096 .bf16).access (bRows k)).setOn Finset.univ]{fullShare} fb))
      ⊢ iprop(((owes (c : Thread nD τ) O (insert (SemLoc.dma (cpS (slot k)), ()) W)
              ∗ atPos ER (cpCell c (slot k)) (k.val / 2 + 1) ∅ 0 ∗ reached ER (cpCell c (slot k)) (k.val / 2 + 1)
              ∗ (fL c ↦[(fSt (slot k)).view.set]{fullShare} FB m c k) ∗ (xL c ↦[(xCk k).view.set]{fullShare} Xc m c)
              ∗ (bL c ↦[((bM : Memref sig .tc .vmem S4096x4096 .bf16).access (bRows k)).setOn Finset.univ]{fullShare} BB m c k))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 (cpS (slot k)) (xCk k) (fSt (slot k)) h1 h2) fun _ =>
                .op (.load (fM : Memref sig .tc .vmem S2x256x4096 .f32) (fRect (slot k)).toLoadRect hl1) fun v =>
                .op (.load (bM : Memref sig .tc .vmem S4096x4096 .bf16) (bRows k).toLoadRect hl2) fun _ =>
                .op (.store (bM : Memref sig .tc .vmem S4096x4096 .bf16) (bRows k) (pay v) Finset.univ hx hm) k') Q) := by
  iintro ⟨#HR, Hc, HO, HM, Hat, ⟨%fb, Hb⟩⟩ Hk
  -- the wait on the staging semaphore: the slot holding the chunk, and the chunk's rows of `x` back
  iapply (Rounds.wp_wait_rest_token 𝒱₀ ER (sched m) (c : Thread nD τ) none (κ := K (c, ciOf (cpS (slot k))))
      (wpE_waitDma2_eq 𝒱₀ (c : Thread nD τ) none Set.univ) (Set.mem_univ _) () (O := O) (W := W) (R := k.val / 2) (m := 0) (T := ∅)
      (by rw [Nat.zero_add, expect_cp m c (slot k) (k.val / 2) (half_lt k)])) $$ [Hc HO HM Hat]
  · isplitr; · iapply (inv_dma m K c (cpS (slot k))); iexact HR
    isplitl [Hc]; · iexact Hc
    isplitl [HO]; · iexact HO
    isplitl [HM]; · iexact HM
    iexact Hat
  iintro ⟨HO, Hat, #Hr1, Hpay⟩
  ihave Hp := (Entails.of_eq (rest_cp m c k)) $$ Hpay
  unfold cpPay
  icases Hp with ⟨Hf, Hx⟩
  -- the load of the slot
  iapply (wp_load 𝒱₀ (c : Thread nD τ) none Set.univ (m := (fM : Memref sig .tc .vmem S2x256x4096 .f32)) (r := (fRect (slot k)).toLoadRect)
      (S := (fSt (slot k)).view.set) (q := fullShare) (f := FB m c k) (by rw [fRect_loadSet])) $$ Hf
  iintro Hf
  -- the load of the chunk's rows of the rounded array
  iapply (wp_load 𝒱₀ (c : Thread nD τ) none Set.univ (m := (bM : Memref sig .tc .vmem S4096x4096 .bf16)) (r := (bRows k).toLoadRect)
      (S := ((bM : Memref sig .tc .vmem S4096x4096 .bf16).access (bRows k)).setOn Finset.univ) (q := fullShare) (f := fb)
      (by rw [bRows_loadSet_eq])) $$ Hb
  iintro Hb
  -- the store of the rounded chunk
  iapply (wp_store 𝒱₀ (c : Thread nD τ) none Set.univ (m := (bM : Memref sig .tc .vmem S4096x4096 .bf16)) (r := bRows k) (w := pay (ld m c k))
      (Mk := Finset.univ) (S := ((bM : Memref sig .tc .vmem S4096x4096 .bf16).access (bRows k)).setOn Finset.univ) (f := fb)
      subset_rfl) $$ Hb
  iintro Hb
  ihave Hb' := (Entails.of_eq (pointsTo_congr (BB_congr m c k fb))) $$ Hb
  iapply Hk
  isplitl [HO]; · iexact HO
  isplitl [Hat]; · iexact Hat
  isplitr; · iexact Hr1
  isplitl [Hf]; · iexact Hf
  isplitl [Hx]; · iexact Hx
  iexact Hb'

/-- Chunk `k`'s own column block is copied into the device's own result. -/
theorem op_enq_lc (k : Fin 16) (offB offO : Fin 2 → Nat) (hoffB : offB = bOff k c) (hoffO : offO = oOff c k)
    {hb ho hsrc hdst hsem} (g : Buf (Elt F) (oL c)) {α : Type} {Q : α → sProp 𝕄} {kk : PUnit → Prog (TpuEff nD τ sig (Elt F) Λ₀ .tc) α} :
    iprop(records m K ∗ dutyTok ER (lcCell c k) 0 (0 : Fin 3)
        ∗ (bL c ↦[(bPc k c).view.set]{fullShare} BB m c k) ∗ (oL c ↦[(oCk c k).view.set]{fullShare} g))
      ⊢ iprop((cred (tallyAt (lcCell c k) () NO) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (bSl offB hb) (.here (oSl offO ho)) (.dma (lcS k)) hsrc hdst hsem) kk) Q) := by
  subst hoffB hoffO
  iintro ⟨#HR, Htok, Hb, Ho⟩
  iapply (Rounds.wp_copy_pointsTo 𝒱₀ ER (sched m) (c : Thread nD τ) none (src := bPc k c) (dst := oCk c k) (sem := SemLoc.dma (lcS k))
      (q := fullShare) (fs := BB m c k) (fd := g) (r := 0) (d := (0 : Fin 3)) (κ := K (c, ciOf (lcS k)))
      (by rw [duties_lc]; exact Finset.mem_singleton_self _) () NO rfl (amount_lc m c k 0)
      (by rw [payload_lc]; unfold lcPay; rw [pointsTo_congr (OC_congr m c c k g)])) $$ [Htok Hb Ho]
  isplitr; · iapply (inv_dma m K c (lcS k)); iexact HR
  isplitl [Hb]; · iexact Hb
  isplitl [Ho]; · iexact Ho
  isplitl [Htok]; · iexact Htok
  iapply (reached0_dma m K c (lcS k)); iexact HR

end Ops

/-- info: 'Cert.Kernel.A2A.op_enq_in' depends on axioms: [propext, Classical.choice, Quot.sound] -/
#guard_msgs in #print axioms op_enq_in

/-- info: 'Cert.Kernel.A2A.op_stage' depends on axioms: [propext, Classical.choice, Quot.sound] -/
#guard_msgs in #print axioms op_stage

/-- info: 'Cert.Kernel.A2A.op_enq_lc' depends on axioms: [propext, Classical.choice, Quot.sound] -/
#guard_msgs in #print axioms op_enq_lc

end Cert.Kernel.A2A

end
-- ==== Proof.Bits.OpsRemote.lean ====
/-
  The steps of the body that cross devices or close the protocol: the barrier units, the sends, and the final waits.
  Each lemma: what the step consumes ⊢ (what it leaves -∗ the rest of the body) -∗ the body from this step.
-/
import proofs.«900006_g7700000000000007_dist_a2a_v7x_i4_i_m4096_n1024_bf16_1_alg».proof.Proof.Bits.Ghost
import proofs.«900006_g7700000000000007_dist_a2a_v7x_i4_i_m4096_n1024_bf16_1_alg».proof.Proof.Bits.Tiling
import proofs.«900006_g7700000000000007_dist_a2a_v7x_i4_i_m4096_n1024_bf16_1_alg».proof.Proof.Bits.Values

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (c : Dev nD) (K : Dev nD × CI → ℕ)

/-! ## A cell's invariant and its round-0 fact, out of the records -/

private def dmaIx (s : DmaSem sig) : CI := ⟨s.val, by have h : s.val < 114 := s.isLt; omega⟩
private def barIx : CI := ⟨114, by decide⟩

private theorem kcell_dma (c' : Dev nD) (s : DmaSem sig) : kcell (c', dmaIx s) = ((c' : Thread nD τ), .dma s) := by
  unfold kcell dmaIx
  rw [dif_pos (show s.val < 114 from s.isLt)]
private theorem kcell_bar (c' : Dev nD) : kcell (c', barIx) = barCell c' := by
  unfold kcell barIx
  rw [dif_neg (Nat.lt_irrefl 114)]

private theorem inv_dma (c' : Dev nD) (s : DmaSem sig) :
    records m K ⊢ cellInv ER (sched m) (K (c', dmaIx s)) ((c' : Thread nD τ), .dma s) := by
  have h : (bigSep Finset.univ fun ck : Dev nD × CI => (cellInv ER (sched m) (K ck) (kcell ck) : sProp 𝕄))
      ⊢ cellInv ER (sched m) (K (c', dmaIx s)) (kcell (c', dmaIx s)) := bigSep_elim (Finset.mem_univ _)
  rw [kcell_dma] at h
  unfold records
  exact sep_elim_left.trans h
private theorem reached_dma (c' : Dev nD) (s : DmaSem sig) :
    records m K ⊢ reached ER ((c' : Thread nD τ), .dma s) 0 := by
  have h : (bigSep Finset.univ fun ck : Dev nD × CI => (reached ER (kcell ck) 0 : sProp 𝕄))
      ⊢ reached ER (kcell (c', dmaIx s)) 0 := bigSep_elim (Finset.mem_univ _)
  rw [kcell_dma] at h
  unfold records
  exact sep_elim_right.trans h
private theorem inv_bar (c' : Dev nD) :
    records m K ⊢ cellInv ER (sched m) (K (c', barIx)) (barCell c') := by
  have h : (bigSep Finset.univ fun ck : Dev nD × CI => (cellInv ER (sched m) (K ck) (kcell ck) : sProp 𝕄))
      ⊢ cellInv ER (sched m) (K (c', barIx)) (kcell (c', barIx)) := bigSep_elim (Finset.mem_univ _)
  rw [kcell_bar] at h
  unfold records
  exact sep_elim_left.trans h
private theorem reached_bar (c' : Dev nD) :
    records m K ⊢ reached ER (barCell c') 0 := by
  have h : (bigSep Finset.univ fun ck : Dev nD × CI => (reached ER (kcell ck) 0 : sProp 𝕄))
      ⊢ reached ER (kcell (c', barIx)) 0 := bigSep_elim (Finset.mem_univ _)
  rw [kcell_bar] at h
  unfold records
  exact sep_elim_right.trans h

/-- The credit of any 256 × 1024 piece of a result: it reads only the buffer, the shape and the element type. -/
private theorem credit_oSl (off : Fin 2 → Nat) (h : ∀ a, off a + S256x1024.size a ≤ S16384x1024.size a) :
    (oSl off h).view.dmaCredit = NO := by
  unfold View.dmaCredit
  rfl

/-- The credit of any 256 × 1024 piece of the rounded array: the same number. -/
private theorem credit_bSl (off : Fin 2 → Nat) (h : ∀ a, off a + S256x1024.size a ≤ S4096x4096.size a) :
    (bSl off h).view.dmaCredit = NO := by
  unfold View.dmaCredit
  rfl

/-! ## The payloads of a cell's one round, listed -/

private theorem rest_lc (k : Fin 16) :
    bigSep ((sched (F := F) m).duties (lcCell c k) 0 \ ∅) (fun d => (sched (F := F) m).payload (lcCell c k) 0 d) = lcPay m c k := by
  rw [Finset.sdiff_empty, duties_lc, bigSep_singleton, payload_lc]
private theorem rest_sd (j : Fin 3) (k : Fin 16) :
    bigSep ((sched (F := F) m).duties (sdCell c j k) 0 \ ∅) (fun d => (sched (F := F) m).payload (sdCell c j k) 0 d) = sdPay m c j k := by
  rw [Finset.sdiff_empty, duties_sd, bigSep_singleton, payload_sd]
private theorem rest_rv (j : Fin 3) (k : Fin 16) :
    bigSep ((sched (F := F) m).duties (rvCell c j k) 0 \ ∅) (fun d => (sched (F := F) m).payload (rvCell c j k) 0 d) = rvPay m c j k := by
  rw [Finset.sdiff_empty, duties_rv, bigSep_singleton, payload_rv]
private theorem rest_bar :
    bigSep ((sched (F := F) m).duties (barCell c) 0 \ ∅) (fun d => (sched (F := F) m).payload (barCell c) 0 d)
      = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons,
    bigSepL_singleton]
  rfl

/-- The unit signalled to the barrier cell of the peer `j + 1` places on: it carries the rows of this device's result
    that peer will write. -/
theorem op_signal (j : Fin 3) (dv : Dev nD) (hdv : dv = pr c j) (f : ℕ) (W : Waits sig Unit) {α : Type} {Q : α → sProp 𝕄} {kk : PUnit → Prog (TpuEff nD τ sig (Elt F) Λ₀ .tc) α} :
    iprop(records m K ∗ owes (c : Thread nD τ) (owedFrom c (f + 1) j.val) W ∗ dutyTok ER (barCell (pr c j)) 0 j ∗ barPay (F := F) (pr c j) j)
      ⊢ iprop((owes (c : Thread nD τ) (owedFrom c f (j.val + 1)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((dv, Proc.tc) : Thread nD τ) barS (1#32).toNat) kk) Q) := by
  subst hdv
  iintro ⟨#Hrec, HO, Htok, Hpay⟩
  ihave #HI := (inv_bar m K (pr c j)) $$ Hrec
  ihave #Hr := (reached_bar m K (pr c j)) $$ Hrec
  iapply (Rounds.wp_signal 𝒱₀ ER (sched m) (c : Thread nD τ) none (dst := ((pr c j : Dev nD) : Thread nD τ)) (sem := barS)
      (κ := K (pr c j, barIx)) (r := 0) (d := j)
      (by rw [duties_bar]; exact Finset.mem_univ _) ((amount_bar m (pr c j) j).trans (by decide)) ()
      (O₀ := owedFrom c (f + 1) j.val) (owedFrom c f (j.val + 1))
      (by rw [owedFrom_succ, payTally_bar]; first | rfl | done) (W := W))
    $$ [HO Htok Hpay]
  · isplitr; · iexact HI
    isplitl [HO]; · iexact HO
    isplitl [Htok]; · iexact Htok
    isplitl [Hpay]; · rw [payload_bar]; iexact Hpay
    iexact Hr

/-- The wait for the three peers' units: with them come the rows of the peers' results this device writes. -/
theorem op_bar_wait (W : Waits sig Unit) {α : Type} {Q : α → sProp 𝕄} {kk : PUnit → Prog (TpuEff nD τ sig (Elt F) Λ₀ .tc) α} :
    iprop(records m K ∗ cred (tallyAt (barCell c) () 3) ∗ owes (c : Thread nD τ) (owedFrom c 48 3) W ∗ levAts L lv
        ∗ atPos ER (barCell c) 0 ∅ 0)
      ⊢ iprop(((owes (c : Thread nD τ) (owedFrom c 48 3) (insert (SemLoc.reg barS, ()) W) ∗ atPos ER (barCell c) 1 ∅ 0
              ∗ barPay (F := F) c 0 ∗ barPay (F := F) c 1 ∗ barPay (F := F) c 2) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32).toNat) kk) Q) := by
  iintro ⟨#Hrec, Hc, HO, #Hlev, Hat⟩ Hk
  ihave #HI := (inv_bar m K c) $$ Hrec
  iapply (Rounds.wp_wait_rest_token 𝒱₀ ER (sched m) (c : Thread nD τ) none (κ := K (c, barIx))
      (wpE_semWait_eq 𝒱₀ (c : Thread nD τ) none Set.univ) (Set.mem_univ _) () (O := owedFrom c 48 3) (W := W) (R := 0) (m := 0) (T := ∅)
      (by rw [expect_bar]; decide)) $$ [Hc HO Hat]
  · isplitr; · iexact HI
    isplitl [Hc]; · iexact Hc
    isplitl [HO]; · iexact HO
    isplitr; · iapply (mayWait_low c (.reg barS) (Nat.le_refl 1) 48 3 (Nat.le_refl 3)); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Chunk `k`'s column block for the peer `j + 1` places on is sent into that peer's result; it is payment
    `3 + 3 k + o` of the device, `o` the place of `j` in the order of the chunk's sends. -/
theorem op_send (j : Fin 3) (k : Fin 16) (o : Fin 3) (ho : ordJ o.val = j) (dv : Dev nD) (hdv : dv = pr c j)
    (offB offO : Fin 2 → Nat) (hoffB : offB = bOff k (pr c j)) (hoffO : offO = oOff c k) (f : ℕ) (W : Waits sig Unit)
    {hb hoo hsc hsrc hdst hsem} {α : Type} {Q : α → sProp 𝕄} {kk : PUnit → Prog (TpuEff nD τ sig (Elt F) Λ₀ .tc) α} :
    iprop(records m K ∗ dutyTok ER (sdCell c j k) 0 (0 : Fin 3) ∗ dutyTok ER (rvCell (pr c j) j k) 0 (0 : Fin 3)
        ∗ owes (c : Thread nD τ) (owedFrom c (f + 1) (3 + 3 * k.val + o.val)) W
        ∗ (bL c ↦[(bPc k (pr c j)).view.set]{fullShare} BB m c k)
        ∗ (∃ fd : Buf (Elt F) (oL (pr c j)), oL (pr c j) ↦[(oCk c k).view.set]{fullShare} fd))
      ⊢ iprop(((cred (tallyAt (sdCell c j k) () NO) ∗ owes (c : Thread nD τ) (owedFrom c f (3 + 3 * k.val + o.val + 1)) W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (bSl offB hb) (.remote (Dev.tc dv) (oSl offO hoo) (.dma (sdS j k)) hsc) (.dma (rvS j k)) hsrc hdst hsem) kk) Q) := by
  subst hdv hoffB hoffO
  iintro ⟨#Hrec, HtS, HtR, HO, Hb, ⟨%fd, Ho⟩⟩
  ihave #HIs := (inv_dma m K c (sdS j k)) $$ Hrec
  ihave #HIr := (inv_dma m K (pr c j) (rvS j k)) $$ Hrec
  ihave #Hrs := (reached_dma m K c (sdS j k)) $$ Hrec
  ihave #Hrr := (reached_dma m K (pr c j) (rvS j k)) $$ Hrec
  iapply (Rounds.wp_send_pointsTo 𝒱₀ ER (sched m) (c : Thread nD τ) none (c' := ((pr c j : Dev nD) : Thread nD τ))
      (src := bPc k (pr c j)) (dst := oCk c k) (sS := .dma (sdS j k)) (sem := .dma (rvS j k)) (q := fullShare)
      (fs := BB m c k) (fd := fd)
      (κ₁ := K (c, dmaIx (sdS j k))) (κ₂ := K (pr c j, dmaIx (rvS j k)))
      (r₁ := 0) (r₂ := 0) (d₁ := (0 : Fin 3)) (d₂ := (0 : Fin 3))
      (by rw [duties_sd]; exact Finset.mem_singleton_self _) (by rw [duties_rv]; exact Finset.mem_singleton_self _)
      () () NO rfl (amount_sd m c j k 0) (amount_rv m (pr c j) j k 0)
      (O₀ := owedFrom c (f + 1) (3 + 3 * k.val + o.val)) (owedFrom c f (3 + 3 * k.val + o.val + 1))
      (by rw [owedFrom_succ, payTally_rv, ho]) (W := W)
      (by rw [payload_sd]; exact Entails.rfl)
      (by rw [payload_rv]; unfold rvPay; rw [qr_pr]; exact Entails.of_eq (pointsTo_congr (OC_congr m (pr c j) c k fd))))
    $$ [HtS HtR HO Hb Ho]
  · isplitr; · iexact HIs
    isplitr; · iexact HIr
    isplitl [Hb]; · iexact Hb
    isplitl [Ho]; · iexact Ho
    isplitl [HO]; · iexact HO
    isplitl [HtS]; · iexact HtS
    isplitr; · iexact Hrs
    isplitl [HtR]; · iexact HtR
    iexact Hrr

/-- The three waits that end the body, each on a cell nobody owes after: the device owes nothing by then. -/
theorem op_wait_lc (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (lcCell c k) () NO) ∗ owes (c : Thread nD τ) 0 W ∗ atPos ER (lcCell c k) 0 ∅ 0)
      ⊢ iprop(((owes (c : Thread nD τ) 0 (insert (SemLoc.dma (lcS k), ()) W) ∗ atPos ER (lcCell c k) 1 ∅ 0 ∗ lcPay m c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcS k) (bSl offB hb) (oSl offO ho) h1 h2) kk) Q) := by
  iintro ⟨#Hrec, Hc, HO, Hat⟩ Hk
  ihave #HI := (inv_dma m K c (lcS k)) $$ Hrec
  iapply (Rounds.wp_wait_rest_token 𝒱₀ ER (sched m) (c : Thread nD τ) none (κ := K (c, dmaIx (lcS k)))
      (wpE_waitDma2_eq 𝒱₀ (c : Thread nD τ) none Set.univ) (Set.mem_univ _) () (O := 0) (W := W) (R := 0) (m := 0) (T := ∅)
      (by rw [Nat.zero_add, credit_oSl offO ho, expect_lc])) $$ [Hc HO Hat]
  · isplitr; · iexact HI
    isplitl [Hc]; · rw [credit_oSl offO ho]; iexact Hc
    isplitl [HO]; · iexact HO
    isplitr; · rw [MayWait_zero]; iempintro
    iexact Hat
  iintro ⟨HO, Hat, -, Hpay⟩
  ihave Hp := (Entails.of_eq (rest_lc m c k)) $$ Hpay
  iapply Hk
  isplitl [HO]; · iexact HO
  isplitl [Hat]; · iexact Hat
  iexact Hp

theorem op_wait_sd (j : Fin 3) (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (sdCell c j k) () NO) ∗ owes (c : Thread nD τ) 0 W ∗ atPos ER (sdCell c j k) 0 ∅ 0)
      ⊢ iprop(((owes (c : Thread nD τ) 0 (insert (SemLoc.dma (sdS j k), ()) W) ∗ atPos ER (sdCell c j k) 1 ∅ 0 ∗ sdPay m c j k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sdS j k) (oSl offO ho) (bSl offB hb) h1 h2) kk) Q) := by
  iintro ⟨#Hrec, Hc, HO, Hat⟩ Hk
  ihave #HI := (inv_dma m K c (sdS j k)) $$ Hrec
  iapply (Rounds.wp_wait_rest_token 𝒱₀ ER (sched m) (c : Thread nD τ) none (κ := K (c, dmaIx (sdS j k)))
      (wpE_waitDma2_eq 𝒱₀ (c : Thread nD τ) none Set.univ) (Set.mem_univ _) () (O := 0) (W := W) (R := 0) (m := 0) (T := ∅)
      (by rw [Nat.zero_add, credit_bSl offB hb, expect_sd])) $$ [Hc HO Hat]
  · isplitr; · iexact HI
    isplitl [Hc]; · rw [credit_bSl offB hb]; iexact Hc
    isplitl [HO]; · iexact HO
    isplitr; · rw [MayWait_zero]; iempintro
    iexact Hat
  iintro ⟨HO, Hat, -, Hpay⟩
  ihave Hp := (Entails.of_eq (rest_sd m c j k)) $$ Hpay
  iapply Hk
  isplitl [HO]; · iexact HO
  isplitl [Hat]; · iexact Hat
  iexact Hp

theorem op_wait_rv (j : Fin 3) (k : Fin 16) (offB offO : Fin 2 → Nat) (W : Waits sig Unit) {hb ho h1 h2} {α : Type} {Q : α → sProp 𝕄} {kk : PUnit → Prog (TpuEff nD τ sig (Elt F) Λ₀ .tc) α} :
    iprop(records m K ∗ cred (tallyAt (rvCell c j k) () NO) ∗ owes (c : Thread nD τ) 0 W ∗ atPos ER (rvCell c j k) 0 ∅ 0)
      ⊢ iprop(((owes (c : Thread nD τ) 0 (insert (SemLoc.dma (rvS j k), ()) W) ∗ atPos ER (rvCell c j k) 1 ∅ 0 ∗ rvPay m c j k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rvS j k) (bSl offB hb) (oSl offO ho) h1 h2) kk) Q) := by
  iintro ⟨#Hrec, Hc, HO, Hat⟩ Hk
  ihave #HI := (inv_dma m K c (rvS j k)) $$ Hrec
  iapply (Rounds.wp_wait_rest_token 𝒱₀ ER (sched m) (c : Thread nD τ) none (κ := K (c, dmaIx (rvS j k)))
      (wpE_waitDma2_eq 𝒱₀ (c : Thread nD τ) none Set.univ) (Set.mem_univ _) () (O := 0) (W := W) (R := 0) (m := 0) (T := ∅)
      (by rw [Nat.zero_add, credit_oSl offO ho, expect_rv])) $$ [Hc HO Hat]
  · isplitr; · iexact HI
    isplitl [Hc]; · rw [credit_oSl offO ho]; iexact Hc
    isplitl [HO]; · iexact HO
    isplitr; · rw [MayWait_zero]; iempintro
    iexact Hat
  iintro ⟨HO, Hat, -, Hpay⟩
  ihave Hp := (Entails.of_eq (rest_rv m c j k)) $$ Hpay
  iapply Hk
  isplitl [HO]; · iexact HO
  isplitl [Hat]; · iexact Hat
  iexact Hp

end Ops

/-- info: 'Cert.Kernel.A2A.op_signal' depends on axioms: [propext, Classical.choice, Quot.sound] -/
#guard_msgs in #print axioms op_signal

/-- info: 'Cert.Kernel.A2A.op_bar_wait' depends on axioms: [propext, Classical.choice, Quot.sound] -/
#guard_msgs in #print axioms op_bar_wait

/-- info: 'Cert.Kernel.A2A.op_send' depends on axioms: [propext, Classical.choice, Quot.sound] -/
#guard_msgs in #print axioms op_send

/-- info: 'Cert.Kernel.A2A.op_wait_lc' depends on axioms: [propext, Classical.choice, Quot.sound] -/
#guard_msgs in #print axioms op_wait_lc

/-- info: 'Cert.Kernel.A2A.op_wait_sd' depends on axioms: [propext, Classical.choice, Quot.sound] -/
#guard_msgs in #print axioms op_wait_sd

/-- info: 'Cert.Kernel.A2A.op_wait_rv' depends on axioms: [propext, Classical.choice, Quot.sound] -/
#guard_msgs in #print axioms op_wait_rv

end Cert.Kernel.A2A

end
-- ==== Proof.Bits.Joins.lean ====
/-
  Holding an array whole and holding it piece by piece: the device's part of `x` by its sixteen chunks, the result
  by its 4 × 16 chunks, the rounded array by its chunks' rows and each chunk's rows by its four pieces, the staging
  buffer by its two slots; the pieces of the rounded array and the slots joined back; and a separating conjunction
  over a small finite type written out factor by factor.
-/
import proofs.«900006_g7700000000000007_dist_a2a_v7x_i4_i_m4096_n1024_bf16_1_alg».proof.Proof.Bits.Ghost
import proofs.«900006_g7700000000000007_dist_a2a_v7x_i4_i_m4096_n1024_bf16_1_alg».proof.Proof.Bits.Tiling

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## No element is left out -/

theorem xCk_ex (i : (xM : Memref sig .tc .hbm S4096x4096 .f32).view.ty.Idx) : ∃ k : Fin 16, i ∈ (xCk k).view.set := by
  have h0 : (i 0).val < 4096 := (i 0).isLt
  have hk : (i 0).val / 256 < 16 := by omega
  refine ⟨⟨(i 0).val / 256, hk⟩, ?_⟩
  rw [mem_xCk]
  show 256 * ((i 0).val / 256) ≤ (i 0).val ∧ (i 0).val < 256 * ((i 0).val / 256) + 256
  omega

theorem fSt_ex (x : (fM : Memref sig .tc .vmem S2x256x4096 .f32).view.ty.Idx) : ∃ i : Fin 2, x ∈ (fSt i).view.set := by
  have h0 : (x 0).val < 2 := (x 0).isLt
  refine ⟨⟨(x 0).val, h0⟩, ?_⟩
  rw [mem_fSt]

theorem oCk_ex (i : (oM : Memref sig .tc .hbm S16384x1024 .bf16).view.ty.Idx) :
    ∃ p : Dev nD × Fin 16, i ∈ (oCk p.1 p.2).view.set := by
  have h0 : (i 0).val < 16384 := (i 0).isLt
  have hs : (i 0).val / 4096 < 4 := by omega
  have hk : (i 0).val % 4096 / 256 < 16 := by omega
  refine ⟨((⟨(i 0).val / 4096, hs⟩ : Dev nD), (⟨(i 0).val % 4096 / 256, hk⟩ : Fin 16)), ?_⟩
  show i ∈ (oCk (⟨(i 0).val / 4096, hs⟩ : Dev nD) (⟨(i 0).val % 4096 / 256, hk⟩ : Fin 16)).view.set
  rw [mem_oCk]
  show 4096 * ((i 0).val / 4096) + 256 * ((i 0).val % 4096 / 256) ≤ (i 0).val
    ∧ (i 0).val < 4096 * ((i 0).val / 4096) + 256 * ((i 0).val % 4096 / 256) + 256
  omega

theorem bPc_ex (i : (bM : Memref sig .tc .vmem S4096x4096 .bf16).view.ty.Idx) :
    ∃ p : Fin 16 × Dev nD, i ∈ (bPc p.1 p.2).view.set := by
  have h0 : (i 0).val < 4096 := (i 0).isLt
  have h1 : (i 1).val < 4096 := (i 1).isLt
  have hk : (i 0).val / 256 < 16 := by omega
  have ht : (i 1).val / 1024 < 4 := by omega
  refine ⟨((⟨(i 0).val / 256, hk⟩ : Fin 16), (⟨(i 1).val / 1024, ht⟩ : Dev nD)), ?_⟩
  show i ∈ (bPc (⟨(i 0).val / 256, hk⟩ : Fin 16) (⟨(i 1).val / 1024, ht⟩ : Dev nD)).view.set
  rw [mem_bPc]
  show 256 * ((i 0).val / 256) ≤ (i 0).val ∧ (i 0).val < 256 * ((i 0).val / 256) + 256
    ∧ 1024 * ((i 1).val / 1024) ≤ (i 1).val ∧ (i 1).val < 1024 * ((i 1).val / 1024) + 1024
  omega

theorem bRows_ex (i : (bM : Memref sig .tc .vmem S4096x4096 .bf16).view.ty.Idx) :
    ∃ k : Fin 16, i ∈ ((bM : Memref sig .tc .vmem S4096x4096 .bf16).access (bRows k)).setOn Finset.univ := by
  have h0 : (i 0).val < 4096 := (i 0).isLt
  have hk : (i 0).val / 256 < 16 := by omega
  refine ⟨⟨(i 0).val / 256, hk⟩, ?_⟩
  rw [mem_bRows]
  show 256 * ((i 0).val / 256) ≤ (i 0).val ∧ (i 0).val < 256 * ((i 0).val / 256) + 256
  omega

/-! ## Held whole, held piece by piece -/

/-- A buffer held whole is held piece by piece, for pieces pairwise disjoint that leave no element out. -/
theorem split_of_ex {ℓ : Loc nD τ sig} {T : Type} [Fintype T] (K : T → Finset (Idx ℓ))
    (hc : ∀ i, ∃ t, i ∈ K t) (hd : ∀ t t', t ≠ t' → Disjoint (K t) (K t'))
    (q : PosShare TreeShare) (f : Buf (Elt F) ℓ) :
    (ℓ ↦{q} f : sProp 𝕄) = bigSep Finset.univ (fun t => (ℓ ↦[K t]{q} f : sProp 𝕄)) := by
  rw [← pointsTo_biUnion Finset.univ K (fun t _ t' _ h => hd t t' h)]
  congr 1
  symm; rw [Finset.eq_univ_iff_forall]; intro i
  obtain ⟨t, ht⟩ := hc i
  exact Finset.mem_biUnion.mpr ⟨t, Finset.mem_univ _, ht⟩

/-- Elements held are held piece by piece, for pieces pairwise disjoint that make them up. -/
theorem split_of_iff {ℓ : Loc nD τ sig} {T : Type} [Fintype T] (S : Finset (Idx ℓ)) (K : T → Finset (Idx ℓ))
    (hc : ∀ i, i ∈ S ↔ ∃ t, i ∈ K t) (hd : ∀ t t', t ≠ t' → Disjoint (K t) (K t'))
    (q : PosShare TreeShare) (f : Buf (Elt F) ℓ) :
    (ℓ ↦[S]{q} f : sProp 𝕄) = bigSep Finset.univ (fun t => (ℓ ↦[K t]{q} f : sProp 𝕄)) := by
  rw [← pointsTo_biUnion Finset.univ K (fun t _ t' _ h => hd t t' h)]
  congr 1
  ext i; rw [hc i, Finset.mem_biUnion]
  exact ⟨fun ⟨t, ht⟩ => ⟨t, Finset.mem_univ _, ht⟩, fun ⟨t, _, ht⟩ => ⟨t, ht⟩⟩

/-- Pieces pairwise disjoint that leave no element out, each held at contents of its own, are the buffer held
    whole at contents agreeing with each piece's on that piece. -/
theorem join_of_ex {ℓ : Loc nD τ sig} {T : Type} [Fintype T] (K : T → Finset (Idx ℓ))
    (hc : ∀ i, ∃ t, i ∈ K t) (hd : ∀ t t', t ≠ t' → Disjoint (K t) (K t'))
    (q : PosShare TreeShare) (fs : T → Buf (Elt F) ℓ) (f₀ : Buf (Elt F) ℓ) :
    bigSep Finset.univ (fun t => (ℓ ↦[K t]{q} fs t : sProp 𝕄))
      ⊢ (iprop(∃ g, ⌜∀ t, ∀ i ∈ K t, g i = fs t i⌝ ∗ ℓ ↦{q} g) : sProp 𝕄) := by
  refine (pointsTo_biUnion_join Finset.univ K fs f₀ (fun t _ t' _ h => hd t t' h)).trans ?_
  have hu : Finset.univ.biUnion K = Finset.univ := by
    rw [Finset.eq_univ_iff_forall]; intro i
    obtain ⟨t, ht⟩ := hc i
    exact Finset.mem_biUnion.mpr ⟨t, Finset.mem_univ _, ht⟩
  rw [hu]
  iintro ⟨%g, %hg, H⟩; iexists g; isplitr
  · ipureintro; exact fun t => hg t (Finset.mem_univ t)
  · iexact H

section Dev
variable (c : Dev nD)

theorem x_split (f : Buf (Elt F) (xL c)) :
    (xL c ↦{fullShare} f : sProp 𝕄)
      = bigSep Finset.univ (fun k : Fin 16 => (xL c ↦[(xCk k).view.set]{fullShare} f : sProp 𝕄)) :=
  split_of_ex (ℓ := xL c) (fun k : Fin 16 => (xCk k).view.set) xCk_ex xCk_disj fullShare f

theorem o_split (f : Buf (Elt F) (oL c)) :
    (oL c ↦{fullShare} f : sProp 𝕄)
      = bigSep Finset.univ (fun p : Dev nD × Fin 16 => (oL c ↦[(oCk p.1 p.2).view.set]{fullShare} f : sProp 𝕄)) :=
  split_of_ex (ℓ := oL c) (fun p : Dev nD × Fin 16 => (oCk p.1 p.2).view.set) oCk_ex oCk_disj fullShare f

theorem b_split_rows (f : Buf (Elt F) (bL c)) :
    (bL c ↦{fullShare} f : sProp 𝕄) = bigSep Finset.univ (fun k : Fin 16 =>
      (bL c ↦[((bM : Memref sig .tc .vmem S4096x4096 .bf16).access (bRows k)).setOn Finset.univ]{fullShare} f : sProp 𝕄)) :=
  split_of_ex (ℓ := bL c)
    (fun k : Fin 16 => ((bM : Memref sig .tc .vmem S4096x4096 .bf16).access (bRows k)).setOn Finset.univ)
    bRows_ex bRows_disj fullShare f

theorem rows_split (k : Fin 16) (f : Buf (Elt F) (bL c)) :
    (bL c ↦[((bM : Memref sig .tc .vmem S4096x4096 .bf16).access (bRows k)).setOn Finset.univ]{fullShare} f : sProp 𝕄)
      = bigSep Finset.univ (fun t : Dev nD => (bL c ↦[(bPc k t).view.set]{fullShare} f : sProp 𝕄)) :=
  split_of_iff (ℓ := bL c) _ (fun t : Dev nD => (bPc k t).view.set)
    (fun i => by
      rw [bRows_eq k, Finset.mem_biUnion]
      exact ⟨fun ⟨t, _, ht⟩ => ⟨t, ht⟩, fun ⟨t, ht⟩ => ⟨t, Finset.mem_univ _, ht⟩⟩)
    (bPc_disj_dev k) fullShare f

theorem b_split (f : Buf (Elt F) (bL c)) :
    (bL c ↦{fullShare} f : sProp 𝕄)
      = bigSep Finset.univ (fun p : Fin 16 × Dev nD => (bL c ↦[(bPc p.1 p.2).view.set]{fullShare} f : sProp 𝕄)) :=
  split_of_ex (ℓ := bL c) (fun p : Fin 16 × Dev nD => (bPc p.1 p.2).view.set) bPc_ex bPc_disj fullShare f

theorem f_split (f : Buf (Elt F) (fL c)) :
    (fL c ↦{fullShare} f : sProp 𝕄)
      = bigSep Finset.univ (fun i : Fin 2 => (fL c ↦[(fSt i).view.set]{fullShare} f : sProp 𝕄)) :=
  split_of_ex (ℓ := fL c) (fun i : Fin 2 => (fSt i).view.set) fSt_ex fSt_disj fullShare f

/-! ## Pieces joined back -/

theorem b_join_agree (fs : Fin 16 × Dev nD → Buf (Elt F) (bL c)) :
    bigSep Finset.univ (fun p : Fin 16 × Dev nD => (bL c ↦[(bPc p.1 p.2).view.set]{fullShare} fs p : sProp 𝕄))
      ⊢ (iprop(∃ g, ⌜∀ p : Fin 16 × Dev nD, ∀ i ∈ (bPc p.1 p.2).view.set, g i = fs p i⌝ ∗ bL c ↦{fullShare} g) : sProp 𝕄) :=
  join_of_ex (ℓ := bL c) (fun p : Fin 16 × Dev nD => (bPc p.1 p.2).view.set) bPc_ex bPc_disj fullShare fs (fs (0, 0))

theorem b_join (fs : Fin 16 × Dev nD → Buf (Elt F) (bL c)) :
    bigSep Finset.univ (fun p : Fin 16 × Dev nD => (bL c ↦[(bPc p.1 p.2).view.set]{fullShare} fs p : sProp 𝕄))
      ⊢ (iprop(∃ g, bL c ↦{fullShare} g) : sProp 𝕄) := by
  refine (b_join_agree c fs).trans ?_
  iintro ⟨%g, -, H⟩; iexists g; iexact H

theorem f_join_agree (fs : Fin 2 → Buf (Elt F) (fL c)) :
    bigSep Finset.univ (fun i : Fin 2 => (fL c ↦[(fSt i).view.set]{fullShare} fs i : sProp 𝕄))
      ⊢ (iprop(∃ g, ⌜∀ i : Fin 2, ∀ x ∈ (fSt i).view.set, g x = fs i x⌝ ∗ fL c ↦{fullShare} g) : sProp 𝕄) :=
  join_of_ex (ℓ := fL c) (fun i : Fin 2 => (fSt i).view.set) fSt_ex fSt_disj fullShare fs (fs 0)

theorem f_join (fs : Fin 2 → Buf (Elt F) (fL c)) :
    bigSep Finset.univ (fun i : Fin 2 => (fL c ↦[(fSt i).view.set]{fullShare} fs i : sProp 𝕄))
      ⊢ (iprop(∃ g, fL c ↦{fullShare} g) : sProp 𝕄) := by
  refine (f_join_agree c fs).trans ?_
  iintro ⟨%g, -, H⟩; iexists g; iexact H

end Dev

/-! ## A separating conjunction over a small finite type, factor by factor -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Dev nD → sProp 𝕄) : bigSep Finset.univ Φ = iprop(Φ 0 ∗ Φ 1 ∗ Φ 2 ∗ Φ 3) :=
  bigSep_univ_eq_bigSepL [0, 1, 2, 3] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The four devices, counted from one of them -/

theorem bigSep_dev_rel (c : Dev nD) (Φ : Dev nD → sProp 𝕄) :
    bigSep Finset.univ Φ = iprop(Φ c ∗ Φ (pr c 0) ∗ Φ (pr c 1) ∗ Φ (pr c 2)) :=
  bigSep_univ_eq_bigSepL [c, pr c 0, pr c 1, pr c 2] (by revert c; decide) (by revert c; decide) Φ

theorem bigSep_dev_rel_q (c : Dev nD) (Φ : Dev nD → sProp 𝕄) :
    bigSep Finset.univ Φ = iprop(Φ c ∗ Φ (qr c 0) ∗ Φ (qr c 1) ∗ Φ (qr c 2)) :=
  bigSep_univ_eq_bigSepL [c, qr c 0, qr c 1, qr c 2] (by revert c; decide) (by revert c; decide) Φ

/-- The rows of chunk `k` of the rounded array: the device's own piece, then the pieces of its three peers. -/
theorem rows_split_rel (c : Dev nD) (k : Fin 16) (f : Buf (Elt F) (bL c)) :
    (bL c ↦[((bM : Memref sig .tc .vmem S4096x4096 .bf16).access (bRows k)).setOn Finset.univ]{fullShare} f : sProp 𝕄)
      = iprop((bL c ↦[(bPc k c).view.set]{fullShare} f) ∗ (bL c ↦[(bPc k (pr c 0)).view.set]{fullShare} f)
        ∗ (bL c ↦[(bPc k (pr c 1)).view.set]{fullShare} f) ∗ (bL c ↦[(bPc k (pr c 2)).view.set]{fullShare} f)) := by
  rw [rows_split c k f, bigSep_dev_rel c]

/-! ## The records, cell by cell -/

theorem rec_inv (c' : Dev nD) (i : CI) (K : Dev nD × CI → ℕ) :
    records m K ⊢ (cellInv ER (sched m) (K (c', i)) (kcell (c', i)) : sProp 𝕄) := by
  unfold records
  have h : (bigSep Finset.univ fun ck : Dev nD × CI => (cellInv ER (sched m) (K ck) (kcell ck) : sProp 𝕄))
      ⊢ cellInv ER (sched m) (K (c', i)) (kcell (c', i)) := BI.bigSep_elim (Finset.mem_univ (c', i))
  iintro ⟨HA, -⟩
  iapply h; iexact HA

theorem rec_reached (c' : Dev nD) (i : CI) (K : Dev nD × CI → ℕ) :
    records m K ⊢ (reached ER (kcell (c', i)) 0 : sProp 𝕄) := by
  unfold records
  have h : (bigSep Finset.univ fun ck : Dev nD × CI => (reached ER (kcell ck) 0 : sProp 𝕄))
      ⊢ reached ER (kcell (c', i)) 0 := BI.bigSep_elim (Finset.mem_univ (c', i))
  iintro ⟨-, HB⟩
  iapply h; iexact HB

theorem kcell_dma (c' : Dev nD) (s : DmaSem sig) :
    kcell (c', ⟨s.val, Nat.lt_succ_of_lt (show s.val < 114 from s.isLt)⟩) = ((c' : Thread nD τ), .dma s) := by
  have h : s.val < 114 := s.isLt
  unfold kcell; exact dif_pos h

theorem kcell_bar (c' : Dev nD) : kcell (c', 114) = barCell c' := by
  unfold kcell; exact dif_neg (show ¬ ((114 : CI).val < 114) by decide)

theorem rec_reached_dma (c : Dev nD) (K : Dev nD × CI → ℕ) (s : DmaSem sig) :
    records m K ⊢ (reached ER ((c : Thread nD τ), .dma s) 0 : sProp 𝕄) := by
  rw [← kcell_dma c s]; exact rec_reached m c _ K

theorem rec_inv_dma (c : Dev nD) (K : Dev nD × CI → ℕ) (s : DmaSem sig) :
    records m K ⊢ (cellInv ER (sched m) (K (c, ⟨s.val, Nat.lt_succ_of_lt (show s.val < 114 from s.isLt)⟩))
      ((c : Thread nD τ), .dma s) : sProp 𝕄) := by
  rw [← kcell_dma c s]; exact rec_inv m c _ K

theorem rec_reached_cp (c : Dev nD) (K : Dev nD × CI → ℕ) (i : Fin 2) :
    records m K ⊢ (reached ER (cpCell c i) 0 : sProp 𝕄) :=
  rec_reached_dma m c K (cpS i)

theorem rec_reached_bar (c : Dev nD) (K : Dev nD × CI → ℕ) :
    records m K ⊢ (reached ER (barCell c) 0 : sProp 𝕄) := by
  rw [← kcell_bar c]; exact rec_reached m c _ K

/-- info: 'Cert.Kernel.A2A.x_split' depends on axioms: [propext, Classical.choice, Quot.sound] -/
#guard_msgs in #print axioms x_split

/-- info: 'Cert.Kernel.A2A.o_split' depends on axioms: [propext, Classical.choice, Quot.sound] -/
#guard_msgs in #print axioms o_split

/-- info: 'Cert.Kernel.A2A.b_split_rows' depends on axioms: [propext, Classical.choice, Quot.sound] -/
#guard_msgs in #print axioms b_split_rows

/-- info: 'Cert.Kernel.A2A.rows_split' depends on axioms: [propext, Classical.choice, Quot.sound] -/
#guard_msgs in #print axioms rows_split

/-- info: 'Cert.Kernel.A2A.b_split' depends on axioms: [propext, Classical.choice, Quot.sound] -/
#guard_msgs in #print axioms b_split

/-- info: 'Cert.Kernel.A2A.f_split' depends on axioms: [propext, Classical.choice, Quot.sound] -/
#guard_msgs in #print axioms f_split

/-- info: 'Cert.Kernel.A2A.b_join_agree' depends on axioms: [propext, Classical.choice, Quot.sound] -/
#guard_msgs in #print axioms b_join_agree

/-- info: 'Cert.Kernel.A2A.b_join' depends on axioms: [propext, Classical.choice, Quot.sound] -/
#guard_msgs in #print axioms b_join

/-- info: 'Cert.Kernel.A2A.f_join_agree' depends on axioms: [propext, Classical.choice, Quot.sound] -/
#guard_msgs in #print axioms f_join_agree

/-- info: 'Cert.Kernel.A2A.f_join' depends on axioms: [propext, Classical.choice, Quot.sound] -/
#guard_msgs in #print axioms f_join

/-- info: 'Cert.Kernel.A2A.bigSep_fin16' depends on axioms: [propext, Classical.choice, Quot.sound] -/
#guard_msgs in #print axioms bigSep_fin16

/-- info: 'Cert.Kernel.A2A.bigSep_dev_rel' depends on axioms: [propext, Classical.choice, Quot.sound] -/
#guard_msgs in #print axioms bigSep_dev_rel

/-- info: 'Cert.Kernel.A2A.bigSep_dev_rel_q' depends on axioms: [propext, Classical.choice, Quot.sound] -/
#guard_msgs in #print axioms bigSep_dev_rel_q

/-- info: 'Cert.Kernel.A2A.rows_split_rel' depends on axioms: [propext, Classical.choice, Quot.sound] -/
#guard_msgs in #print axioms rows_split_rel

/-- info: 'Cert.Kernel.A2A.rec_inv' depends on axioms: [propext, Classical.choice, Quot.sound] -/
#guard_msgs in #print axioms rec_inv

/-- info: 'Cert.Kernel.A2A.rec_reached' depends on axioms: [propext, Classical.choice, Quot.sound] -/
#guard_msgs in #print axioms rec_reached

/-- info: 'Cert.Kernel.A2A.kcell_dma' depends on axioms: [propext, Classical.choice, Quot.sound] -/
#guard_msgs in #print axioms kcell_dma

/-- info: 'Cert.Kernel.A2A.kcell_bar' depends on axioms: [propext, Classical.choice, Quot.sound] -/
#guard_msgs in #print axioms kcell_bar

/-- info: 'Cert.Kernel.A2A.rec_reached_dma' depends on axioms: [propext, Classical.choice, Quot.sound] -/
#guard_msgs in #print axioms rec_reached_dma

/-- info: 'Cert.Kernel.A2A.rec_inv_dma' depends on axioms: [propext, Classical.choice, Quot.sound] -/
#guard_msgs in #print axioms rec_inv_dma

/-- info: 'Cert.Kernel.A2A.rec_reached_cp' depends on axioms: [propext, Classical.choice, Quot.sound] -/
#guard_msgs in #print axioms rec_reached_cp

/-- info: 'Cert.Kernel.A2A.rec_reached_bar' depends on axioms: [propext, Classical.choice, Quot.sound] -/
#guard_msgs in #print axioms rec_reached_bar

end Cert.Kernel.A2A

end
-- ==== Proof.Bits.Begin.lean ====
/-
  The body's first step: what the launch hands a device, cut into the pieces the body's steps use. The device's part
  of `x` by its sixteen chunks, each beside the token of its staging; the staging buffer by its two slots; the
  rounded array by its chunks' rows; the result by its 4 × 16 chunks, those of the device's own rows kept and those of
  each peer's rows made that peer's barrier payload; the cells' positions kind by kind.
-/
import proofs.«900006_g7700000000000007_dist_a2a_v7x_i4_i_m4096_n1024_bf16_1_alg».proof.Proof.Bits.BodyState
import proofs.«900006_g7700000000000007_dist_a2a_v7x_i4_i_m4096_n1024_bf16_1_alg».proof.Proof.Bits.Tiling
import proofs.«900006_g7700000000000007_dist_a2a_v7x_i4_i_m4096_n1024_bf16_1_alg».proof.Proof.Bits.Joins

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of a device, kind by kind -/

/-- The kinds of cell of a device: the barrier cell, two staging cells, sixteen copy cells, 3 × 16 send cells and
    3 × 16 receive cells. -/
private abbrev CK : Type := Unit ⊕ Fin 2 ⊕ Fin 16 ⊕ (Fin 3 × Fin 16) ⊕ (Fin 3 × Fin 16)

/-- The number of a cell given by its kind. -/
private def cellIx : CK → CI
  | .inl _ => ⟨114, by decide⟩
  | .inr (.inl i) => ⟨i.val, by have := i.isLt; omega⟩
  | .inr (.inr (.inl k)) => ⟨2 + k.val, by have := k.isLt; omega⟩
  | .inr (.inr (.inr (.inl jk))) => ⟨18 + 16 * jk.1.val + jk.2.val, by have := jk.1.isLt; have := jk.2.isLt; omega⟩
  | .inr (.inr (.inr (.inr jk))) => ⟨66 + 16 * jk.1.val + jk.2.val, by have := jk.1.isLt; have := jk.2.isLt; omega⟩

/-- The kind of the cell of a given number. -/
private def cellKind (i : CI) : CK :=
  if h0 : i.val < 2 then .inr (.inl ⟨i.val, h0⟩)
  else if h1 : i.val < 18 then .inr (.inr (.inl ⟨i.val - 2, by omega⟩))
  else if h2 : i.val < 66 then .inr (.inr (.inr (.inl (⟨(i.val - 18) / 16, by omega⟩, ⟨(i.val - 18) % 16, Nat.mod_lt _ (by decide)⟩))))
  else if h3 : i.val < 114 then .inr (.inr (.inr (.inr (⟨(i.val - 66) / 16, by omega⟩, ⟨(i.val - 66) % 16, Nat.mod_lt _ (by decide)⟩))))
  else .inl ()

private theorem cellKind_cellIx (x : CK) : cellKind (cellIx x) = x := by
  rcases x with _ | i | k | ⟨j, k⟩ | ⟨j, k⟩
  · rfl
  · have := i.isLt
    unfold cellKind cellIx; dsimp only
    rw [dif_pos (by omega)]
  · have := k.isLt
    unfold cellKind cellIx; dsimp only
    rw [dif_neg (by omega), dif_pos (by omega)]
    exact congrArg (fun x => Sum.inr (Sum.inr (Sum.inl x))) (Fin.ext (by show 2 + k.val - 2 = k.val; omega))
  · have := j.isLt; have := k.isLt
    unfold cellKind cellIx; dsimp only
    rw [dif_neg (by omega), dif_neg (by omega), dif_pos (by omega)]
    exact congrArg (fun x => Sum.inr (Sum.inr (Sum.inr (Sum.inl x))))
      (Prod.ext (Fin.ext (by show (18 + 16 * j.val + k.val - 18) / 16 = j.val; omega))
        (Fin.ext (by show (18 + 16 * j.val + k.val - 18) % 16 = k.val; omega)))
  · have := j.isLt; have := k.isLt
    unfold cellKind cellIx; dsimp only
    rw [dif_neg (by omega), dif_neg (by omega), dif_neg (by omega), dif_pos (by omega)]
    exact congrArg (fun x => Sum.inr (Sum.inr (Sum.inr (Sum.inr x))))
      (Prod.ext (Fin.ext (by show (66 + 16 * j.val + k.val - 66) / 16 = j.val; omega))
        (Fin.ext (by show (66 + 16 * j.val + k.val - 66) % 16 = k.val; omega)))

private theorem cellIx_cellKind (i : CI) : cellIx (cellKind i) = i := by
  have hi : i.val < 115 := i.isLt
  unfold cellKind
  split_ifs with h0 h1 h2 h3
  · rfl
  · exact Fin.ext (by show 2 + (i.val - 2) = i.val; omega)
  · exact Fin.ext (by show 18 + 16 * ((i.val - 18) / 16) + (i.val - 18) % 16 = i.val; omega)
  · exact Fin.ext (by show 66 + 16 * ((i.val - 66) / 16) + (i.val - 66) % 16 = i.val; omega)
  · exact Fin.ext (by show 114 = i.val; omega)

/-- Kinds and numbers of cells correspond one to one. -/
private def cellEquiv : CK ≃ CI := ⟨cellIx, cellKind, cellKind_cellIx, cellIx_cellKind⟩

/-- The cell numbered like a DMA semaphore is that semaphore's cell. -/
private theorem kcell_of_dma (c : Dev nD) (i : CI) (s : DmaSem sig) (h : i.val = s.val) :
    kcell (c, i) = (((c : Thread nD τ), .dma s) : GSem nD τ sig) := by
  have hs : s.val < 114 := s.isLt
  unfold kcell; dsimp only
  rw [dif_pos (by omega)]
  exact congrArg (fun x : DmaSem sig => (((c : Thread nD τ), SemLoc.dma x) : GSem nD τ sig)) (Fin.ext h)

private theorem kcell_of_bar (c : Dev nD) : kcell (c, cellIx (.inl ())) = barCell c := by
  unfold kcell cellIx; dsimp only
  rw [dif_neg (by decide)]

/-- A separating conjunction over the cells of a device, kind by kind. -/
theorem bigSep_kcell (c : Dev nD) (Φ : GSem nD τ sig → sProp 𝕄) :
    bigSep Finset.univ (fun i : CI => Φ (kcell (c, i)))
      = iprop(Φ (barCell c) ∗ Φ (cpCell c 0) ∗ Φ (cpCell c 1)
          ∗ (bigSep Finset.univ fun k : Fin 16 => Φ (lcCell c k))
          ∗ (bigSep Finset.univ fun jk : Fin 3 × Fin 16 => Φ (sdCell c jk.1 jk.2))
          ∗ (bigSep Finset.univ fun jk : Fin 3 × Fin 16 => Φ (rvCell c jk.1 jk.2))) := by
  rw [bigSep_univ_equiv cellEquiv (fun i : CI => Φ (kcell (c, i))), bigSep_univ_sum, bigSep_univ_sum, bigSep_univ_sum,
    bigSep_univ_sum, bigSep_univ_of_subsingleton (), bigSep_fin_two]
  have e0 : kcell (c, cellEquiv (.inl ())) = barCell c := kcell_of_bar c
  have e1 : ∀ i : Fin 2, kcell (c, cellEquiv (.inr (.inl i))) = cpCell c i := fun i =>
    kcell_of_dma c _ (cpS i) (by rw [cpS_val]; rfl)
  have e2 : ∀ k : Fin 16, kcell (c, cellEquiv (.inr (.inr (.inl k)))) = lcCell c k := fun k =>
    kcell_of_dma c _ (lcS k) (by rw [lcS_val]; rfl)
  have e3 : ∀ jk : Fin 3 × Fin 16, kcell (c, cellEquiv (.inr (.inr (.inr (.inl jk))))) = sdCell c jk.1 jk.2 := fun jk =>
    kcell_of_dma c _ (sdS jk.1 jk.2) (by rw [sdS_val]; rfl)
  have e4 : ∀ jk : Fin 3 × Fin 16, kcell (c, cellEquiv (.inr (.inr (.inr (.inr jk))))) = rvCell c jk.1 jk.2 := fun jk =>
    kcell_of_dma c _ (rvS jk.1 jk.2) (by rw [rvS_val]; rfl)
  rw [e0, e1 0, e1 1]
  simp only [e2, e3, e4]
  exact congrArg (BI.sep (Φ (barCell c)))
    (Std.Associative.assoc (op := (fun P Q : sProp 𝕄 => BI.sep P Q)) _ _ _)

/-! ## The arrays cut -/

/-- Elements held at some contents are held at whatever they hold. -/
private theorem pt_any {ℓ : Loc nD τ sig} (S : Finset (Idx ℓ)) (f : Buf (Elt F) ℓ) :
    (ℓ ↦[S]{fullShare} f : sProp 𝕄) ⊢ iprop(∃ g : Buf (Elt F) ℓ, ℓ ↦[S]{fullShare} g) := by
  iintro H; iexists f; iexact H

/-- The staging buffer at whatever it holds: each slot at whatever it holds. -/
private theorem f_open (c : Dev nD) :
    (iprop(∃ f : Buf (Elt F) (fL c), fL c ↦{fullShare} f) : sProp 𝕄)
      ⊢ bigSep Finset.univ fun i : Fin 2 => iprop(∃ fd : Buf (Elt F) (fL c), fL c ↦[(fSt i).view.set]{fullShare} fd) := by
  have h : ∀ f : Buf (Elt F) (fL c), (fL c ↦{fullShare} f : sProp 𝕄)
      ⊢ bigSep Finset.univ fun i : Fin 2 => iprop(∃ fd : Buf (Elt F) (fL c), fL c ↦[(fSt i).view.set]{fullShare} fd) := fun f => by
    rw [f_split c f]
    exact bigSep_mono fun i _ => pt_any _ f
  iintro ⟨%f, H⟩
  iapply (h f) $$ H

/-- The rounded array at whatever it holds: each chunk's rows at whatever they hold. -/
private theorem b_open (c : Dev nD) :
    (iprop(∃ f : Buf (Elt F) (bL c), bL c ↦{fullShare} f) : sProp 𝕄)
      ⊢ bigSep Finset.univ fun k : Fin 16 => iprop(∃ fb : Buf (Elt F) (bL c),
          bL c ↦[((bM : Memref sig .tc .vmem S4096x4096 .bf16).access (bRows k)).setOn Finset.univ]{fullShare} fb) := by
  have h : ∀ f : Buf (Elt F) (bL c), (bL c ↦{fullShare} f : sProp 𝕄)
      ⊢ bigSep Finset.univ fun k : Fin 16 => iprop(∃ fb : Buf (Elt F) (bL c),
          bL c ↦[((bM : Memref sig .tc .vmem S4096x4096 .bf16).access (bRows k)).setOn Finset.univ]{fullShare} fb) := fun f => by
    rw [b_split_rows c f]
    exact bigSep_mono fun k _ => pt_any _ f
  iintro ⟨%f, H⟩
  iapply (h f) $$ H

/-- The sixteen chunks of device `s`'s rows in device `c`'s result, held at some contents, are held at whatever
    they hold, the result's device named in any way. -/
private theorem chunks_any (c d s : Dev nD) (h : d = c) (f : Buf (Elt F) (oL c)) :
    bigSep Finset.univ (fun k : Fin 16 => (oL c ↦[(oCk s k).view.set]{fullShare} f : sProp 𝕄))
      ⊢ bigSep Finset.univ (fun k : Fin 16 => iprop(∃ g : Buf (Elt F) (oL d), oL d ↦[(oCk s k).view.set]{fullShare} g)) := by
  subst h
  exact bigSep_mono fun k _ => pt_any _ f

/-- The rows of the peer `j + 1` places on, in this device's result: that peer's barrier payload. -/
private theorem to_barPay (c : Dev nD) (j : Fin 3) (f : Buf (Elt F) (oL c)) :
    bigSep Finset.univ (fun k : Fin 16 => (oL c ↦[(oCk (pr c j) k).view.set]{fullShare} f : sProp 𝕄))
      ⊢ barPay (F := F) (pr c j) j :=
  chunks_any c (qr (pr c j) j) (pr c j) (qr_pr c j) f

/-- The result cut: the device's own rows chunk by chunk, and each peer's rows as that peer's barrier payload. -/
private theorem o_open (c : Dev nD) (f : Buf (Elt F) (oL c)) :
    (oL c ↦{fullShare} f : sProp 𝕄)
      ⊢ iprop((bigSep Finset.univ fun k : Fin 16 => (oL c ↦[(oCk c k).view.set]{fullShare} f))
          ∗ bigSep Finset.univ fun j : Fin 3 => barPay (F := F) (pr c j) j) := by
  rw [o_split c f, bigSep_univ_prod, bigSep_dev_rel c, bigSep_fin3]
  exact BI.sep_mono_r (BI.sep_mono (to_barPay c 0 f) (BI.sep_mono (to_barPay c 1 f) (to_barPay c 2 f)))

/-! ## The first step -/

theorem begin_spec (c : Dev nD) : bodyPre m c ⊢ (Opened m c : sProp 𝕄) := by
  unfold bodyPre Φ₀ start ghost linear Opened
  rw [bigSep_kcell c (fun g => atPos ER g 0 ∅ 0), x_split c (Xc m c)]
  simp only [bigSep_sep']
  iintro ⟨⟨⟨⟨%K, Hrec, ⟨Hpb, Hp0, Hp1, Hplc, Hpsd, Hprv⟩, Htcp, Htlc, Htsd, Htrv, Htbar⟩, Hcb, Hcrv, Hlev, Hx, Ho⟩, Hf, Hb⟩, Howes⟩
  ihave Ho' := (o_open c (m (oL c))) $$ Ho
  icases Ho' with ⟨Hoc, Hbar⟩
  ihave Hf' := (f_open c) $$ Hf
  ihave Hb' := (b_open c) $$ Hb
  iexists K
  iframe

/-- info: 'Cert.Kernel.A2A.bigSep_kcell' depends on axioms: [propext, Classical.choice, Quot.sound] -/
#guard_msgs in #print axioms bigSep_kcell

/-- info: 'Cert.Kernel.A2A.begin_spec' depends on axioms: [propext, Classical.choice, Quot.sound] -/
#guard_msgs in #print axioms begin_spec

end Cert.Kernel.A2A

end
-- ==== Proof.Bits.Finish.lean ====
/-
  The body's last step: the pieces the last waits returned fold back into the whole arrays, each own DMA
  semaphore's cell closes with its counter at zero, and nothing is owed.
-/
import proofs.«900006_g7700000000000007_dist_a2a_v7x_i4_i_m4096_n1024_bf16_1_alg».proof.Proof.Bits.BodyState
import proofs.«900006_g7700000000000007_dist_a2a_v7x_i4_i_m4096_n1024_bf16_1_alg».proof.Proof.Bits.Values
import proofs.«900006_g7700000000000007_dist_a2a_v7x_i4_i_m4096_n1024_bf16_1_alg».proof.Proof.Bits.Tiling
import proofs.«900006_g7700000000000007_dist_a2a_v7x_i4_i_m4096_n1024_bf16_1_alg».proof.Proof.Bits.Joins

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's 114 DMA semaphores, listed by what they are for -/

/-- A staging slot, a chunk's own copy, a chunk's send to a peer, a chunk's arrival from a peer. -/
private abbrev SemIx : Type := Fin 2 ⊕ (Fin 16 ⊕ (Fin 3 × Fin 16 ⊕ Fin 3 × Fin 16))

private def semOf : SemIx → DmaSem sig
  | .inl i => cpS i
  | .inr (.inl k) => lcS k
  | .inr (.inr (.inl jk)) => sdS jk.1 jk.2
  | .inr (.inr (.inr jk)) => rvS jk.1 jk.2

private theorem semOf_inj : Function.Injective semOf := by
  intro x y h
  have hv := congrArg Fin.val h
  rcases x with i | k | ⟨j, k⟩ | ⟨j, k⟩ <;> rcases y with i' | k' | ⟨j', k'⟩ | ⟨j', k'⟩ <;>
    simp only [semOf, cpS_val, lcS_val, sdS_val, rvS_val] at hv
  all_goals
    (try have hi : i.val < 2 := i.isLt)
    (try have hi' : i'.val < 2 := i'.isLt)
    (try have hk : k.val < 16 := k.isLt)
    (try have hk' : k'.val < 16 := k'.isLt)
    (try have hj : j.val < 3 := j.isLt)
    (try have hj' : j'.val < 3 := j'.isLt)
    first
      | (exfalso; omega)
      | (obtain rfl : i = i' := Fin.ext (by omega); rfl)
      | (obtain rfl : k = k' := Fin.ext (by omega); rfl)
      | (obtain rfl : j = j' := Fin.ext (by omega); obtain rfl : k = k' := Fin.ext (by omega); rfl)

private theorem semOf_univ : Finset.univ.map ⟨semOf, semOf_inj⟩ = (Finset.univ : Finset (DmaSem sig)) :=
  Finset.eq_univ_of_card _ (by rw [Finset.card_map]; decide)

/-- A separating conjunction over the 114 semaphores, group by group. -/
private theorem bigSep_sems (Ψ : DmaSem sig → sProp 𝕄) :
    bigSep Finset.univ Ψ = iprop((Ψ (cpS 0) ∗ Ψ (cpS 1)) ∗ (bigSep Finset.univ fun k : Fin 16 => Ψ (lcS k))
      ∗ (bigSep Finset.univ fun jk : Fin 3 × Fin 16 => Ψ (sdS jk.1 jk.2))
      ∗ bigSep Finset.univ fun jk : Fin 3 × Fin 16 => Ψ (rvS jk.1 jk.2)) := by
  rw [← semOf_univ, bigSep_map, bigSep_univ_sum, bigSep_univ_sum, bigSep_univ_sum, bigSep_univ_two]
  rfl

/-! ## Every own cell closes -/

section Close
variable (c : Dev nD)

/-- The round after a semaphore's last: the ninth of a staging semaphore, the second of any other. -/
private def Rof (s : DmaSem sig) : ℕ := if s.val < 2 then 8 else 1

private theorem Rof_cp (i : Fin 2) : Rof (cpS i) = 8 := by unfold Rof; rw [if_pos (by rw [cpS_val]; exact i.isLt)]
private theorem Rof_lc (k : Fin 16) : Rof (lcS k) = 1 := by unfold Rof; rw [if_neg (by rw [lcS_val]; omega)]
private theorem Rof_sd (j : Fin 3) (k : Fin 16) : Rof (sdS j k) = 1 := by unfold Rof; rw [if_neg (by rw [sdS_val]; omega)]
private theorem Rof_rv (j : Fin 3) (k : Fin 16) : Rof (rvS j k) = 1 := by unfold Rof; rw [if_neg (by rw [rvS_val]; omega)]

private theorem duties_later_all (s : DmaSem sig) :
    ∀ r, Rof s ≤ r → (sched (F := F) m).duties ((c : Thread nD τ), .dma s) r = ∅ := fun r hr => by
  dsimp only [sched]; exact if_neg fun h => by
    unfold Rof at hr
    rcases h.2 with h' | h'
    · rw [if_pos h'.1] at hr; omega
    · rw [if_neg (by omega)] at hr; omega

private theorem close_one (K : Dev nD × CI → ℕ) (s : DmaSem sig) :
    iprop(records m K ∗ atPos ER (((c : Thread nD τ), SemLoc.dma s) : GSem nD τ sig) (Rof s) ∅ 0)
      ⊢ (iprop(|={Set.univ}=> semVal (((c : Thread nD τ), SemLoc.dma s) : GSem nD τ sig) 0) : sProp 𝕄) := by
  iintro ⟨Hrec, Hat⟩
  ihave HI := (rec_inv_dma m c K s) $$ Hrec
  iapply (Rounds.cell_close ER (sched m) (Set.mem_univ _) (fun h => h) (R := Rof s) (duties_later_all m c s))
  isplitl [HI]; · iexact HI
  iexact Hat

/-- Every own DMA cell at the round after its last closes: all 114 counters are at zero. -/
private theorem close_all (K : Dev nD × CI → ℕ) :
    iprop(records m K ∗ bigSep Finset.univ fun s : DmaSem sig =>
        atPos ER (((c : Thread nD τ), SemLoc.dma s) : GSem nD τ sig) (Rof s) ∅ 0)
      ⊢ (iprop(|={Set.univ}=> bigSep Finset.univ fun s : DmaSem sig =>
        semVal (((c : Thread nD τ), SemLoc.dma s) : GSem nD τ sig) 0) : sProp 𝕄) :=
  (bigSep_with_persistent fun s _ => close_one m c K s).trans (bigSep_fupd _ _)

/-- The positions the last waits left, as one position per semaphore. -/
private theorem atPos_regroup :
    (bigSep Finset.univ fun s : DmaSem sig => (atPos ER (((c : Thread nD τ), SemLoc.dma s) : GSem nD τ sig) (Rof s) ∅ 0 : sProp 𝕄))
      = iprop((atPos ER (cpCell c 0) 8 ∅ 0 ∗ atPos ER (cpCell c 1) 8 ∅ 0)
        ∗ (bigSep Finset.univ fun k : Fin 16 => atPos ER (lcCell c k) 1 ∅ 0)
        ∗ (bigSep Finset.univ fun jk : Fin 3 × Fin 16 => atPos ER (sdCell c jk.1 jk.2) 1 ∅ 0)
        ∗ bigSep Finset.univ fun jk : Fin 3 × Fin 16 => atPos ER (rvCell c jk.1 jk.2) 1 ∅ 0) := by
  rw [bigSep_sems]
  simp only [Rof_cp, Rof_lc, Rof_sd, Rof_rv]

end Close

/-! ## The pieces fold back -/

section Fold
variable (c : Dev nD)

/-- The sixteen chunks of the device's part of `x`, all at the same contents, are the part whole. -/
private theorem x_fold :
    (bigSep Finset.univ fun k : Fin 16 => (xL c ↦[(xCk k).view.set]{fullShare} Xc m c : sProp 𝕄))
      ⊢ (xL c ↦{fullShare} Xc m c : sProp 𝕄) :=
  Entails.of_eq (x_split c (Xc m c)).symm

/-- The two staging slots, each at whatever it holds, are the staging buffer at some contents. -/
private theorem f_fold :
    (bigSep Finset.univ fun i : Fin 2 => (iprop(∃ fd : Buf (Elt F) (fL c), fL c ↦[(fSt i).view.set]{fullShare} fd) : sProp 𝕄))
      ⊢ (iprop(∃ g : Buf (Elt F) (fL c), fL c ↦{fullShare} g) : sProp 𝕄) := by
  rw [bigSep_fin2]
  iintro ⟨⟨%f0, H0⟩, ⟨%f1, H1⟩⟩
  iapply (f_join c ![f0, f1])
  rw [bigSep_fin2]
  isplitl [H0]; · iexact H0
  iexact H1

/-- The sixteen own chunks and the forty-eight received ones are the 4 × 16 chunks of the result; each holds the
    final contents on its rows, so together they are the result whole. -/
private theorem o_fold :
    iprop((bigSep Finset.univ fun k : Fin 16 => (oL c ↦[(oCk c k).view.set]{fullShare} OC m c c k : sProp 𝕄))
      ∗ bigSep Finset.univ fun jk : Fin 3 × Fin 16 =>
          (oL c ↦[(oCk (qr c jk.1) jk.2).view.set]{fullShare} OC m c (qr c jk.1) jk.2 : sProp 𝕄))
      ⊢ (oL c ↦{fullShare} outF m c : sProp 𝕄) := by
  have hc : ∀ (s : Dev nD) (k : Fin 16), (oL c ↦[(oCk s k).view.set]{fullShare} OC m c s k : sProp 𝕄)
      = (oL c ↦[(oCk s k).view.set]{fullShare} outF m c) := fun s k => pointsTo_congr (outF_eq_OC m c s k)
  refine Entails.of_eq (Eq.symm ((o_split c (outF m c)).trans ((bigSep_univ_prod _).trans
    ((bigSep_dev_rel_q c _).trans ?_))))
  rw [bigSep_univ_prod, bigSep_fin3]
  simp only [hc]

/-- The sixteen own pieces and the forty-eight sent ones are the 16 × 4 pieces of the rounded array: the array at
    some contents. -/
private theorem b_fold :
    iprop((bigSep Finset.univ fun k : Fin 16 => (bL c ↦[(bPc k c).view.set]{fullShare} BB m c k : sProp 𝕄))
      ∗ bigSep Finset.univ fun jk : Fin 3 × Fin 16 =>
          (bL c ↦[(bPc jk.2 (pr c jk.1)).view.set]{fullShare} BB m c jk.2 : sProp 𝕄))
      ⊢ (iprop(∃ g : Buf (Elt F) (bL c), bL c ↦{fullShare} g) : sProp 𝕄) := by
  refine .trans (Entails.of_eq ?_) (b_join c (fun p => BB m c p.1))
  refine Eq.symm ((bigSep_univ_equiv (Equiv.prodComm (Dev nD) (Fin 16)) _).trans ((bigSep_univ_prod _).trans
    ((bigSep_dev_rel c _).trans ?_)))
  rw [bigSep_univ_prod, bigSep_fin3]
  rfl

end Fold

/-! ## The last step -/

/-- From what the last waits returned: the arrays whole again, the result at its final contents, every own DMA
    semaphore at zero, nothing owed. -/
theorem finish_spec (c : Dev nD) (K : Dev nD × CI → ℕ) :
    iprop(records m K ∗ Closed m c) ⊢ (iprop(|={Set.univ}=> bodyPost m c) : sProp 𝕄) := by
  unfold Closed
  rw [bigSep_sep', bigSep_sep', bigSep_sep', bigSep_sep', bigSep_sep']
  iintro ⟨#Hrec, Hx, Hf, ⟨HBo, HOo, HAlc⟩, ⟨HBp, HOp, HAsd, HArv⟩, Hcp0, Hcp1, %W, HO⟩
  imod (close_all m c K) $$ [HAlc HAsd HArv Hcp0 Hcp1] with Hz
  · isplitr; · iexact Hrec
    rw [atPos_regroup]
    isplitl [Hcp0 Hcp1]
    · isplitl [Hcp0]; · iexact Hcp0
      iexact Hcp1
    isplitl [HAlc]; · iexact HAlc
    isplitl [HAsd]; · iexact HAsd
    iexact HArv
  imodintro
  unfold bodyPost Φ₁ Dat.owesAt Pipeline.owesWithin
  rw [show (dats m 0 c).owed t₀.succ = 0 from rfl]
  isplitl [Hx Hf HBo HOo HBp HOp Hz]
  · isplitl [Hx]; · iapply (x_fold m c); iexact Hx
    isplitl [HOo HOp]
    · iapply (o_fold m c); isplitl [HOo]; · iexact HOo
      iexact HOp
    isplitl [Hf]; · iapply (f_fold c); iexact Hf
    isplitl [HBo HBp]
    · iapply (b_fold m c); isplitl [HBo]; · iexact HBo
      iexact HBp
    iexact Hz
  iexists W
  isplitr; · ipureintro; exact fun _ _ => Or.inl trivial
  iexact HO

/-- info: 'Cert.Kernel.A2A.finish_spec' depends on axioms: [propext, Classical.choice, Quot.sound] -/
#guard_msgs in #print axioms finish_spec

end Cert.Kernel.A2A

end
-- ==== Proof.Bits.Body.lean ====
/-
  One device's body, from what the launch hands it (cut into pieces by the first step) to what it hands back (folded by
  the last): three barrier units out; then, chunk by chunk, the chunk staged, rounded and stored, the next-but-one chunk's
  staging started, the chunk's own column block copied into the device's own result and its other three column blocks
  sent to the three peers (the first chunk's sends after the wait for the peers' barrier units); then the waits for the
  sixteen own copies, the forty-eight sends read out, and the forty-eight arrivals from the peers.
-/
import proofs.«900006_g7700000000000007_dist_a2a_v7x_i4_i_m4096_n1024_bf16_1_alg».proof.Proof.Bits.BodyState
import proofs.«900006_g7700000000000007_dist_a2a_v7x_i4_i_m4096_n1024_bf16_1_alg».proof.Proof.Bits.OpsLocal
import proofs.«900006_g7700000000000007_dist_a2a_v7x_i4_i_m4096_n1024_bf16_1_alg».proof.Proof.Bits.OpsRemote
import proofs.«900006_g7700000000000007_dist_a2a_v7x_i4_i_m4096_n1024_bf16_1_alg».proof.Proof.Bits.Joins
import proofs.«900006_g7700000000000007_dist_a2a_v7x_i4_i_m4096_n1024_bf16_1_alg».proof.Proof.Bits.Begin
import proofs.«900006_g7700000000000007_dist_a2a_v7x_i4_i_m4096_n1024_bf16_1_alg».proof.Proof.Bits.Finish
import proofs.«900006_g7700000000000007_dist_a2a_v7x_i4_i_m4096_n1024_bf16_1_alg».proof.Proof.Gen.Kernel.Skeleton

set_option maxRecDepth 65536

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Aux
variable (c : Dev nD) (K : Dev nD × CI → ℕ)

theorem bigSep_f2 (Φ : Fin 2 → sProp 𝕄) : bigSep Finset.univ Φ = iprop(Φ 0 ∗ Φ 1) := bigSep_univ_eq_bigSepL [0, 1] (by decide) (by decide) Φ
theorem bigSep_f3 (Φ : Fin 3 → sProp 𝕄) : bigSep Finset.univ Φ = iprop(Φ 0 ∗ Φ 1 ∗ Φ 2) := bigSep_univ_eq_bigSepL [0, 1, 2] (by decide) (by decide) Φ
theorem bigSep_f16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_f3x16 (Φ : Fin 3 × Fin 16 → sProp 𝕄) : bigSep Finset.univ Φ =
    iprop((Φ (0, 0) ∗ Φ (0, 1) ∗ Φ (0, 2) ∗ Φ (0, 3) ∗ Φ (0, 4) ∗ Φ (0, 5) ∗ Φ (0, 6) ∗ Φ (0, 7) ∗ Φ (0, 8) ∗ Φ (0, 9) ∗ Φ (0, 10) ∗ Φ (0, 11) ∗ Φ (0, 12) ∗ Φ (0, 13) ∗ Φ (0, 14) ∗ Φ (0, 15)) ∗ (Φ (1, 0) ∗ Φ (1, 1) ∗ Φ (1, 2) ∗ Φ (1, 3) ∗ Φ (1, 4) ∗ Φ (1, 5) ∗ Φ (1, 6) ∗ Φ (1, 7) ∗ Φ (1, 8) ∗ Φ (1, 9) ∗ Φ (1, 10) ∗ Φ (1, 11) ∗ Φ (1, 12) ∗ Φ (1, 13) ∗ Φ (1, 14) ∗ Φ (1, 15)) ∗ (Φ (2, 0) ∗ Φ (2, 1) ∗ Φ (2, 2) ∗ Φ (2, 3) ∗ Φ (2, 4) ∗ Φ (2, 5) ∗ Φ (2, 6) ∗ Φ (2, 7) ∗ Φ (2, 8) ∗ Φ (2, 9) ∗ Φ (2, 10) ∗ Φ (2, 11) ∗ Φ (2, 12) ∗ Φ (2, 13) ∗ Φ (2, 14) ∗ Φ (2, 15))) := by
  rw [bigSep_univ_prod, bigSep_f3, bigSep_f16, bigSep_f16, bigSep_f16]

/-- A staging cell lies below the barrier cells. -/
theorem lv_cp (i : Fin 2) : lv (cpCell c i) () ≤ 1 := by
  show (if 66 ≤ (cpS i).val then 2 else 0) ≤ 1
  rw [if_neg (by rw [cpS_val]; have := i.isLt; omega)]; decide

/-- What the peer `j + 1` places back handed over, row block by row block, named by where that peer stands. -/
theorem barPay_list (j : Fin 3) : (barPay (F := F) c j : sProp 𝕄) =
    iprop((∃ f : Buf (Elt F) (oL (pr c (opp j))), oL (pr c (opp j)) ↦[(oCk c 0).view.set]{fullShare} f) ∗ (∃ f : Buf (Elt F) (oL (pr c (opp j))), oL (pr c (opp j)) ↦[(oCk c 1).view.set]{fullShare} f) ∗ (∃ f : Buf (Elt F) (oL (pr c (opp j))), oL (pr c (opp j)) ↦[(oCk c 2).view.set]{fullShare} f) ∗ (∃ f : Buf (Elt F) (oL (pr c (opp j))), oL (pr c (opp j)) ↦[(oCk c 3).view.set]{fullShare} f) ∗ (∃ f : Buf (Elt F) (oL (pr c (opp j))), oL (pr c (opp j)) ↦[(oCk c 4).view.set]{fullShare} f) ∗ (∃ f : Buf (Elt F) (oL (pr c (opp j))), oL (pr c (opp j)) ↦[(oCk c 5).view.set]{fullShare} f) ∗ (∃ f : Buf (Elt F) (oL (pr c (opp j))), oL (pr c (opp j)) ↦[(oCk c 6).view.set]{fullShare} f) ∗ (∃ f : Buf (Elt F) (oL (pr c (opp j))), oL (pr c (opp j)) ↦[(oCk c 7).view.set]{fullShare} f) ∗ (∃ f : Buf (Elt F) (oL (pr c (opp j))), oL (pr c (opp j)) ↦[(oCk c 8).view.set]{fullShare} f) ∗ (∃ f : Buf (Elt F) (oL (pr c (opp j))), oL (pr c (opp j)) ↦[(oCk c 9).view.set]{fullShare} f) ∗ (∃ f : Buf (Elt F) (oL (pr c (opp j))), oL (pr c (opp j)) ↦[(oCk c 10).view.set]{fullShare} f) ∗ (∃ f : Buf (Elt F) (oL (pr c (opp j))), oL (pr c (opp j)) ↦[(oCk c 11).view.set]{fullShare} f) ∗ (∃ f : Buf (Elt F) (oL (pr c (opp j))), oL (pr c (opp j)) ↦[(oCk c 12).view.set]{fullShare} f) ∗ (∃ f : Buf (Elt F) (oL (pr c (opp j))), oL (pr c (opp j)) ↦[(oCk c 13).view.set]{fullShare} f) ∗ (∃ f : Buf (Elt F) (oL (pr c (opp j))), oL (pr c (opp j)) ↦[(oCk c 14).view.set]{fullShare} f) ∗ (∃ f : Buf (Elt F) (oL (pr c (opp j))), oL (pr c (opp j)) ↦[(oCk c 15).view.set]{fullShare} f)) := by
  unfold barPay; rw [bigSep_f16, qr_eq_pr_opp]

theorem lcPay_eq (k : Fin 16) : lcPay m c k =
    iprop((oL c ↦[(oCk c k).view.set]{fullShare} OC m c c k) ∗ (bL c ↦[(bPc k c).view.set]{fullShare} BB m c k)) := rfl
theorem sdPay_eq (j : Fin 3) (k : Fin 16) : sdPay m c j k = (bL c ↦[(bPc k (pr c j)).view.set]{fullShare} BB m c k : sProp 𝕄) := rfl
theorem rvPay_eq (j : Fin 3) (k : Fin 16) : rvPay m c j k = (oL c ↦[(oCk (qr c j) k).view.set]{fullShare} OC m c (qr c j) k : sProp 𝕄) := rfl
end Aux

set_option maxHeartbeats 16000000 in
/-- The body. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ (theBody (F := F)) Kt := by
  simp only [theBody, cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel,
    semSignalWord, semWaitWord, Prog.lift, Prog.bind_op, Prog.bind_ret, Prog.pure_eq_ret, wp_deviceId]
  iintro ⟨Hpre, Hk⟩
  ihave Hop := (begin_spec m c) $$ Hpre
  unfold Opened Dat.owesAt Pipeline.owesWithin
  rw [show (dats m 0 c).owed t₀.castSucc = O₀ c from rfl]
  icases Hop with ⟨%K, #HR, ⟨%W0, %hW0, HO⟩, #Hlev, HcB, HaB, Ha0, Ha1, HBs, HIs, HFs, HLs, HSs⟩
  ihave HBs := (Entails.of_eq (bigSep_f3 _)) $$ HBs
  icases HBs with ⟨⟨HtB0, HgB0⟩, ⟨HtB1, HgB1⟩, ⟨HtB2, HgB2⟩⟩
  ihave HIs := (Entails.of_eq (bigSep_f16 _)) $$ HIs
  icases HIs with ⟨⟨HtI0, Hx0⟩, ⟨HtI1, Hx1⟩, ⟨HtI2, Hx2⟩, ⟨HtI3, Hx3⟩, ⟨HtI4, Hx4⟩, ⟨HtI5, Hx5⟩, ⟨HtI6, Hx6⟩, ⟨HtI7, Hx7⟩, ⟨HtI8, Hx8⟩, ⟨HtI9, Hx9⟩, ⟨HtI10, Hx10⟩, ⟨HtI11, Hx11⟩, ⟨HtI12, Hx12⟩, ⟨HtI13, Hx13⟩, ⟨HtI14, Hx14⟩, ⟨HtI15, Hx15⟩⟩
  ihave HFs := (Entails.of_eq (bigSep_f2 _)) $$ HFs
  icases HFs with ⟨⟨%fd0, Hf0⟩, ⟨%fd1, Hf1⟩⟩
  ihave HLs := (Entails.of_eq (bigSep_f16 _)) $$ HLs
  icases HLs with ⟨⟨⟨%fb0, Hrow0⟩, HtL0, HaL0, HoO0⟩, ⟨⟨%fb1, Hrow1⟩, HtL1, HaL1, HoO1⟩, ⟨⟨%fb2, Hrow2⟩, HtL2, HaL2, HoO2⟩, ⟨⟨%fb3, Hrow3⟩, HtL3, HaL3, HoO3⟩, ⟨⟨%fb4, Hrow4⟩, HtL4, HaL4, HoO4⟩, ⟨⟨%fb5, Hrow5⟩, HtL5, HaL5, HoO5⟩, ⟨⟨%fb6, Hrow6⟩, HtL6, HaL6, HoO6⟩, ⟨⟨%fb7, Hrow7⟩, HtL7, HaL7, HoO7⟩, ⟨⟨%fb8, Hrow8⟩, HtL8, HaL8, HoO8⟩, ⟨⟨%fb9, Hrow9⟩, HtL9, HaL9, HoO9⟩, ⟨⟨%fb10, Hrow10⟩, HtL10, HaL10, HoO10⟩, ⟨⟨%fb11, Hrow11⟩, HtL11, HaL11, HoO11⟩, ⟨⟨%fb12, Hrow12⟩, HtL12, HaL12, HoO12⟩, ⟨⟨%fb13, Hrow13⟩, HtL13, HaL13, HoO13⟩, ⟨⟨%fb14, Hrow14⟩, HtL14, HaL14, HoO14⟩, ⟨⟨%fb15, Hrow15⟩, HtL15, HaL15, HoO15⟩⟩
  ihave HSs := (Entails.of_eq (bigSep_f3x16 _)) $$ HSs
  icases HSs with ⟨⟨⟨HtS0_0, HtR0_0, HaS0_0, HcR0_0, HaR0_0⟩, ⟨HtS0_1, HtR0_1, HaS0_1, HcR0_1, HaR0_1⟩, ⟨HtS0_2, HtR0_2, HaS0_2, HcR0_2, HaR0_2⟩, ⟨HtS0_3, HtR0_3, HaS0_3, HcR0_3, HaR0_3⟩, ⟨HtS0_4, HtR0_4, HaS0_4, HcR0_4, HaR0_4⟩, ⟨HtS0_5, HtR0_5, HaS0_5, HcR0_5, HaR0_5⟩, ⟨HtS0_6, HtR0_6, HaS0_6, HcR0_6, HaR0_6⟩, ⟨HtS0_7, HtR0_7, HaS0_7, HcR0_7, HaR0_7⟩, ⟨HtS0_8, HtR0_8, HaS0_8, HcR0_8, HaR0_8⟩, ⟨HtS0_9, HtR0_9, HaS0_9, HcR0_9, HaR0_9⟩, ⟨HtS0_10, HtR0_10, HaS0_10, HcR0_10, HaR0_10⟩, ⟨HtS0_11, HtR0_11, HaS0_11, HcR0_11, HaR0_11⟩, ⟨HtS0_12, HtR0_12, HaS0_12, HcR0_12, HaR0_12⟩, ⟨HtS0_13, HtR0_13, HaS0_13, HcR0_13, HaR0_13⟩, ⟨HtS0_14, HtR0_14, HaS0_14, HcR0_14, HaR0_14⟩, ⟨HtS0_15, HtR0_15, HaS0_15, HcR0_15, HaR0_15⟩⟩, ⟨⟨HtS1_0, HtR1_0, HaS1_0, HcR1_0, HaR1_0⟩, ⟨HtS1_1, HtR1_1, HaS1_1, HcR1_1, HaR1_1⟩, ⟨HtS1_2, HtR1_2, HaS1_2, HcR1_2, HaR1_2⟩, ⟨HtS1_3, HtR1_3, HaS1_3, HcR1_3, HaR1_3⟩, ⟨HtS1_4, HtR1_4, HaS1_4, HcR1_4, HaR1_4⟩, ⟨HtS1_5, HtR1_5, HaS1_5, HcR1_5, HaR1_5⟩, ⟨HtS1_6, HtR1_6, HaS1_6, HcR1_6, HaR1_6⟩, ⟨HtS1_7, HtR1_7, HaS1_7, HcR1_7, HaR1_7⟩, ⟨HtS1_8, HtR1_8, HaS1_8, HcR1_8, HaR1_8⟩, ⟨HtS1_9, HtR1_9, HaS1_9, HcR1_9, HaR1_9⟩, ⟨HtS1_10, HtR1_10, HaS1_10, HcR1_10, HaR1_10⟩, ⟨HtS1_11, HtR1_11, HaS1_11, HcR1_11, HaR1_11⟩, ⟨HtS1_12, HtR1_12, HaS1_12, HcR1_12, HaR1_12⟩, ⟨HtS1_13, HtR1_13, HaS1_13, HcR1_13, HaR1_13⟩, ⟨HtS1_14, HtR1_14, HaS1_14, HcR1_14, HaR1_14⟩, ⟨HtS1_15, HtR1_15, HaS1_15, HcR1_15, HaR1_15⟩⟩, ⟨⟨HtS2_0, HtR2_0, HaS2_0, HcR2_0, HaR2_0⟩, ⟨HtS2_1, HtR2_1, HaS2_1, HcR2_1, HaR2_1⟩, ⟨HtS2_2, HtR2_2, HaS2_2, HcR2_2, HaR2_2⟩, ⟨HtS2_3, HtR2_3, HaS2_3, HcR2_3, HaR2_3⟩, ⟨HtS2_4, HtR2_4, HaS2_4, HcR2_4, HaR2_4⟩, ⟨HtS2_5, HtR2_5, HaS2_5, HcR2_5, HaR2_5⟩, ⟨HtS2_6, HtR2_6, HaS2_6, HcR2_6, HaR2_6⟩, ⟨HtS2_7, HtR2_7, HaS2_7, HcR2_7, HaR2_7⟩, ⟨HtS2_8, HtR2_8, HaS2_8, HcR2_8, HaR2_8⟩, ⟨HtS2_9, HtR2_9, HaS2_9, HcR2_9, HaR2_9⟩, ⟨HtS2_10, HtR2_10, HaS2_10, HcR2_10, HaR2_10⟩, ⟨HtS2_11, HtR2_11, HaS2_11, HcR2_11, HaR2_11⟩, ⟨HtS2_12, HtR2_12, HaS2_12, HcR2_12, HaR2_12⟩, ⟨HtS2_13, HtR2_13, HaS2_13, HcR2_13, HaR2_13⟩, ⟨HtS2_14, HtR2_14, HaS2_14, HcR2_14, HaR2_14⟩, ⟨HtS2_15, HtR2_15, HaS2_15, HcR2_15, HaR2_15⟩⟩⟩
  ihave #Hr0 := (rec_reached_cp m c K 0) $$ HR
  ihave #Hr1 := (rec_reached_cp m c K 1) $$ HR
  -- the unit to the peer 1 place(s) on
  iapply (op_signal m c K 0 _ (Fin.ext (k0_dev1_eq c)) 50 _) $$ [HO HtB0 HgB0]
  · isplitr; · iexact HR
    isplitl [HO]; · iexact HO
    isplitl [HtB0]; · iexact HtB0
    iexact HgB0
  iintro HO
  -- the unit to the peer 2 place(s) on
  iapply (op_signal m c K 1 _ (Fin.ext (k0_dev2_eq c)) 49 _) $$ [HO HtB1 HgB1]
  · isplitr; · iexact HR
    isplitl [HO]; · iexact HO
    isplitl [HtB1]; · iexact HtB1
    iexact HgB1
  iintro HO
  -- the unit to the peer 3 place(s) on
  iapply (op_signal m c K 2 _ (Fin.ext (k0_dev3_eq c)) 48 _) $$ [HO HtB2 HgB2]
  · isplitr; · iexact HR
    isplitl [HO]; · iexact HO
    isplitl [HtB2]; · iexact HtB2
    iexact HgB2
  iintro HO
  -- chunk 0 starts towards slot 0
  iapply (op_enq_in m c K 0) $$ [HtI0 Hx0 Hf0]
  · isplitr; · iexact HR
    isplitr; · iexact Hr0
    isplitl [HtI0]; · iexact HtI0
    isplitl [Hx0]; · iexact Hx0
    iexists _; iexact Hf0
  iintro HcI0
  -- chunk 1 starts towards slot 1
  iapply (op_enq_in m c K 1) $$ [HtI1 Hx1 Hf1]
  · isplitr; · iexact HR
    isplitr; · iexact Hr1
    isplitl [HtI1]; · iexact HtI1
    isplitl [Hx1]; · iexact Hx1
    iexists _; iexact Hf1
  iintro HcI1
  -- chunk 0: landed, rounded, stored
  iapply (op_stage m c K 0 (owedFrom c 48 3) _) $$ [HcI0 HO Ha0 Hrow0]
  · isplitr; · iexact HR
    isplitl [HcI0]; · iexact HcI0
    isplitl [HO]; · iexact HO
    isplitr; · iapply (mayWait_low (F := F) c (.dma (cpS 0)) (lv_cp c 0) 48 3 (by omega)); iexact Hlev
    isplitl [Ha0]; · iexact Ha0
    iexists _; iexact Hrow0
  iintro ⟨HO, Ha0, #Hr0, Hf0, Hx0, Hrow0⟩
  -- chunk 2 starts towards slot 0
  iapply (op_enq_in m c K 2) $$ [HtI2 Hx2 Hf0]
  · isplitr; · iexact HR
    isplitr; · iexact Hr0
    isplitl [HtI2]; · iexact HtI2
    isplitl [Hx2]; · iexact Hx2
    iexists _; iexact Hf0
  iintro HcI0
  ihave Hpc := (Entails.of_eq (rows_split_rel c 0 _)) $$ Hrow0
  icases Hpc with ⟨Hb0, Hp0_0, Hp1_0, Hp2_0⟩
  -- its own column block into the device's own result
  iapply (op_enq_lc m c K 0 _ _ (k0_off2_eq c) (k0_off1_eq c ⟨0, by decide⟩) _) $$ [HtL0 Hb0 HoO0]
  · isplitr; · iexact HR
    isplitl [HtL0]; · iexact HtL0
    isplitl [Hb0]; · iexact Hb0
    iexact HoO0
  iintro HcL0
  -- the three peers are in: their rows come with their units
  iapply (op_bar_wait m c K _) $$ [HcB HO HaB]
  · isplitr; · iexact HR
    isplitl [HcB]; · iexact HcB
    isplitl [HO]; · iexact HO
    isplitr; · iexact Hlev
    iexact HaB
  iintro ⟨HO, HaB, Hq0, Hq1, Hq2⟩
  ihave Hq0 := (Entails.of_eq (barPay_list c 0)) $$ Hq0
  icases Hq0 with ⟨HQ0_0, HQ0_1, HQ0_2, HQ0_3, HQ0_4, HQ0_5, HQ0_6, HQ0_7, HQ0_8, HQ0_9, HQ0_10, HQ0_11, HQ0_12, HQ0_13, HQ0_14, HQ0_15⟩
  ihave Hq1 := (Entails.of_eq (barPay_list c 1)) $$ Hq1
  icases Hq1 with ⟨HQ1_0, HQ1_1, HQ1_2, HQ1_3, HQ1_4, HQ1_5, HQ1_6, HQ1_7, HQ1_8, HQ1_9, HQ1_10, HQ1_11, HQ1_12, HQ1_13, HQ1_14, HQ1_15⟩
  ihave Hq2 := (Entails.of_eq (barPay_list c 2)) $$ Hq2
  icases Hq2 with ⟨HQ2_0, HQ2_1, HQ2_2, HQ2_3, HQ2_4, HQ2_5, HQ2_6, HQ2_7, HQ2_8, HQ2_9, HQ2_10, HQ2_11, HQ2_12, HQ2_13, HQ2_14, HQ2_15⟩
  -- chunk 0 to the peer 2 place(s) on
  iapply (op_send m c K 1 0 0 rfl _ (Fin.ext (k0_dev4_eq c)) _ _ (k0_off3_eq c ⟨1, by decide⟩) (k0_off1_eq c ⟨0, by decide⟩) 47 _) $$ [HtS1_0 HtR1_0 HO Hp1_0 HQ1_0]
  · isplitr; · iexact HR
    isplitl [HtS1_0]; · iexact HtS1_0
    isplitl [HtR1_0]; · iexact HtR1_0
    isplitl [HO]; · iexact HO
    isplitl [Hp1_0]; · iexact Hp1_0
    iexact HQ1_0
  iintro ⟨HcS1_0, HO⟩
  -- chunk 0 to the peer 1 place(s) on
  iapply (op_send m c K 0 0 1 rfl _ (Fin.ext (k0_dev5_eq c)) _ _ (k0_off3_eq c ⟨0, by decide⟩) (k0_off1_eq c ⟨0, by decide⟩) 46 _) $$ [HtS0_0 HtR0_0 HO Hp0_0 HQ2_0]
  · isplitr; · iexact HR
    isplitl [HtS0_0]; · iexact HtS0_0
    isplitl [HtR0_0]; · iexact HtR0_0
    isplitl [HO]; · iexact HO
    isplitl [Hp0_0]; · iexact Hp0_0
    iexact HQ2_0
  iintro ⟨HcS0_0, HO⟩
  -- chunk 0 to the peer 3 place(s) on
  iapply (op_send m c K 2 0 2 rfl _ (Fin.ext (k0_dev6_eq c)) _ _ (k0_off3_eq c ⟨2, by decide⟩) (k0_off1_eq c ⟨0, by decide⟩) 45 _) $$ [HtS2_0 HtR2_0 HO Hp2_0 HQ0_0]
  · isplitr; · iexact HR
    isplitl [HtS2_0]; · iexact HtS2_0
    isplitl [HtR2_0]; · iexact HtR2_0
    isplitl [HO]; · iexact HO
    isplitl [Hp2_0]; · iexact Hp2_0
    iexact HQ0_0
  iintro ⟨HcS2_0, HO⟩
  -- chunk 1: landed, rounded, stored
  iapply (op_stage m c K 1 (owedFrom c 45 6) _) $$ [HcI1 HO Ha1 Hrow1]
  · isplitr; · iexact HR
    isplitl [HcI1]; · iexact HcI1
    isplitl [HO]; · iexact HO
    isplitr; · iapply (mayWait_low (F := F) c (.dma (cpS 1)) (lv_cp c 1) 45 6 (by omega)); iexact Hlev
    isplitl [Ha1]; · iexact Ha1
    iexists _; iexact Hrow1
  iintro ⟨HO, Ha1, #Hr1, Hf1, Hx1, Hrow1⟩
  -- chunk 3 starts towards slot 1
  iapply (op_enq_in m c K 3) $$ [HtI3 Hx3 Hf1]
  · isplitr; · iexact HR
    isplitr; · iexact Hr1
    isplitl [HtI3]; · iexact HtI3
    isplitl [Hx3]; · iexact Hx3
    iexists _; iexact Hf1
  iintro HcI1
  ihave Hpc := (Entails.of_eq (rows_split_rel c 1 _)) $$ Hrow1
  icases Hpc with ⟨Hb1, Hp0_1, Hp1_1, Hp2_1⟩
  -- its own column block into the device's own result
  iapply (op_enq_lc m c K 1 _ _ (k0_off4_eq c) (k0_off1_eq c ⟨1, by decide⟩) _) $$ [HtL1 Hb1 HoO1]
  · isplitr; · iexact HR
    isplitl [HtL1]; · iexact HtL1
    isplitl [Hb1]; · iexact Hb1
    iexact HoO1
  iintro HcL1
  -- chunk 1 to the peer 2 place(s) on
  iapply (op_send m c K 1 1 0 rfl _ (Fin.ext (k0_dev7_eq c)) _ _ (k0_off5_eq c ⟨1, by decide⟩) (k0_off1_eq c ⟨1, by decide⟩) 44 _) $$ [HtS1_1 HtR1_1 HO Hp1_1 HQ1_1]
  · isplitr; · iexact HR
    isplitl [HtS1_1]; · iexact HtS1_1
    isplitl [HtR1_1]; · iexact HtR1_1
    isplitl [HO]; · iexact HO
    isplitl [Hp1_1]; · iexact Hp1_1
    iexact HQ1_1
  iintro ⟨HcS1_1, HO⟩
  -- chunk 1 to the peer 1 place(s) on
  iapply (op_send m c K 0 1 1 rfl _ (Fin.ext (k0_dev8_eq c)) _ _ (k0_off5_eq c ⟨0, by decide⟩) (k0_off1_eq c ⟨1, by decide⟩) 43 _) $$ [HtS0_1 HtR0_1 HO Hp0_1 HQ2_1]
  · isplitr; · iexact HR
    isplitl [HtS0_1]; · iexact HtS0_1
    isplitl [HtR0_1]; · iexact HtR0_1
    isplitl [HO]; · iexact HO
    isplitl [Hp0_1]; · iexact Hp0_1
    iexact HQ2_1
  iintro ⟨HcS0_1, HO⟩
  -- chunk 1 to the peer 3 place(s) on
  iapply (op_send m c K 2 1 2 rfl _ (Fin.ext (k0_dev9_eq c)) _ _ (k0_off5_eq c ⟨2, by decide⟩) (k0_off1_eq c ⟨1, by decide⟩) 42 _) $$ [HtS2_1 HtR2_1 HO Hp2_1 HQ0_1]
  · isplitr; · iexact HR
    isplitl [HtS2_1]; · iexact HtS2_1
    isplitl [HtR2_1]; · iexact HtR2_1
    isplitl [HO]; · iexact HO
    isplitl [Hp2_1]; · iexact Hp2_1
    iexact HQ0_1
  iintro ⟨HcS2_1, HO⟩
  -- chunk 2: landed, rounded, stored
  iapply (op_stage m c K 2 (owedFrom c 42 9) _) $$ [HcI0 HO Ha0 Hrow2]
  · isplitr; · iexact HR
    isplitl [HcI0]; · iexact HcI0
    isplitl [HO]; · iexact HO
    isplitr; · iapply (mayWait_low (F := F) c (.dma (cpS 0)) (lv_cp c 0) 42 9 (by omega)); iexact Hlev
    isplitl [Ha0]; · iexact Ha0
    iexists _; iexact Hrow2
  iintro ⟨HO, Ha0, #Hr0, Hf0, Hx2, Hrow2⟩
  -- chunk 4 starts towards slot 0
  iapply (op_enq_in m c K 4) $$ [HtI4 Hx4 Hf0]
  · isplitr; · iexact HR
    isplitr; · iexact Hr0
    isplitl [HtI4]; · iexact HtI4
    isplitl [Hx4]; · iexact Hx4
    iexists _; iexact Hf0
  iintro HcI0
  ihave Hpc := (Entails.of_eq (rows_split_rel c 2 _)) $$ Hrow2
  icases Hpc with ⟨Hb2, Hp0_2, Hp1_2, Hp2_2⟩
  -- its own column block into the device's own result
  iapply (op_enq_lc m c K 2 _ _ (k0_off6_eq c) (k0_off1_eq c ⟨2, by decide⟩) _) $$ [HtL2 Hb2 HoO2]
  · isplitr; · iexact HR
    isplitl [HtL2]; · iexact HtL2
    isplitl [Hb2]; · iexact Hb2
    iexact HoO2
  iintro HcL2
  -- chunk 2 to the peer 2 place(s) on
  iapply (op_send m c K 1 2 0 rfl _ (Fin.ext (k0_dev10_eq c)) _ _ (k0_off7_eq c ⟨1, by decide⟩) (k0_off1_eq c ⟨2, by decide⟩) 41 _) $$ [HtS1_2 HtR1_2 HO Hp1_2 HQ1_2]
  · isplitr; · iexact HR
    isplitl [HtS1_2]; · iexact HtS1_2
    isplitl [HtR1_2]; · iexact HtR1_2
    isplitl [HO]; · iexact HO
    isplitl [Hp1_2]; · iexact Hp1_2
    iexact HQ1_2
  iintro ⟨HcS1_2, HO⟩
  -- chunk 2 to the peer 1 place(s) on
  iapply (op_send m c K 0 2 1 rfl _ (Fin.ext (k0_dev11_eq c)) _ _ (k0_off7_eq c ⟨0, by decide⟩) (k0_off1_eq c ⟨2, by decide⟩) 40 _) $$ [HtS0_2 HtR0_2 HO Hp0_2 HQ2_2]
  · isplitr; · iexact HR
    isplitl [HtS0_2]; · iexact HtS0_2
    isplitl [HtR0_2]; · iexact HtR0_2
    isplitl [HO]; · iexact HO
    isplitl [Hp0_2]; · iexact Hp0_2
    iexact HQ2_2
  iintro ⟨HcS0_2, HO⟩
  -- chunk 2 to the peer 3 place(s) on
  iapply (op_send m c K 2 2 2 rfl _ (Fin.ext (k0_dev12_eq c)) _ _ (k0_off7_eq c ⟨2, by decide⟩) (k0_off1_eq c ⟨2, by decide⟩) 39 _) $$ [HtS2_2 HtR2_2 HO Hp2_2 HQ0_2]
  · isplitr; · iexact HR
    isplitl [HtS2_2]; · iexact HtS2_2
    isplitl [HtR2_2]; · iexact HtR2_2
    isplitl [HO]; · iexact HO
    isplitl [Hp2_2]; · iexact Hp2_2
    iexact HQ0_2
  iintro ⟨HcS2_2, HO⟩
  -- chunk 3: landed, rounded, stored
  iapply (op_stage m c K 3 (owedFrom c 39 12) _) $$ [HcI1 HO Ha1 Hrow3]
  · isplitr; · iexact HR
    isplitl [HcI1]; · iexact HcI1
    isplitl [HO]; · iexact HO
    isplitr; · iapply (mayWait_low (F := F) c (.dma (cpS 1)) (lv_cp c 1) 39 12 (by omega)); iexact Hlev
    isplitl [Ha1]; · iexact Ha1
    iexists _; iexact Hrow3
  iintro ⟨HO, Ha1, #Hr1, Hf1, Hx3, Hrow3⟩
  -- chunk 5 starts towards slot 1
  iapply (op_enq_in m c K 5) $$ [HtI5 Hx5 Hf1]
  · isplitr; · iexact HR
    isplitr; · iexact Hr1
    isplitl [HtI5]; · iexact HtI5
    isplitl [Hx5]; · iexact Hx5
    iexists _; iexact Hf1
  iintro HcI1
  ihave Hpc := (Entails.of_eq (rows_split_rel c 3 _)) $$ Hrow3
  icases Hpc with ⟨Hb3, Hp0_3, Hp1_3, Hp2_3⟩
  -- its own column block into the device's own result
  iapply (op_enq_lc m c K 3 _ _ (k0_off8_eq c) (k0_off1_eq c ⟨3, by decide⟩) _) $$ [HtL3 Hb3 HoO3]
  · isplitr; · iexact HR
    isplitl [HtL3]; · iexact HtL3
    isplitl [Hb3]; · iexact Hb3
    iexact HoO3
  iintro HcL3
  -- chunk 3 to the peer 2 place(s) on
  iapply (op_send m c K 1 3 0 rfl _ (Fin.ext (k0_dev13_eq c)) _ _ (k0_off9_eq c ⟨1, by decide⟩) (k0_off1_eq c ⟨3, by decide⟩) 38 _) $$ [HtS1_3 HtR1_3 HO Hp1_3 HQ1_3]
  · isplitr; · iexact HR
    isplitl [HtS1_3]; · iexact HtS1_3
    isplitl [HtR1_3]; · iexact HtR1_3
    isplitl [HO]; · iexact HO
    isplitl [Hp1_3]; · iexact Hp1_3
    iexact HQ1_3
  iintro ⟨HcS1_3, HO⟩
  -- chunk 3 to the peer 1 place(s) on
  iapply (op_send m c K 0 3 1 rfl _ (Fin.ext (k0_dev14_eq c)) _ _ (k0_off9_eq c ⟨0, by decide⟩) (k0_off1_eq c ⟨3, by decide⟩) 37 _) $$ [HtS0_3 HtR0_3 HO Hp0_3 HQ2_3]
  · isplitr; · iexact HR
    isplitl [HtS0_3]; · iexact HtS0_3
    isplitl [HtR0_3]; · iexact HtR0_3
    isplitl [HO]; · iexact HO
    isplitl [Hp0_3]; · iexact Hp0_3
    iexact HQ2_3
  iintro ⟨HcS0_3, HO⟩
  -- chunk 3 to the peer 3 place(s) on
  iapply (op_send m c K 2 3 2 rfl _ (Fin.ext (k0_dev15_eq c)) _ _ (k0_off9_eq c ⟨2, by decide⟩) (k0_off1_eq c ⟨3, by decide⟩) 36 _) $$ [HtS2_3 HtR2_3 HO Hp2_3 HQ0_3]
  · isplitr; · iexact HR
    isplitl [HtS2_3]; · iexact HtS2_3
    isplitl [HtR2_3]; · iexact HtR2_3
    isplitl [HO]; · iexact HO
    isplitl [Hp2_3]; · iexact Hp2_3
    iexact HQ0_3
  iintro ⟨HcS2_3, HO⟩
  -- chunk 4: landed, rounded, stored
  iapply (op_stage m c K 4 (owedFrom c 36 15) _) $$ [HcI0 HO Ha0 Hrow4]
  · isplitr; · iexact HR
    isplitl [HcI0]; · iexact HcI0
    isplitl [HO]; · iexact HO
    isplitr; · iapply (mayWait_low (F := F) c (.dma (cpS 0)) (lv_cp c 0) 36 15 (by omega)); iexact Hlev
    isplitl [Ha0]; · iexact Ha0
    iexists _; iexact Hrow4
  iintro ⟨HO, Ha0, #Hr0, Hf0, Hx4, Hrow4⟩
  -- chunk 6 starts towards slot 0
  iapply (op_enq_in m c K 6) $$ [HtI6 Hx6 Hf0]
  · isplitr; · iexact HR
    isplitr; · iexact Hr0
    isplitl [HtI6]; · iexact HtI6
    isplitl [Hx6]; · iexact Hx6
    iexists _; iexact Hf0
  iintro HcI0
  ihave Hpc := (Entails.of_eq (rows_split_rel c 4 _)) $$ Hrow4
  icases Hpc with ⟨Hb4, Hp0_4, Hp1_4, Hp2_4⟩
  -- its own column block into the device's own result
  iapply (op_enq_lc m c K 4 _ _ (k0_off10_eq c) (k0_off1_eq c ⟨4, by decide⟩) _) $$ [HtL4 Hb4 HoO4]
  · isplitr; · iexact HR
    isplitl [HtL4]; · iexact HtL4
    isplitl [Hb4]; · iexact Hb4
    iexact HoO4
  iintro HcL4
  -- chunk 4 to the peer 2 place(s) on
  iapply (op_send m c K 1 4 0 rfl _ (Fin.ext (k0_dev16_eq c)) _ _ (k0_off11_eq c ⟨1, by decide⟩) (k0_off1_eq c ⟨4, by decide⟩) 35 _) $$ [HtS1_4 HtR1_4 HO Hp1_4 HQ1_4]
  · isplitr; · iexact HR
    isplitl [HtS1_4]; · iexact HtS1_4
    isplitl [HtR1_4]; · iexact HtR1_4
    isplitl [HO]; · iexact HO
    isplitl [Hp1_4]; · iexact Hp1_4
    iexact HQ1_4
  iintro ⟨HcS1_4, HO⟩
  -- chunk 4 to the peer 1 place(s) on
  iapply (op_send m c K 0 4 1 rfl _ (Fin.ext (k0_dev17_eq c)) _ _ (k0_off11_eq c ⟨0, by decide⟩) (k0_off1_eq c ⟨4, by decide⟩) 34 _) $$ [HtS0_4 HtR0_4 HO Hp0_4 HQ2_4]
  · isplitr; · iexact HR
    isplitl [HtS0_4]; · iexact HtS0_4
    isplitl [HtR0_4]; · iexact HtR0_4
    isplitl [HO]; · iexact HO
    isplitl [Hp0_4]; · iexact Hp0_4
    iexact HQ2_4
  iintro ⟨HcS0_4, HO⟩
  -- chunk 4 to the peer 3 place(s) on
  iapply (op_send m c K 2 4 2 rfl _ (Fin.ext (k0_dev18_eq c)) _ _ (k0_off11_eq c ⟨2, by decide⟩) (k0_off1_eq c ⟨4, by decide⟩) 33 _) $$ [HtS2_4 HtR2_4 HO Hp2_4 HQ0_4]
  · isplitr; · iexact HR
    isplitl [HtS2_4]; · iexact HtS2_4
    isplitl [HtR2_4]; · iexact HtR2_4
    isplitl [HO]; · iexact HO
    isplitl [Hp2_4]; · iexact Hp2_4
    iexact HQ0_4
  iintro ⟨HcS2_4, HO⟩
  -- chunk 5: landed, rounded, stored
  iapply (op_stage m c K 5 (owedFrom c 33 18) _) $$ [HcI1 HO Ha1 Hrow5]
  · isplitr; · iexact HR
    isplitl [HcI1]; · iexact HcI1
    isplitl [HO]; · iexact HO
    isplitr; · iapply (mayWait_low (F := F) c (.dma (cpS 1)) (lv_cp c 1) 33 18 (by omega)); iexact Hlev
    isplitl [Ha1]; · iexact Ha1
    iexists _; iexact Hrow5
  iintro ⟨HO, Ha1, #Hr1, Hf1, Hx5, Hrow5⟩
  -- chunk 7 starts towards slot 1
  iapply (op_enq_in m c K 7) $$ [HtI7 Hx7 Hf1]
  · isplitr; · iexact HR
    isplitr; · iexact Hr1
    isplitl [HtI7]; · iexact HtI7
    isplitl [Hx7]; · iexact Hx7
    iexists _; iexact Hf1
  iintro HcI1
  ihave Hpc := (Entails.of_eq (rows_split_rel c 5 _)) $$ Hrow5
  icases Hpc with ⟨Hb5, Hp0_5, Hp1_5, Hp2_5⟩
  -- its own column block into the device's own result
  iapply (op_enq_lc m c K 5 _ _ (k0_off12_eq c) (k0_off1_eq c ⟨5, by decide⟩) _) $$ [HtL5 Hb5 HoO5]
  · isplitr; · iexact HR
    isplitl [HtL5]; · iexact HtL5
    isplitl [Hb5]; · iexact Hb5
    iexact HoO5
  iintro HcL5
  -- chunk 5 to the peer 2 place(s) on
  iapply (op_send m c K 1 5 0 rfl _ (Fin.ext (k0_dev19_eq c)) _ _ (k0_off13_eq c ⟨1, by decide⟩) (k0_off1_eq c ⟨5, by decide⟩) 32 _) $$ [HtS1_5 HtR1_5 HO Hp1_5 HQ1_5]
  · isplitr; · iexact HR
    isplitl [HtS1_5]; · iexact HtS1_5
    isplitl [HtR1_5]; · iexact HtR1_5
    isplitl [HO]; · iexact HO
    isplitl [Hp1_5]; · iexact Hp1_5
    iexact HQ1_5
  iintro ⟨HcS1_5, HO⟩
  -- chunk 5 to the peer 1 place(s) on
  iapply (op_send m c K 0 5 1 rfl _ (Fin.ext (k0_dev20_eq c)) _ _ (k0_off13_eq c ⟨0, by decide⟩) (k0_off1_eq c ⟨5, by decide⟩) 31 _) $$ [HtS0_5 HtR0_5 HO Hp0_5 HQ2_5]
  · isplitr; · iexact HR
    isplitl [HtS0_5]; · iexact HtS0_5
    isplitl [HtR0_5]; · iexact HtR0_5
    isplitl [HO]; · iexact HO
    isplitl [Hp0_5]; · iexact Hp0_5
    iexact HQ2_5
  iintro ⟨HcS0_5, HO⟩
  -- chunk 5 to the peer 3 place(s) on
  iapply (op_send m c K 2 5 2 rfl _ (Fin.ext (k0_dev21_eq c)) _ _ (k0_off13_eq c ⟨2, by decide⟩) (k0_off1_eq c ⟨5, by decide⟩) 30 _) $$ [HtS2_5 HtR2_5 HO Hp2_5 HQ0_5]
  · isplitr; · iexact HR
    isplitl [HtS2_5]; · iexact HtS2_5
    isplitl [HtR2_5]; · iexact HtR2_5
    isplitl [HO]; · iexact HO
    isplitl [Hp2_5]; · iexact Hp2_5
    iexact HQ0_5
  iintro ⟨HcS2_5, HO⟩
  -- chunk 6: landed, rounded, stored
  iapply (op_stage m c K 6 (owedFrom c 30 21) _) $$ [HcI0 HO Ha0 Hrow6]
  · isplitr; · iexact HR
    isplitl [HcI0]; · iexact HcI0
    isplitl [HO]; · iexact HO
    isplitr; · iapply (mayWait_low (F := F) c (.dma (cpS 0)) (lv_cp c 0) 30 21 (by omega)); iexact Hlev
    isplitl [Ha0]; · iexact Ha0
    iexists _; iexact Hrow6
  iintro ⟨HO, Ha0, #Hr0, Hf0, Hx6, Hrow6⟩
  -- chunk 8 starts towards slot 0
  iapply (op_enq_in m c K 8) $$ [HtI8 Hx8 Hf0]
  · isplitr; · iexact HR
    isplitr; · iexact Hr0
    isplitl [HtI8]; · iexact HtI8
    isplitl [Hx8]; · iexact Hx8
    iexists _; iexact Hf0
  iintro HcI0
  ihave Hpc := (Entails.of_eq (rows_split_rel c 6 _)) $$ Hrow6
  icases Hpc with ⟨Hb6, Hp0_6, Hp1_6, Hp2_6⟩
  -- its own column block into the device's own result
  iapply (op_enq_lc m c K 6 _ _ (k0_off14_eq c) (k0_off1_eq c ⟨6, by decide⟩) _) $$ [HtL6 Hb6 HoO6]
  · isplitr; · iexact HR
    isplitl [HtL6]; · iexact HtL6
    isplitl [Hb6]; · iexact Hb6
    iexact HoO6
  iintro HcL6
  -- chunk 6 to the peer 2 place(s) on
  iapply (op_send m c K 1 6 0 rfl _ (Fin.ext (k0_dev22_eq c)) _ _ (k0_off15_eq c ⟨1, by decide⟩) (k0_off1_eq c ⟨6, by decide⟩) 29 _) $$ [HtS1_6 HtR1_6 HO Hp1_6 HQ1_6]
  · isplitr; · iexact HR
    isplitl [HtS1_6]; · iexact HtS1_6
    isplitl [HtR1_6]; · iexact HtR1_6
    isplitl [HO]; · iexact HO
    isplitl [Hp1_6]; · iexact Hp1_6
    iexact HQ1_6
  iintro ⟨HcS1_6, HO⟩
  -- chunk 6 to the peer 1 place(s) on
  iapply (op_send m c K 0 6 1 rfl _ (Fin.ext (k0_dev23_eq c)) _ _ (k0_off15_eq c ⟨0, by decide⟩) (k0_off1_eq c ⟨6, by decide⟩) 28 _) $$ [HtS0_6 HtR0_6 HO Hp0_6 HQ2_6]
  · isplitr; · iexact HR
    isplitl [HtS0_6]; · iexact HtS0_6
    isplitl [HtR0_6]; · iexact HtR0_6
    isplitl [HO]; · iexact HO
    isplitl [Hp0_6]; · iexact Hp0_6
    iexact HQ2_6
  iintro ⟨HcS0_6, HO⟩
  -- chunk 6 to the peer 3 place(s) on
  iapply (op_send m c K 2 6 2 rfl _ (Fin.ext (k0_dev24_eq c)) _ _ (k0_off15_eq c ⟨2, by decide⟩) (k0_off1_eq c ⟨6, by decide⟩) 27 _) $$ [HtS2_6 HtR2_6 HO Hp2_6 HQ0_6]
  · isplitr; · iexact HR
    isplitl [HtS2_6]; · iexact HtS2_6
    isplitl [HtR2_6]; · iexact HtR2_6
    isplitl [HO]; · iexact HO
    isplitl [Hp2_6]; · iexact Hp2_6
    iexact HQ0_6
  iintro ⟨HcS2_6, HO⟩
  -- chunk 7: landed, rounded, stored
  iapply (op_stage m c K 7 (owedFrom c 27 24) _) $$ [HcI1 HO Ha1 Hrow7]
  · isplitr; · iexact HR
    isplitl [HcI1]; · iexact HcI1
    isplitl [HO]; · iexact HO
    isplitr; · iapply (mayWait_low (F := F) c (.dma (cpS 1)) (lv_cp c 1) 27 24 (by omega)); iexact Hlev
    isplitl [Ha1]; · iexact Ha1
    iexists _; iexact Hrow7
  iintro ⟨HO, Ha1, #Hr1, Hf1, Hx7, Hrow7⟩
  -- chunk 9 starts towards slot 1
  iapply (op_enq_in m c K 9) $$ [HtI9 Hx9 Hf1]
  · isplitr; · iexact HR
    isplitr; · iexact Hr1
    isplitl [HtI9]; · iexact HtI9
    isplitl [Hx9]; · iexact Hx9
    iexists _; iexact Hf1
  iintro HcI1
  ihave Hpc := (Entails.of_eq (rows_split_rel c 7 _)) $$ Hrow7
  icases Hpc with ⟨Hb7, Hp0_7, Hp1_7, Hp2_7⟩
  -- its own column block into the device's own result
  iapply (op_enq_lc m c K 7 _ _ (k0_off16_eq c) (k0_off1_eq c ⟨7, by decide⟩) _) $$ [HtL7 Hb7 HoO7]
  · isplitr; · iexact HR
    isplitl [HtL7]; · iexact HtL7
    isplitl [Hb7]; · iexact Hb7
    iexact HoO7
  iintro HcL7
  -- chunk 7 to the peer 2 place(s) on
  iapply (op_send m c K 1 7 0 rfl _ (Fin.ext (k0_dev25_eq c)) _ _ (k0_off17_eq c ⟨1, by decide⟩) (k0_off1_eq c ⟨7, by decide⟩) 26 _) $$ [HtS1_7 HtR1_7 HO Hp1_7 HQ1_7]
  · isplitr; · iexact HR
    isplitl [HtS1_7]; · iexact HtS1_7
    isplitl [HtR1_7]; · iexact HtR1_7
    isplitl [HO]; · iexact HO
    isplitl [Hp1_7]; · iexact Hp1_7
    iexact HQ1_7
  iintro ⟨HcS1_7, HO⟩
  -- chunk 7 to the peer 1 place(s) on
  iapply (op_send m c K 0 7 1 rfl _ (Fin.ext (k0_dev26_eq c)) _ _ (k0_off17_eq c ⟨0, by decide⟩) (k0_off1_eq c ⟨7, by decide⟩) 25 _) $$ [HtS0_7 HtR0_7 HO Hp0_7 HQ2_7]
  · isplitr; · iexact HR
    isplitl [HtS0_7]; · iexact HtS0_7
    isplitl [HtR0_7]; · iexact HtR0_7
    isplitl [HO]; · iexact HO
    isplitl [Hp0_7]; · iexact Hp0_7
    iexact HQ2_7
  iintro ⟨HcS0_7, HO⟩
  -- chunk 7 to the peer 3 place(s) on
  iapply (op_send m c K 2 7 2 rfl _ (Fin.ext (k0_dev27_eq c)) _ _ (k0_off17_eq c ⟨2, by decide⟩) (k0_off1_eq c ⟨7, by decide⟩) 24 _) $$ [HtS2_7 HtR2_7 HO Hp2_7 HQ0_7]
  · isplitr; · iexact HR
    isplitl [HtS2_7]; · iexact HtS2_7
    isplitl [HtR2_7]; · iexact HtR2_7
    isplitl [HO]; · iexact HO
    isplitl [Hp2_7]; · iexact Hp2_7
    iexact HQ0_7
  iintro ⟨HcS2_7, HO⟩
  -- chunk 8: landed, rounded, stored
  iapply (op_stage m c K 8 (owedFrom c 24 27) _) $$ [HcI0 HO Ha0 Hrow8]
  · isplitr; · iexact HR
    isplitl [HcI0]; · iexact HcI0
    isplitl [HO]; · iexact HO
    isplitr; · iapply (mayWait_low (F := F) c (.dma (cpS 0)) (lv_cp c 0) 24 27 (by omega)); iexact Hlev
    isplitl [Ha0]; · iexact Ha0
    iexists _; iexact Hrow8
  iintro ⟨HO, Ha0, #Hr0, Hf0, Hx8, Hrow8⟩
  -- chunk 10 starts towards slot 0
  iapply (op_enq_in m c K 10) $$ [HtI10 Hx10 Hf0]
  · isplitr; · iexact HR
    isplitr; · iexact Hr0
    isplitl [HtI10]; · iexact HtI10
    isplitl [Hx10]; · iexact Hx10
    iexists _; iexact Hf0
  iintro HcI0
  ihave Hpc := (Entails.of_eq (rows_split_rel c 8 _)) $$ Hrow8
  icases Hpc with ⟨Hb8, Hp0_8, Hp1_8, Hp2_8⟩
  -- its own column block into the device's own result
  iapply (op_enq_lc m c K 8 _ _ (k0_off18_eq c) (k0_off1_eq c ⟨8, by decide⟩) _) $$ [HtL8 Hb8 HoO8]
  · isplitr; · iexact HR
    isplitl [HtL8]; · iexact HtL8
    isplitl [Hb8]; · iexact Hb8
    iexact HoO8
  iintro HcL8
  -- chunk 8 to the peer 2 place(s) on
  iapply (op_send m c K 1 8 0 rfl _ (Fin.ext (k0_dev28_eq c)) _ _ (k0_off19_eq c ⟨1, by decide⟩) (k0_off1_eq c ⟨8, by decide⟩) 23 _) $$ [HtS1_8 HtR1_8 HO Hp1_8 HQ1_8]
  · isplitr; · iexact HR
    isplitl [HtS1_8]; · iexact HtS1_8
    isplitl [HtR1_8]; · iexact HtR1_8
    isplitl [HO]; · iexact HO
    isplitl [Hp1_8]; · iexact Hp1_8
    iexact HQ1_8
  iintro ⟨HcS1_8, HO⟩
  -- chunk 8 to the peer 1 place(s) on
  iapply (op_send m c K 0 8 1 rfl _ (Fin.ext (k0_dev29_eq c)) _ _ (k0_off19_eq c ⟨0, by decide⟩) (k0_off1_eq c ⟨8, by decide⟩) 22 _) $$ [HtS0_8 HtR0_8 HO Hp0_8 HQ2_8]
  · isplitr; · iexact HR
    isplitl [HtS0_8]; · iexact HtS0_8
    isplitl [HtR0_8]; · iexact HtR0_8
    isplitl [HO]; · iexact HO
    isplitl [Hp0_8]; · iexact Hp0_8
    iexact HQ2_8
  iintro ⟨HcS0_8, HO⟩
  -- chunk 8 to the peer 3 place(s) on
  iapply (op_send m c K 2 8 2 rfl _ (Fin.ext (k0_dev30_eq c)) _ _ (k0_off19_eq c ⟨2, by decide⟩) (k0_off1_eq c ⟨8, by decide⟩) 21 _) $$ [HtS2_8 HtR2_8 HO Hp2_8 HQ0_8]
  · isplitr; · iexact HR
    isplitl [HtS2_8]; · iexact HtS2_8
    isplitl [HtR2_8]; · iexact HtR2_8
    isplitl [HO]; · iexact HO
    isplitl [Hp2_8]; · iexact Hp2_8
    iexact HQ0_8
  iintro ⟨HcS2_8, HO⟩
  -- chunk 9: landed, rounded, stored
  iapply (op_stage m c K 9 (owedFrom c 21 30) _) $$ [HcI1 HO Ha1 Hrow9]
  · isplitr; · iexact HR
    isplitl [HcI1]; · iexact HcI1
    isplitl [HO]; · iexact HO
    isplitr; · iapply (mayWait_low (F := F) c (.dma (cpS 1)) (lv_cp c 1) 21 30 (by omega)); iexact Hlev
    isplitl [Ha1]; · iexact Ha1
    iexists _; iexact Hrow9
  iintro ⟨HO, Ha1, #Hr1, Hf1, Hx9, Hrow9⟩
  -- chunk 11 starts towards slot 1
  iapply (op_enq_in m c K 11) $$ [HtI11 Hx11 Hf1]
  · isplitr; · iexact HR
    isplitr; · iexact Hr1
    isplitl [HtI11]; · iexact HtI11
    isplitl [Hx11]; · iexact Hx11
    iexists _; iexact Hf1
  iintro HcI1
  ihave Hpc := (Entails.of_eq (rows_split_rel c 9 _)) $$ Hrow9
  icases Hpc with ⟨Hb9, Hp0_9, Hp1_9, Hp2_9⟩
  -- its own column block into the device's own result
  iapply (op_enq_lc m c K 9 _ _ (k0_off20_eq c) (k0_off1_eq c ⟨9, by decide⟩) _) $$ [HtL9 Hb9 HoO9]
  · isplitr; · iexact HR
    isplitl [HtL9]; · iexact HtL9
    isplitl [Hb9]; · iexact Hb9
    iexact HoO9
  iintro HcL9
  -- chunk 9 to the peer 2 place(s) on
  iapply (op_send m c K 1 9 0 rfl _ (Fin.ext (k0_dev31_eq c)) _ _ (k0_off21_eq c ⟨1, by decide⟩) (k0_off1_eq c ⟨9, by decide⟩) 20 _) $$ [HtS1_9 HtR1_9 HO Hp1_9 HQ1_9]
  · isplitr; · iexact HR
    isplitl [HtS1_9]; · iexact HtS1_9
    isplitl [HtR1_9]; · iexact HtR1_9
    isplitl [HO]; · iexact HO
    isplitl [Hp1_9]; · iexact Hp1_9
    iexact HQ1_9
  iintro ⟨HcS1_9, HO⟩
  -- chunk 9 to the peer 1 place(s) on
  iapply (op_send m c K 0 9 1 rfl _ (Fin.ext (k0_dev32_eq c)) _ _ (k0_off21_eq c ⟨0, by decide⟩) (k0_off1_eq c ⟨9, by decide⟩) 19 _) $$ [HtS0_9 HtR0_9 HO Hp0_9 HQ2_9]
  · isplitr; · iexact HR
    isplitl [HtS0_9]; · iexact HtS0_9
    isplitl [HtR0_9]; · iexact HtR0_9
    isplitl [HO]; · iexact HO
    isplitl [Hp0_9]; · iexact Hp0_9
    iexact HQ2_9
  iintro ⟨HcS0_9, HO⟩
  -- chunk 9 to the peer 3 place(s) on
  iapply (op_send m c K 2 9 2 rfl _ (Fin.ext (k0_dev33_eq c)) _ _ (k0_off21_eq c ⟨2, by decide⟩) (k0_off1_eq c ⟨9, by decide⟩) 18 _) $$ [HtS2_9 HtR2_9 HO Hp2_9 HQ0_9]
  · isplitr; · iexact HR
    isplitl [HtS2_9]; · iexact HtS2_9
    isplitl [HtR2_9]; · iexact HtR2_9
    isplitl [HO]; · iexact HO
    isplitl [Hp2_9]; · iexact Hp2_9
    iexact HQ0_9
  iintro ⟨HcS2_9, HO⟩
  -- chunk 10: landed, rounded, stored
  iapply (op_stage m c K 10 (owedFrom c 18 33) _) $$ [HcI0 HO Ha0 Hrow10]
  · isplitr; · iexact HR
    isplitl [HcI0]; · iexact HcI0
    isplitl [HO]; · iexact HO
    isplitr; · iapply (mayWait_low (F := F) c (.dma (cpS 0)) (lv_cp c 0) 18 33 (by omega)); iexact Hlev
    isplitl [Ha0]; · iexact Ha0
    iexists _; iexact Hrow10
  iintro ⟨HO, Ha0, #Hr0, Hf0, Hx10, Hrow10⟩
  -- chunk 12 starts towards slot 0
  iapply (op_enq_in m c K 12) $$ [HtI12 Hx12 Hf0]
  · isplitr; · iexact HR
    isplitr; · iexact Hr0
    isplitl [HtI12]; · iexact HtI12
    isplitl [Hx12]; · iexact Hx12
    iexists _; iexact Hf0
  iintro HcI0
  ihave Hpc := (Entails.of_eq (rows_split_rel c 10 _)) $$ Hrow10
  icases Hpc with ⟨Hb10, Hp0_10, Hp1_10, Hp2_10⟩
  -- its own column block into the device's own result
  iapply (op_enq_lc m c K 10 _ _ (k0_off22_eq c) (k0_off1_eq c ⟨10, by decide⟩) _) $$ [HtL10 Hb10 HoO10]
  · isplitr; · iexact HR
    isplitl [HtL10]; · iexact HtL10
    isplitl [Hb10]; · iexact Hb10
    iexact HoO10
  iintro HcL10
  -- chunk 10 to the peer 2 place(s) on
  iapply (op_send m c K 1 10 0 rfl _ (Fin.ext (k0_dev34_eq c)) _ _ (k0_off23_eq c ⟨1, by decide⟩) (k0_off1_eq c ⟨10, by decide⟩) 17 _) $$ [HtS1_10 HtR1_10 HO Hp1_10 HQ1_10]
  · isplitr; · iexact HR
    isplitl [HtS1_10]; · iexact HtS1_10
    isplitl [HtR1_10]; · iexact HtR1_10
    isplitl [HO]; · iexact HO
    isplitl [Hp1_10]; · iexact Hp1_10
    iexact HQ1_10
  iintro ⟨HcS1_10, HO⟩
  -- chunk 10 to the peer 1 place(s) on
  iapply (op_send m c K 0 10 1 rfl _ (Fin.ext (k0_dev35_eq c)) _ _ (k0_off23_eq c ⟨0, by decide⟩) (k0_off1_eq c ⟨10, by decide⟩) 16 _) $$ [HtS0_10 HtR0_10 HO Hp0_10 HQ2_10]
  · isplitr; · iexact HR
    isplitl [HtS0_10]; · iexact HtS0_10
    isplitl [HtR0_10]; · iexact HtR0_10
    isplitl [HO]; · iexact HO
    isplitl [Hp0_10]; · iexact Hp0_10
    iexact HQ2_10
  iintro ⟨HcS0_10, HO⟩
  -- chunk 10 to the peer 3 place(s) on
  iapply (op_send m c K 2 10 2 rfl _ (Fin.ext (k0_dev36_eq c)) _ _ (k0_off23_eq c ⟨2, by decide⟩) (k0_off1_eq c ⟨10, by decide⟩) 15 _) $$ [HtS2_10 HtR2_10 HO Hp2_10 HQ0_10]
  · isplitr; · iexact HR
    isplitl [HtS2_10]; · iexact HtS2_10
    isplitl [HtR2_10]; · iexact HtR2_10
    isplitl [HO]; · iexact HO
    isplitl [Hp2_10]; · iexact Hp2_10
    iexact HQ0_10
  iintro ⟨HcS2_10, HO⟩
  -- chunk 11: landed, rounded, stored
  iapply (op_stage m c K 11 (owedFrom c 15 36) _) $$ [HcI1 HO Ha1 Hrow11]
  · isplitr; · iexact HR
    isplitl [HcI1]; · iexact HcI1
    isplitl [HO]; · iexact HO
    isplitr; · iapply (mayWait_low (F := F) c (.dma (cpS 1)) (lv_cp c 1) 15 36 (by omega)); iexact Hlev
    isplitl [Ha1]; · iexact Ha1
    iexists _; iexact Hrow11
  iintro ⟨HO, Ha1, #Hr1, Hf1, Hx11, Hrow11⟩
  -- chunk 13 starts towards slot 1
  iapply (op_enq_in m c K 13) $$ [HtI13 Hx13 Hf1]
  · isplitr; · iexact HR
    isplitr; · iexact Hr1
    isplitl [HtI13]; · iexact HtI13
    isplitl [Hx13]; · iexact Hx13
    iexists _; iexact Hf1
  iintro HcI1
  ihave Hpc := (Entails.of_eq (rows_split_rel c 11 _)) $$ Hrow11
  icases Hpc with ⟨Hb11, Hp0_11, Hp1_11, Hp2_11⟩
  -- its own column block into the device's own result
  iapply (op_enq_lc m c K 11 _ _ (k0_off24_eq c) (k0_off1_eq c ⟨11, by decide⟩) _) $$ [HtL11 Hb11 HoO11]
  · isplitr; · iexact HR
    isplitl [HtL11]; · iexact HtL11
    isplitl [Hb11]; · iexact Hb11
    iexact HoO11
  iintro HcL11
  -- chunk 11 to the peer 2 place(s) on
  iapply (op_send m c K 1 11 0 rfl _ (Fin.ext (k0_dev37_eq c)) _ _ (k0_off25_eq c ⟨1, by decide⟩) (k0_off1_eq c ⟨11, by decide⟩) 14 _) $$ [HtS1_11 HtR1_11 HO Hp1_11 HQ1_11]
  · isplitr; · iexact HR
    isplitl [HtS1_11]; · iexact HtS1_11
    isplitl [HtR1_11]; · iexact HtR1_11
    isplitl [HO]; · iexact HO
    isplitl [Hp1_11]; · iexact Hp1_11
    iexact HQ1_11
  iintro ⟨HcS1_11, HO⟩
  -- chunk 11 to the peer 1 place(s) on
  iapply (op_send m c K 0 11 1 rfl _ (Fin.ext (k0_dev38_eq c)) _ _ (k0_off25_eq c ⟨0, by decide⟩) (k0_off1_eq c ⟨11, by decide⟩) 13 _) $$ [HtS0_11 HtR0_11 HO Hp0_11 HQ2_11]
  · isplitr; · iexact HR
    isplitl [HtS0_11]; · iexact HtS0_11
    isplitl [HtR0_11]; · iexact HtR0_11
    isplitl [HO]; · iexact HO
    isplitl [Hp0_11]; · iexact Hp0_11
    iexact HQ2_11
  iintro ⟨HcS0_11, HO⟩
  -- chunk 11 to the peer 3 place(s) on
  iapply (op_send m c K 2 11 2 rfl _ (Fin.ext (k0_dev39_eq c)) _ _ (k0_off25_eq c ⟨2, by decide⟩) (k0_off1_eq c ⟨11, by decide⟩) 12 _) $$ [HtS2_11 HtR2_11 HO Hp2_11 HQ0_11]
  · isplitr; · iexact HR
    isplitl [HtS2_11]; · iexact HtS2_11
    isplitl [HtR2_11]; · iexact HtR2_11
    isplitl [HO]; · iexact HO
    isplitl [Hp2_11]; · iexact Hp2_11
    iexact HQ0_11
  iintro ⟨HcS2_11, HO⟩
  -- chunk 12: landed, rounded, stored
  iapply (op_stage m c K 12 (owedFrom c 12 39) _) $$ [HcI0 HO Ha0 Hrow12]
  · isplitr; · iexact HR
    isplitl [HcI0]; · iexact HcI0
    isplitl [HO]; · iexact HO
    isplitr; · iapply (mayWait_low (F := F) c (.dma (cpS 0)) (lv_cp c 0) 12 39 (by omega)); iexact Hlev
    isplitl [Ha0]; · iexact Ha0
    iexists _; iexact Hrow12
  iintro ⟨HO, Ha0, #Hr0, Hf0, Hx12, Hrow12⟩
  -- chunk 14 starts towards slot 0
  iapply (op_enq_in m c K 14) $$ [HtI14 Hx14 Hf0]
  · isplitr; · iexact HR
    isplitr; · iexact Hr0
    isplitl [HtI14]; · iexact HtI14
    isplitl [Hx14]; · iexact Hx14
    iexists _; iexact Hf0
  iintro HcI0
  ihave Hpc := (Entails.of_eq (rows_split_rel c 12 _)) $$ Hrow12
  icases Hpc with ⟨Hb12, Hp0_12, Hp1_12, Hp2_12⟩
  -- its own column block into the device's own result
  iapply (op_enq_lc m c K 12 _ _ (k0_off26_eq c) (k0_off1_eq c ⟨12, by decide⟩) _) $$ [HtL12 Hb12 HoO12]
  · isplitr; · iexact HR
    isplitl [HtL12]; · iexact HtL12
    isplitl [Hb12]; · iexact Hb12
    iexact HoO12
  iintro HcL12
  -- chunk 12 to the peer 2 place(s) on
  iapply (op_send m c K 1 12 0 rfl _ (Fin.ext (k0_dev40_eq c)) _ _ (k0_off27_eq c ⟨1, by decide⟩) (k0_off1_eq c ⟨12, by decide⟩) 11 _) $$ [HtS1_12 HtR1_12 HO Hp1_12 HQ1_12]
  · isplitr; · iexact HR
    isplitl [HtS1_12]; · iexact HtS1_12
    isplitl [HtR1_12]; · iexact HtR1_12
    isplitl [HO]; · iexact HO
    isplitl [Hp1_12]; · iexact Hp1_12
    iexact HQ1_12
  iintro ⟨HcS1_12, HO⟩
  -- chunk 12 to the peer 1 place(s) on
  iapply (op_send m c K 0 12 1 rfl _ (Fin.ext (k0_dev41_eq c)) _ _ (k0_off27_eq c ⟨0, by decide⟩) (k0_off1_eq c ⟨12, by decide⟩) 10 _) $$ [HtS0_12 HtR0_12 HO Hp0_12 HQ2_12]
  · isplitr; · iexact HR
    isplitl [HtS0_12]; · iexact HtS0_12
    isplitl [HtR0_12]; · iexact HtR0_12
    isplitl [HO]; · iexact HO
    isplitl [Hp0_12]; · iexact Hp0_12
    iexact HQ2_12
  iintro ⟨HcS0_12, HO⟩
  -- chunk 12 to the peer 3 place(s) on
  iapply (op_send m c K 2 12 2 rfl _ (Fin.ext (k0_dev42_eq c)) _ _ (k0_off27_eq c ⟨2, by decide⟩) (k0_off1_eq c ⟨12, by decide⟩) 9 _) $$ [HtS2_12 HtR2_12 HO Hp2_12 HQ0_12]
  · isplitr; · iexact HR
    isplitl [HtS2_12]; · iexact HtS2_12
    isplitl [HtR2_12]; · iexact HtR2_12
    isplitl [HO]; · iexact HO
    isplitl [Hp2_12]; · iexact Hp2_12
    iexact HQ0_12
  iintro ⟨HcS2_12, HO⟩
  -- chunk 13: landed, rounded, stored
  iapply (op_stage m c K 13 (owedFrom c 9 42) _) $$ [HcI1 HO Ha1 Hrow13]
  · isplitr; · iexact HR
    isplitl [HcI1]; · iexact HcI1
    isplitl [HO]; · iexact HO
    isplitr; · iapply (mayWait_low (F := F) c (.dma (cpS 1)) (lv_cp c 1) 9 42 (by omega)); iexact Hlev
    isplitl [Ha1]; · iexact Ha1
    iexists _; iexact Hrow13
  iintro ⟨HO, Ha1, #Hr1, Hf1, Hx13, Hrow13⟩
  -- chunk 15 starts towards slot 1
  iapply (op_enq_in m c K 15) $$ [HtI15 Hx15 Hf1]
  · isplitr; · iexact HR
    isplitr; · iexact Hr1
    isplitl [HtI15]; · iexact HtI15
    isplitl [Hx15]; · iexact Hx15
    iexists _; iexact Hf1
  iintro HcI1
  ihave Hpc := (Entails.of_eq (rows_split_rel c 13 _)) $$ Hrow13
  icases Hpc with ⟨Hb13, Hp0_13, Hp1_13, Hp2_13⟩
  -- its own column block into the device's own result
  iapply (op_enq_lc m c K 13 _ _ (k0_off28_eq c) (k0_off1_eq c ⟨13, by decide⟩) _) $$ [HtL13 Hb13 HoO13]
  · isplitr; · iexact HR
    isplitl [HtL13]; · iexact HtL13
    isplitl [Hb13]; · iexact Hb13
    iexact HoO13
  iintro HcL13
  -- chunk 13 to the peer 2 place(s) on
  iapply (op_send m c K 1 13 0 rfl _ (Fin.ext (k0_dev43_eq c)) _ _ (k0_off29_eq c ⟨1, by decide⟩) (k0_off1_eq c ⟨13, by decide⟩) 8 _) $$ [HtS1_13 HtR1_13 HO Hp1_13 HQ1_13]
  · isplitr; · iexact HR
    isplitl [HtS1_13]; · iexact HtS1_13
    isplitl [HtR1_13]; · iexact HtR1_13
    isplitl [HO]; · iexact HO
    isplitl [Hp1_13]; · iexact Hp1_13
    iexact HQ1_13
  iintro ⟨HcS1_13, HO⟩
  -- chunk 13 to the peer 1 place(s) on
  iapply (op_send m c K 0 13 1 rfl _ (Fin.ext (k0_dev44_eq c)) _ _ (k0_off29_eq c ⟨0, by decide⟩) (k0_off1_eq c ⟨13, by decide⟩) 7 _) $$ [HtS0_13 HtR0_13 HO Hp0_13 HQ2_13]
  · isplitr; · iexact HR
    isplitl [HtS0_13]; · iexact HtS0_13
    isplitl [HtR0_13]; · iexact HtR0_13
    isplitl [HO]; · iexact HO
    isplitl [Hp0_13]; · iexact Hp0_13
    iexact HQ2_13
  iintro ⟨HcS0_13, HO⟩
  -- chunk 13 to the peer 3 place(s) on
  iapply (op_send m c K 2 13 2 rfl _ (Fin.ext (k0_dev45_eq c)) _ _ (k0_off29_eq c ⟨2, by decide⟩) (k0_off1_eq c ⟨13, by decide⟩) 6 _) $$ [HtS2_13 HtR2_13 HO Hp2_13 HQ0_13]
  · isplitr; · iexact HR
    isplitl [HtS2_13]; · iexact HtS2_13
    isplitl [HtR2_13]; · iexact HtR2_13
    isplitl [HO]; · iexact HO
    isplitl [Hp2_13]; · iexact Hp2_13
    iexact HQ0_13
  iintro ⟨HcS2_13, HO⟩
  -- chunk 14: landed, rounded, stored
  iapply (op_stage m c K 14 (owedFrom c 6 45) _) $$ [HcI0 HO Ha0 Hrow14]
  · isplitr; · iexact HR
    isplitl [HcI0]; · iexact HcI0
    isplitl [HO]; · iexact HO
    isplitr; · iapply (mayWait_low (F := F) c (.dma (cpS 0)) (lv_cp c 0) 6 45 (by omega)); iexact Hlev
    isplitl [Ha0]; · iexact Ha0
    iexists _; iexact Hrow14
  iintro ⟨HO, Ha0, #Hr0, Hf0, Hx14, Hrow14⟩
  ihave Hpc := (Entails.of_eq (rows_split_rel c 14 _)) $$ Hrow14
  icases Hpc with ⟨Hb14, Hp0_14, Hp1_14, Hp2_14⟩
  -- its own column block into the device's own result
  iapply (op_enq_lc m c K 14 _ _ (k0_off30_eq c) (k0_off1_eq c ⟨14, by decide⟩) _) $$ [HtL14 Hb14 HoO14]
  · isplitr; · iexact HR
    isplitl [HtL14]; · iexact HtL14
    isplitl [Hb14]; · iexact Hb14
    iexact HoO14
  iintro HcL14
  -- chunk 14 to the peer 2 place(s) on
  iapply (op_send m c K 1 14 0 rfl _ (Fin.ext (k0_dev46_eq c)) _ _ (k0_off31_eq c ⟨1, by decide⟩) (k0_off1_eq c ⟨14, by decide⟩) 5 _) $$ [HtS1_14 HtR1_14 HO Hp1_14 HQ1_14]
  · isplitr; · iexact HR
    isplitl [HtS1_14]; · iexact HtS1_14
    isplitl [HtR1_14]; · iexact HtR1_14
    isplitl [HO]; · iexact HO
    isplitl [Hp1_14]; · iexact Hp1_14
    iexact HQ1_14
  iintro ⟨HcS1_14, HO⟩
  -- chunk 14 to the peer 1 place(s) on
  iapply (op_send m c K 0 14 1 rfl _ (Fin.ext (k0_dev47_eq c)) _ _ (k0_off31_eq c ⟨0, by decide⟩) (k0_off1_eq c ⟨14, by decide⟩) 4 _) $$ [HtS0_14 HtR0_14 HO Hp0_14 HQ2_14]
  · isplitr; · iexact HR
    isplitl [HtS0_14]; · iexact HtS0_14
    isplitl [HtR0_14]; · iexact HtR0_14
    isplitl [HO]; · iexact HO
    isplitl [Hp0_14]; · iexact Hp0_14
    iexact HQ2_14
  iintro ⟨HcS0_14, HO⟩
  -- chunk 14 to the peer 3 place(s) on
  iapply (op_send m c K 2 14 2 rfl _ (Fin.ext (k0_dev48_eq c)) _ _ (k0_off31_eq c ⟨2, by decide⟩) (k0_off1_eq c ⟨14, by decide⟩) 3 _) $$ [HtS2_14 HtR2_14 HO Hp2_14 HQ0_14]
  · isplitr; · iexact HR
    isplitl [HtS2_14]; · iexact HtS2_14
    isplitl [HtR2_14]; · iexact HtR2_14
    isplitl [HO]; · iexact HO
    isplitl [Hp2_14]; · iexact Hp2_14
    iexact HQ0_14
  iintro ⟨HcS2_14, HO⟩
  -- chunk 15: landed, rounded, stored
  iapply (op_stage m c K 15 (owedFrom c 3 48) _) $$ [HcI1 HO Ha1 Hrow15]
  · isplitr; · iexact HR
    isplitl [HcI1]; · iexact HcI1
    isplitl [HO]; · iexact HO
    isplitr; · iapply (mayWait_low (F := F) c (.dma (cpS 1)) (lv_cp c 1) 3 48 (by omega)); iexact Hlev
    isplitl [Ha1]; · iexact Ha1
    iexists _; iexact Hrow15
  iintro ⟨HO, Ha1, #Hr1, Hf1, Hx15, Hrow15⟩
  ihave Hpc := (Entails.of_eq (rows_split_rel c 15 _)) $$ Hrow15
  icases Hpc with ⟨Hb15, Hp0_15, Hp1_15, Hp2_15⟩
  -- its own column block into the device's own result
  iapply (op_enq_lc m c K 15 _ _ (k0_off32_eq c) (k0_off1_eq c ⟨15, by decide⟩) _) $$ [HtL15 Hb15 HoO15]
  · isplitr; · iexact HR
    isplitl [HtL15]; · iexact HtL15
    isplitl [Hb15]; · iexact Hb15
    iexact HoO15
  iintro HcL15
  -- chunk 15 to the peer 2 place(s) on
  iapply (op_send m c K 1 15 0 rfl _ (Fin.ext (k0_dev49_eq c)) _ _ (k0_off33_eq c ⟨1, by decide⟩) (k0_off1_eq c ⟨15, by decide⟩) 2 _) $$ [HtS1_15 HtR1_15 HO Hp1_15 HQ1_15]
  · isplitr; · iexact HR
    isplitl [HtS1_15]; · iexact HtS1_15
    isplitl [HtR1_15]; · iexact HtR1_15
    isplitl [HO]; · iexact HO
    isplitl [Hp1_15]; · iexact Hp1_15
    iexact HQ1_15
  iintro ⟨HcS1_15, HO⟩
  -- chunk 15 to the peer 1 place(s) on
  iapply (op_send m c K 0 15 1 rfl _ (Fin.ext (k0_dev50_eq c)) _ _ (k0_off33_eq c ⟨0, by decide⟩) (k0_off1_eq c ⟨15, by decide⟩) 1 _) $$ [HtS0_15 HtR0_15 HO Hp0_15 HQ2_15]
  · isplitr; · iexact HR
    isplitl [HtS0_15]; · iexact HtS0_15
    isplitl [HtR0_15]; · iexact HtR0_15
    isplitl [HO]; · iexact HO
    isplitl [Hp0_15]; · iexact Hp0_15
    iexact HQ2_15
  iintro ⟨HcS0_15, HO⟩
  -- chunk 15 to the peer 3 place(s) on
  iapply (op_send m c K 2 15 2 rfl _ (Fin.ext (k0_dev51_eq c)) _ _ (k0_off33_eq c ⟨2, by decide⟩) (k0_off1_eq c ⟨15, by decide⟩) 0 _) $$ [HtS2_15 HtR2_15 HO Hp2_15 HQ0_15]
  · isplitr; · iexact HR
    isplitl [HtS2_15]; · iexact HtS2_15
    isplitl [HtR2_15]; · iexact HtR2_15
    isplitl [HO]; · iexact HO
    isplitl [Hp2_15]; · iexact Hp2_15
    iexact HQ0_15
  iintro ⟨HcS2_15, HO⟩
  -- chunk 0's own copy has landed
  iapply (op_wait_lc m c K 0 _ _ _) $$ [HcL0 HO HaL0]
  · isplitr; · iexact HR
    isplitl [HcL0]; · iexact HcL0
    isplitl [HO]; · iexact HO
    iexact HaL0
  iintro ⟨HO, HaL0, Hlp⟩
  ihave Hlp := (Entails.of_eq (lcPay_eq m c 0)) $$ Hlp
  icases Hlp with ⟨HoO0, Hb0⟩
  -- chunk 1's own copy has landed
  iapply (op_wait_lc m c K 1 _ _ _) $$ [HcL1 HO HaL1]
  · isplitr; · iexact HR
    isplitl [HcL1]; · iexact HcL1
    isplitl [HO]; · iexact HO
    iexact HaL1
  iintro ⟨HO, HaL1, Hlp⟩
  ihave Hlp := (Entails.of_eq (lcPay_eq m c 1)) $$ Hlp
  icases Hlp with ⟨HoO1, Hb1⟩
  -- chunk 2's own copy has landed
  iapply (op_wait_lc m c K 2 _ _ _) $$ [HcL2 HO HaL2]
  · isplitr; · iexact HR
    isplitl [HcL2]; · iexact HcL2
    isplitl [HO]; · iexact HO
    iexact HaL2
  iintro ⟨HO, HaL2, Hlp⟩
  ihave Hlp := (Entails.of_eq (lcPay_eq m c 2)) $$ Hlp
  icases Hlp with ⟨HoO2, Hb2⟩
  -- chunk 3's own copy has landed
  iapply (op_wait_lc m c K 3 _ _ _) $$ [HcL3 HO HaL3]
  · isplitr; · iexact HR
    isplitl [HcL3]; · iexact HcL3
    isplitl [HO]; · iexact HO
    iexact HaL3
  iintro ⟨HO, HaL3, Hlp⟩
  ihave Hlp := (Entails.of_eq (lcPay_eq m c 3)) $$ Hlp
  icases Hlp with ⟨HoO3, Hb3⟩
  -- chunk 4's own copy has landed
  iapply (op_wait_lc m c K 4 _ _ _) $$ [HcL4 HO HaL4]
  · isplitr; · iexact HR
    isplitl [HcL4]; · iexact HcL4
    isplitl [HO]; · iexact HO
    iexact HaL4
  iintro ⟨HO, HaL4, Hlp⟩
  ihave Hlp := (Entails.of_eq (lcPay_eq m c 4)) $$ Hlp
  icases Hlp with ⟨HoO4, Hb4⟩
  -- chunk 5's own copy has landed
  iapply (op_wait_lc m c K 5 _ _ _) $$ [HcL5 HO HaL5]
  · isplitr; · iexact HR
    isplitl [HcL5]; · iexact HcL5
    isplitl [HO]; · iexact HO
    iexact HaL5
  iintro ⟨HO, HaL5, Hlp⟩
  ihave Hlp := (Entails.of_eq (lcPay_eq m c 5)) $$ Hlp
  icases Hlp with ⟨HoO5, Hb5⟩
  -- chunk 6's own copy has landed
  iapply (op_wait_lc m c K 6 _ _ _) $$ [HcL6 HO HaL6]
  · isplitr; · iexact HR
    isplitl [HcL6]; · iexact HcL6
    isplitl [HO]; · iexact HO
    iexact HaL6
  iintro ⟨HO, HaL6, Hlp⟩
  ihave Hlp := (Entails.of_eq (lcPay_eq m c 6)) $$ Hlp
  icases Hlp with ⟨HoO6, Hb6⟩
  -- chunk 7's own copy has landed
  iapply (op_wait_lc m c K 7 _ _ _) $$ [HcL7 HO HaL7]
  · isplitr; · iexact HR
    isplitl [HcL7]; · iexact HcL7
    isplitl [HO]; · iexact HO
    iexact HaL7
  iintro ⟨HO, HaL7, Hlp⟩
  ihave Hlp := (Entails.of_eq (lcPay_eq m c 7)) $$ Hlp
  icases Hlp with ⟨HoO7, Hb7⟩
  -- chunk 8's own copy has landed
  iapply (op_wait_lc m c K 8 _ _ _) $$ [HcL8 HO HaL8]
  · isplitr; · iexact HR
    isplitl [HcL8]; · iexact HcL8
    isplitl [HO]; · iexact HO
    iexact HaL8
  iintro ⟨HO, HaL8, Hlp⟩
  ihave Hlp := (Entails.of_eq (lcPay_eq m c 8)) $$ Hlp
  icases Hlp with ⟨HoO8, Hb8⟩
  -- chunk 9's own copy has landed
  iapply (op_wait_lc m c K 9 _ _ _) $$ [HcL9 HO HaL9]
  · isplitr; · iexact HR
    isplitl [HcL9]; · iexact HcL9
    isplitl [HO]; · iexact HO
    iexact HaL9
  iintro ⟨HO, HaL9, Hlp⟩
  ihave Hlp := (Entails.of_eq (lcPay_eq m c 9)) $$ Hlp
  icases Hlp with ⟨HoO9, Hb9⟩
  -- chunk 10's own copy has landed
  iapply (op_wait_lc m c K 10 _ _ _) $$ [HcL10 HO HaL10]
  · isplitr; · iexact HR
    isplitl [HcL10]; · iexact HcL10
    isplitl [HO]; · iexact HO
    iexact HaL10
  iintro ⟨HO, HaL10, Hlp⟩
  ihave Hlp := (Entails.of_eq (lcPay_eq m c 10)) $$ Hlp
  icases Hlp with ⟨HoO10, Hb10⟩
  -- chunk 11's own copy has landed
  iapply (op_wait_lc m c K 11 _ _ _) $$ [HcL11 HO HaL11]
  · isplitr; · iexact HR
    isplitl [HcL11]; · iexact HcL11
    isplitl [HO]; · iexact HO
    iexact HaL11
  iintro ⟨HO, HaL11, Hlp⟩
  ihave Hlp := (Entails.of_eq (lcPay_eq m c 11)) $$ Hlp
  icases Hlp with ⟨HoO11, Hb11⟩
  -- chunk 12's own copy has landed
  iapply (op_wait_lc m c K 12 _ _ _) $$ [HcL12 HO HaL12]
  · isplitr; · iexact HR
    isplitl [HcL12]; · iexact HcL12
    isplitl [HO]; · iexact HO
    iexact HaL12
  iintro ⟨HO, HaL12, Hlp⟩
  ihave Hlp := (Entails.of_eq (lcPay_eq m c 12)) $$ Hlp
  icases Hlp with ⟨HoO12, Hb12⟩
  -- chunk 13's own copy has landed
  iapply (op_wait_lc m c K 13 _ _ _) $$ [HcL13 HO HaL13]
  · isplitr; · iexact HR
    isplitl [HcL13]; · iexact HcL13
    isplitl [HO]; · iexact HO
    iexact HaL13
  iintro ⟨HO, HaL13, Hlp⟩
  ihave Hlp := (Entails.of_eq (lcPay_eq m c 13)) $$ Hlp
  icases Hlp with ⟨HoO13, Hb13⟩
  -- chunk 14's own copy has landed
  iapply (op_wait_lc m c K 14 _ _ _) $$ [HcL14 HO HaL14]
  · isplitr; · iexact HR
    isplitl [HcL14]; · iexact HcL14
    isplitl [HO]; · iexact HO
    iexact HaL14
  iintro ⟨HO, HaL14, Hlp⟩
  ihave Hlp := (Entails.of_eq (lcPay_eq m c 14)) $$ Hlp
  icases Hlp with ⟨HoO14, Hb14⟩
  -- chunk 15's own copy has landed
  iapply (op_wait_lc m c K 15 _ _ _) $$ [HcL15 HO HaL15]
  · isplitr; · iexact HR
    isplitl [HcL15]; · iexact HcL15
    isplitl [HO]; · iexact HO
    iexact HaL15
  iintro ⟨HO, HaL15, Hlp⟩
  ihave Hlp := (Entails.of_eq (lcPay_eq m c 15)) $$ Hlp
  icases Hlp with ⟨HoO15, Hb15⟩
  -- chunk 0's piece for the peer 2 place(s) on has been read out
  iapply (op_wait_sd m c K 1 0 _ _ _) $$ [HcS1_0 HO HaS1_0]
  · isplitr; · iexact HR
    isplitl [HcS1_0]; · iexact HcS1_0
    isplitl [HO]; · iexact HO
    iexact HaS1_0
  iintro ⟨HO, HaS1_0, Hp1_0⟩
  ihave Hp1_0 := (Entails.of_eq (sdPay_eq m c 1 0)) $$ Hp1_0
  -- chunk 0's piece for the peer 1 place(s) on has been read out
  iapply (op_wait_sd m c K 0 0 _ _ _) $$ [HcS0_0 HO HaS0_0]
  · isplitr; · iexact HR
    isplitl [HcS0_0]; · iexact HcS0_0
    isplitl [HO]; · iexact HO
    iexact HaS0_0
  iintro ⟨HO, HaS0_0, Hp0_0⟩
  ihave Hp0_0 := (Entails.of_eq (sdPay_eq m c 0 0)) $$ Hp0_0
  -- chunk 0's piece for the peer 3 place(s) on has been read out
  iapply (op_wait_sd m c K 2 0 _ _ _) $$ [HcS2_0 HO HaS2_0]
  · isplitr; · iexact HR
    isplitl [HcS2_0]; · iexact HcS2_0
    isplitl [HO]; · iexact HO
    iexact HaS2_0
  iintro ⟨HO, HaS2_0, Hp2_0⟩
  ihave Hp2_0 := (Entails.of_eq (sdPay_eq m c 2 0)) $$ Hp2_0
  -- chunk 1's piece for the peer 2 place(s) on has been read out
  iapply (op_wait_sd m c K 1 1 _ _ _) $$ [HcS1_1 HO HaS1_1]
  · isplitr; · iexact HR
    isplitl [HcS1_1]; · iexact HcS1_1
    isplitl [HO]; · iexact HO
    iexact HaS1_1
  iintro ⟨HO, HaS1_1, Hp1_1⟩
  ihave Hp1_1 := (Entails.of_eq (sdPay_eq m c 1 1)) $$ Hp1_1
  -- chunk 1's piece for the peer 1 place(s) on has been read out
  iapply (op_wait_sd m c K 0 1 _ _ _) $$ [HcS0_1 HO HaS0_1]
  · isplitr; · iexact HR
    isplitl [HcS0_1]; · iexact HcS0_1
    isplitl [HO]; · iexact HO
    iexact HaS0_1
  iintro ⟨HO, HaS0_1, Hp0_1⟩
  ihave Hp0_1 := (Entails.of_eq (sdPay_eq m c 0 1)) $$ Hp0_1
  -- chunk 1's piece for the peer 3 place(s) on has been read out
  iapply (op_wait_sd m c K 2 1 _ _ _) $$ [HcS2_1 HO HaS2_1]
  · isplitr; · iexact HR
    isplitl [HcS2_1]; · iexact HcS2_1
    isplitl [HO]; · iexact HO
    iexact HaS2_1
  iintro ⟨HO, HaS2_1, Hp2_1⟩
  ihave Hp2_1 := (Entails.of_eq (sdPay_eq m c 2 1)) $$ Hp2_1
  -- chunk 2's piece for the peer 2 place(s) on has been read out
  iapply (op_wait_sd m c K 1 2 _ _ _) $$ [HcS1_2 HO HaS1_2]
  · isplitr; · iexact HR
    isplitl [HcS1_2]; · iexact HcS1_2
    isplitl [HO]; · iexact HO
    iexact HaS1_2
  iintro ⟨HO, HaS1_2, Hp1_2⟩
  ihave Hp1_2 := (Entails.of_eq (sdPay_eq m c 1 2)) $$ Hp1_2
  -- chunk 2's piece for the peer 1 place(s) on has been read out
  iapply (op_wait_sd m c K 0 2 _ _ _) $$ [HcS0_2 HO HaS0_2]
  · isplitr; · iexact HR
    isplitl [HcS0_2]; · iexact HcS0_2
    isplitl [HO]; · iexact HO
    iexact HaS0_2
  iintro ⟨HO, HaS0_2, Hp0_2⟩
  ihave Hp0_2 := (Entails.of_eq (sdPay_eq m c 0 2)) $$ Hp0_2
  -- chunk 2's piece for the peer 3 place(s) on has been read out
  iapply (op_wait_sd m c K 2 2 _ _ _) $$ [HcS2_2 HO HaS2_2]
  · isplitr; · iexact HR
    isplitl [HcS2_2]; · iexact HcS2_2
    isplitl [HO]; · iexact HO
    iexact HaS2_2
  iintro ⟨HO, HaS2_2, Hp2_2⟩
  ihave Hp2_2 := (Entails.of_eq (sdPay_eq m c 2 2)) $$ Hp2_2
  -- chunk 3's piece for the peer 2 place(s) on has been read out
  iapply (op_wait_sd m c K 1 3 _ _ _) $$ [HcS1_3 HO HaS1_3]
  · isplitr; · iexact HR
    isplitl [HcS1_3]; · iexact HcS1_3
    isplitl [HO]; · iexact HO
    iexact HaS1_3
  iintro ⟨HO, HaS1_3, Hp1_3⟩
  ihave Hp1_3 := (Entails.of_eq (sdPay_eq m c 1 3)) $$ Hp1_3
  -- chunk 3's piece for the peer 1 place(s) on has been read out
  iapply (op_wait_sd m c K 0 3 _ _ _) $$ [HcS0_3 HO HaS0_3]
  · isplitr; · iexact HR
    isplitl [HcS0_3]; · iexact HcS0_3
    isplitl [HO]; · iexact HO
    iexact HaS0_3
  iintro ⟨HO, HaS0_3, Hp0_3⟩
  ihave Hp0_3 := (Entails.of_eq (sdPay_eq m c 0 3)) $$ Hp0_3
  -- chunk 3's piece for the peer 3 place(s) on has been read out
  iapply (op_wait_sd m c K 2 3 _ _ _) $$ [HcS2_3 HO HaS2_3]
  · isplitr; · iexact HR
    isplitl [HcS2_3]; · iexact HcS2_3
    isplitl [HO]; · iexact HO
    iexact HaS2_3
  iintro ⟨HO, HaS2_3, Hp2_3⟩
  ihave Hp2_3 := (Entails.of_eq (sdPay_eq m c 2 3)) $$ Hp2_3
  -- chunk 4's piece for the peer 2 place(s) on has been read out
  iapply (op_wait_sd m c K 1 4 _ _ _) $$ [HcS1_4 HO HaS1_4]
  · isplitr; · iexact HR
    isplitl [HcS1_4]; · iexact HcS1_4
    isplitl [HO]; · iexact HO
    iexact HaS1_4
  iintro ⟨HO, HaS1_4, Hp1_4⟩
  ihave Hp1_4 := (Entails.of_eq (sdPay_eq m c 1 4)) $$ Hp1_4
  -- chunk 4's piece for the peer 1 place(s) on has been read out
  iapply (op_wait_sd m c K 0 4 _ _ _) $$ [HcS0_4 HO HaS0_4]
  · isplitr; · iexact HR
    isplitl [HcS0_4]; · iexact HcS0_4
    isplitl [HO]; · iexact HO
    iexact HaS0_4
  iintro ⟨HO, HaS0_4, Hp0_4⟩
  ihave Hp0_4 := (Entails.of_eq (sdPay_eq m c 0 4)) $$ Hp0_4
  -- chunk 4's piece for the peer 3 place(s) on has been read out
  iapply (op_wait_sd m c K 2 4 _ _ _) $$ [HcS2_4 HO HaS2_4]
  · isplitr; · iexact HR
    isplitl [HcS2_4]; · iexact HcS2_4
    isplitl [HO]; · iexact HO
    iexact HaS2_4
  iintro ⟨HO, HaS2_4, Hp2_4⟩
  ihave Hp2_4 := (Entails.of_eq (sdPay_eq m c 2 4)) $$ Hp2_4
  -- chunk 5's piece for the peer 2 place(s) on has been read out
  iapply (op_wait_sd m c K 1 5 _ _ _) $$ [HcS1_5 HO HaS1_5]
  · isplitr; · iexact HR
    isplitl [HcS1_5]; · iexact HcS1_5
    isplitl [HO]; · iexact HO
    iexact HaS1_5
  iintro ⟨HO, HaS1_5, Hp1_5⟩
  ihave Hp1_5 := (Entails.of_eq (sdPay_eq m c 1 5)) $$ Hp1_5
  -- chunk 5's piece for the peer 1 place(s) on has been read out
  iapply (op_wait_sd m c K 0 5 _ _ _) $$ [HcS0_5 HO HaS0_5]
  · isplitr; · iexact HR
    isplitl [HcS0_5]; · iexact HcS0_5
    isplitl [HO]; · iexact HO
    iexact HaS0_5
  iintro ⟨HO, HaS0_5, Hp0_5⟩
  ihave Hp0_5 := (Entails.of_eq (sdPay_eq m c 0 5)) $$ Hp0_5
  -- chunk 5's piece for the peer 3 place(s) on has been read out
  iapply (op_wait_sd m c K 2 5 _ _ _) $$ [HcS2_5 HO HaS2_5]
  · isplitr; · iexact HR
    isplitl [HcS2_5]; · iexact HcS2_5
    isplitl [HO]; · iexact HO
    iexact HaS2_5
  iintro ⟨HO, HaS2_5, Hp2_5⟩
  ihave Hp2_5 := (Entails.of_eq (sdPay_eq m c 2 5)) $$ Hp2_5
  -- chunk 6's piece for the peer 2 place(s) on has been read out
  iapply (op_wait_sd m c K 1 6 _ _ _) $$ [HcS1_6 HO HaS1_6]
  · isplitr; · iexact HR
    isplitl [HcS1_6]; · iexact HcS1_6
    isplitl [HO]; · iexact HO
    iexact HaS1_6
  iintro ⟨HO, HaS1_6, Hp1_6⟩
  ihave Hp1_6 := (Entails.of_eq (sdPay_eq m c 1 6)) $$ Hp1_6
  -- chunk 6's piece for the peer 1 place(s) on has been read out
  iapply (op_wait_sd m c K 0 6 _ _ _) $$ [HcS0_6 HO HaS0_6]
  · isplitr; · iexact HR
    isplitl [HcS0_6]; · iexact HcS0_6
    isplitl [HO]; · iexact HO
    iexact HaS0_6
  iintro ⟨HO, HaS0_6, Hp0_6⟩
  ihave Hp0_6 := (Entails.of_eq (sdPay_eq m c 0 6)) $$ Hp0_6
  -- chunk 6's piece for the peer 3 place(s) on has been read out
  iapply (op_wait_sd m c K 2 6 _ _ _) $$ [HcS2_6 HO HaS2_6]
  · isplitr; · iexact HR
    isplitl [HcS2_6]; · iexact HcS2_6
    isplitl [HO]; · iexact HO
    iexact HaS2_6
  iintro ⟨HO, HaS2_6, Hp2_6⟩
  ihave Hp2_6 := (Entails.of_eq (sdPay_eq m c 2 6)) $$ Hp2_6
  -- chunk 7's piece for the peer 2 place(s) on has been read out
  iapply (op_wait_sd m c K 1 7 _ _ _) $$ [HcS1_7 HO HaS1_7]
  · isplitr; · iexact HR
    isplitl [HcS1_7]; · iexact HcS1_7
    isplitl [HO]; · iexact HO
    iexact HaS1_7
  iintro ⟨HO, HaS1_7, Hp1_7⟩
  ihave Hp1_7 := (Entails.of_eq (sdPay_eq m c 1 7)) $$ Hp1_7
  -- chunk 7's piece for the peer 1 place(s) on has been read out
  iapply (op_wait_sd m c K 0 7 _ _ _) $$ [HcS0_7 HO HaS0_7]
  · isplitr; · iexact HR
    isplitl [HcS0_7]; · iexact HcS0_7
    isplitl [HO]; · iexact HO
    iexact HaS0_7
  iintro ⟨HO, HaS0_7, Hp0_7⟩
  ihave Hp0_7 := (Entails.of_eq (sdPay_eq m c 0 7)) $$ Hp0_7
  -- chunk 7's piece for the peer 3 place(s) on has been read out
  iapply (op_wait_sd m c K 2 7 _ _ _) $$ [HcS2_7 HO HaS2_7]
  · isplitr; · iexact HR
    isplitl [HcS2_7]; · iexact HcS2_7
    isplitl [HO]; · iexact HO
    iexact HaS2_7
  iintro ⟨HO, HaS2_7, Hp2_7⟩
  ihave Hp2_7 := (Entails.of_eq (sdPay_eq m c 2 7)) $$ Hp2_7
  -- chunk 8's piece for the peer 2 place(s) on has been read out
  iapply (op_wait_sd m c K 1 8 _ _ _) $$ [HcS1_8 HO HaS1_8]
  · isplitr; · iexact HR
    isplitl [HcS1_8]; · iexact HcS1_8
    isplitl [HO]; · iexact HO
    iexact HaS1_8
  iintro ⟨HO, HaS1_8, Hp1_8⟩
  ihave Hp1_8 := (Entails.of_eq (sdPay_eq m c 1 8)) $$ Hp1_8
  -- chunk 8's piece for the peer 1 place(s) on has been read out
  iapply (op_wait_sd m c K 0 8 _ _ _) $$ [HcS0_8 HO HaS0_8]
  · isplitr; · iexact HR
    isplitl [HcS0_8]; · iexact HcS0_8
    isplitl [HO]; · iexact HO
    iexact HaS0_8
  iintro ⟨HO, HaS0_8, Hp0_8⟩
  ihave Hp0_8 := (Entails.of_eq (sdPay_eq m c 0 8)) $$ Hp0_8
  -- chunk 8's piece for the peer 3 place(s) on has been read out
  iapply (op_wait_sd m c K 2 8 _ _ _) $$ [HcS2_8 HO HaS2_8]
  · isplitr; · iexact HR
    isplitl [HcS2_8]; · iexact HcS2_8
    isplitl [HO]; · iexact HO
    iexact HaS2_8
  iintro ⟨HO, HaS2_8, Hp2_8⟩
  ihave Hp2_8 := (Entails.of_eq (sdPay_eq m c 2 8)) $$ Hp2_8
  -- chunk 9's piece for the peer 2 place(s) on has been read out
  iapply (op_wait_sd m c K 1 9 _ _ _) $$ [HcS1_9 HO HaS1_9]
  · isplitr; · iexact HR
    isplitl [HcS1_9]; · iexact HcS1_9
    isplitl [HO]; · iexact HO
    iexact HaS1_9
  iintro ⟨HO, HaS1_9, Hp1_9⟩
  ihave Hp1_9 := (Entails.of_eq (sdPay_eq m c 1 9)) $$ Hp1_9
  -- chunk 9's piece for the peer 1 place(s) on has been read out
  iapply (op_wait_sd m c K 0 9 _ _ _) $$ [HcS0_9 HO HaS0_9]
  · isplitr; · iexact HR
    isplitl [HcS0_9]; · iexact HcS0_9
    isplitl [HO]; · iexact HO
    iexact HaS0_9
  iintro ⟨HO, HaS0_9, Hp0_9⟩
  ihave Hp0_9 := (Entails.of_eq (sdPay_eq m c 0 9)) $$ Hp0_9
  -- chunk 9's piece for the peer 3 place(s) on has been read out
  iapply (op_wait_sd m c K 2 9 _ _ _) $$ [HcS2_9 HO HaS2_9]
  · isplitr; · iexact HR
    isplitl [HcS2_9]; · iexact HcS2_9
    isplitl [HO]; · iexact HO
    iexact HaS2_9
  iintro ⟨HO, HaS2_9, Hp2_9⟩
  ihave Hp2_9 := (Entails.of_eq (sdPay_eq m c 2 9)) $$ Hp2_9
  -- chunk 10's piece for the peer 2 place(s) on has been read out
  iapply (op_wait_sd m c K 1 10 _ _ _) $$ [HcS1_10 HO HaS1_10]
  · isplitr; · iexact HR
    isplitl [HcS1_10]; · iexact HcS1_10
    isplitl [HO]; · iexact HO
    iexact HaS1_10
  iintro ⟨HO, HaS1_10, Hp1_10⟩
  ihave Hp1_10 := (Entails.of_eq (sdPay_eq m c 1 10)) $$ Hp1_10
  -- chunk 10's piece for the peer 1 place(s) on has been read out
  iapply (op_wait_sd m c K 0 10 _ _ _) $$ [HcS0_10 HO HaS0_10]
  · isplitr; · iexact HR
    isplitl [HcS0_10]; · iexact HcS0_10
    isplitl [HO]; · iexact HO
    iexact HaS0_10
  iintro ⟨HO, HaS0_10, Hp0_10⟩
  ihave Hp0_10 := (Entails.of_eq (sdPay_eq m c 0 10)) $$ Hp0_10
  -- chunk 10's piece for the peer 3 place(s) on has been read out
  iapply (op_wait_sd m c K 2 10 _ _ _) $$ [HcS2_10 HO HaS2_10]
  · isplitr; · iexact HR
    isplitl [HcS2_10]; · iexact HcS2_10
    isplitl [HO]; · iexact HO
    iexact HaS2_10
  iintro ⟨HO, HaS2_10, Hp2_10⟩
  ihave Hp2_10 := (Entails.of_eq (sdPay_eq m c 2 10)) $$ Hp2_10
  -- chunk 11's piece for the peer 2 place(s) on has been read out
  iapply (op_wait_sd m c K 1 11 _ _ _) $$ [HcS1_11 HO HaS1_11]
  · isplitr; · iexact HR
    isplitl [HcS1_11]; · iexact HcS1_11
    isplitl [HO]; · iexact HO
    iexact HaS1_11
  iintro ⟨HO, HaS1_11, Hp1_11⟩
  ihave Hp1_11 := (Entails.of_eq (sdPay_eq m c 1 11)) $$ Hp1_11
  -- chunk 11's piece for the peer 1 place(s) on has been read out
  iapply (op_wait_sd m c K 0 11 _ _ _) $$ [HcS0_11 HO HaS0_11]
  · isplitr; · iexact HR
    isplitl [HcS0_11]; · iexact HcS0_11
    isplitl [HO]; · iexact HO
    iexact HaS0_11
  iintro ⟨HO, HaS0_11, Hp0_11⟩
  ihave Hp0_11 := (Entails.of_eq (sdPay_eq m c 0 11)) $$ Hp0_11
  -- chunk 11's piece for the peer 3 place(s) on has been read out
  iapply (op_wait_sd m c K 2 11 _ _ _) $$ [HcS2_11 HO HaS2_11]
  · isplitr; · iexact HR
    isplitl [HcS2_11]; · iexact HcS2_11
    isplitl [HO]; · iexact HO
    iexact HaS2_11
  iintro ⟨HO, HaS2_11, Hp2_11⟩
  ihave Hp2_11 := (Entails.of_eq (sdPay_eq m c 2 11)) $$ Hp2_11
  -- chunk 12's piece for the peer 2 place(s) on has been read out
  iapply (op_wait_sd m c K 1 12 _ _ _) $$ [HcS1_12 HO HaS1_12]
  · isplitr; · iexact HR
    isplitl [HcS1_12]; · iexact HcS1_12
    isplitl [HO]; · iexact HO
    iexact HaS1_12
  iintro ⟨HO, HaS1_12, Hp1_12⟩
  ihave Hp1_12 := (Entails.of_eq (sdPay_eq m c 1 12)) $$ Hp1_12
  -- chunk 12's piece for the peer 1 place(s) on has been read out
  iapply (op_wait_sd m c K 0 12 _ _ _) $$ [HcS0_12 HO HaS0_12]
  · isplitr; · iexact HR
    isplitl [HcS0_12]; · iexact HcS0_12
    isplitl [HO]; · iexact HO
    iexact HaS0_12
  iintro ⟨HO, HaS0_12, Hp0_12⟩
  ihave Hp0_12 := (Entails.of_eq (sdPay_eq m c 0 12)) $$ Hp0_12
  -- chunk 12's piece for the peer 3 place(s) on has been read out
  iapply (op_wait_sd m c K 2 12 _ _ _) $$ [HcS2_12 HO HaS2_12]
  · isplitr; · iexact HR
    isplitl [HcS2_12]; · iexact HcS2_12
    isplitl [HO]; · iexact HO
    iexact HaS2_12
  iintro ⟨HO, HaS2_12, Hp2_12⟩
  ihave Hp2_12 := (Entails.of_eq (sdPay_eq m c 2 12)) $$ Hp2_12
  -- chunk 13's piece for the peer 2 place(s) on has been read out
  iapply (op_wait_sd m c K 1 13 _ _ _) $$ [HcS1_13 HO HaS1_13]
  · isplitr; · iexact HR
    isplitl [HcS1_13]; · iexact HcS1_13
    isplitl [HO]; · iexact HO
    iexact HaS1_13
  iintro ⟨HO, HaS1_13, Hp1_13⟩
  ihave Hp1_13 := (Entails.of_eq (sdPay_eq m c 1 13)) $$ Hp1_13
  -- chunk 13's piece for the peer 1 place(s) on has been read out
  iapply (op_wait_sd m c K 0 13 _ _ _) $$ [HcS0_13 HO HaS0_13]
  · isplitr; · iexact HR
    isplitl [HcS0_13]; · iexact HcS0_13
    isplitl [HO]; · iexact HO
    iexact HaS0_13
  iintro ⟨HO, HaS0_13, Hp0_13⟩
  ihave Hp0_13 := (Entails.of_eq (sdPay_eq m c 0 13)) $$ Hp0_13
  -- chunk 13's piece for the peer 3 place(s) on has been read out
  iapply (op_wait_sd m c K 2 13 _ _ _) $$ [HcS2_13 HO HaS2_13]
  · isplitr; · iexact HR
    isplitl [HcS2_13]; · iexact HcS2_13
    isplitl [HO]; · iexact HO
    iexact HaS2_13
  iintro ⟨HO, HaS2_13, Hp2_13⟩
  ihave Hp2_13 := (Entails.of_eq (sdPay_eq m c 2 13)) $$ Hp2_13
  -- chunk 14's piece for the peer 2 place(s) on has been read out
  iapply (op_wait_sd m c K 1 14 _ _ _) $$ [HcS1_14 HO HaS1_14]
  · isplitr; · iexact HR
    isplitl [HcS1_14]; · iexact HcS1_14
    isplitl [HO]; · iexact HO
    iexact HaS1_14
  iintro ⟨HO, HaS1_14, Hp1_14⟩
  ihave Hp1_14 := (Entails.of_eq (sdPay_eq m c 1 14)) $$ Hp1_14
  -- chunk 14's piece for the peer 1 place(s) on has been read out
  iapply (op_wait_sd m c K 0 14 _ _ _) $$ [HcS0_14 HO HaS0_14]
  · isplitr; · iexact HR
    isplitl [HcS0_14]; · iexact HcS0_14
    isplitl [HO]; · iexact HO
    iexact HaS0_14
  iintro ⟨HO, HaS0_14, Hp0_14⟩
  ihave Hp0_14 := (Entails.of_eq (sdPay_eq m c 0 14)) $$ Hp0_14
  -- chunk 14's piece for the peer 3 place(s) on has been read out
  iapply (op_wait_sd m c K 2 14 _ _ _) $$ [HcS2_14 HO HaS2_14]
  · isplitr; · iexact HR
    isplitl [HcS2_14]; · iexact HcS2_14
    isplitl [HO]; · iexact HO
    iexact HaS2_14
  iintro ⟨HO, HaS2_14, Hp2_14⟩
  ihave Hp2_14 := (Entails.of_eq (sdPay_eq m c 2 14)) $$ Hp2_14
  -- chunk 15's piece for the peer 2 place(s) on has been read out
  iapply (op_wait_sd m c K 1 15 _ _ _) $$ [HcS1_15 HO HaS1_15]
  · isplitr; · iexact HR
    isplitl [HcS1_15]; · iexact HcS1_15
    isplitl [HO]; · iexact HO
    iexact HaS1_15
  iintro ⟨HO, HaS1_15, Hp1_15⟩
  ihave Hp1_15 := (Entails.of_eq (sdPay_eq m c 1 15)) $$ Hp1_15
  -- chunk 15's piece for the peer 1 place(s) on has been read out
  iapply (op_wait_sd m c K 0 15 _ _ _) $$ [HcS0_15 HO HaS0_15]
  · isplitr; · iexact HR
    isplitl [HcS0_15]; · iexact HcS0_15
    isplitl [HO]; · iexact HO
    iexact HaS0_15
  iintro ⟨HO, HaS0_15, Hp0_15⟩
  ihave Hp0_15 := (Entails.of_eq (sdPay_eq m c 0 15)) $$ Hp0_15
  -- chunk 15's piece for the peer 3 place(s) on has been read out
  iapply (op_wait_sd m c K 2 15 _ _ _) $$ [HcS2_15 HO HaS2_15]
  · isplitr; · iexact HR
    isplitl [HcS2_15]; · iexact HcS2_15
    isplitl [HO]; · iexact HO
    iexact HaS2_15
  iintro ⟨HO, HaS2_15, Hp2_15⟩
  ihave Hp2_15 := (Entails.of_eq (sdPay_eq m c 2 15)) $$ Hp2_15
  -- chunk 0 of the peer 1 place(s) back has arrived
  iapply (op_wait_rv m c K 0 0 _ _ _) $$ [HcR0_0 HO HaR0_0]
  · isplitr; · iexact HR
    isplitl [HcR0_0]; · iexact HcR0_0
    isplitl [HO]; · iexact HO
    iexact HaR0_0
  iintro ⟨HO, HaR0_0, Hrv0_0⟩
  ihave Hrv0_0 := (Entails.of_eq (rvPay_eq m c 0 0)) $$ Hrv0_0
  -- chunk 1 of the peer 1 place(s) back has arrived
  iapply (op_wait_rv m c K 0 1 _ _ _) $$ [HcR0_1 HO HaR0_1]
  · isplitr; · iexact HR
    isplitl [HcR0_1]; · iexact HcR0_1
    isplitl [HO]; · iexact HO
    iexact HaR0_1
  iintro ⟨HO, HaR0_1, Hrv0_1⟩
  ihave Hrv0_1 := (Entails.of_eq (rvPay_eq m c 0 1)) $$ Hrv0_1
  -- chunk 2 of the peer 1 place(s) back has arrived
  iapply (op_wait_rv m c K 0 2 _ _ _) $$ [HcR0_2 HO HaR0_2]
  · isplitr; · iexact HR
    isplitl [HcR0_2]; · iexact HcR0_2
    isplitl [HO]; · iexact HO
    iexact HaR0_2
  iintro ⟨HO, HaR0_2, Hrv0_2⟩
  ihave Hrv0_2 := (Entails.of_eq (rvPay_eq m c 0 2)) $$ Hrv0_2
  -- chunk 3 of the peer 1 place(s) back has arrived
  iapply (op_wait_rv m c K 0 3 _ _ _) $$ [HcR0_3 HO HaR0_3]
  · isplitr; · iexact HR
    isplitl [HcR0_3]; · iexact HcR0_3
    isplitl [HO]; · iexact HO
    iexact HaR0_3
  iintro ⟨HO, HaR0_3, Hrv0_3⟩
  ihave Hrv0_3 := (Entails.of_eq (rvPay_eq m c 0 3)) $$ Hrv0_3
  -- chunk 4 of the peer 1 place(s) back has arrived
  iapply (op_wait_rv m c K 0 4 _ _ _) $$ [HcR0_4 HO HaR0_4]
  · isplitr; · iexact HR
    isplitl [HcR0_4]; · iexact HcR0_4
    isplitl [HO]; · iexact HO
    iexact HaR0_4
  iintro ⟨HO, HaR0_4, Hrv0_4⟩
  ihave Hrv0_4 := (Entails.of_eq (rvPay_eq m c 0 4)) $$ Hrv0_4
  -- chunk 5 of the peer 1 place(s) back has arrived
  iapply (op_wait_rv m c K 0 5 _ _ _) $$ [HcR0_5 HO HaR0_5]
  · isplitr; · iexact HR
    isplitl [HcR0_5]; · iexact HcR0_5
    isplitl [HO]; · iexact HO
    iexact HaR0_5
  iintro ⟨HO, HaR0_5, Hrv0_5⟩
  ihave Hrv0_5 := (Entails.of_eq (rvPay_eq m c 0 5)) $$ Hrv0_5
  -- chunk 6 of the peer 1 place(s) back has arrived
  iapply (op_wait_rv m c K 0 6 _ _ _) $$ [HcR0_6 HO HaR0_6]
  · isplitr; · iexact HR
    isplitl [HcR0_6]; · iexact HcR0_6
    isplitl [HO]; · iexact HO
    iexact HaR0_6
  iintro ⟨HO, HaR0_6, Hrv0_6⟩
  ihave Hrv0_6 := (Entails.of_eq (rvPay_eq m c 0 6)) $$ Hrv0_6
  -- chunk 7 of the peer 1 place(s) back has arrived
  iapply (op_wait_rv m c K 0 7 _ _ _) $$ [HcR0_7 HO HaR0_7]
  · isplitr; · iexact HR
    isplitl [HcR0_7]; · iexact HcR0_7
    isplitl [HO]; · iexact HO
    iexact HaR0_7
  iintro ⟨HO, HaR0_7, Hrv0_7⟩
  ihave Hrv0_7 := (Entails.of_eq (rvPay_eq m c 0 7)) $$ Hrv0_7
  -- chunk 8 of the peer 1 place(s) back has arrived
  iapply (op_wait_rv m c K 0 8 _ _ _) $$ [HcR0_8 HO HaR0_8]
  · isplitr; · iexact HR
    isplitl [HcR0_8]; · iexact HcR0_8
    isplitl [HO]; · iexact HO
    iexact HaR0_8
  iintro ⟨HO, HaR0_8, Hrv0_8⟩
  ihave Hrv0_8 := (Entails.of_eq (rvPay_eq m c 0 8)) $$ Hrv0_8
  -- chunk 9 of the peer 1 place(s) back has arrived
  iapply (op_wait_rv m c K 0 9 _ _ _) $$ [HcR0_9 HO HaR0_9]
  · isplitr; · iexact HR
    isplitl [HcR0_9]; · iexact HcR0_9
    isplitl [HO]; · iexact HO
    iexact HaR0_9
  iintro ⟨HO, HaR0_9, Hrv0_9⟩
  ihave Hrv0_9 := (Entails.of_eq (rvPay_eq m c 0 9)) $$ Hrv0_9
  -- chunk 10 of the peer 1 place(s) back has arrived
  iapply (op_wait_rv m c K 0 10 _ _ _) $$ [HcR0_10 HO HaR0_10]
  · isplitr; · iexact HR
    isplitl [HcR0_10]; · iexact HcR0_10
    isplitl [HO]; · iexact HO
    iexact HaR0_10
  iintro ⟨HO, HaR0_10, Hrv0_10⟩
  ihave Hrv0_10 := (Entails.of_eq (rvPay_eq m c 0 10)) $$ Hrv0_10
  -- chunk 11 of the peer 1 place(s) back has arrived
  iapply (op_wait_rv m c K 0 11 _ _ _) $$ [HcR0_11 HO HaR0_11]
  · isplitr; · iexact HR
    isplitl [HcR0_11]; · iexact HcR0_11
    isplitl [HO]; · iexact HO
    iexact HaR0_11
  iintro ⟨HO, HaR0_11, Hrv0_11⟩
  ihave Hrv0_11 := (Entails.of_eq (rvPay_eq m c 0 11)) $$ Hrv0_11
  -- chunk 12 of the peer 1 place(s) back has arrived
  iapply (op_wait_rv m c K 0 12 _ _ _) $$ [HcR0_12 HO HaR0_12]
  · isplitr; · iexact HR
    isplitl [HcR0_12]; · iexact HcR0_12
    isplitl [HO]; · iexact HO
    iexact HaR0_12
  iintro ⟨HO, HaR0_12, Hrv0_12⟩
  ihave Hrv0_12 := (Entails.of_eq (rvPay_eq m c 0 12)) $$ Hrv0_12
  -- chunk 13 of the peer 1 place(s) back has arrived
  iapply (op_wait_rv m c K 0 13 _ _ _) $$ [HcR0_13 HO HaR0_13]
  · isplitr; · iexact HR
    isplitl [HcR0_13]; · iexact HcR0_13
    isplitl [HO]; · iexact HO
    iexact HaR0_13
  iintro ⟨HO, HaR0_13, Hrv0_13⟩
  ihave Hrv0_13 := (Entails.of_eq (rvPay_eq m c 0 13)) $$ Hrv0_13
  -- chunk 14 of the peer 1 place(s) back has arrived
  iapply (op_wait_rv m c K 0 14 _ _ _) $$ [HcR0_14 HO HaR0_14]
  · isplitr; · iexact HR
    isplitl [HcR0_14]; · iexact HcR0_14
    isplitl [HO]; · iexact HO
    iexact HaR0_14
  iintro ⟨HO, HaR0_14, Hrv0_14⟩
  ihave Hrv0_14 := (Entails.of_eq (rvPay_eq m c 0 14)) $$ Hrv0_14
  -- chunk 15 of the peer 1 place(s) back has arrived
  iapply (op_wait_rv m c K 0 15 _ _ _) $$ [HcR0_15 HO HaR0_15]
  · isplitr; · iexact HR
    isplitl [HcR0_15]; · iexact HcR0_15
    isplitl [HO]; · iexact HO
    iexact HaR0_15
  iintro ⟨HO, HaR0_15, Hrv0_15⟩
  ihave Hrv0_15 := (Entails.of_eq (rvPay_eq m c 0 15)) $$ Hrv0_15
  -- chunk 0 of the peer 2 place(s) back has arrived
  iapply (op_wait_rv m c K 1 0 _ _ _) $$ [HcR1_0 HO HaR1_0]
  · isplitr; · iexact HR
    isplitl [HcR1_0]; · iexact HcR1_0
    isplitl [HO]; · iexact HO
    iexact HaR1_0
  iintro ⟨HO, HaR1_0, Hrv1_0⟩
  ihave Hrv1_0 := (Entails.of_eq (rvPay_eq m c 1 0)) $$ Hrv1_0
  -- chunk 1 of the peer 2 place(s) back has arrived
  iapply (op_wait_rv m c K 1 1 _ _ _) $$ [HcR1_1 HO HaR1_1]
  · isplitr; · iexact HR
    isplitl [HcR1_1]; · iexact HcR1_1
    isplitl [HO]; · iexact HO
    iexact HaR1_1
  iintro ⟨HO, HaR1_1, Hrv1_1⟩
  ihave Hrv1_1 := (Entails.of_eq (rvPay_eq m c 1 1)) $$ Hrv1_1
  -- chunk 2 of the peer 2 place(s) back has arrived
  iapply (op_wait_rv m c K 1 2 _ _ _) $$ [HcR1_2 HO HaR1_2]
  · isplitr; · iexact HR
    isplitl [HcR1_2]; · iexact HcR1_2
    isplitl [HO]; · iexact HO
    iexact HaR1_2
  iintro ⟨HO, HaR1_2, Hrv1_2⟩
  ihave Hrv1_2 := (Entails.of_eq (rvPay_eq m c 1 2)) $$ Hrv1_2
  -- chunk 3 of the peer 2 place(s) back has arrived
  iapply (op_wait_rv m c K 1 3 _ _ _) $$ [HcR1_3 HO HaR1_3]
  · isplitr; · iexact HR
    isplitl [HcR1_3]; · iexact HcR1_3
    isplitl [HO]; · iexact HO
    iexact HaR1_3
  iintro ⟨HO, HaR1_3, Hrv1_3⟩
  ihave Hrv1_3 := (Entails.of_eq (rvPay_eq m c 1 3)) $$ Hrv1_3
  -- chunk 4 of the peer 2 place(s) back has arrived
  iapply (op_wait_rv m c K 1 4 _ _ _) $$ [HcR1_4 HO HaR1_4]
  · isplitr; · iexact HR
    isplitl [HcR1_4]; · iexact HcR1_4
    isplitl [HO]; · iexact HO
    iexact HaR1_4
  iintro ⟨HO, HaR1_4, Hrv1_4⟩
  ihave Hrv1_4 := (Entails.of_eq (rvPay_eq m c 1 4)) $$ Hrv1_4
  -- chunk 5 of the peer 2 place(s) back has arrived
  iapply (op_wait_rv m c K 1 5 _ _ _) $$ [HcR1_5 HO HaR1_5]
  · isplitr; · iexact HR
    isplitl [HcR1_5]; · iexact HcR1_5
    isplitl [HO]; · iexact HO
    iexact HaR1_5
  iintro ⟨HO, HaR1_5, Hrv1_5⟩
  ihave Hrv1_5 := (Entails.of_eq (rvPay_eq m c 1 5)) $$ Hrv1_5
  -- chunk 6 of the peer 2 place(s) back has arrived
  iapply (op_wait_rv m c K 1 6 _ _ _) $$ [HcR1_6 HO HaR1_6]
  · isplitr; · iexact HR
    isplitl [HcR1_6]; · iexact HcR1_6
    isplitl [HO]; · iexact HO
    iexact HaR1_6
  iintro ⟨HO, HaR1_6, Hrv1_6⟩
  ihave Hrv1_6 := (Entails.of_eq (rvPay_eq m c 1 6)) $$ Hrv1_6
  -- chunk 7 of the peer 2 place(s) back has arrived
  iapply (op_wait_rv m c K 1 7 _ _ _) $$ [HcR1_7 HO HaR1_7]
  · isplitr; · iexact HR
    isplitl [HcR1_7]; · iexact HcR1_7
    isplitl [HO]; · iexact HO
    iexact HaR1_7
  iintro ⟨HO, HaR1_7, Hrv1_7⟩
  ihave Hrv1_7 := (Entails.of_eq (rvPay_eq m c 1 7)) $$ Hrv1_7
  -- chunk 8 of the peer 2 place(s) back has arrived
  iapply (op_wait_rv m c K 1 8 _ _ _) $$ [HcR1_8 HO HaR1_8]
  · isplitr; · iexact HR
    isplitl [HcR1_8]; · iexact HcR1_8
    isplitl [HO]; · iexact HO
    iexact HaR1_8
  iintro ⟨HO, HaR1_8, Hrv1_8⟩
  ihave Hrv1_8 := (Entails.of_eq (rvPay_eq m c 1 8)) $$ Hrv1_8
  -- chunk 9 of the peer 2 place(s) back has arrived
  iapply (op_wait_rv m c K 1 9 _ _ _) $$ [HcR1_9 HO HaR1_9]
  · isplitr; · iexact HR
    isplitl [HcR1_9]; · iexact HcR1_9
    isplitl [HO]; · iexact HO
    iexact HaR1_9
  iintro ⟨HO, HaR1_9, Hrv1_9⟩
  ihave Hrv1_9 := (Entails.of_eq (rvPay_eq m c 1 9)) $$ Hrv1_9
  -- chunk 10 of the peer 2 place(s) back has arrived
  iapply (op_wait_rv m c K 1 10 _ _ _) $$ [HcR1_10 HO HaR1_10]
  · isplitr; · iexact HR
    isplitl [HcR1_10]; · iexact HcR1_10
    isplitl [HO]; · iexact HO
    iexact HaR1_10
  iintro ⟨HO, HaR1_10, Hrv1_10⟩
  ihave Hrv1_10 := (Entails.of_eq (rvPay_eq m c 1 10)) $$ Hrv1_10
  -- chunk 11 of the peer 2 place(s) back has arrived
  iapply (op_wait_rv m c K 1 11 _ _ _) $$ [HcR1_11 HO HaR1_11]
  · isplitr; · iexact HR
    isplitl [HcR1_11]; · iexact HcR1_11
    isplitl [HO]; · iexact HO
    iexact HaR1_11
  iintro ⟨HO, HaR1_11, Hrv1_11⟩
  ihave Hrv1_11 := (Entails.of_eq (rvPay_eq m c 1 11)) $$ Hrv1_11
  -- chunk 12 of the peer 2 place(s) back has arrived
  iapply (op_wait_rv m c K 1 12 _ _ _) $$ [HcR1_12 HO HaR1_12]
  · isplitr; · iexact HR
    isplitl [HcR1_12]; · iexact HcR1_12
    isplitl [HO]; · iexact HO
    iexact HaR1_12
  iintro ⟨HO, HaR1_12, Hrv1_12⟩
  ihave Hrv1_12 := (Entails.of_eq (rvPay_eq m c 1 12)) $$ Hrv1_12
  -- chunk 13 of the peer 2 place(s) back has arrived
  iapply (op_wait_rv m c K 1 13 _ _ _) $$ [HcR1_13 HO HaR1_13]
  · isplitr; · iexact HR
    isplitl [HcR1_13]; · iexact HcR1_13
    isplitl [HO]; · iexact HO
    iexact HaR1_13
  iintro ⟨HO, HaR1_13, Hrv1_13⟩
  ihave Hrv1_13 := (Entails.of_eq (rvPay_eq m c 1 13)) $$ Hrv1_13
  -- chunk 14 of the peer 2 place(s) back has arrived
  iapply (op_wait_rv m c K 1 14 _ _ _) $$ [HcR1_14 HO HaR1_14]
  · isplitr; · iexact HR
    isplitl [HcR1_14]; · iexact HcR1_14
    isplitl [HO]; · iexact HO
    iexact HaR1_14
  iintro ⟨HO, HaR1_14, Hrv1_14⟩
  ihave Hrv1_14 := (Entails.of_eq (rvPay_eq m c 1 14)) $$ Hrv1_14
  -- chunk 15 of the peer 2 place(s) back has arrived
  iapply (op_wait_rv m c K 1 15 _ _ _) $$ [HcR1_15 HO HaR1_15]
  · isplitr; · iexact HR
    isplitl [HcR1_15]; · iexact HcR1_15
    isplitl [HO]; · iexact HO
    iexact HaR1_15
  iintro ⟨HO, HaR1_15, Hrv1_15⟩
  ihave Hrv1_15 := (Entails.of_eq (rvPay_eq m c 1 15)) $$ Hrv1_15
  -- chunk 0 of the peer 3 place(s) back has arrived
  iapply (op_wait_rv m c K 2 0 _ _ _) $$ [HcR2_0 HO HaR2_0]
  · isplitr; · iexact HR
    isplitl [HcR2_0]; · iexact HcR2_0
    isplitl [HO]; · iexact HO
    iexact HaR2_0
  iintro ⟨HO, HaR2_0, Hrv2_0⟩
  ihave Hrv2_0 := (Entails.of_eq (rvPay_eq m c 2 0)) $$ Hrv2_0
  -- chunk 1 of the peer 3 place(s) back has arrived
  iapply (op_wait_rv m c K 2 1 _ _ _) $$ [HcR2_1 HO HaR2_1]
  · isplitr; · iexact HR
    isplitl [HcR2_1]; · iexact HcR2_1
    isplitl [HO]; · iexact HO
    iexact HaR2_1
  iintro ⟨HO, HaR2_1, Hrv2_1⟩
  ihave Hrv2_1 := (Entails.of_eq (rvPay_eq m c 2 1)) $$ Hrv2_1
  -- chunk 2 of the peer 3 place(s) back has arrived
  iapply (op_wait_rv m c K 2 2 _ _ _) $$ [HcR2_2 HO HaR2_2]
  · isplitr; · iexact HR
    isplitl [HcR2_2]; · iexact HcR2_2
    isplitl [HO]; · iexact HO
    iexact HaR2_2
  iintro ⟨HO, HaR2_2, Hrv2_2⟩
  ihave Hrv2_2 := (Entails.of_eq (rvPay_eq m c 2 2)) $$ Hrv2_2
  -- chunk 3 of the peer 3 place(s) back has arrived
  iapply (op_wait_rv m c K 2 3 _ _ _) $$ [HcR2_3 HO HaR2_3]
  · isplitr; · iexact HR
    isplitl [HcR2_3]; · iexact HcR2_3
    isplitl [HO]; · iexact HO
    iexact HaR2_3
  iintro ⟨HO, HaR2_3, Hrv2_3⟩
  ihave Hrv2_3 := (Entails.of_eq (rvPay_eq m c 2 3)) $$ Hrv2_3
  -- chunk 4 of the peer 3 place(s) back has arrived
  iapply (op_wait_rv m c K 2 4 _ _ _) $$ [HcR2_4 HO HaR2_4]
  · isplitr; · iexact HR
    isplitl [HcR2_4]; · iexact HcR2_4
    isplitl [HO]; · iexact HO
    iexact HaR2_4
  iintro ⟨HO, HaR2_4, Hrv2_4⟩
  ihave Hrv2_4 := (Entails.of_eq (rvPay_eq m c 2 4)) $$ Hrv2_4
  -- chunk 5 of the peer 3 place(s) back has arrived
  iapply (op_wait_rv m c K 2 5 _ _ _) $$ [HcR2_5 HO HaR2_5]
  · isplitr; · iexact HR
    isplitl [HcR2_5]; · iexact HcR2_5
    isplitl [HO]; · iexact HO
    iexact HaR2_5
  iintro ⟨HO, HaR2_5, Hrv2_5⟩
  ihave Hrv2_5 := (Entails.of_eq (rvPay_eq m c 2 5)) $$ Hrv2_5
  -- chunk 6 of the peer 3 place(s) back has arrived
  iapply (op_wait_rv m c K 2 6 _ _ _) $$ [HcR2_6 HO HaR2_6]
  · isplitr; · iexact HR
    isplitl [HcR2_6]; · iexact HcR2_6
    isplitl [HO]; · iexact HO
    iexact HaR2_6
  iintro ⟨HO, HaR2_6, Hrv2_6⟩
  ihave Hrv2_6 := (Entails.of_eq (rvPay_eq m c 2 6)) $$ Hrv2_6
  -- chunk 7 of the peer 3 place(s) back has arrived
  iapply (op_wait_rv m c K 2 7 _ _ _) $$ [HcR2_7 HO HaR2_7]
  · isplitr; · iexact HR
    isplitl [HcR2_7]; · iexact HcR2_7
    isplitl [HO]; · iexact HO
    iexact HaR2_7
  iintro ⟨HO, HaR2_7, Hrv2_7⟩
  ihave Hrv2_7 := (Entails.of_eq (rvPay_eq m c 2 7)) $$ Hrv2_7
  -- chunk 8 of the peer 3 place(s) back has arrived
  iapply (op_wait_rv m c K 2 8 _ _ _) $$ [HcR2_8 HO HaR2_8]
  · isplitr; · iexact HR
    isplitl [HcR2_8]; · iexact HcR2_8
    isplitl [HO]; · iexact HO
    iexact HaR2_8
  iintro ⟨HO, HaR2_8, Hrv2_8⟩
  ihave Hrv2_8 := (Entails.of_eq (rvPay_eq m c 2 8)) $$ Hrv2_8
  -- chunk 9 of the peer 3 place(s) back has arrived
  iapply (op_wait_rv m c K 2 9 _ _ _) $$ [HcR2_9 HO HaR2_9]
  · isplitr; · iexact HR
    isplitl [HcR2_9]; · iexact HcR2_9
    isplitl [HO]; · iexact HO
    iexact HaR2_9
  iintro ⟨HO, HaR2_9, Hrv2_9⟩
  ihave Hrv2_9 := (Entails.of_eq (rvPay_eq m c 2 9)) $$ Hrv2_9
  -- chunk 10 of the peer 3 place(s) back has arrived
  iapply (op_wait_rv m c K 2 10 _ _ _) $$ [HcR2_10 HO HaR2_10]
  · isplitr; · iexact HR
    isplitl [HcR2_10]; · iexact HcR2_10
    isplitl [HO]; · iexact HO
    iexact HaR2_10
  iintro ⟨HO, HaR2_10, Hrv2_10⟩
  ihave Hrv2_10 := (Entails.of_eq (rvPay_eq m c 2 10)) $$ Hrv2_10
  -- chunk 11 of the peer 3 place(s) back has arrived
  iapply (op_wait_rv m c K 2 11 _ _ _) $$ [HcR2_11 HO HaR2_11]
  · isplitr; · iexact HR
    isplitl [HcR2_11]; · iexact HcR2_11
    isplitl [HO]; · iexact HO
    iexact HaR2_11
  iintro ⟨HO, HaR2_11, Hrv2_11⟩
  ihave Hrv2_11 := (Entails.of_eq (rvPay_eq m c 2 11)) $$ Hrv2_11
  -- chunk 12 of the peer 3 place(s) back has arrived
  iapply (op_wait_rv m c K 2 12 _ _ _) $$ [HcR2_12 HO HaR2_12]
  · isplitr; · iexact HR
    isplitl [HcR2_12]; · iexact HcR2_12
    isplitl [HO]; · iexact HO
    iexact HaR2_12
  iintro ⟨HO, HaR2_12, Hrv2_12⟩
  ihave Hrv2_12 := (Entails.of_eq (rvPay_eq m c 2 12)) $$ Hrv2_12
  -- chunk 13 of the peer 3 place(s) back has arrived
  iapply (op_wait_rv m c K 2 13 _ _ _) $$ [HcR2_13 HO HaR2_13]
  · isplitr; · iexact HR
    isplitl [HcR2_13]; · iexact HcR2_13
    isplitl [HO]; · iexact HO
    iexact HaR2_13
  iintro ⟨HO, HaR2_13, Hrv2_13⟩
  ihave Hrv2_13 := (Entails.of_eq (rvPay_eq m c 2 13)) $$ Hrv2_13
  -- chunk 14 of the peer 3 place(s) back has arrived
  iapply (op_wait_rv m c K 2 14 _ _ _) $$ [HcR2_14 HO HaR2_14]
  · isplitr; · iexact HR
    isplitl [HcR2_14]; · iexact HcR2_14
    isplitl [HO]; · iexact HO
    iexact HaR2_14
  iintro ⟨HO, HaR2_14, Hrv2_14⟩
  ihave Hrv2_14 := (Entails.of_eq (rvPay_eq m c 2 14)) $$ Hrv2_14
  -- chunk 15 of the peer 3 place(s) back has arrived
  iapply (op_wait_rv m c K 2 15 _ _ _) $$ [HcR2_15 HO HaR2_15]
  · isplitr; · iexact HR
    isplitl [HcR2_15]; · iexact HcR2_15
    isplitl [HO]; · iexact HO
    iexact HaR2_15
  iintro ⟨HO, HaR2_15, Hrv2_15⟩
  ihave Hrv2_15 := (Entails.of_eq (rvPay_eq m c 2 15)) $$ Hrv2_15
  -- everything folded back
  rw [wp_ret]
  imod (finish_spec m c K) $$ [Hx0 Hx1 Hx2 Hx3 Hx4 Hx5 Hx6 Hx7 Hx8 Hx9 Hx10 Hx11 Hx12 Hx13 Hx14 Hx15 Hf0 Hf1 Hb0 HoO0 HaL0 Hb1 HoO1 HaL1 Hb2 HoO2 HaL2 Hb3 HoO3 HaL3 Hb4 HoO4 HaL4 Hb5 HoO5 HaL5 Hb6 HoO6 HaL6 Hb7 HoO7 HaL7 Hb8 HoO8 HaL8 Hb9 HoO9 HaL9 Hb10 HoO10 HaL10 Hb11 HoO11 HaL11 Hb12 HoO12 HaL12 Hb13 HoO13 HaL13 Hb14 HoO14 HaL14 Hb15 HoO15 HaL15 Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15 Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15 Hp2_0 Hrv2_0 HaS2_0 HaR2_0 Hp2_1 Hrv2_1 HaS2_1 HaR2_1 Hp2_2 Hrv2_2 HaS2_2 HaR2_2 Hp2_3 Hrv2_3 HaS2_3 HaR2_3 Hp2_4 Hrv2_4 HaS2_4 HaR2_4 Hp2_5 Hrv2_5 HaS2_5 HaR2_5 Hp2_6 Hrv2_6 HaS2_6 HaR2_6 Hp2_7 Hrv2_7 HaS2_7 HaR2_7 Hp2_8 Hrv2_8 HaS2_8 HaR2_8 Hp2_9 Hrv2_9 HaS2_9 HaR2_9 Hp2_10 Hrv2_10 HaS2_10 HaR2_10 Hp2_11 Hrv2_11 HaS2_11 HaR2_11 Hp2_12 Hrv2_12 HaS2_12 HaR2_12 Hp2_13 Hrv2_13 HaS2_13 HaR2_13 Hp2_14 Hrv2_14 HaS2_14 HaR2_14 Hp2_15 Hrv2_15 HaS2_15 HaR2_15 Ha0 Ha1 HO] with Hpost
  · isplitr; · iexact HR
    unfold Closed
    simp only [bigSep_f16, bigSep_f2, bigSep_f3x16]
    isplitl [Hx0 Hx1 Hx2 Hx3 Hx4 Hx5 Hx6 Hx7 Hx8 Hx9 Hx10 Hx11 Hx12 Hx13 Hx14 Hx15]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hx10]; · iexact Hx10
      isplitl [Hx11]; · iexact Hx11
      isplitl [Hx12]; · iexact Hx12
      isplitl [Hx13]; · iexact Hx13
      isplitl [Hx14]; · iexact Hx14
      iexact Hx15
    isplitl [Hf0 Hf1]
    · isplitl [Hf0]; · (iexists _; iexact Hf0)
      iexists _; iexact Hf1
    isplitl [Hb0 HoO0 HaL0 Hb1 HoO1 HaL1 Hb2 HoO2 HaL2 Hb3 HoO3 HaL3 Hb4 HoO4 HaL4 Hb5 HoO5 HaL5 Hb6 HoO6 HaL6 Hb7 HoO7 HaL7 Hb8 HoO8 HaL8 Hb9 HoO9 HaL9 Hb10 HoO10 HaL10 Hb11 HoO11 HaL11 Hb12 HoO12 HaL12 Hb13 HoO13 HaL13 Hb14 HoO14 HaL14 Hb15 HoO15 HaL15]
    · isplitl [Hb0 HoO0 HaL0]
      · isplitl [Hb0]; · iexact Hb0
        isplitl [HoO0]; · iexact HoO0
        iexact HaL0
      isplitl [Hb1 HoO1 HaL1]
      · isplitl [Hb1]; · iexact Hb1
        isplitl [HoO1]; · iexact HoO1
        iexact HaL1
      isplitl [Hb2 HoO2 HaL2]
      · isplitl [Hb2]; · iexact Hb2
        isplitl [HoO2]; · iexact HoO2
        iexact HaL2
      isplitl [Hb3 HoO3 HaL3]
      · isplitl [Hb3]; · iexact Hb3
        isplitl [HoO3]; · iexact HoO3
        iexact HaL3
      isplitl [Hb4 HoO4 HaL4]
      · isplitl [Hb4]; · iexact Hb4
        isplitl [HoO4]; · iexact HoO4
        iexact HaL4
      isplitl [Hb5 HoO5 HaL5]
      · isplitl [Hb5]; · iexact Hb5
        isplitl [HoO5]; · iexact HoO5
        iexact HaL5
      isplitl [Hb6 HoO6 HaL6]
      · isplitl [Hb6]; · iexact Hb6
        isplitl [HoO6]; · iexact HoO6
        iexact HaL6
      isplitl [Hb7 HoO7 HaL7]
      · isplitl [Hb7]; · iexact Hb7
        isplitl [HoO7]; · iexact HoO7
        iexact HaL7
      isplitl [Hb8 HoO8 HaL8]
      · isplitl [Hb8]; · iexact Hb8
        isplitl [HoO8]; · iexact HoO8
        iexact HaL8
      isplitl [Hb9 HoO9 HaL9]
      · isplitl [Hb9]; · iexact Hb9
        isplitl [HoO9]; · iexact HoO9
        iexact HaL9
      isplitl [Hb10 HoO10 HaL10]
      · isplitl [Hb10]; · iexact Hb10
        isplitl [HoO10]; · iexact HoO10
        iexact HaL10
      isplitl [Hb11 HoO11 HaL11]
      · isplitl [Hb11]; · iexact Hb11
        isplitl [HoO11]; · iexact HoO11
        iexact HaL11
      isplitl [Hb12 HoO12 HaL12]
      · isplitl [Hb12]; · iexact Hb12
        isplitl [HoO12]; · iexact HoO12
        iexact HaL12
      isplitl [Hb13 HoO13 HaL13]
      · isplitl [Hb13]; · iexact Hb13
        isplitl [HoO13]; · iexact HoO13
        iexact HaL13
      isplitl [Hb14 HoO14 HaL14]
      · isplitl [Hb14]; · iexact Hb14
        isplitl [HoO14]; · iexact HoO14
        iexact HaL14
      isplitl [Hb15]; · iexact Hb15
      isplitl [HoO15]; · iexact HoO15
      iexact HaL15
    isplitl [Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15 Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15 Hp2_0 Hrv2_0 HaS2_0 HaR2_0 Hp2_1 Hrv2_1 HaS2_1 HaR2_1 Hp2_2 Hrv2_2 HaS2_2 HaR2_2 Hp2_3 Hrv2_3 HaS2_3 HaR2_3 Hp2_4 Hrv2_4 HaS2_4 HaR2_4 Hp2_5 Hrv2_5 HaS2_5 HaR2_5 Hp2_6 Hrv2_6 HaS2_6 HaR2_6 Hp2_7 Hrv2_7 HaS2_7 HaR2_7 Hp2_8 Hrv2_8 HaS2_8 HaR2_8 Hp2_9 Hrv2_9 HaS2_9 HaR2_9 Hp2_10 Hrv2_10 HaS2_10 HaR2_10 Hp2_11 Hrv2_11 HaS2_11 HaR2_11 Hp2_12 Hrv2_12 HaS2_12 HaR2_12 Hp2_13 Hrv2_13 HaS2_13 HaR2_13 Hp2_14 Hrv2_14 HaS2_14 HaR2_14 Hp2_15 Hrv2_15 HaS2_15 HaR2_15]
    · isplitl [Hp0_0 Hrv0_0 HaS0_0 HaR0_0 Hp0_1 Hrv0_1 HaS0_1 HaR0_1 Hp0_2 Hrv0_2 HaS0_2 HaR0_2 Hp0_3 Hrv0_3 HaS0_3 HaR0_3 Hp0_4 Hrv0_4 HaS0_4 HaR0_4 Hp0_5 Hrv0_5 HaS0_5 HaR0_5 Hp0_6 Hrv0_6 HaS0_6 HaR0_6 Hp0_7 Hrv0_7 HaS0_7 HaR0_7 Hp0_8 Hrv0_8 HaS0_8 HaR0_8 Hp0_9 Hrv0_9 HaS0_9 HaR0_9 Hp0_10 Hrv0_10 HaS0_10 HaR0_10 Hp0_11 Hrv0_11 HaS0_11 HaR0_11 Hp0_12 Hrv0_12 HaS0_12 HaR0_12 Hp0_13 Hrv0_13 HaS0_13 HaR0_13 Hp0_14 Hrv0_14 HaS0_14 HaR0_14 Hp0_15 Hrv0_15 HaS0_15 HaR0_15]
      · skip
        isplitl [Hp0_0 Hrv0_0 HaS0_0 HaR0_0]
        · isplitl [Hp0_0]; · iexact Hp0_0
          isplitl [Hrv0_0]; · iexact Hrv0_0
          isplitl [HaS0_0]; · iexact HaS0_0
          iexact HaR0_0
        isplitl [Hp0_1 Hrv0_1 HaS0_1 HaR0_1]
        · isplitl [Hp0_1]; · iexact Hp0_1
          isplitl [Hrv0_1]; · iexact Hrv0_1
          isplitl [HaS0_1]; · iexact HaS0_1
          iexact HaR0_1
        isplitl [Hp0_2 Hrv0_2 HaS0_2 HaR0_2]
        · isplitl [Hp0_2]; · iexact Hp0_2
          isplitl [Hrv0_2]; · iexact Hrv0_2
          isplitl [HaS0_2]; · iexact HaS0_2
          iexact HaR0_2
        isplitl [Hp0_3 Hrv0_3 HaS0_3 HaR0_3]
        · isplitl [Hp0_3]; · iexact Hp0_3
          isplitl [Hrv0_3]; · iexact Hrv0_3
          isplitl [HaS0_3]; · iexact HaS0_3
          iexact HaR0_3
        isplitl [Hp0_4 Hrv0_4 HaS0_4 HaR0_4]
        · isplitl [Hp0_4]; · iexact Hp0_4
          isplitl [Hrv0_4]; · iexact Hrv0_4
          isplitl [HaS0_4]; · iexact HaS0_4
          iexact HaR0_4
        isplitl [Hp0_5 Hrv0_5 HaS0_5 HaR0_5]
        · isplitl [Hp0_5]; · iexact Hp0_5
          isplitl [Hrv0_5]; · iexact Hrv0_5
          isplitl [HaS0_5]; · iexact HaS0_5
          iexact HaR0_5
        isplitl [Hp0_6 Hrv0_6 HaS0_6 HaR0_6]
        · isplitl [Hp0_6]; · iexact Hp0_6
          isplitl [Hrv0_6]; · iexact Hrv0_6
          isplitl [HaS0_6]; · iexact HaS0_6
          iexact HaR0_6
        isplitl [Hp0_7 Hrv0_7 HaS0_7 HaR0_7]
        · isplitl [Hp0_7]; · iexact Hp0_7
          isplitl [Hrv0_7]; · iexact Hrv0_7
          isplitl [HaS0_7]; · iexact HaS0_7
          iexact HaR0_7
        isplitl [Hp0_8 Hrv0_8 HaS0_8 HaR0_8]
        · isplitl [Hp0_8]; · iexact Hp0_8
          isplitl [Hrv0_8]; · iexact Hrv0_8
          isplitl [HaS0_8]; · iexact HaS0_8
          iexact HaR0_8
        isplitl [Hp0_9 Hrv0_9 HaS0_9 HaR0_9]
        · isplitl [Hp0_9]; · iexact Hp0_9
          isplitl [Hrv0_9]; · iexact Hrv0_9
          isplitl [HaS0_9]; · iexact HaS0_9
          iexact HaR0_9
        isplitl [Hp0_10 Hrv0_10 HaS0_10 HaR0_10]
        · isplitl [Hp0_10]; · iexact Hp0_10
          isplitl [Hrv0_10]; · iexact Hrv0_10
          isplitl [HaS0_10]; · iexact HaS0_10
          iexact HaR0_10
        isplitl [Hp0_11 Hrv0_11 HaS0_11 HaR0_11]
        · isplitl [Hp0_11]; · iexact Hp0_11
          isplitl [Hrv0_11]; · iexact Hrv0_11
          isplitl [HaS0_11]; · iexact HaS0_11
          iexact HaR0_11
        isplitl [Hp0_12 Hrv0_12 HaS0_12 HaR0_12]
        · isplitl [Hp0_12]; · iexact Hp0_12
          isplitl [Hrv0_12]; · iexact Hrv0_12
          isplitl [HaS0_12]; · iexact HaS0_12
          iexact HaR0_12
        isplitl [Hp0_13 Hrv0_13 HaS0_13 HaR0_13]
        · isplitl [Hp0_13]; · iexact Hp0_13
          isplitl [Hrv0_13]; · iexact Hrv0_13
          isplitl [HaS0_13]; · iexact HaS0_13
          iexact HaR0_13
        isplitl [Hp0_14 Hrv0_14 HaS0_14 HaR0_14]
        · isplitl [Hp0_14]; · iexact Hp0_14
          isplitl [Hrv0_14]; · iexact Hrv0_14
          isplitl [HaS0_14]; · iexact HaS0_14
          iexact HaR0_14
        isplitl [Hp0_15]; · iexact Hp0_15
        isplitl [Hrv0_15]; · iexact Hrv0_15
        isplitl [HaS0_15]; · iexact HaS0_15
        iexact HaR0_15
      isplitl [Hp1_0 Hrv1_0 HaS1_0 HaR1_0 Hp1_1 Hrv1_1 HaS1_1 HaR1_1 Hp1_2 Hrv1_2 HaS1_2 HaR1_2 Hp1_3 Hrv1_3 HaS1_3 HaR1_3 Hp1_4 Hrv1_4 HaS1_4 HaR1_4 Hp1_5 Hrv1_5 HaS1_5 HaR1_5 Hp1_6 Hrv1_6 HaS1_6 HaR1_6 Hp1_7 Hrv1_7 HaS1_7 HaR1_7 Hp1_8 Hrv1_8 HaS1_8 HaR1_8 Hp1_9 Hrv1_9 HaS1_9 HaR1_9 Hp1_10 Hrv1_10 HaS1_10 HaR1_10 Hp1_11 Hrv1_11 HaS1_11 HaR1_11 Hp1_12 Hrv1_12 HaS1_12 HaR1_12 Hp1_13 Hrv1_13 HaS1_13 HaR1_13 Hp1_14 Hrv1_14 HaS1_14 HaR1_14 Hp1_15 Hrv1_15 HaS1_15 HaR1_15]
      · skip
        isplitl [Hp1_0 Hrv1_0 HaS1_0 HaR1_0]
        · isplitl [Hp1_0]; · iexact Hp1_0
          isplitl [Hrv1_0]; · iexact Hrv1_0
          isplitl [HaS1_0]; · iexact HaS1_0
          iexact HaR1_0
        isplitl [Hp1_1 Hrv1_1 HaS1_1 HaR1_1]
        · isplitl [Hp1_1]; · iexact Hp1_1
          isplitl [Hrv1_1]; · iexact Hrv1_1
          isplitl [HaS1_1]; · iexact HaS1_1
          iexact HaR1_1
        isplitl [Hp1_2 Hrv1_2 HaS1_2 HaR1_2]
        · isplitl [Hp1_2]; · iexact Hp1_2
          isplitl [Hrv1_2]; · iexact Hrv1_2
          isplitl [HaS1_2]; · iexact HaS1_2
          iexact HaR1_2
        isplitl [Hp1_3 Hrv1_3 HaS1_3 HaR1_3]
        · isplitl [Hp1_3]; · iexact Hp1_3
          isplitl [Hrv1_3]; · iexact Hrv1_3
          isplitl [HaS1_3]; · iexact HaS1_3
          iexact HaR1_3
        isplitl [Hp1_4 Hrv1_4 HaS1_4 HaR1_4]
        · isplitl [Hp1_4]; · iexact Hp1_4
          isplitl [Hrv1_4]; · iexact Hrv1_4
          isplitl [HaS1_4]; · iexact HaS1_4
          iexact HaR1_4
        isplitl [Hp1_5 Hrv1_5 HaS1_5 HaR1_5]
        · isplitl [Hp1_5]; · iexact Hp1_5
          isplitl [Hrv1_5]; · iexact Hrv1_5
          isplitl [HaS1_5]; · iexact HaS1_5
          iexact HaR1_5
        isplitl [Hp1_6 Hrv1_6 HaS1_6 HaR1_6]
        · isplitl [Hp1_6]; · iexact Hp1_6
          isplitl [Hrv1_6]; · iexact Hrv1_6
          isplitl [HaS1_6]; · iexact HaS1_6
          iexact HaR1_6
        isplitl [Hp1_7 Hrv1_7 HaS1_7 HaR1_7]
        · isplitl [Hp1_7]; · iexact Hp1_7
          isplitl [Hrv1_7]; · iexact Hrv1_7
          isplitl [HaS1_7]; · iexact HaS1_7
          iexact HaR1_7
        isplitl [Hp1_8 Hrv1_8 HaS1_8 HaR1_8]
        · isplitl [Hp1_8]; · iexact Hp1_8
          isplitl [Hrv1_8]; · iexact Hrv1_8
          isplitl [HaS1_8]; · iexact HaS1_8
          iexact HaR1_8
        isplitl [Hp1_9 Hrv1_9 HaS1_9 HaR1_9]
        · isplitl [Hp1_9]; · iexact Hp1_9
          isplitl [Hrv1_9]; · iexact Hrv1_9
          isplitl [HaS1_9]; · iexact HaS1_9
          iexact HaR1_9
        isplitl [Hp1_10 Hrv1_10 HaS1_10 HaR1_10]
        · isplitl [Hp1_10]; · iexact Hp1_10
          isplitl [Hrv1_10]; · iexact Hrv1_10
          isplitl [HaS1_10]; · iexact HaS1_10
          iexact HaR1_10
        isplitl [Hp1_11 Hrv1_11 HaS1_11 HaR1_11]
        · isplitl [Hp1_11]; · iexact Hp1_11
          isplitl [Hrv1_11]; · iexact Hrv1_11
          isplitl [HaS1_11]; · iexact HaS1_11
          iexact HaR1_11
        isplitl [Hp1_12 Hrv1_12 HaS1_12 HaR1_12]
        · isplitl [Hp1_12]; · iexact Hp1_12
          isplitl [Hrv1_12]; · iexact Hrv1_12
          isplitl [HaS1_12]; · iexact HaS1_12
          iexact HaR1_12
        isplitl [Hp1_13 Hrv1_13 HaS1_13 HaR1_13]
        · isplitl [Hp1_13]; · iexact Hp1_13
          isplitl [Hrv1_13]; · iexact Hrv1_13
          isplitl [HaS1_13]; · iexact HaS1_13
          iexact HaR1_13
        isplitl [Hp1_14 Hrv1_14 HaS1_14 HaR1_14]
        · isplitl [Hp1_14]; · iexact Hp1_14
          isplitl [Hrv1_14]; · iexact Hrv1_14
          isplitl [HaS1_14]; · iexact HaS1_14
          iexact HaR1_14
        isplitl [Hp1_15]; · iexact Hp1_15
        isplitl [Hrv1_15]; · iexact Hrv1_15
        isplitl [HaS1_15]; · iexact HaS1_15
        iexact HaR1_15
      isplitl [Hp2_0 Hrv2_0 HaS2_0 HaR2_0]
      · isplitl [Hp2_0]; · iexact Hp2_0
        isplitl [Hrv2_0]; · iexact Hrv2_0
        isplitl [HaS2_0]; · iexact HaS2_0
        iexact HaR2_0
      isplitl [Hp2_1 Hrv2_1 HaS2_1 HaR2_1]
      · isplitl [Hp2_1]; · iexact Hp2_1
        isplitl [Hrv2_1]; · iexact Hrv2_1
        isplitl [HaS2_1]; · iexact HaS2_1
        iexact HaR2_1
      isplitl [Hp2_2 Hrv2_2 HaS2_2 HaR2_2]
      · isplitl [Hp2_2]; · iexact Hp2_2
        isplitl [Hrv2_2]; · iexact Hrv2_2
        isplitl [HaS2_2]; · iexact HaS2_2
        iexact HaR2_2
      isplitl [Hp2_3 Hrv2_3 HaS2_3 HaR2_3]
      · isplitl [Hp2_3]; · iexact Hp2_3
        isplitl [Hrv2_3]; · iexact Hrv2_3
        isplitl [HaS2_3]; · iexact HaS2_3
        iexact HaR2_3
      isplitl [Hp2_4 Hrv2_4 HaS2_4 HaR2_4]
      · isplitl [Hp2_4]; · iexact Hp2_4
        isplitl [Hrv2_4]; · iexact Hrv2_4
        isplitl [HaS2_4]; · iexact HaS2_4
        iexact HaR2_4
      isplitl [Hp2_5 Hrv2_5 HaS2_5 HaR2_5]
      · isplitl [Hp2_5]; · iexact Hp2_5
        isplitl [Hrv2_5]; · iexact Hrv2_5
        isplitl [HaS2_5]; · iexact HaS2_5
        iexact HaR2_5
      isplitl [Hp2_6 Hrv2_6 HaS2_6 HaR2_6]
      · isplitl [Hp2_6]; · iexact Hp2_6
        isplitl [Hrv2_6]; · iexact Hrv2_6
        isplitl [HaS2_6]; · iexact HaS2_6
        iexact HaR2_6
      isplitl [Hp2_7 Hrv2_7 HaS2_7 HaR2_7]
      · isplitl [Hp2_7]; · iexact Hp2_7
        isplitl [Hrv2_7]; · iexact Hrv2_7
        isplitl [HaS2_7]; · iexact HaS2_7
        iexact HaR2_7
      isplitl [Hp2_8 Hrv2_8 HaS2_8 HaR2_8]
      · isplitl [Hp2_8]; · iexact Hp2_8
        isplitl [Hrv2_8]; · iexact Hrv2_8
        isplitl [HaS2_8]; · iexact HaS2_8
        iexact HaR2_8
      isplitl [Hp2_9 Hrv2_9 HaS2_9 HaR2_9]
      · isplitl [Hp2_9]; · iexact Hp2_9
        isplitl [Hrv2_9]; · iexact Hrv2_9
        isplitl [HaS2_9]; · iexact HaS2_9
        iexact HaR2_9
      isplitl [Hp2_10 Hrv2_10 HaS2_10 HaR2_10]
      · isplitl [Hp2_10]; · iexact Hp2_10
        isplitl [Hrv2_10]; · iexact Hrv2_10
        isplitl [HaS2_10]; · iexact HaS2_10
        iexact HaR2_10
      isplitl [Hp2_11 Hrv2_11 HaS2_11 HaR2_11]
      · isplitl [Hp2_11]; · iexact Hp2_11
        isplitl [Hrv2_11]; · iexact Hrv2_11
        isplitl [HaS2_11]; · iexact HaS2_11
        iexact HaR2_11
      isplitl [Hp2_12 Hrv2_12 HaS2_12 HaR2_12]
      · isplitl [Hp2_12]; · iexact Hp2_12
        isplitl [Hrv2_12]; · iexact Hrv2_12
        isplitl [HaS2_12]; · iexact HaS2_12
        iexact HaR2_12
      isplitl [Hp2_13 Hrv2_13 HaS2_13 HaR2_13]
      · isplitl [Hp2_13]; · iexact Hp2_13
        isplitl [Hrv2_13]; · iexact Hrv2_13
        isplitl [HaS2_13]; · iexact HaS2_13
        iexact HaR2_13
      isplitl [Hp2_14 Hrv2_14 HaS2_14 HaR2_14]
      · isplitl [Hp2_14]; · iexact Hp2_14
        isplitl [Hrv2_14]; · iexact Hrv2_14
        isplitl [HaS2_14]; · iexact HaS2_14
        iexact HaR2_14
      isplitl [Hp2_15]; · iexact Hp2_15
      isplitl [Hrv2_15]; · iexact Hrv2_15
      isplitl [HaS2_15]; · iexact HaS2_15
      iexact HaR2_15
    isplitl [Ha0]; · iexact Ha0
    isplitl [Ha1]; · iexact Ha1
    iexists _; iexact HO
  imodintro
  iapply Hk
  iexact Hpost

end Cert.Kernel.A2A

end
-- ==== Proof.lean ====
/-
  The certificate's claim.

  Device `c` of four holds rows `4096 c …` of a 16384 × 4096 array `x` of f32. The kernel rounds its rows to
  bf16, element by element, and moves column block `t` (columns `1024 t …`) of them to device `t`, its own block
  into its own result; so device `t` ends with column block `t` of every device's rows: column block `t` of `x`
  rounded to bf16, which is its part of the reference's result (the whole of `x` rounded to bf16).

  Proved: the kernel read over machine words and read over the extended reals both run and leave each device's part
  of `x` as it was; the reference runs and leaves its argument as it was; the idealized kernel is the kernel's own
  text; and, each device's argument being its row block of the reference's argument, the four results are the column
  blocks of the reference's result. Each conjunct about a kernel follows from one fact about one device's body:
  started from its precondition it reaches its postcondition.
-/
import proofs.«900006_g7700000000000007_dist_a2a_v7x_i4_i_m4096_n1024_bf16_1_alg».proof.Defs
import proofs.«900006_g7700000000000007_dist_a2a_v7x_i4_i_m4096_n1024_bf16_1_alg».proof.Proof.Gen.Kernel
import proofs.«900006_g7700000000000007_dist_a2a_v7x_i4_i_m4096_n1024_bf16_1_alg».proof.Proof.Gen.Kernel.Skeleton
import proofs.«900006_g7700000000000007_dist_a2a_v7x_i4_i_m4096_n1024_bf16_1_alg».proof.Proof.Gen.Kernel.Launch
import proofs.«900006_g7700000000000007_dist_a2a_v7x_i4_i_m4096_n1024_bf16_1_alg».proof.Proof.Gen.Kernel.Points
import proofs.«900006_g7700000000000007_dist_a2a_v7x_i4_i_m4096_n1024_bf16_1_alg».proof.Proof.Gen.Kernel.Frame
import proofs.«900006_g7700000000000007_dist_a2a_v7x_i4_i_m4096_n1024_bf16_1_alg».proof.Proof.Gen.KernelIdeal
import proofs.«900006_g7700000000000007_dist_a2a_v7x_i4_i_m4096_n1024_bf16_1_alg».proof.Proof.Gen.KernelIdeal.Skeleton
import proofs.«900006_g7700000000000007_dist_a2a_v7x_i4_i_m4096_n1024_bf16_1_alg».proof.Proof.Gen.KernelIdeal.Launch
import proofs.«900006_g7700000000000007_dist_a2a_v7x_i4_i_m4096_n1024_bf16_1_alg».proof.Proof.Gen.KernelIdeal.Points
import proofs.«900006_g7700000000000007_dist_a2a_v7x_i4_i_m4096_n1024_bf16_1_alg».proof.Proof.Gen.KernelIdeal.Frame
import proofs.«900006_g7700000000000007_dist_a2a_v7x_i4_i_m4096_n1024_bf16_1_alg».proof.Proof.Gen.ReferenceIdeal
import proofs.«900006_g7700000000000007_dist_a2a_v7x_i4_i_m4096_n1024_bf16_1_alg».proof.Proof.Gen.ReferenceIdeal.Run
import proofs.«900006_g7700000000000007_dist_a2a_v7x_i4_i_m4096_n1024_bf16_1_alg».proof.Proof.Gen.ReferenceIdeal.Read
import proofs.«900006_g7700000000000007_dist_a2a_v7x_i4_i_m4096_n1024_bf16_1_alg».proof.Proof.Gen.Pre_finite_inputs_Kernel
import proofs.«900006_g7700000000000007_dist_a2a_v7x_i4_i_m4096_n1024_bf16_1_alg».proof.Proof.Gen.Pre_finite_inputs_ReferenceIdeal
import proofs.«900006_g7700000000000007_dist_a2a_v7x_i4_i_m4096_n1024_bf16_1_alg».proof.Proof.Claims
import proofs.«900006_g7700000000000007_dist_a2a_v7x_i4_i_m4096_n1024_bf16_1_alg».proof.Proof.Body
import proofs.«900006_g7700000000000007_dist_a2a_v7x_i4_i_m4096_n1024_bf16_1_alg».proof.Proof.Bits.Claims
import proofs.«900006_g7700000000000007_dist_a2a_v7x_i4_i_m4096_n1024_bf16_1_alg».proof.Proof.Bits.Body
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Kernel.A2A.frame_bits_of_sound (fun m c Kt => Cert.Kernel.A2A.sound_body m c Kt),
    Cert.KernelIdeal.A2A.frame_of_sound (fun m c Kt => Cert.KernelIdeal.A2A.sound_body m c Kt),
    Cert.KernelIdeal.A2A.frame_ri,
    Cert.KernelIdeal.A2A.preserves,
    Cert.KernelIdeal.A2A.algebraic_of_sound (fun m c Kt => Cert.KernelIdeal.A2A.sound_body m c Kt)⟩

/-- info: 'Cert.Proof.claim' depends on axioms: [propext, Classical.choice, Quot.sound] -/
#guard_msgs in #print axioms claim

end Cert.Proof

end
